-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S64x1024 : Shape := ⟨2, ![64, 1024]⟩
abbrev S1024x2048 : Shape := ⟨2, ![1024, 2048]⟩
abbrev S2048x1024 : Shape := ⟨2, ![2048, 1024]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S2048x1024 .f32) (main_arg5 : FVec F S1024x2048 .f32) (main_arg6 : FVec F S2048x1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  main_v33

def fn {F : FTy → Type} [FloatOps F] (main_arg0 : FVec F S64x1024 .f32) (main_arg1 : FVec F S1024x2048 .f32) (main_arg2 : FVec F S2048x1024 .f32) (main_arg3 : FVec F S1024x2048 .f32) (main_arg4 : FVec F S2048x1024 .f32) (main_arg5 : FVec F S1024x2048 .f32) (main_arg6 : FVec F S2048x1024 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_v13 main_v16
-- ==== Pre_finite_inputs_ReferenceIdeal.lean ====
abbrev S64x1024 : Shape := ⟨2, ![64, 1024]⟩
abbrev S1024x65536 : Shape := ⟨2, ![1024, 65536]⟩
abbrev S65536x1024 : Shape := ⟨2, ![65536, 1024]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S1024x65536 : S_.BroadcastsInDim S1024x65536 (![] : Fin 0 → Fin S1024x65536.rank)
  reducesTo_S1024x65536_S_d0_1 : S1024x65536.ReducesTo [0, 1] S_
  bcast_S_S65536x1024 : S_.BroadcastsInDim S65536x1024 (![] : Fin 0 → Fin S65536x1024.rank)
  reducesTo_S65536x1024_S_d0_1 : S65536x1024.ReducesTo [0, 1] S_

variable [Facts]

def fn_part1 {F : FTy → Type} [FloatOps F] (main_arg4 : FVec F S65536x1024 .f32) (main_arg5 : FVec F S1024x65536 .f32) (main_arg6 : FVec F S65536x1024 .f32) (main_v13 : IVec S_ 1) (main_v16 : IVec S1024x65536 1) : IVec S_ 1 :=
  let main_c_5 : IVec S_ 1 := constantI S_ 1 1#1
  let main_v17 : IVec S_ 1 := (fun x v => Host.reduce IntOp.andi x v reducesTo_S1024x65536_S_d0_1 h_S_) main_v16 main_c_5
  let main_v18 : IVec S_ 1 := andi main_v13 main_v17
  let main_v19 : FVec F S65536x1024 .f32 := Host.absf main_arg4
  let main_cst_6 : FVec F S_ .f32 := constant S_ .f32 0x7F800000#32
  let main_v20 : FVec F S65536x1024 .f32 := broadcastInDim S65536x1024 ![] bcast_S_S65536x1024 main_cst_6
  let main_v21 : IVec S65536x1024 1 := cmpf .olt main_v19 main_v20
  let main_c_7 : IVec S_ 1 := constantI S_ 1 1#1
  let main_v22 : IVec S_ 1 := (fun x v => Host.reduce IntOp.andi x v reducesTo_S65536x1024_S_d0_1 h_S_) main_v21 main_c_7
  let main_v23 : IVec S_ 1 := andi main_v18 main_v22
  let main_v24 : FVec F S1024x65536 .f32 := Host.absf main_arg5
  let main_cst_8 : FVec F S_ .f32 := constant S_ .f32 0x7F800000#32
  let main_v25 : FVec F S1024x65536 .f32 := broadcastInDim S1024x65536 ![] bcast_S_S1024x65536 main_cst_8
  let main_v26 : IVec S1024x65536 1 := cmpf .olt main_v24 main_v25
  let main_c_9 : IVec S_ 1 := constantI S_ 1 1#1
  let main_v27 : IVec S_ 1 := (fun x v => Host.reduce IntOp.andi x v reducesTo_S1024x65536_S_d0_1 h_S_) main_v26 main_c_9
  let main_v28 : IVec S_ 1 := andi main_v23 main_v27
  let main_v29 : FVec F S65536x1024 .f32 := Host.absf main_arg6
  let main_cst_10 : FVec F S_ .f32 := constant S_ .f32 0x7F800000#32
  let main_v30 : FVec F S65536x1024 .f32 := broadcastInDim S65536x1024 ![] bcast_S_S65536x1024 main_cst_10
  let main_v31 : IVec S65536x1024 1 := cmpf .olt main_v29 main_v30
  let main_c_11 : IVec S_ 1 := constantI S_ 1 1#1
  let main_v32 : IVec S_ 1 := (fun x v => Host.reduce IntOp.andi x v reducesTo_S65536x1024_S_d0_1 h_S_) main_v31 main_c_11
  let main_v33 : IVec S_ 1 := andi main_v28 main_v32
  main_v33

def fn {F : FTy → Type} [FloatOps F] (main_arg0 : FVec F S64x1024 .f32) (main_arg1 : FVec F S1024x65536 .f32) (main_arg2 : FVec F S65536x1024 .f32) (main_arg3 : FVec F S1024x65536 .f32) (main_arg4 : FVec F S65536x1024 .f32) (main_arg5 : FVec F S1024x65536 .f32) (main_arg6 : FVec F S65536x1024 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S1024x65536 .f32 := Host.absf main_arg1
  let main_cst_0 : FVec F S_ .f32 := constant S_ .f32 0x7F800000#32
  let main_v5 : FVec F S1024x65536 .f32 := broadcastInDim S1024x65536 ![] bcast_S_S1024x65536 main_cst_0
  let main_v6 : IVec S1024x65536 1 := cmpf .olt main_v4 main_v5
  let main_c_1 : IVec S_ 1 := constantI S_ 1 1#1
  let main_v7 : IVec S_ 1 := (fun x v => Host.reduce IntOp.andi x v reducesTo_S1024x65536_S_d0_1 h_S_) main_v6 main_c_1
  let main_v8 : IVec S_ 1 := andi main_v3 main_v7
  let main_v9 : FVec F S65536x1024 .f32 := Host.absf main_arg2
  let main_cst_2 : FVec F S_ .f32 := constant S_ .f32 0x7F800000#32
  let main_v10 : FVec F S65536x1024 .f32 := broadcastInDim S65536x1024 ![] bcast_S_S65536x1024 main_cst_2
  let main_v11 : IVec S65536x1024 1 := cmpf .olt main_v9 main_v10
  let main_c_3 : IVec S_ 1 := constantI S_ 1 1#1
  let main_v12 : IVec S_ 1 := (fun x v => Host.reduce IntOp.andi x v reducesTo_S65536x1024_S_d0_1 h_S_) main_v11 main_c_3
  let main_v13 : IVec S_ 1 := andi main_v8 main_v12
  let main_v14 : FVec F S1024x65536 .f32 := Host.absf main_arg3
  let main_cst_4 : FVec F S_ .f32 := constant S_ .f32 0x7F800000#32
  let main_v15 : FVec F S1024x65536 .f32 := broadcastInDim S1024x65536 ![] bcast_S_S1024x65536 main_cst_4
  let main_v16 : IVec S1024x65536 1 := cmpf .olt main_v14 main_v15
  fn_part1 (F := F) main_arg4 main_arg5 main_arg6 main_v13 main_v16
-- ==== Kernel.lean ====
abbrev S64x1024 : Shape := ⟨2, ![64, 1024]⟩
abbrev S1024x2048 : Shape := ⟨2, ![1024, 2048]⟩
abbrev S2048x1024 : Shape := ⟨2, ![2048, 1024]⟩
abbrev S2x1024x2048 : Shape := ⟨3, ![2, 1024, 2048]⟩
abbrev S2x2048x1024 : Shape := ⟨3, ![2, 2048, 1024]⟩
abbrev S3x5x64x1024 : Shape := ⟨4, ![3, 5, 64, 1024]⟩
abbrev S3x2 : Shape := ⟨2, ![3, 2]⟩
abbrev S_ : Shape := ⟨0, ![]⟩
abbrev S3x5 : Shape := ⟨2, ![3, 5]⟩
abbrev S1x1 : Shape := ⟨2, ![1, 1]⟩
abbrev S1x1024x2048 : Shape := ⟨3, ![1, 1024, 2048]⟩
abbrev S1x2048x1024 : Shape := ⟨3, ![1, 2048, 1024]⟩
abbrev S64x2048 : Shape := ⟨2, ![64, 2048]⟩
abbrev S1x1x64x1024 : Shape := ⟨4, ![1, 1, 64, 1024]⟩

abbrev nBuf : Space → Nat
  | .hbm => 8
  | .vmem => 6
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S64x1024, .f32⟩
  | .local _ .vmem, ⟨0, _⟩ => ⟨S64x1024, .f32⟩
  | .local _ .vmem, ⟨1, _⟩ => ⟨S64x1024, .f32⟩
  | .local _ .vmem, ⟨2, _⟩ => ⟨S2x1024x2048, .f32⟩
  | .local _ .vmem, ⟨3, _⟩ => ⟨S2x2048x1024, .f32⟩
  | .local _ .vmem, ⟨4, _⟩ => ⟨S64x1024, .bf16⟩
  | .local _ .vmem, ⟨5, _⟩ => ⟨S3x5x64x1024, .bf16⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_56 : BitVec 32 := 0#32
  let c8_i32_25 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v60 : BitVec 32 := Scalar.muli c8_i32_25 v19
  let c2_i32_26 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v61 : BitVec 32 := Scalar.muli c2_i32_26 v46
  let v62 : BitVec 32 := Scalar.addi v60 v61
  let c1_i32_24 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let v59 : BitVec 32 := Scalar.subi c1_i32_24 v58
  let c1_i32_27 : BitVec 32 := 1#32
  let v63 : BitVec 32 := Scalar.andi v46 c1_i32_27
  let v64 : BitVec 32 := Scalar.xori v59 v63
  let v65 : BitVec 32 := Scalar.addi v62 v64
  let c1_i32_55 : BitVec 32 := 1#32
  let v103 : BitVec 32 := Scalar.muli v65 c1_i32_55
  let v104 : BitVec 32 := Scalar.addi c0_i32_56 v103
  v104.toNat
def k0_dev2 (d0 : Dev nD) : Nat :=
  let c0_i32_59 : BitVec 32 := 0#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v67 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_28 : BitVec 32 := 1#32
  let v66 : BitVec 32 := Scalar.xori v46 c1_i32_28
  let v68 : BitVec 32 := Scalar.muli c2_i32_30 v66
  let v69 : BitVec 32 := Scalar.addi v67 v68
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_31 : BitVec 32 := 1#32
  let v70 : BitVec 32 := Scalar.andi v66 c1_i32_31
  let v71 : BitVec 32 := Scalar.xori v58 v70
  let v72 : BitVec 32 := Scalar.addi v69 v71
  let c1_i32_58 : BitVec 32 := 1#32
  let v105 : BitVec 32 := Scalar.muli v72 c1_i32_58
  let v106 : BitVec 32 := Scalar.addi c0_i32_59 v105
  v106.toNat
def k0_dev3 (d0 : Dev nD) : Nat :=
  let c0_i32_62 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_32 : BitVec 32 := 1#32
  let v73 : BitVec 32 := Scalar.xori v19 c1_i32_32
  let v74 : BitVec 32 := Scalar.muli c8_i32_33 v73
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c2_i32_34 v46
  let v76 : BitVec 32 := Scalar.addi v74 v75
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_35 : BitVec 32 := 1#32
  let v77 : BitVec 32 := Scalar.andi v46 c1_i32_35
  let v78 : BitVec 32 := Scalar.xori v58 v77
  let v79 : BitVec 32 := Scalar.addi v76 v78
  let c1_i32_61 : BitVec 32 := 1#32
  let v107 : BitVec 32 := Scalar.muli v79 c1_i32_61
  let v108 : BitVec 32 := Scalar.addi c0_i32_62 v107
  v108.toNat
def k0_dev4 (d0 : Dev nD) : Nat :=
  let c0_i32_65 : BitVec 32 := 0#32
  let c8_i32_37 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v81 : BitVec 32 := Scalar.muli c8_i32_37 v19
  let c2_i32_38 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_36 : BitVec 32 := 2#32
  let v80 : BitVec 32 := Scalar.xori v46 c2_i32_36
  let v82 : BitVec 32 := Scalar.muli c2_i32_38 v80
  let v83 : BitVec 32 := Scalar.addi v81 v82
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_39 : BitVec 32 := 1#32
  let v84 : BitVec 32 := Scalar.andi v80 c1_i32_39
  let v85 : BitVec 32 := Scalar.xori v58 v84
  let v86 : BitVec 32 := Scalar.addi v83 v85
  let c1_i32_64 : BitVec 32 := 1#32
  let v109 : BitVec 32 := Scalar.muli v86 c1_i32_64
  let v110 : BitVec 32 := Scalar.addi c0_i32_65 v109
  v110.toNat
def k0_dev5 (d0 : Dev nD) : Nat :=
  let c0_i32_68 : BitVec 32 := 0#32
  let c8_i32_41 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_40 : BitVec 32 := 2#32
  let v87 : BitVec 32 := Scalar.xori v19 c2_i32_40
  let v88 : BitVec 32 := Scalar.muli c8_i32_41 v87
  let c2_i32_42 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v89 : BitVec 32 := Scalar.muli c2_i32_42 v46
  let v90 : BitVec 32 := Scalar.addi v88 v89
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_43 : BitVec 32 := 1#32
  let v91 : BitVec 32 := Scalar.andi v46 c1_i32_43
  let v92 : BitVec 32 := Scalar.xori v58 v91
  let v93 : BitVec 32 := Scalar.addi v90 v92
  let c1_i32_67 : BitVec 32 := 1#32
  let v111 : BitVec 32 := Scalar.muli v93 c1_i32_67
  let v112 : BitVec 32 := Scalar.addi c0_i32_68 v111
  v112.toNat
def k0_dev6 (d0 : Dev nD) : Nat :=
  let c0_i32_105 : BitVec 32 := 0#32
  let c8_i32_25 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v60 : BitVec 32 := Scalar.muli c8_i32_25 v19
  let c2_i32_26 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v61 : BitVec 32 := Scalar.muli c2_i32_26 v46
  let v62 : BitVec 32 := Scalar.addi v60 v61
  let c1_i32_24 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let v59 : BitVec 32 := Scalar.subi c1_i32_24 v58
  let c1_i32_27 : BitVec 32 := 1#32
  let v63 : BitVec 32 := Scalar.andi v46 c1_i32_27
  let v64 : BitVec 32 := Scalar.xori v59 v63
  let v65 : BitVec 32 := Scalar.addi v62 v64
  let c1_i32_104 : BitVec 32 := 1#32
  let v143 : BitVec 32 := Scalar.muli v65 c1_i32_104
  let v144 : BitVec 32 := Scalar.addi c0_i32_105 v143
  v144.toNat
def k0_dev7 (d0 : Dev nD) : Nat :=
  let c0_i32_134 : BitVec 32 := 0#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v67 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_28 : BitVec 32 := 1#32
  let v66 : BitVec 32 := Scalar.xori v46 c1_i32_28
  let v68 : BitVec 32 := Scalar.muli c2_i32_30 v66
  let v69 : BitVec 32 := Scalar.addi v67 v68
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_31 : BitVec 32 := 1#32
  let v70 : BitVec 32 := Scalar.andi v66 c1_i32_31
  let v71 : BitVec 32 := Scalar.xori v58 v70
  let v72 : BitVec 32 := Scalar.addi v69 v71
  let c1_i32_133 : BitVec 32 := 1#32
  let v165 : BitVec 32 := Scalar.muli v72 c1_i32_133
  let v166 : BitVec 32 := Scalar.addi c0_i32_134 v165
  v166.toNat
def k0_dev8 (d0 : Dev nD) : Nat :=
  let c0_i32_162 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_32 : BitVec 32 := 1#32
  let v73 : BitVec 32 := Scalar.xori v19 c1_i32_32
  let v74 : BitVec 32 := Scalar.muli c8_i32_33 v73
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c2_i32_34 v46
  let v76 : BitVec 32 := Scalar.addi v74 v75
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_35 : BitVec 32 := 1#32
  let v77 : BitVec 32 := Scalar.andi v46 c1_i32_35
  let v78 : BitVec 32 := Scalar.xori v58 v77
  let v79 : BitVec 32 := Scalar.addi v76 v78
  let c1_i32_161 : BitVec 32 := 1#32
  let v187 : BitVec 32 := Scalar.muli v79 c1_i32_161
  let v188 : BitVec 32 := Scalar.addi c0_i32_162 v187
  v188.toNat
def k0_dev9 (d0 : Dev nD) : Nat :=
  let c0_i32_189 : BitVec 32 := 0#32
  let c8_i32_37 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v81 : BitVec 32 := Scalar.muli c8_i32_37 v19
  let c2_i32_38 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_36 : BitVec 32 := 2#32
  let v80 : BitVec 32 := Scalar.xori v46 c2_i32_36
  let v82 : BitVec 32 := Scalar.muli c2_i32_38 v80
  let v83 : BitVec 32 := Scalar.addi v81 v82
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_39 : BitVec 32 := 1#32
  let v84 : BitVec 32 := Scalar.andi v80 c1_i32_39
  let v85 : BitVec 32 := Scalar.xori v58 v84
  let v86 : BitVec 32 := Scalar.addi v83 v85
  let c1_i32_188 : BitVec 32 := 1#32
  let v209 : BitVec 32 := Scalar.muli v86 c1_i32_188
  let v210 : BitVec 32 := Scalar.addi c0_i32_189 v209
  v210.toNat
def k0_dev10 (d0 : Dev nD) : Nat :=
  let c0_i32_216 : BitVec 32 := 0#32
  let c8_i32_41 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_40 : BitVec 32 := 2#32
  let v87 : BitVec 32 := Scalar.xori v19 c2_i32_40
  let v88 : BitVec 32 := Scalar.muli c8_i32_41 v87
  let c2_i32_42 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v89 : BitVec 32 := Scalar.muli c2_i32_42 v46
  let v90 : BitVec 32 := Scalar.addi v88 v89
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_43 : BitVec 32 := 1#32
  let v91 : BitVec 32 := Scalar.andi v46 c1_i32_43
  let v92 : BitVec 32 := Scalar.xori v58 v91
  let v93 : BitVec 32 := Scalar.addi v90 v92
  let c1_i32_215 : BitVec 32 := 1#32
  let v231 : BitVec 32 := Scalar.muli v93 c1_i32_215
  let v232 : BitVec 32 := Scalar.addi c0_i32_216 v231
  v232.toNat
def k0_dev11 (d0 : Dev nD) : Nat :=
  let c0_i32_273 : BitVec 32 := 0#32
  let c8_i32_25 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v60 : BitVec 32 := Scalar.muli c8_i32_25 v19
  let c2_i32_26 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v61 : BitVec 32 := Scalar.muli c2_i32_26 v46
  let v62 : BitVec 32 := Scalar.addi v60 v61
  let c1_i32_24 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let v59 : BitVec 32 := Scalar.subi c1_i32_24 v58
  let c1_i32_27 : BitVec 32 := 1#32
  let v63 : BitVec 32 := Scalar.andi v46 c1_i32_27
  let v64 : BitVec 32 := Scalar.xori v59 v63
  let v65 : BitVec 32 := Scalar.addi v62 v64
  let c1_i32_272 : BitVec 32 := 1#32
  let v277 : BitVec 32 := Scalar.muli v65 c1_i32_272
  let v278 : BitVec 32 := Scalar.addi c0_i32_273 v277
  v278.toNat
def k0_dev12 (d0 : Dev nD) : Nat :=
  let c0_i32_302 : BitVec 32 := 0#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v67 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_28 : BitVec 32 := 1#32
  let v66 : BitVec 32 := Scalar.xori v46 c1_i32_28
  let v68 : BitVec 32 := Scalar.muli c2_i32_30 v66
  let v69 : BitVec 32 := Scalar.addi v67 v68
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_31 : BitVec 32 := 1#32
  let v70 : BitVec 32 := Scalar.andi v66 c1_i32_31
  let v71 : BitVec 32 := Scalar.xori v58 v70
  let v72 : BitVec 32 := Scalar.addi v69 v71
  let c1_i32_301 : BitVec 32 := 1#32
  let v299 : BitVec 32 := Scalar.muli v72 c1_i32_301
  let v300 : BitVec 32 := Scalar.addi c0_i32_302 v299
  v300.toNat
def k0_dev13 (d0 : Dev nD) : Nat :=
  let c0_i32_331 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_32 : BitVec 32 := 1#32
  let v73 : BitVec 32 := Scalar.xori v19 c1_i32_32
  let v74 : BitVec 32 := Scalar.muli c8_i32_33 v73
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c2_i32_34 v46
  let v76 : BitVec 32 := Scalar.addi v74 v75
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_35 : BitVec 32 := 1#32
  let v77 : BitVec 32 := Scalar.andi v46 c1_i32_35
  let v78 : BitVec 32 := Scalar.xori v58 v77
  let v79 : BitVec 32 := Scalar.addi v76 v78
  let c1_i32_330 : BitVec 32 := 1#32
  let v321 : BitVec 32 := Scalar.muli v79 c1_i32_330
  let v322 : BitVec 32 := Scalar.addi c0_i32_331 v321
  v322.toNat
def k0_dev14 (d0 : Dev nD) : Nat :=
  let c0_i32_360 : BitVec 32 := 0#32
  let c8_i32_37 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v81 : BitVec 32 := Scalar.muli c8_i32_37 v19
  let c2_i32_38 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_36 : BitVec 32 := 2#32
  let v80 : BitVec 32 := Scalar.xori v46 c2_i32_36
  let v82 : BitVec 32 := Scalar.muli c2_i32_38 v80
  let v83 : BitVec 32 := Scalar.addi v81 v82
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_39 : BitVec 32 := 1#32
  let v84 : BitVec 32 := Scalar.andi v80 c1_i32_39
  let v85 : BitVec 32 := Scalar.xori v58 v84
  let v86 : BitVec 32 := Scalar.addi v83 v85
  let c1_i32_359 : BitVec 32 := 1#32
  let v343 : BitVec 32 := Scalar.muli v86 c1_i32_359
  let v344 : BitVec 32 := Scalar.addi c0_i32_360 v343
  v344.toNat
def k0_dev15 (d0 : Dev nD) : Nat :=
  let c0_i32_389 : BitVec 32 := 0#32
  let c8_i32_41 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_40 : BitVec 32 := 2#32
  let v87 : BitVec 32 := Scalar.xori v19 c2_i32_40
  let v88 : BitVec 32 := Scalar.muli c8_i32_41 v87
  let c2_i32_42 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v89 : BitVec 32 := Scalar.muli c2_i32_42 v46
  let v90 : BitVec 32 := Scalar.addi v88 v89
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_43 : BitVec 32 := 1#32
  let v91 : BitVec 32 := Scalar.andi v46 c1_i32_43
  let v92 : BitVec 32 := Scalar.xori v58 v91
  let v93 : BitVec 32 := Scalar.addi v90 v92
  let c1_i32_388 : BitVec 32 := 1#32
  let v365 : BitVec 32 := Scalar.muli v93 c1_i32_388
  let v366 : BitVec 32 := Scalar.addi c0_i32_389 v365
  v366.toNat
def k0_dev16 (d0 : Dev nD) : Nat :=
  let c0_i32_437 : BitVec 32 := 0#32
  let c8_i32_25 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v60 : BitVec 32 := Scalar.muli c8_i32_25 v19
  let c2_i32_26 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v61 : BitVec 32 := Scalar.muli c2_i32_26 v46
  let v62 : BitVec 32 := Scalar.addi v60 v61
  let c1_i32_24 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let v59 : BitVec 32 := Scalar.subi c1_i32_24 v58
  let c1_i32_27 : BitVec 32 := 1#32
  let v63 : BitVec 32 := Scalar.andi v46 c1_i32_27
  let v64 : BitVec 32 := Scalar.xori v59 v63
  let v65 : BitVec 32 := Scalar.addi v62 v64
  let c1_i32_436 : BitVec 32 := 1#32
  let v403 : BitVec 32 := Scalar.muli v65 c1_i32_436
  let v404 : BitVec 32 := Scalar.addi c0_i32_437 v403
  v404.toNat
def k0_dev17 (d0 : Dev nD) : Nat :=
  let c0_i32_466 : BitVec 32 := 0#32
  let c8_i32_29 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v67 : BitVec 32 := Scalar.muli c8_i32_29 v19
  let c2_i32_30 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_28 : BitVec 32 := 1#32
  let v66 : BitVec 32 := Scalar.xori v46 c1_i32_28
  let v68 : BitVec 32 := Scalar.muli c2_i32_30 v66
  let v69 : BitVec 32 := Scalar.addi v67 v68
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_31 : BitVec 32 := 1#32
  let v70 : BitVec 32 := Scalar.andi v66 c1_i32_31
  let v71 : BitVec 32 := Scalar.xori v58 v70
  let v72 : BitVec 32 := Scalar.addi v69 v71
  let c1_i32_465 : BitVec 32 := 1#32
  let v425 : BitVec 32 := Scalar.muli v72 c1_i32_465
  let v426 : BitVec 32 := Scalar.addi c0_i32_466 v425
  v426.toNat
def k0_dev18 (d0 : Dev nD) : Nat :=
  let c0_i32_495 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_32 : BitVec 32 := 1#32
  let v73 : BitVec 32 := Scalar.xori v19 c1_i32_32
  let v74 : BitVec 32 := Scalar.muli c8_i32_33 v73
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v75 : BitVec 32 := Scalar.muli c2_i32_34 v46
  let v76 : BitVec 32 := Scalar.addi v74 v75
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_35 : BitVec 32 := 1#32
  let v77 : BitVec 32 := Scalar.andi v46 c1_i32_35
  let v78 : BitVec 32 := Scalar.xori v58 v77
  let v79 : BitVec 32 := Scalar.addi v76 v78
  let c1_i32_494 : BitVec 32 := 1#32
  let v447 : BitVec 32 := Scalar.muli v79 c1_i32_494
  let v448 : BitVec 32 := Scalar.addi c0_i32_495 v447
  v448.toNat
def k0_dev19 (d0 : Dev nD) : Nat :=
  let c0_i32_524 : BitVec 32 := 0#32
  let c8_i32_37 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v81 : BitVec 32 := Scalar.muli c8_i32_37 v19
  let c2_i32_38 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_36 : BitVec 32 := 2#32
  let v80 : BitVec 32 := Scalar.xori v46 c2_i32_36
  let v82 : BitVec 32 := Scalar.muli c2_i32_38 v80
  let v83 : BitVec 32 := Scalar.addi v81 v82
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_39 : BitVec 32 := 1#32
  let v84 : BitVec 32 := Scalar.andi v80 c1_i32_39
  let v85 : BitVec 32 := Scalar.xori v58 v84
  let v86 : BitVec 32 := Scalar.addi v83 v85
  let c1_i32_523 : BitVec 32 := 1#32
  let v469 : BitVec 32 := Scalar.muli v86 c1_i32_523
  let v470 : BitVec 32 := Scalar.addi c0_i32_524 v469
  v470.toNat
def k0_dev20 (d0 : Dev nD) : Nat :=
  let c0_i32_553 : BitVec 32 := 0#32
  let c8_i32_41 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_40 : BitVec 32 := 2#32
  let v87 : BitVec 32 := Scalar.xori v19 c2_i32_40
  let v88 : BitVec 32 := Scalar.muli c8_i32_41 v87
  let c2_i32_42 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v89 : BitVec 32 := Scalar.muli c2_i32_42 v46
  let v90 : BitVec 32 := Scalar.addi v88 v89
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_43 : BitVec 32 := 1#32
  let v91 : BitVec 32 := Scalar.andi v46 c1_i32_43
  let v92 : BitVec 32 := Scalar.xori v58 v91
  let v93 : BitVec 32 := Scalar.addi v90 v92
  let c1_i32_552 : BitVec 32 := 1#32
  let v491 : BitVec 32 := Scalar.muli v93 c1_i32_552
  let v492 : BitVec 32 := Scalar.addi c0_i32_553 v491
  v492.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  inb_S3x2_S1x1_0_0 : ∀ a, (![0, 0] : Fin 2 → Nat) a + S1x1.size a ≤ S3x2.size a
  squeezes_S1x1_S_ : S1x1.Squeezes S_
  inb_S2x1024x2048_S1x1024x2048_0_0_0 : ∀ a, (![0, 0, 0] : Fin 3 → Nat) a + S1x1024x2048.size a ≤ S2x1024x2048.size a
  squeezes_S1x1024x2048_S1024x2048 : S1x1024x2048.Squeezes S1024x2048
  inb_S3x2_S1x1_0_1 : ∀ a, (![0, 1] : Fin 2 → Nat) a + S1x1.size a ≤ S3x2.size a
  inb_S2x2048x1024_S1x2048x1024_0_0_0 : ∀ a, (![0, 0, 0] : Fin 3 → Nat) a + S1x2048x1024.size a ≤ S2x2048x1024.size a
  squeezes_S1x2048x1024_S2048x1024 : S1x2048x1024.Squeezes S2048x1024
  hamt_1 : (1#32 : BitVec 32).msb = false
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  h_S1x1024x2048 : 0 < S1x1024x2048.numel
  shapeCasts_S1x1024x2048_S1024x2048 : S1x1024x2048.ShapeCasts S1024x2048
  h_S1x2048x1024 : 0 < S1x2048x1024.numel
  shapeCasts_S1x2048x1024_S2048x1024 : S1x2048x1024.ShapeCasts S2048x1024
  inb_S3x2_S1x1_1_0 : ∀ a, (![1, 0] : Fin 2 → Nat) a + S1x1.size a ≤ S3x2.size a
  inb_S2x1024x2048_S1x1024x2048_1_0_0 : ∀ a, (![1, 0, 0] : Fin 3 → Nat) a + S1x1024x2048.size a ≤ S2x1024x2048.size a
  inb_S3x2_S1x1_1_1 : ∀ a, (![1, 1] : Fin 2 → Nat) a + S1x1.size a ≤ S3x2.size a
  inb_S2x2048x1024_S1x2048x1024_1_0_0 : ∀ a, (![1, 0, 0] : Fin 3 → Nat) a + S1x2048x1024.size a ≤ S2x2048x1024.size a
  hamt_5 : (5#32 : BitVec 32).msb = false
  bitsLt_bf16_f32 : FTy.bits .bf16 < FTy.bits .f32
  packedbf16_S64x1024_S64x1024_0_0 : (Rect.unit (s := S64x1024) ![0, 0] S64x1024.size inb_S64x1024_S64x1024_0_0).PackedRows (EltTy.packing .bf16)
  inb_S3x5_S1x1_0_0 : ∀ a, (![0, 0] : Fin 2 → Nat) a + S1x1.size a ≤ S3x5.size a
  inb_S3x5x64x1024_S1x1x64x1024_0_0_0_0 : ∀ a, (![0, 0, 0, 0] : Fin 4 → Nat) a + S1x1x64x1024.size a ≤ S3x5x64x1024.size a
  squeezes_S1x1x64x1024_S64x1024 : S1x1x64x1024.Squeezes S64x1024
  wordsbf16_S3x5x64x1024_S1x1x64x1024_0_0_0_0 : (Rect.unit (s := S3x5x64x1024) ![0, 0, 0, 0] S1x1x64x1024.size inb_S3x5x64x1024_S1x1x64x1024_0_0_0_0).WholeWords (EltTy.packing .bf16)
  h_S1x1x64x1024 : 0 < S1x1x64x1024.numel
  shapeCasts_S1x1x64x1024_S64x1024 : S1x1x64x1024.ShapeCasts S64x1024
  inb_S3x5_S1x1_0_1 : ∀ a, (![0, 1] : Fin 2 → Nat) a + S1x1.size a ≤ S3x5.size a
  inb_S3x5x64x1024_S1x1x64x1024_0_1_0_0 : ∀ a, (![0, 1, 0, 0] : Fin 4 → Nat) a + S1x1x64x1024.size a ≤ S3x5x64x1024.size a
  wordsbf16_S3x5x64x1024_S1x1x64x1024_0_1_0_0 : (Rect.unit (s := S3x5x64x1024) ![0, 1, 0, 0] S1x1x64x1024.size inb_S3x5x64x1024_S1x1x64x1024_0_1_0_0).WholeWords (EltTy.packing .bf16)
  inb_S3x5_S1x1_0_2 : ∀ a, (![0, 2] : Fin 2 → Nat) a + S1x1.size a ≤ S3x5.size a
  inb_S3x5x64x1024_S1x1x64x1024_0_2_0_0 : ∀ a, (![0, 2, 0, 0] : Fin 4 → Nat) a + S1x1x64x1024.size a ≤ S3x5x64x1024.size a
  wordsbf16_S3x5x64x1024_S1x1x64x1024_0_2_0_0 : (Rect.unit (s := S3x5x64x1024) ![0, 2, 0, 0] S1x1x64x1024.size inb_S3x5x64x1024_S1x1x64x1024_0_2_0_0).WholeWords (EltTy.packing .bf16)
  inb_S3x5_S1x1_0_3 : ∀ a, (![0, 3] : Fin 2 → Nat) a + S1x1.size a ≤ S3x5.size a
  inb_S3x5x64x1024_S1x1x64x1024_0_3_0_0 : ∀ a, (![0, 3, 0, 0] : Fin 4 → Nat) a + S1x1x64x1024.size a ≤ S3x5x64x1024.size a
  wordsbf16_S3x5x64x1024_S1x1x64x1024_0_3_0_0 : (Rect.unit (s := S3x5x64x1024) ![0, 3, 0, 0] S1x1x64x1024.size inb_S3x5x64x1024_S1x1x64x1024_0_3_0_0).WholeWords (EltTy.packing .bf16)
  inb_S3x5_S1x1_0_4 : ∀ a, (![0, 4] : Fin 2 → Nat) a + S1x1.size a ≤ S3x5.size a
  inb_S3x5x64x1024_S1x1x64x1024_0_4_0_0 : ∀ a, (![0, 4, 0, 0] : Fin 4 → Nat) a + S1x1x64x1024.size a ≤ S3x5x64x1024.size a
  wordsbf16_S3x5x64x1024_S1x1x64x1024_0_4_0_0 : (Rect.unit (s := S3x5x64x1024) ![0, 4, 0, 0] S1x1x64x1024.size inb_S3x5x64x1024_S1x1x64x1024_0_4_0_0).WholeWords (EltTy.packing .bf16)
  inb_S3x2_S1x1_2_0 : ∀ a, (![2, 0] : Fin 2 → Nat) a + S1x1.size a ≤ S3x2.size a
  inb_S3x2_S1x1_2_1 : ∀ a, (![2, 1] : Fin 2 → Nat) a + S1x1.size a ≤ S3x2.size a
  inb_S3x5_S1x1_1_0 : ∀ a, (![1, 0] : Fin 2 → Nat) a + S1x1.size a ≤ S3x5.size a
  inb_S3x5x64x1024_S1x1x64x1024_1_0_0_0 : ∀ a, (![1, 0, 0, 0] : Fin 4 → Nat) a + S1x1x64x1024.size a ≤ S3x5x64x1024.size a
  wordsbf16_S3x5x64x1024_S1x1x64x1024_1_0_0_0 : (Rect.unit (s := S3x5x64x1024) ![1, 0, 0, 0] S1x1x64x1024.size inb_S3x5x64x1024_S1x1x64x1024_1_0_0_0).WholeWords (EltTy.packing .bf16)
  inb_S3x5_S1x1_1_1 : ∀ a, (![1, 1] : Fin 2 → Nat) a + S1x1.size a ≤ S3x5.size a
  inb_S3x5x64x1024_S1x1x64x1024_1_1_0_0 : ∀ a, (![1, 1, 0, 0] : Fin 4 → Nat) a + S1x1x64x1024.size a ≤ S3x5x64x1024.size a
  wordsbf16_S3x5x64x1024_S1x1x64x1024_1_1_0_0 : (Rect.unit (s := S3x5x64x1024) ![1, 1, 0, 0] S1x1x64x1024.size inb_S3x5x64x1024_S1x1x64x1024_1_1_0_0).WholeWords (EltTy.packing .bf16)
  inb_S3x5_S1x1_1_2 : ∀ a, (![1, 2] : Fin 2 → Nat) a + S1x1.size a ≤ S3x5.size a
  inb_S3x5x64x1024_S1x1x64x1024_1_2_0_0 : ∀ a, (![1, 2, 0, 0] : Fin 4 → Nat) a + S1x1x64x1024.size a ≤ S3x5x64x1024.size a
  wordsbf16_S3x5x64x1024_S1x1x64x1024_1_2_0_0 : (Rect.unit (s := S3x5x64x1024) ![1, 2, 0, 0] S1x1x64x1024.size inb_S3x5x64x1024_S1x1x64x1024_1_2_0_0).WholeWords (EltTy.packing .bf16)
  inb_S3x5_S1x1_1_3 : ∀ a, (![1, 3] : Fin 2 → Nat) a + S1x1.size a ≤ S3x5.size a
  inb_S3x5x64x1024_S1x1x64x1024_1_3_0_0 : ∀ a, (![1, 3, 0, 0] : Fin 4 → Nat) a + S1x1x64x1024.size a ≤ S3x5x64x1024.size a
  wordsbf16_S3x5x64x1024_S1x1x64x1024_1_3_0_0 : (Rect.unit (s := S3x5x64x1024) ![1, 3, 0, 0] S1x1x64x1024.size inb_S3x5x64x1024_S1x1x64x1024_1_3_0_0).WholeWords (EltTy.packing .bf16)
  inb_S3x5_S1x1_1_4 : ∀ a, (![1, 4] : Fin 2 → Nat) a + S1x1.size a ≤ S3x5.size a
  inb_S3x5x64x1024_S1x1x64x1024_1_4_0_0 : ∀ a, (![1, 4, 0, 0] : Fin 4 → Nat) a + S1x1x64x1024.size a ≤ S3x5x64x1024.size a
  wordsbf16_S3x5x64x1024_S1x1x64x1024_1_4_0_0 : (Rect.unit (s := S3x5x64x1024) ![1, 4, 0, 0] S1x1x64x1024.size inb_S3x5x64x1024_S1x1x64x1024_1_4_0_0).WholeWords (EltTy.packing .bf16)
  inb_S3x5_S1x1_2_0 : ∀ a, (![2, 0] : Fin 2 → Nat) a + S1x1.size a ≤ S3x5.size a
  inb_S3x5x64x1024_S1x1x64x1024_2_0_0_0 : ∀ a, (![2, 0, 0, 0] : Fin 4 → Nat) a + S1x1x64x1024.size a ≤ S3x5x64x1024.size a
  wordsbf16_S3x5x64x1024_S1x1x64x1024_2_0_0_0 : (Rect.unit (s := S3x5x64x1024) ![2, 0, 0, 0] S1x1x64x1024.size inb_S3x5x64x1024_S1x1x64x1024_2_0_0_0).WholeWords (EltTy.packing .bf16)
  inb_S3x5_S1x1_2_1 : ∀ a, (![2, 1] : Fin 2 → Nat) a + S1x1.size a ≤ S3x5.size a
  inb_S3x5x64x1024_S1x1x64x1024_2_1_0_0 : ∀ a, (![2, 1, 0, 0] : Fin 4 → Nat) a + S1x1x64x1024.size a ≤ S3x5x64x1024.size a
  wordsbf16_S3x5x64x1024_S1x1x64x1024_2_1_0_0 : (Rect.unit (s := S3x5x64x1024) ![2, 1, 0, 0] S1x1x64x1024.size inb_S3x5x64x1024_S1x1x64x1024_2_1_0_0).WholeWords (EltTy.packing .bf16)
  inb_S3x5_S1x1_2_2 : ∀ a, (![2, 2] : Fin 2 → Nat) a + S1x1.size a ≤ S3x5.size a
  inb_S3x5x64x1024_S1x1x64x1024_2_2_0_0 : ∀ a, (![2, 2, 0, 0] : Fin 4 → Nat) a + S1x1x64x1024.size a ≤ S3x5x64x1024.size a
  wordsbf16_S3x5x64x1024_S1x1x64x1024_2_2_0_0 : (Rect.unit (s := S3x5x64x1024) ![2, 2, 0, 0] S1x1x64x1024.size inb_S3x5x64x1024_S1x1x64x1024_2_2_0_0).WholeWords (EltTy.packing .bf16)
  inb_S3x5_S1x1_2_3 : ∀ a, (![2, 3] : Fin 2 → Nat) a + S1x1.size a ≤ S3x5.size a
  inb_S3x5x64x1024_S1x1x64x1024_2_3_0_0 : ∀ a, (![2, 3, 0, 0] : Fin 4 → Nat) a + S1x1x64x1024.size a ≤ S3x5x64x1024.size a
  wordsbf16_S3x5x64x1024_S1x1x64x1024_2_3_0_0 : (Rect.unit (s := S3x5x64x1024) ![2, 3, 0, 0] S1x1x64x1024.size inb_S3x5x64x1024_S1x1x64x1024_2_3_0_0).WholeWords (EltTy.packing .bf16)
  inb_S3x5_S1x1_2_4 : ∀ a, (![2, 4] : Fin 2 → Nat) a + S1x1.size a ≤ S3x5.size a
  inb_S3x5x64x1024_S1x1x64x1024_2_4_0_0 : ∀ a, (![2, 4, 0, 0] : Fin 4 → Nat) a + S1x1x64x1024.size a ≤ S3x5x64x1024.size a
  wordsbf16_S3x5x64x1024_S1x1x64x1024_2_4_0_0 : (Rect.unit (s := S3x5x64x1024) ![2, 4, 0, 0] S1x1x64x1024.size inb_S3x5x64x1024_S1x1x64x1024_2_4_0_0).WholeWords (EltTy.packing .bf16)
  dot_S64x1024_S1024x2048_S64x2048_1_0_0_1_n_n_wf : DotDims.WF S64x1024 S1024x2048 S64x2048 [1] [0] [0] [1] [] []
  dot_S64x2048_S2048x1024_S64x1024_1_0_0_1_n_n_wf : DotDims.WF S64x2048 S2048x1024 S64x1024 [1] [0] [0] [1] [] []
  hcc0_scratch4 : 2 + S3x2.numel ≤ 24
  hcc0_scratch5 : 8 + S_.numel ≤ 24
  hcc0_scratch6 : 9 + S3x5.numel ≤ 24
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  hstage0_0 : ∀ j, (stage0_0 j).IsWhole
  hstage0_1 : ∀ j, (stage0_1 j).IsWhole

variable [Facts₀]

abbrev cc0_scratch4 : DmaSems sig S3x2 := SemArray.consecutive 2 S3x2 hcc0_scratch4
abbrev cc0_scratch5 : DmaSems sig S_ := SemArray.consecutive 8 S_ hcc0_scratch5
abbrev cc0_scratch6 : DmaSems sig S3x5 := SemArray.consecutive 9 S3x5 hcc0_scratch6
def dot_S64x1024_S1024x2048_S64x2048_1_0_0_1_n_n : DotDims S64x1024 S1024x2048 S64x2048 where
  lhsContracting := [1]
  rhsContracting := [0]
  lhsNonContracting := [0]
  rhsNonContracting := [1]
  lhsBatch := []
  rhsBatch := []
  wf := dot_S64x1024_S1024x2048_S64x2048_1_0_0_1_n_n_wf
def dot_S64x2048_S2048x1024_S64x1024_1_0_0_1_n_n : DotDims S64x2048 S2048x1024 S64x1024 where
  lhsContracting := [1]
  rhsContracting := [0]
  lhsNonContracting := [0]
  rhsNonContracting := [1]
  lhsBatch := []
  rhsBatch := []
  wf := dot_S64x2048_S2048x1024_S64x1024_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x1024 : Shape := ⟨2, ![64, 1024]⟩
abbrev S1024x65536 : Shape := ⟨2, ![1024, 65536]⟩
abbrev S65536x1024 : Shape := ⟨2, ![65536, 1024]⟩
abbrev S64x65536 : Shape := ⟨2, ![64, 65536]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S1024x65536, .f32⟩
  | .hbm, ⟨2, _⟩ => ⟨S65536x1024, .f32⟩
  | .hbm, ⟨3, _⟩ => ⟨S1024x65536, .f32⟩
  | .hbm, ⟨4, _⟩ => ⟨S65536x1024, .f32⟩
  | .hbm, ⟨5, _⟩ => ⟨S1024x65536, .f32⟩
  | .hbm, ⟨6, _⟩ => ⟨S65536x1024, .f32⟩
  | .hbm, ⟨7, _⟩ => ⟨S64x65536, .f32⟩
  | .hbm, ⟨8, _⟩ => ⟨S_, .f32⟩
  | .hbm, ⟨9, _⟩ => ⟨S64x65536, .f32⟩
  | .hbm, ⟨10, _⟩ => ⟨S64x65536, .f32⟩
  | .hbm, ⟨11, _⟩ => ⟨S64x1024, .f32⟩
  | .hbm, ⟨12, _⟩ => ⟨S64x65536, .f32⟩
  | .hbm, ⟨13, _⟩ => ⟨S_, .f32⟩
  | .hbm, ⟨14, _⟩ => ⟨S64x65536, .f32⟩
  | .hbm, ⟨15, _⟩ => ⟨S64x65536, .f32⟩
  | .hbm, ⟨16, _⟩ => ⟨S64x1024, .f32⟩
  | .hbm, ⟨17, _⟩ => ⟨S64x65536, .f32⟩
  | .hbm, ⟨18, _⟩ => ⟨S_, .f32⟩
  | .hbm, ⟨19, _⟩ => ⟨S64x65536, .f32⟩
  | .hbm, ⟨20, _⟩ => ⟨S64x65536, .f32⟩
  | .hbm, ⟨21, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S_S64x65536 : S_.BroadcastsInDim S64x65536 (![] : Fin 0 → Fin S64x65536.rank)
  dot_S64x1024_S1024x65536_S64x65536_1_0_0_1_n_n_wf : DotDims.WF S64x1024 S1024x65536 S64x65536 [1] [0] [0] [1] [] []
  dot_S64x65536_S65536x1024_S64x1024_1_0_0_1_n_n_wf : DotDims.WF S64x65536 S65536x1024 S64x1024 [1] [0] [0] [1] [] []

variable [Facts₀]

def dot_S64x1024_S1024x65536_S64x65536_1_0_0_1_n_n : DotDims S64x1024 S1024x65536 S64x65536 where
  lhsContracting := [1]
  rhsContracting := [0]
  lhsNonContracting := [0]
  rhsNonContracting := [1]
  lhsBatch := []
  rhsBatch := []
  wf := dot_S64x1024_S1024x65536_S64x65536_1_0_0_1_n_n_wf
def dot_S64x65536_S65536x1024_S64x1024_1_0_0_1_n_n : DotDims S64x65536 S65536x1024 S64x1024 where
  lhsContracting := [1]
  rhsContracting := [0]
  lhsNonContracting := [0]
  rhsNonContracting := [1]
  lhsBatch := []
  rhsBatch := []
  wf := dot_S64x65536_S65536x1024_S64x1024_1_0_0_1_n_n_wf

class Facts : Prop extends Facts₀ where

variable [Facts]
-- ==== Proof.Mesh.lean ====
import proofs.«900580_g7700000000000581_dist_mlpseq_tp1d_rep_rep_b64_d1024_h2048_v7x_i32_f32_1_alg».proof.Proof.Gen.KernelIdeal

/-!
# The mesh of 32 devices as a five-dimensional cube

A device's number is read as five bits.  The kernel's coordinates are `z = n / 8`, `y = (n % 8) / 2`
and `x = (n % 2) xor (y % 2)`; flipping one coordinate bit of `(x, y, z)` is, on the number itself,
the exclusive-or with one of the five masks `1, 3, 8, 4, 16` (a flip of the low bit of `y` also flips
the parity that enters the position of `x`, hence `3`).  Stage `k` of every exchange pairs a device with
the device across mask `k`; the pairing is an involution without fixed points, and the five masks are
independent, so five stages reach the whole cube.
-/

namespace Cert.KernelIdeal.Mesh

open Idealize.ShloMosaic Cert.KernelIdeal Cert.KernelIdeal.Gen

/-- The mask of stage `k`. -/
def mask : ℕ → ℕ
  | 0 => 1 | 1 => 3 | 2 => 8 | 3 => 4 | 4 => 16 | _ => 0

theorem xor_lt (n k : ℕ) (hn : n < 32) : n ^^^ mask k < 32 := by
  have hk : mask k < 32 := by unfold mask; split <;> decide
  exact Nat.xor_lt_two_pow (n := 5) hn hk

/-- The device across mask `k`. -/
def pr (k : ℕ) (c : Dev nD) : Dev nD := ⟨c.val ^^^ mask k, xor_lt c.val k c.isLt⟩

theorem pr_pr (k : ℕ) (c : Dev nD) : pr k (pr k c) = c :=
  Fin.ext (by show (c.val ^^^ mask k) ^^^ mask k = c.val; rw [Nat.xor_assoc, Nat.xor_self, Nat.xor_zero])

/-- Stage `k` as a permutation of the devices. -/
def prE (k : ℕ) : Dev nD ≃ Dev nD := ⟨pr k, pr k, pr_pr k, pr_pr k⟩

theorem pr_ne (k : ℕ) (hk : k < 5) (c : Dev nD) : pr k c ≠ c := by
  have : ∀ k : Fin 5, ∀ c : Dev nD, pr k.val c ≠ c := by decide
  exact this ⟨k, hk⟩ c

theorem pr_inj_stage (j k : ℕ) (hj : j < 5) (hk : k < 5) (c : Dev nD) (h : pr j c = pr k c) : j = k := by
  have : ∀ j k : Fin 5, ∀ c : Dev nD, pr j.val c = pr k.val c → j = k := by decide
  exact congrArg Fin.val (this ⟨j, hj⟩ ⟨k, hk⟩ c h)

/-! The printed device chains.  The five entry signals name the five partners in stage order; the
    transfer of layer `l`, stage `k` is chain `6 + 5 l + k` and names partner `k`. -/

theorem dev1_eq (c : Dev nD) : (⟨k0_dev1 c, k0_dev1_lt c⟩ : Dev nD) = pr 0 c := Fin.ext (by revert c; decide +kernel)
theorem dev2_eq (c : Dev nD) : (⟨k0_dev2 c, k0_dev2_lt c⟩ : Dev nD) = pr 1 c := Fin.ext (by revert c; decide +kernel)
theorem dev3_eq (c : Dev nD) : (⟨k0_dev3 c, k0_dev3_lt c⟩ : Dev nD) = pr 2 c := Fin.ext (by revert c; decide +kernel)
theorem dev4_eq (c : Dev nD) : (⟨k0_dev4 c, k0_dev4_lt c⟩ : Dev nD) = pr 3 c := Fin.ext (by revert c; decide +kernel)
theorem dev5_eq (c : Dev nD) : (⟨k0_dev5 c, k0_dev5_lt c⟩ : Dev nD) = pr 4 c := Fin.ext (by revert c; decide +kernel)
theorem dev6_eq (c : Dev nD) : (⟨k0_dev6 c, k0_dev6_lt c⟩ : Dev nD) = pr 0 c := Fin.ext (by revert c; decide +kernel)
theorem dev7_eq (c : Dev nD) : (⟨k0_dev7 c, k0_dev7_lt c⟩ : Dev nD) = pr 1 c := Fin.ext (by revert c; decide +kernel)
theorem dev8_eq (c : Dev nD) : (⟨k0_dev8 c, k0_dev8_lt c⟩ : Dev nD) = pr 2 c := Fin.ext (by revert c; decide +kernel)
theorem dev9_eq (c : Dev nD) : (⟨k0_dev9 c, k0_dev9_lt c⟩ : Dev nD) = pr 3 c := Fin.ext (by revert c; decide +kernel)
theorem dev10_eq (c : Dev nD) : (⟨k0_dev10 c, k0_dev10_lt c⟩ : Dev nD) = pr 4 c := Fin.ext (by revert c; decide +kernel)
theorem dev11_eq (c : Dev nD) : (⟨k0_dev11 c, k0_dev11_lt c⟩ : Dev nD) = pr 0 c := Fin.ext (by revert c; decide +kernel)
theorem dev12_eq (c : Dev nD) : (⟨k0_dev12 c, k0_dev12_lt c⟩ : Dev nD) = pr 1 c := Fin.ext (by revert c; decide +kernel)
theorem dev13_eq (c : Dev nD) : (⟨k0_dev13 c, k0_dev13_lt c⟩ : Dev nD) = pr 2 c := Fin.ext (by revert c; decide +kernel)
theorem dev14_eq (c : Dev nD) : (⟨k0_dev14 c, k0_dev14_lt c⟩ : Dev nD) = pr 3 c := Fin.ext (by revert c; decide +kernel)
theorem dev15_eq (c : Dev nD) : (⟨k0_dev15 c, k0_dev15_lt c⟩ : Dev nD) = pr 4 c := Fin.ext (by revert c; decide +kernel)
theorem dev16_eq (c : Dev nD) : (⟨k0_dev16 c, k0_dev16_lt c⟩ : Dev nD) = pr 0 c := Fin.ext (by revert c; decide +kernel)
theorem dev17_eq (c : Dev nD) : (⟨k0_dev17 c, k0_dev17_lt c⟩ : Dev nD) = pr 1 c := Fin.ext (by revert c; decide +kernel)
theorem dev18_eq (c : Dev nD) : (⟨k0_dev18 c, k0_dev18_lt c⟩ : Dev nD) = pr 2 c := Fin.ext (by revert c; decide +kernel)
theorem dev19_eq (c : Dev nD) : (⟨k0_dev19 c, k0_dev19_lt c⟩ : Dev nD) = pr 3 c := Fin.ext (by revert c; decide +kernel)
theorem dev20_eq (c : Dev nD) : (⟨k0_dev20 c, k0_dev20_lt c⟩ : Dev nD) = pr 4 c := Fin.ext (by revert c; decide +kernel)

end Cert.KernelIdeal.Mesh
-- ==== Proof.Spec.lean ====
import proofs.«900580_g7700000000000581_dist_mlpseq_tp1d_rep_rep_b64_d1024_h2048_v7x_i32_f32_1_alg».proof.Proof.Gen.KernelIdeal.Skeleton
import proofs.«900580_g7700000000000581_dist_mlpseq_tp1d_rep_rep_b64_d1024_h2048_v7x_i32_f32_1_alg».proof.Proof.Mesh

/-!
# What each device computes, as pure functions

One layer on one device is `relu (a · W₁) · W₂` over that device's 2048 columns of `W₁` and 2048 rows of
`W₂`: a partial sum of the whole layer.  The partial sums are added across the 32 devices by five
exchanges: at stage `k` a device rounds its running sum to the wire format, sends it across mask `k`,
and adds what its partner sent.  After five stages the running sum is the input of the next layer.
Everything here is generic in the float instance.
-/

noncomputable section

namespace Cert.KernelIdeal.Spec

open Idealize.ShloMosaic Cert.KernelIdeal Cert.KernelIdeal.Gen Cert.KernelIdeal.Mesh

variable {F : FTy → Type} [FloatOps F]

abbrev Act (F : FTy → Type) [FloatOps F] := FVec F S64x1024 .f32
abbrev Wire (F : FTy → Type) [FloatOps F] := FVec F S64x1024 .bf16
abbrev WIn (F : FTy → Type) [FloatOps F] := FVec F S1024x2048 .f32
abbrev WOut (F : FTy → Type) [FloatOps F] := FVec F S2048x1024 .f32

/-- The hidden activations of one device's share: `relu (a · W₁)`. -/
def hidden (a : Act F) (w1 : WIn F) : FVec F S64x2048 .f32 :=
  maximumf (matmul dot_S64x1024_S1024x2048_S64x2048_1_0_0_1_n_n none a w1 (constant S64x2048 .f32 0x00000000#32))
    (broadcast S64x2048 (Scalar.ofBits .f32 0x00000000#32))

/-- One device's partial sum of a layer: `relu (a · W₁) · W₂`. -/
def mlp (a : Act F) (w1 : WIn F) (w2 : WOut F) : Act F :=
  matmul dot_S64x2048_S2048x1024_S64x1024_1_0_0_1_n_n none (hidden a w1) w2 (constant S64x1024 .f32 0x00000000#32)

/-- A running sum rounded to the wire format. -/
def toWire (a : Act F) : Wire F := truncf .bf16 a bitsLt_bf16_f32

/-- A running sum plus what the partner sent. -/
def addWire (a : Act F) (r : Wire F) : Act F := addf a (extf .f32 r bitsLt_bf16_f32)

/-- The program's inputs, device by device: the activations and, per layer, the two weight blocks. -/
structure Inputs (F : FTy → Type) [FloatOps F] where
  x : Dev nD → Act F
  w1 : ℕ → Dev nD → WIn F
  w2 : ℕ → Dev nD → WOut F

/-- `k` stages of the exchange over partial sums `p`. -/
def reduce (p : Dev nD → Act F) : ℕ → Dev nD → Act F
  | 0, c => p c
  | k + 1, c => addWire (reduce p k c) (toWire (reduce p k (pr k c)))

/-- The input of layer `l` on each device. -/
def layerIn (I : Inputs F) : ℕ → Dev nD → Act F
  | 0, c => I.x c
  | l + 1, c => reduce (fun d => mlp (layerIn I l d) (I.w1 l d) (I.w2 l d)) 5 c

/-- The running sum of layer `l` on device `c` after `k` stages. -/
def acc (I : Inputs F) (l k : ℕ) (c : Dev nD) : Act F :=
  reduce (fun d => mlp (layerIn I l d) (I.w1 l d) (I.w2 l d)) k c

theorem acc_zero (I : Inputs F) (l : ℕ) (c : Dev nD) : acc I l 0 c = mlp (layerIn I l c) (I.w1 l c) (I.w2 l c) := rfl
theorem acc_succ (I : Inputs F) (l k : ℕ) (c : Dev nD) :
    acc I l (k + 1) c = addWire (acc I l k c) (toWire (acc I l k (pr k c))) := rfl
theorem layerIn_succ (I : Inputs F) (l : ℕ) (c : Dev nD) : layerIn I (l + 1) c = acc I l 5 c := rfl

/-- What device `c` puts on the wire at layer `l`, stage `k`. -/
def sent (I : Inputs F) (l k : ℕ) (c : Dev nD) : Wire F := toWire (acc I l k c)

/-- The result on device `c`: the input a fourth layer would have. -/
def result (I : Inputs F) (c : Dev nD) : Act F := layerIn I 3 c

end Cert.KernelIdeal.Spec

end
-- ==== Proof.Cells.lean ====
import proofs.«900580_g7700000000000581_dist_mlpseq_tp1d_rep_rep_b64_d1024_h2048_v7x_i32_f32_1_alg».proof.Proof.Gen.KernelIdeal.Frame
import proofs.«900580_g7700000000000581_dist_mlpseq_tp1d_rep_rep_b64_d1024_h2048_v7x_i32_f32_1_alg».proof.Proof.Spec
import Idealize.ShloMosaic.Lib.Pipeline.Launch
import Idealize.ShloMosaic.Lib.Pipeline.Kit
import Idealize.ShloMosaic.Lib.Tactic

/-!
# The buffers, slots, semaphores and cells of the cross-device protocol

Per device: one entry cell (the runtime's barrier semaphore), on which each of the five partners lands one
unit; one send cell, on which the device's own fifteen transfers complete, one a round; fifteen receive
cells, one per (layer, stage), on which the partner of that stage lands its rounded running sum; six copy
cells for the local weight copies.  A partner's entry signal carries the three receive slots the signaller
keeps for that partner, so a transfer into a slot is only made by a device that was handed the slot.
-/

noncomputable section

namespace Cert.KernelIdeal.Cells

open Cert.KernelIdeal Cert.KernelIdeal.Gen Cert.KernelIdeal.Mesh Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties `Fin 5`) -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Buffers -/

abbrev xM : Memref sig .tc .vmem S64x1024 .f32 := Memref.whole cc0_stg0_0
abbrev oM : Memref sig .tc .vmem S64x1024 .f32 := Memref.whole cc0_stg1_0
abbrev winM : Memref sig .tc .vmem S2x1024x2048 .f32 := Memref.whole cc0_scratch0
abbrev woutM : Memref sig .tc .vmem S2x2048x1024 .f32 := Memref.whole cc0_scratch1
abbrev sendM : Memref sig .tc .vmem S64x1024 .bf16 := Memref.whole cc0_scratch2
abbrev recvM : Memref sig .tc .vmem S3x5x64x1024 .bf16 := Memref.whole cc0_scratch3

theorem inbW1 (s : ℕ) (hs : s < 2) : ∀ a, (![s, 0, 0] : Fin 3 → Nat) a + S1x1024x2048.size a ≤ S2x1024x2048.size a := by
  intro a; fin_cases a <;> simp <;> omega
theorem inbW2 (s : ℕ) (hs : s < 2) : ∀ a, (![s, 0, 0] : Fin 3 → Nat) a + S1x2048x1024.size a ≤ S2x2048x1024.size a := by
  intro a; fin_cases a <;> simp <;> omega
theorem inbR (l k : ℕ) (hl : l < 3) (hk : k < 5) : ∀ a, (![l, k, 0, 0] : Fin 4 → Nat) a + S1x1x64x1024.size a ≤ S3x5x64x1024.size a := by
  intro a; fin_cases a <;> simp <;> omega

/-- Slot `s` of the first-weight buffer, as the kernel addresses it. -/
def w1Slot (s : ℕ) (hs : s < 2) : Memref sig .tc .vmem S1024x2048 .f32 :=
  ((winM.slice (Rect.unit (s := S2x1024x2048) ![s, 0, 0] S1x1024x2048.size (inbW1 s hs)) (fun _ => rfl)).squeeze S1024x2048 squeezes_S1x1024x2048_S1024x2048)
def w2Slot (s : ℕ) (hs : s < 2) : Memref sig .tc .vmem S2048x1024 .f32 :=
  ((woutM.slice (Rect.unit (s := S2x2048x1024) ![s, 0, 0] S1x2048x1024.size (inbW2 s hs)) (fun _ => rfl)).squeeze S2048x1024 squeezes_S1x2048x1024_S2048x1024)
/-- The receive slot of layer `l`, stage `k`. -/
def rSlot (l k : ℕ) (hl : l < 3) (hk : k < 5) : Memref sig .tc .vmem S64x1024 .bf16 :=
  ((recvM.slice (Rect.unit (s := S3x5x64x1024) ![l, k, 0, 0] S1x1x64x1024.size (inbR l k hl hk)) (fun _ => rfl)).squeeze S64x1024 squeezes_S1x1x64x1024_S64x1024)

/-! ## Semaphores and cells -/

abbrev barS : Sem sig := (SemArray.scalar (sig.barrier 0 rfl) : Sems sig S_).sem
/-- The protocol's DMA semaphores by number: `2 l + i` the copy of layer `l` (`i = 0` first weight, `1` second),
    `6` the send semaphore, `7 + 5 l + k` the receive semaphore of layer `l`, stage `k`. -/
def dsem (j : ℕ) (hj : j < 22) : DmaSem sig := ⟨2 + j, by show 2 + j < 24; omega⟩

abbrev cpS (l i : ℕ) (hl : l < 3) (hi : i < 2) : DmaSem sig := dsem (2 * l + i) (by omega)
abbrev sdS : DmaSem sig := dsem 6 (by decide)
abbrev rvS (l k : ℕ) (hl : l < 3) (hk : k < 5) : DmaSem sig := dsem (7 + 5 * l + k) (by omega)

abbrev barCell (c : Dev nD) : GSem nD τ sig := ((c : Thread nD τ), .reg barS)
abbrev dCell (c : Dev nD) (j : ℕ) (hj : j < 22) : GSem nD τ sig := ((c : Thread nD τ), .dma (dsem j hj))
abbrev cpCell (c : Dev nD) (l i : ℕ) (hl : l < 3) (hi : i < 2) : GSem nD τ sig := ((c : Thread nD τ), .dma (cpS l i hl hi))
abbrev sdCell (c : Dev nD) : GSem nD τ sig := ((c : Thread nD τ), .dma sdS)
abbrev rvCell (c : Dev nD) (l k : ℕ) (hl : l < 3) (hk : k < 5) : GSem nD τ sig := ((c : Thread nD τ), .dma (rvS l k hl hk))

/-- The kernel's spelling of the semaphores is these. -/
theorem sdS_eq : cc0_scratch5.sem = sdS := by decide

theorem inbC (l i : ℕ) (hl : l < 3) (hi : i < 2) : ∀ a, (![l, i] : Fin 2 → Nat) a + S1x1.size a ≤ S3x2.size a := by
  intro a; fin_cases a <;> simp <;> omega
theorem inbV (l k : ℕ) (hl : l < 3) (hk : k < 5) : ∀ a, (![l, k] : Fin 2 → Nat) a + S1x1.size a ≤ S3x5.size a := by
  intro a; fin_cases a <;> simp <;> omega

/-- The copy semaphore of layer `l`, weight `i`, as the kernel slices it out of its 3×2 array: the six cases are
    decided at once, and the statement does not depend on which proof bounds the slice. -/
theorem cpS_eq (l i : ℕ) (hl : l < 3) (hi : i < 2) (h : ∀ a, (![l, i] : Fin 2 → Nat) a + S1x1.size a ≤ S3x2.size a) :
    ((cc0_scratch4.slice (Rect.unit (s := S3x2) ![l, i] S1x1.size h)).squeeze S_ squeezes_S1x1_S_).sem = cpS l i hl hi := by
  have key : ∀ (l : Fin 3) (i : Fin 2),
      ((cc0_scratch4.slice (Rect.unit (s := S3x2) ![l.val, i.val] S1x1.size (inbC l.val i.val l.isLt i.isLt))).squeeze S_ squeezes_S1x1_S_).sem
        = cpS l.val i.val l.isLt i.isLt := by decide
  exact key ⟨l, hl⟩ ⟨i, hi⟩

/-- The receive semaphore of layer `l`, stage `k`, as the kernel slices it out of its 3×5 array. -/
theorem rvS_eq (l k : ℕ) (hl : l < 3) (hk : k < 5) (h : ∀ a, (![l, k] : Fin 2 → Nat) a + S1x1.size a ≤ S3x5.size a) :
    ((cc0_scratch6.slice (Rect.unit (s := S3x5) ![l, k] S1x1.size h)).squeeze S_ squeezes_S1x1_S_).sem = rvS l k hl hk := by
  have key : ∀ (l : Fin 3) (k : Fin 5),
      ((cc0_scratch6.slice (Rect.unit (s := S3x5) ![l.val, k.val] S1x1.size (inbV l.val k.val l.isLt k.isLt))).squeeze S_ squeezes_S1x1_S_).sem
        = rvS l.val k.val l.isLt k.isLt := by decide
  exact key ⟨l, hl⟩ ⟨k, hk⟩

end Cert.KernelIdeal.Cells

end
-- ==== Proof.Schedule.lean ====
import proofs.«900580_g7700000000000581_dist_mlpseq_tp1d_rep_rep_b64_d1024_h2048_v7x_i32_f32_1_alg».proof.Proof.Cells

/-!
# The schedule of the cross-device protocol

One entry cell per device (the runtime's barrier semaphore): a single round of five duties, one unit each, duty `k`
paid by the partner across mask `k`, which hands over the three receive slots it keeps for that partner.  One send
cell: fifteen rounds of one duty, the device's own transfer of that round completing, which returns the send buffer
at what was sent.  Fifteen receive cells: one round of one duty, the partner's transfer landing, which returns the
slot holding the partner's rounded running sum.  Six copy cells: one round of one duty, the local weight copy
landing, which returns the weight slot holding the weight block and the source array.
-/

noncomputable section

namespace Cert.KernelIdeal.Schedule

open Cert.KernelIdeal Cert.KernelIdeal.Gen Cert.KernelIdeal.Mesh Cert.KernelIdeal.Spec Cert.KernelIdeal.Cells

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a DMA semaphore is for -/

inductive Kind : Type
  | idle
  | cp (l : Fin 3) (i : Fin 2)
  | sd
  | rv (l : Fin 3) (k : Fin 5)
  deriving DecidableEq

/-- The role of DMA semaphore number `n`: `0, 1` are the pipeline's; `2 … 7` the copies; `8` the send; `9 … 23` the receives. -/
def kindOf (n : ℕ) : Kind :=
  if n < 2 then .idle
  else if h : n < 8 then .cp ⟨(n - 2) / 2, by omega⟩ ⟨(n - 2) % 2, by omega⟩
  else if n = 8 then .sd
  else if h : n < 24 then .rv ⟨(n - 9) / 5, by omega⟩ ⟨(n - 9) % 5, by omega⟩
  else .idle

theorem kindOf_cp (l i : ℕ) (hl : l < 3) (hi : i < 2) : kindOf (2 + (2 * l + i)) = .cp ⟨l, hl⟩ ⟨i, hi⟩ := by
  have key : ∀ (l : Fin 3) (i : Fin 2), kindOf (2 + (2 * l.val + i.val)) = .cp l i := by decide
  exact key ⟨l, hl⟩ ⟨i, hi⟩
theorem kindOf_sd : kindOf (2 + 6) = .sd := rfl
theorem kindOf_rv (l k : ℕ) (hl : l < 3) (hk : k < 5) : kindOf (2 + (7 + 5 * l + k)) = .rv ⟨l, hl⟩ ⟨k, hk⟩ := by
  have key : ∀ (l : Fin 3) (k : Fin 5), kindOf (2 + (7 + 5 * l.val + k.val)) = .rv l k := by decide
  exact key ⟨l, hl⟩ ⟨k, hk⟩

/-! ## The inputs, device by device, as the memory at launch holds them -/

/-- Device `c`'s activations as the pipeline stages them, and its weight blocks as they lie in HBM. -/
def inp : Inputs F where
  x c := (win0_0.blk (0 : Fin 1)).view.read (Elt F) (m ((c : Thread nD τ).loc main_arg0))
  w1 l c := match l with
    | 0 => m ((c : Thread nD τ).loc main_arg1)
    | 1 => m ((c : Thread nD τ).loc main_arg3)
    | _ => m ((c : Thread nD τ).loc main_arg5)
  w2 l c := match l with
    | 0 => m ((c : Thread nD τ).loc main_arg2)
    | 1 => m ((c : Thread nD τ).loc main_arg4)
    | _ => m ((c : Thread nD τ).loc main_arg6)

/-- The HBM array holding the first weight of layer `l`, and the second. -/
def w1Ref (l : Fin 3) : Ref sig .tc := match l with | 0 => main_arg1 | 1 => main_arg3 | 2 => main_arg5
def w2Ref (l : Fin 3) : Ref sig .tc := match l with | 0 => main_arg2 | 1 => main_arg4 | 2 => main_arg6

/-! ## Credits -/

def NW1 : ℕ := (w1Slot 0 Nat.zero_lt_two).view.dmaCredit
def NW2 : ℕ := (w2Slot 0 Nat.zero_lt_two).view.dmaCredit
def NR : ℕ := (rSlot 0 0 (Nat.succ_pos 2) (Nat.succ_pos 4)).view.dmaCredit

theorem NW1_pos : 0 < NW1 := View.dmaCredit_pos _ (by decide)
theorem NW2_pos : 0 < NW2 := View.dmaCredit_pos _ (by decide)
theorem NR_pos : 0 < NR := View.dmaCredit_pos _ (by decide)

/-! ## What a landed slot holds, read as the kernel reads it -/

/-- A receive slot's contents as the later load and cast read them. -/
def rVal (l : Fin 3) (k : Fin 5) (f : (cc0_scratch3 : Ref sig .tc).ty.Contents (Elt F)) : Wire F :=
  shapeCast S64x1024 (recvM.view.readAt (Elt F) (Rect.unit (s := S3x5x64x1024) ![l.val, k.val, 0, 0] S1x1x64x1024.size (inbR l.val k.val l.isLt k.isLt)).toLoadRect f)
    shapeCasts_S1x1x64x1024_S64x1024
def w1Val (s : Fin 2) (f : (cc0_scratch0 : Ref sig .tc).ty.Contents (Elt F)) : WIn F :=
  shapeCast S1024x2048 (winM.view.readAt (Elt F) (Rect.unit (s := S2x1024x2048) ![s.val, 0, 0] S1x1024x2048.size (inbW1 s.val s.isLt)).toLoadRect f)
    shapeCasts_S1x1024x2048_S1024x2048
def w2Val (s : Fin 2) (f : (cc0_scratch1 : Ref sig .tc).ty.Contents (Elt F)) : WOut F :=
  shapeCast S2048x1024 (woutM.view.readAt (Elt F) (Rect.unit (s := S2x2048x1024) ![s.val, 0, 0] S1x2048x1024.size (inbW2 s.val s.isLt)).toLoadRect f)
    shapeCasts_S1x2048x1024_S2048x1024

/-! ## Points-tos -/

abbrev rPts (c : Dev nD) (l : Fin 3) (k : Fin 5) (f : (cc0_scratch3 : Ref sig .tc).ty.Contents (Elt F)) : sProp 𝕄 :=
  (rSlot l.val k.val l.isLt k.isLt).view.loc (c : Thread nD τ) ↦[(rSlot l.val k.val l.isLt k.isLt).view.set]{fullShare} f
abbrev w1Pts (c : Dev nD) (s : Fin 2) (f : (cc0_scratch0 : Ref sig .tc).ty.Contents (Elt F)) : sProp 𝕄 :=
  (w1Slot s.val s.isLt).view.loc (c : Thread nD τ) ↦[(w1Slot s.val s.isLt).view.set]{fullShare} f
abbrev w2Pts (c : Dev nD) (s : Fin 2) (f : (cc0_scratch1 : Ref sig .tc).ty.Contents (Elt F)) : sProp 𝕄 :=
  (w2Slot s.val s.isLt).view.loc (c : Thread nD τ) ↦[(w2Slot s.val s.isLt).view.set]{fullShare} f
abbrev sendPts (c : Dev nD) (f : (cc0_scratch2 : Ref sig .tc).ty.Contents (Elt F)) : sProp 𝕄 :=
  sendM.view.loc (c : Thread nD τ) ↦[sendM.view.set]{fullShare} f
abbrev hbmPts (c : Dev nD) (b : Ref sig .tc) : sProp 𝕄 :=
  (Memref.whole b : Memref sig .tc b.space b.ty.shape b.ty.elt).view.loc (c : Thread nD τ) ↦[(Memref.whole b : Memref sig .tc b.space b.ty.shape b.ty.elt).view.set]{fullShare} m ((c : Thread nD τ).loc b)

/-! ## Payloads -/

/-- Partner `pr k c`'s entry signal hands `c` the three slots (one per layer) that partner keeps for stage `k`. -/
def barPay (c : Dev nD) (k : Fin 5) : sProp 𝕄 :=
  iprop((∃ f, rPts (pr k.val c) 0 k f) ∗ (∃ f, rPts (pr k.val c) 1 k f) ∗ (∃ f, rPts (pr k.val c) 2 k f))
/-- Round `r` of the send cell returns the send buffer at what was sent in that round. -/
def sdPay (c : Dev nD) (r : ℕ) : sProp 𝕄 := sendPts c (sent (inp m) (r / 5) (r % 5) c)
/-- The receive cell of (layer, stage) returns the slot holding the partner's rounded running sum. -/
def rvPay (c : Dev nD) (l : Fin 3) (k : Fin 5) : sProp 𝕄 :=
  iprop(∃ f, rPts c l k f ∗ ⌜rVal l k f = sent (inp m) l.val k.val (pr k.val c)⌝)
/-- A copy cell returns the weight slot holding the weight block, and the source array. -/
def cpPay (c : Dev nD) (l : Fin 3) (i : Fin 2) : sProp 𝕄 :=
  match i with
  | 0 => iprop((∃ f, w1Pts c ⟨l.val % 2, Nat.mod_lt _ (by decide)⟩ f ∗ ⌜w1Val ⟨l.val % 2, Nat.mod_lt _ (by decide)⟩ f = (inp m).w1 l.val c⌝) ∗ hbmPts m c (w1Ref l))
  | 1 => iprop((∃ f, w2Pts c ⟨l.val % 2, Nat.mod_lt _ (by decide)⟩ f ∗ ⌜w2Val ⟨l.val % 2, Nat.mod_lt _ (by decide)⟩ f = (inp m).w2 l.val c⌝) ∗ hbmPts m c (w2Ref l))

/-! ## The schedule -/

/-- The duties of a DMA cell of kind `kd` in round `r`. -/
def dut (kd : Kind) (r : ℕ) : Finset (Fin 5) := match kd with
  | .idle => ∅
  | .sd => if r < 15 then {0} else ∅
  | _ => if r = 0 then {0} else ∅
/-- The amount of a duty of a DMA cell of kind `kd`. -/
def amt (kd : Kind) : ℕ := match kd with
  | .cp _ i => if i.val = 0 then NW1 else NW2
  | _ => NR
/-- The payload of the duty of a DMA cell of kind `kd` on device `c` in round `r`. -/
def pay (c : Dev nD) (kd : Kind) (r : ℕ) : sProp 𝕄 := match kd with
  | .idle => iprop(emp)
  | .cp l i => cpPay m c l i
  | .sd => sdPay m c r
  | .rv l k => rvPay m c l k

theorem amt_pos (kd : Kind) : 0 < amt kd := by
  cases kd with
  | idle => exact NR_pos
  | cp l i => unfold amt; dsimp only; split; exact NW1_pos; exact NW2_pos
  | sd => exact NR_pos
  | rv l k => exact NR_pos

def Rd : Rounds.Schedule (GSem nD τ sig) (Fin 5) 𝕄 where
  duties g r :=
    if g.1.2 = .tc then
      match g.2 with
      | .reg s => if s = barS ∧ r = 0 then Finset.univ else ∅
      | .dma q => dut (kindOf q.val) r
    else ∅
  unitless _ := False
  amount g _ _ := match g.2 with
    | .reg _ => 1
    | .dma q => amt (kindOf q.val)
  payload g r d := match g.2 with
    | .reg _ => barPay g.1.1 d
    | .dma q => pay m g.1.1 (kindOf q.val) r
  amount_pos g _ _ _ := by
    rcases g with ⟨t, sm⟩
    cases sm with
    | reg s => exact Nat.one_pos
    | dma q => exact amt_pos _

end Cert.KernelIdeal.Schedule

end
-- ==== Proof.Ghost.lean ====
import proofs.«900580_g7700000000000581_dist_mlpseq_tp1d_rep_rep_b64_d1024_h2048_v7x_i32_f32_1_alg».proof.Proof.Schedule

/-!
# What a device owes, the levels, and what it starts from

A device owes, in the order it pays: one unit to each of its five partners' entry cells, then, round by round,
the landing of its transfer on the partner's receive cell.  Levels: entry cells at 1, the receive cell of round
`r = 5 l + k` at `2 + r`, every other cell at 0; a device waiting on a cell owes only cells of higher level,
which is the whole deadlock argument.  A device starts from the invariants of its own 23 cells and of the 20
cells it pays, its positions at round 0, the tokens of the duties it pays, and the credit its partners owe it.
-/

noncomputable section

namespace Cert.KernelIdeal.Ghost

open Cert.KernelIdeal Cert.KernelIdeal.Gen Cert.KernelIdeal.Mesh Cert.KernelIdeal.Spec Cert.KernelIdeal.Cells Cert.KernelIdeal.Schedule

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of one device -/

/-- The kernel's own (scoped) semaphores, as the launch indexes them. -/
abbrev osem : Fin 22 → SemLoc sig := fun j => .dma (dsem j.val j.isLt)
/-- All 23 semaphores of the protocol on a device: `0` the entry semaphore, `j + 1` DMA semaphore `j`. -/
def csem (j : Fin 23) : SemLoc sig := if h : j.val = 0 then .reg barS else .dma (dsem (j.val - 1) (by have := j.isLt; omega))
abbrev kcell (ck : Dev nD × Fin 23) : GSem nD τ sig := ((ck.1 : Thread nD τ), csem ck.2)

/-- The receive cell that the transfer of round `r` lands on: the partner's, at this round's (layer, stage). -/
abbrev rvOf (c : Dev nD) (r : Fin 15) : GSem nD τ sig :=
  rvCell (pr (r.val % 5) c) (r.val / 5) (r.val % 5) (by have := r.isLt; omega) (Nat.mod_lt _ (by decide))
/-- The device's own receive cell of round `r`. -/
abbrev rvOwn (c : Dev nD) (r : Fin 15) : GSem nD τ sig :=
  rvCell c (r.val / 5) (r.val % 5) (by have := r.isLt; omega) (Nat.mod_lt _ (by decide))
/-- Its number among the 23. -/
def rvIx (r : Fin 15) : Fin 23 := ⟨8 + r.val, by have := r.isLt; omega⟩

/-! ## What a device owes -/

/-- The landings of rounds `n, n + 1, …, 14`, summed so that the earliest round is the last summand. -/
def oweFrom (c : Dev nD) (n : ℕ) : CellTallies nD τ sig Unit :=
  if h : n < 15 then oweFrom c (n + 1) + tallyAt (rvOf c ⟨n, h⟩) () NR else 0
termination_by 15 - n

theorem oweFrom_peel (c : Dev nD) (n : ℕ) (h : n < 15) :
    oweFrom c n = oweFrom c (n + 1) + tallyAt (rvOf c ⟨n, h⟩) () NR := by
  rw [oweFrom, dif_pos h]
theorem oweFrom_done (c : Dev nD) : oweFrom c 15 = 0 := by rw [oweFrom, dif_neg (by decide)]

/-- The entry signals to partners `j, …, 4`, then every landing. -/
def oweSig (c : Dev nD) (j : ℕ) : CellTallies nD τ sig Unit :=
  if h : j < 5 then oweSig c (j + 1) + tallyAt (barCell (pr j c)) () 1 else oweFrom c 0
termination_by 5 - j

theorem oweSig_peel (c : Dev nD) (j : ℕ) (h : j < 5) :
    oweSig c j = oweSig c (j + 1) + tallyAt (barCell (pr j c)) () 1 := by
  rw [oweSig, dif_pos h]
theorem oweSig_done (c : Dev nD) : oweSig c 5 = oweFrom c 0 := by rw [oweSig, dif_neg (by decide)]

/-- Everything device `c` owes at launch. -/
def O₀ (c : Dev nD) : CellTallies nD τ sig Unit := oweSig c 0

/-! ## Levels -/

def L (g : GSem nD τ sig) : Finset Unit := if g.1.2 = .tc then {()} else ∅
def lv (g : GSem nD τ sig) (_ : Unit) : ℕ := match g.2 with
  | .reg _ => 1
  | .dma q => match kindOf q.val with
    | .rv l k => 2 + 5 * l.val + k.val
    | _ => 0

theorem L_of_ne (g : GSem nD τ sig) (h : g.1.2 ≠ .tc) : L g = ∅ := if_neg h
theorem L_tc (c : Dev nD) (sm : SemLoc sig) : L ((c : Thread nD τ), sm) = {()} := if_pos rfl

/-! ## Ghost resources -/

/-- What device `c` starts from, at the names `K` the launch allocated the cells' invariants at. -/
def ghost (K : Dev nD × Fin 23 → ℕ) (c : Dev nD) : sProp 𝕄 :=
  iprop((bigSep Finset.univ fun j : Fin 23 => cellInv ER (Rd m) (K (c, j)) (kcell (c, j)))
    ∗ (bigSep Finset.univ fun k : Fin 5 => cellInv ER (Rd m) (K (pr k.val c, 0)) (barCell (pr k.val c)))
    ∗ (bigSep Finset.univ fun r : Fin 15 => cellInv ER (Rd m) (K (pr (r.val % 5) c, rvIx r)) (rvOf c r))
    ∗ (bigSep Finset.univ fun j : Fin 23 => reached ER (kcell (c, j)) 0)
    ∗ (bigSep Finset.univ fun k : Fin 5 => reached ER (barCell (pr k.val c)) 0)
    ∗ (bigSep Finset.univ fun r : Fin 15 => reached ER (rvOf c r) 0)
    ∗ (bigSep Finset.univ fun j : Fin 23 => atPos ER (kcell (c, j)) 0 ∅ 0)
    ∗ (bigSep Finset.univ fun k : Fin 5 => dutyTok ER (barCell (pr k.val c)) 0 k)
    ∗ (bigSep Finset.univ fun r : Fin 15 => dutyTok ER (rvOf c r) 0 0)
    ∗ (bigSep Finset.univ fun r : Fin 15 => dutyTok ER (sdCell c) r.val 0)
    ∗ (bigSep Finset.univ fun j : Fin 6 => dutyTok ER (dCell c j.val (by have := j.isLt; omega)) 0 0))

/-- The credit the partners owe device `c`: five units on its entry cell, a landing on each receive cell. -/
def creds (c : Dev nD) : sProp 𝕄 :=
  iprop(cred (tallyAt (barCell c) () 5) ∗ bigSep Finset.univ fun r : Fin 15 => cred (tallyAt (rvOwn c r) () NR))

/-- The six weight arrays in HBM, at what the memory at launch holds. -/
def hbmArgs (c : Dev nD) : sProp 𝕄 :=
  iprop(hbmPts m c main_arg1 ∗ hbmPts m c main_arg2 ∗ hbmPts m c main_arg3 ∗ hbmPts m c main_arg4 ∗ hbmPts m c main_arg5 ∗ hbmPts m c main_arg6)

def start (c : Dev nD) : sProp 𝕄 :=
  iprop((∃ K, ghost m K c) ∗ creds c ∗ levAts L lv ∗ hbmArgs m c)

/-- The four scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- Before the body. -/
def Φ₀ (c : Dev nD) : sProp 𝕄 := iprop(start m c ∗ scratch c)
/-- After the body: the scratch buffers back, the 22 own semaphores at zero (their cells closed), the weight arrays as they were. -/
def Φ₁ (c : Dev nD) : sProp 𝕄 :=
  iprop(scratch c ∗ (bigSep Finset.univ fun j : Fin 22 => semVal ((c : Thread nD τ), osem j) 0) ∗ hbmArgs m c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the kernel leaves in the result's staging buffer. -/
def outAt (c : Dev nD) : (cc0_stg1_0 : Ref sig .tc).ty.Contents (Elt F) := result (inp m) c

def dats (_ : Fin 1) (c : Dev nD) : Dat τ (Elt F) Unit ℕ UU ℕ cfg0 c where
  A w := (Idealize.ShloMosaic.s₀ m ρ).mem ((cfg0.win w).arr.view.loc (c : Thread nD τ))
  after w _ := match w with
    | ⟨0, _⟩ => (inp m).x c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Ghost

end
-- ==== Proof.Launch.lean ====
import proofs.«900580_g7700000000000581_dist_mlpseq_tp1d_rep_rep_b64_d1024_h2048_v7x_i32_f32_1_alg».proof.Proof.Ghost
import proofs.«900580_g7700000000000581_dist_mlpseq_tp1d_rep_rep_b64_d1024_h2048_v7x_i32_f32_1_alg».proof.Proof.Gen.KernelIdeal.Frame
import proofs.«900580_g7700000000000581_dist_mlpseq_tp1d_rep_rep_b64_d1024_h2048_v7x_i32_f32_1_alg».proof.Proof.Gen.KernelIdeal.Launch
import proofs.«900580_g7700000000000581_dist_mlpseq_tp1d_rep_rep_b64_d1024_h2048_v7x_i32_f32_1_alg».proof.Proof.Gen.KernelIdeal.Points
import Idealize.ShloMosaic.Lib.Pipeline.Launch
import Idealize.ShloMosaic.Lib.Pipeline.Kit
import Idealize.ShloMosaic.Lib.Tactic

/-!
# The launch

From the launch element to every device's starting resources: the 23 protocol cells of each device are funded and
their invariants allocated for all devices under one update (the entry cell is the runtime's semaphore, shared
with the five partners that signal it); the duty tokens are dealt around the cube, each to the device that pays
the duty; the launch credit of a device is five units on its entry cell and one landing on each of its fifteen
receive cells.  The run of the program then follows from the body obligation of each device.
-/

noncomputable section

namespace Cert.KernelIdeal.Launch

open Cert.KernelIdeal Cert.KernelIdeal.Gen Cert.KernelIdeal.Mesh Cert.KernelIdeal.Spec Cert.KernelIdeal.Cells Cert.KernelIdeal.Schedule Cert.KernelIdeal.Ghost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens minted -/

theorem ownSemFacts : Pipeline.OwnSemFacts cfg0.spec osem := by decide

theorem share_eq (c : Dev nD) (w : Fin cfg0.W) : (dats m ρ 0 c).share w = fullShare := by unfold Dat.share; split <;> rfl

theorem csem_succ (k : Fin 22) : csem k.succ = osem k := by revert k; decide
theorem csem_injective : Function.Injective csem := by decide

theorem kcell_succ (c : Dev nD) (k : Fin 22) : kcell (c, k.succ) = ((c : Thread nD τ), osem k) := by
  show ((c : Thread nD τ), csem k.succ) = _; rw [csem_succ]

theorem kcell_injective : Function.Injective (kcell : Dev nD × Fin 23 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def protoCells : Finset (GSem nD τ sig) := Finset.univ.map ⟨kcell, kcell_injective⟩

/-- The receive semaphore of round `r` is number `8 + r` among the 23. -/
theorem rv_sem_eq (r : Fin 15) :
    (SemLoc.dma (rvS (r.val / 5) (r.val % 5) (by have := r.isLt; omega) (Nat.mod_lt _ (by decide))) : SemLoc sig) = csem (rvIx r) := by
  revert r; decide
theorem rvOf_eq (c : Dev nD) (r : Fin 15) : rvOf c r = kcell (pr (r.val % 5) c, rvIx r) := Prod.ext rfl (rv_sem_eq r)
theorem rvOwn_eq (c : Dev nD) (r : Fin 15) : rvOwn c r = kcell (c, rvIx r) := Prod.ext rfl (rv_sem_eq r)

/-- The duties minted per device: the entry cell's five, the six copy cells' one each, the send cell's one in each of its
    fifteen rounds, the fifteen receive cells' one each. -/
abbrev TI : Type := Fin 5 ⊕ Fin 6 ⊕ Fin 15 ⊕ Fin 15

def code : TI → SemLoc sig × ℕ × Fin 5
  | .inl d => (.reg barS, 0, d)
  | .inr (.inl j) => (.dma (dsem j.val (by have := j.isLt; omega)), 0, 0)
  | .inr (.inr (.inl r)) => (.dma sdS, r.val, 0)
  | .inr (.inr (.inr r)) => (.dma (rvS (r.val / 5) (r.val % 5) (by have := r.isLt; omega) (Nat.mod_lt _ (by decide))), 0, 0)

theorem code_injective : Function.Injective code := by decide

abbrev tokOf (ci : Dev nD × TI) : GSem nD τ sig × ℕ × Fin 5 := (((ci.1 : Thread nD τ), (code ci.2).1), (code ci.2).2)

theorem tokOf_injective : Function.Injective (tokOf : Dev nD × TI → GSem nD τ sig × ℕ × Fin 5) := by
  rintro ⟨c, i⟩ ⟨c', i'⟩ h
  have h1 : c = c' := by have := congrArg (fun x : GSem nD τ sig × ℕ × Fin 5 => x.1.1.1) h; exact this
  subst h1
  have h2 : code i = code i' :=
    Prod.ext (congrArg (fun x : GSem nD τ sig × ℕ × Fin 5 => x.1.2) h) (congrArg (fun x : GSem nD τ sig × ℕ × Fin 5 => x.2) h)
  rw [code_injective h2]

def protoToks : Finset (GSem nD τ sig × ℕ × Fin 5) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop((bigSep Finset.univ fun d : Fin 5 => dutyTok ER (barCell c) 0 d)
    ∗ (bigSep Finset.univ fun j : Fin 6 => dutyTok ER (dCell c j.val (by have := j.isLt; omega)) 0 0)
    ∗ (bigSep Finset.univ fun r : Fin 15 => dutyTok ER (sdCell c) r.val 0)
    ∗ (bigSep Finset.univ fun r : Fin 15 => dutyTok ER (rvOwn c r) 0 0))

/-- What the launch element deals device `c`. -/
def G (c : Dev nD) : sProp 𝕄 :=
  iprop((bigSep Finset.univ fun j : Fin 23 => roundState ER (Rd m) (kcell (c, j)) 0)
    ∗ (bigSep Finset.univ fun j : Fin 23 => iprop(atPos ER (kcell (c, j)) 0 ∅ 0 ∗ reached ER (kcell (c, j)) 0)) ∗ toks c)

/-- What the global step makes of it. -/
def G' (c : Dev nD) : sProp 𝕄 := iprop(∃ K, ghost m K c)

omit [FloatOps F] in
theorem bigSep_fin_succ {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_insert (by simp [Fin.succ_ne_zero]), bigSep_map]; rfl

omit [FloatOps F] in
theorem toks_eq (c : Dev nD) :
    (bigSep Finset.univ fun i : TI => (dutyTok ER (tokOf (c, i)).1 (tokOf (c, i)).2.1 (tokOf (c, i)).2.2 : sProp 𝕄)) = toks c := by
  unfold toks; rw [bigSep_univ_sum, bigSep_univ_sum, bigSep_univ_sum]; rfl

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 23 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => toks_eq c
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero become the cells' invariants -/

omit [FloatOps F] in
theorem pts_storable (ℓ : Loc nD τ sig) (S : Finset ℓ.2.ty.Idx) (q : PosShare TreeShare) (f : Buf (Elt F) ℓ) :
    BI.Storable (upEmb : UEmb _ 𝕄) (ℓ ↦[S]{q} f : sProp 𝕄) := by infer_instance

omit [FloatOps F] in
instance rSlot_storable (c : Dev nD) (l k : ℕ) (hl : l < 3) (hk : k < 5) (f : (cc0_scratch3 : Ref sig .tc).ty.Contents (Elt F)) :
    BI.Storable (upEmb : UEmb _ 𝕄) ((rSlot l k hl hk).view.loc (c : Thread nD τ) ↦[(rSlot l k hl hk).view.set]{fullShare} f : sProp 𝕄) :=
  pts_storable _ _ _ _
omit [FloatOps F] in
instance w1Slot_storable (c : Dev nD) (s : ℕ) (hs : s < 2) (f : (cc0_scratch0 : Ref sig .tc).ty.Contents (Elt F)) :
    BI.Storable (upEmb : UEmb _ 𝕄) ((w1Slot s hs).view.loc (c : Thread nD τ) ↦[(w1Slot s hs).view.set]{fullShare} f : sProp 𝕄) :=
  pts_storable _ _ _ _
omit [FloatOps F] in
instance w2Slot_storable (c : Dev nD) (s : ℕ) (hs : s < 2) (f : (cc0_scratch1 : Ref sig .tc).ty.Contents (Elt F)) :
    BI.Storable (upEmb : UEmb _ 𝕄) ((w2Slot s hs).view.loc (c : Thread nD τ) ↦[(w2Slot s hs).view.set]{fullShare} f : sProp 𝕄) :=
  pts_storable _ _ _ _

/-- Every payload of the schedule is made of points-tos and pure facts. -/
instance payload_storable (g : GSem nD τ sig) (r : ℕ) (d : Fin 5) :
    BI.Storable (upEmb : UEmb _ 𝕄) ((Rd (F := F) m).payload g r d) := by
  rcases g with ⟨t, sm⟩
  cases sm with
  | reg s => show BI.Storable upEmb (barPay t.1 d); unfold barPay; infer_instance
  | dma q =>
    show BI.Storable upEmb (pay m t.1 (kindOf q.val) r)
    cases kindOf q.val with
    | idle => show BI.Storable upEmb (iprop(emp) : sProp 𝕄); infer_instance
    | cp l i => show BI.Storable upEmb (cpPay m t.1 l i); unfold cpPay; split <;> infer_instance
    | sd => show BI.Storable upEmb (sdPay m t.1 r); unfold sdPay; infer_instance
    | rv l k => show BI.Storable upEmb (rvPay m t.1 l k); unfold rvPay; infer_instance

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 23 => semVal (kcell (c, k)) 0 : sProp 𝕄) := by
  rw [unscopedSems0_eq, bigSep_fin_succ]
  simp only [kcell_succ]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 23 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 23 => semVal (kcell (c, k)) 0) ∗ bigSep Finset.univ fun k : Fin 23 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The records of all cells, and the tokens dealt around the cube -/

def records (K : Dev nD × Fin 23 → ℕ) : sProp 𝕄 :=
  iprop((bigSep Finset.univ fun ck : Dev nD × Fin 23 => cellInv ER (Rd m) (K ck) (kcell ck))
    ∗ bigSep Finset.univ fun ck : Dev nD × Fin 23 => reached ER (kcell ck) 0)

instance records_persistent (K : Dev nD × Fin 23 → ℕ) : BI.Persistent (records m K) := by unfold records; infer_instance

theorem inv_at' (K : Dev nD × Fin 23 → ℕ) (ck : Dev nD × Fin 23) :
    (bigSep Finset.univ fun ck : Dev nD × Fin 23 => (cellInv ER (Rd m) (K ck) (kcell ck) : sProp 𝕄)) ⊢ cellInv ER (Rd m) (K ck) (kcell ck) :=
  bigSep_elim (Finset.mem_univ ck)
omit [FloatOps F] in
theorem reached_at' (ck : Dev nD × Fin 23) :
    (bigSep Finset.univ fun ck : Dev nD × Fin 23 => (reached ER (kcell ck) 0 : sProp 𝕄)) ⊢ reached ER (kcell ck) 0 :=
  bigSep_elim (Finset.mem_univ ck)

theorem inv_at (K : Dev nD × Fin 23 → ℕ) (ck : Dev nD × Fin 23) : records m K ⊢ cellInv ER (Rd m) (K ck) (kcell ck) := by
  unfold records
  iintro ⟨HI, -⟩
  iapply (inv_at' m K ck); iexact HI

theorem reached_at (K : Dev nD × Fin 23 → ℕ) (ck : Dev nD × Fin 23) : records m K ⊢ reached ER (kcell ck) 0 := by
  unfold records
  iintro ⟨-, HR⟩
  iapply (reached_at' (F := F) ck); iexact HR

theorem rec_own_inv (K : Dev nD × Fin 23 → ℕ) (c : Dev nD) :
    records m K ⊢ bigSep Finset.univ fun j : Fin 23 => cellInv ER (Rd m) (K (c, j)) (kcell (c, j)) :=
  bigSep_intro_persistent fun j _ => inv_at m K (c, j)
theorem rec_bar_inv (K : Dev nD × Fin 23 → ℕ) (c : Dev nD) :
    records m K ⊢ bigSep Finset.univ fun k : Fin 5 => cellInv ER (Rd m) (K (pr k.val c, 0)) (barCell (pr k.val c)) :=
  bigSep_intro_persistent fun k _ => inv_at m K (pr k.val c, 0)
theorem rec_rv_inv (K : Dev nD × Fin 23 → ℕ) (c : Dev nD) :
    records m K ⊢ bigSep Finset.univ fun r : Fin 15 => cellInv ER (Rd m) (K (pr (r.val % 5) c, rvIx r)) (rvOf c r) :=
  bigSep_intro_persistent fun r _ => by rw [rvOf_eq]; exact inv_at m K (pr (r.val % 5) c, rvIx r)
theorem rec_own_reached (K : Dev nD × Fin 23 → ℕ) (c : Dev nD) :
    records m K ⊢ bigSep Finset.univ fun j : Fin 23 => reached ER (kcell (c, j)) 0 :=
  bigSep_intro_persistent fun j _ => reached_at m K (c, j)
theorem rec_bar_reached (K : Dev nD × Fin 23 → ℕ) (c : Dev nD) :
    records m K ⊢ bigSep Finset.univ fun k : Fin 5 => reached ER (barCell (pr k.val c)) 0 :=
  bigSep_intro_persistent fun k _ => reached_at m K (pr k.val c, 0)
theorem rec_rv_reached (K : Dev nD × Fin 23 → ℕ) (c : Dev nD) :
    records m K ⊢ bigSep Finset.univ fun r : Fin 15 => reached ER (rvOf c r) 0 :=
  bigSep_intro_persistent fun r _ => by rw [rvOf_eq]; exact reached_at m K (pr (r.val % 5) c, rvIx r)

/-- The tokens of the duties device `c` pays. -/
def payToks (c : Dev nD) : sProp 𝕄 :=
  iprop((bigSep Finset.univ fun k : Fin 5 => dutyTok ER (barCell (pr k.val c)) 0 k)
    ∗ (bigSep Finset.univ fun r : Fin 15 => dutyTok ER (rvOf c r) 0 0)
    ∗ (bigSep Finset.univ fun r : Fin 15 => dutyTok ER (sdCell c) r.val 0)
    ∗ (bigSep Finset.univ fun j : Fin 6 => dutyTok ER (dCell c j.val (by have := j.isLt; omega)) 0 0))
/-- What stays with device `c`: its positions, and those tokens. -/
def linear (c : Dev nD) : sProp 𝕄 :=
  iprop((bigSep Finset.univ fun j : Fin 23 => atPos ER (kcell (c, j)) 0 ∅ 0) ∗ payToks c)

theorem ghost_intro (K : Dev nD × Fin 23 → ℕ) (c : Dev nD) : iprop(records m K ∗ linear c) ⊢ G' m c := by
  unfold linear payToks G' ghost
  iintro ⟨#HR, Hat, HtB, HtV, HtS, HtC⟩
  iexists K
  isplitr; · iapply (rec_own_inv m K c); iexact HR
  isplitr; · iapply (rec_bar_inv m K c); iexact HR
  isplitr; · iapply (rec_rv_inv m K c); iexact HR
  isplitr; · iapply (rec_own_reached m K c); iexact HR
  isplitr; · iapply (rec_bar_reached m K c); iexact HR
  isplitr; · iapply (rec_rv_reached m K c); iexact HR
  isplitl [Hat]; · iexact Hat
  isplitl [HtB]; · iexact HtB
  isplitl [HtV]; · iexact HtV
  isplitl [HtS]; · iexact HtS
  iexact HtC

omit [FloatOps F] in
/-- A family indexed by (device, j) regrouped so that device `c` holds the summand of its partner across mask `e j`. -/
theorem around {J : Type} [Fintype J] (e : J → ℕ) (Φ : Dev nD → J → sProp 𝕄) :
    (bigSep Finset.univ fun c : Dev nD => bigSep Finset.univ fun j : J => Φ c j)
      = bigSep Finset.univ fun c : Dev nD => bigSep Finset.univ fun j : J => Φ (pr (e j) c) j :=
  (bigSep_univ_comm Φ).trans ((bigSep_congr fun (j : J) _ => bigSep_univ_equiv (prE (e j)) (fun c : Dev nD => Φ c j)).trans
    (bigSep_univ_comm fun (j : J) (c : Dev nD) => Φ (pr (e j) c) j))

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    around (fun k : Fin 5 => k.val) (fun c k => (dutyTok ER (barCell c) 0 k : sProp 𝕄)),
    around (fun r : Fin 15 => r.val % 5) (fun c r => (dutyTok ER (rvOwn c r) 0 0 : sProp 𝕄))]
  iintro ⟨H1, H2, H3, H4⟩
  isplitl [H1]; · iexact H1
  isplitl [H4]; · iexact H4
  isplitl [H3]; · iexact H3
  iexact H2

theorem regroup :
    (bigSep Finset.univ fun c : Dev nD => iprop((bigSep Finset.univ fun k => iprop(∃ κ : ℕ, cellInv ER (Rd m) κ (kcell (c, k))))
          ∗ (bigSep Finset.univ fun k : Fin 23 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 23 => iprop(∃ κ : ℕ, cellInv ER (Rd m) κ (kcell ck))),
    bigSep_congr (s := Finset.univ) (fun (c : Dev nD) _ => bigSep_sep' Finset.univ (fun k : Fin 23 => (atPos ER (kcell (c, k)) 0 ∅ 0 : sProp 𝕄)) (fun k => reached ER (kcell (c, k)) 0)),
    bigSep_sep', ← bigSep_univ_prod (fun ck : Dev nD × Fin 23 => (reached ER (kcell ck) 0 : sProp 𝕄))]
  iintro ⟨HI, ⟨Hat, #HR⟩, Htok⟩
  ihave HK := (BI.bigSep_exists_pi Finset.univ (fun (ck : Dev nD × Fin 23) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 23 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- Every device owing one unit to the entry cell of its partner across mask `j`, each device is dealt one unit on its own. -/
theorem launch_bar (c : Dev nD) (j : ℕ) :
    (Pipeline.launchCred (fun d : Dev nD => tallyAt (barCell (pr j d)) () 1) c : sProp 𝕄) ⊢ cred (tallyAt (barCell c) () 1) :=
  Pipeline.launchCred_tallyAt (.reg barS) (pr j) (pr j) (pr_pr j) (pr_pr j) () 1 c

omit [FloatOps F] in
/-- Every device owing the landing of round `r` to its partner's receive cell, each device is dealt that landing on its own. -/
theorem launch_rv (c : Dev nD) (r : Fin 15) :
    (Pipeline.launchCred (fun d : Dev nD => tallyAt (rvOf d r) () NR) c : sProp 𝕄) ⊢ cred (tallyAt (rvOwn c r) () NR) :=
  Pipeline.launchCred_tallyAt (.dma (rvS (r.val / 5) (r.val % 5) (by have := r.isLt; omega) (Nat.mod_lt _ (by decide))))
    (pr (r.val % 5)) (pr (r.val % 5)) (pr_pr _) (pr_pr _) () NR c

omit [FloatOps F] in
theorem cred_from (c : Dev nD) (k : ℕ) (hk : k ≤ 15) :
    (Pipeline.launchCred (fun d : Dev nD => oweFrom d (15 - k)) c : sProp 𝕄)
      ⊢ bigSep (Finset.univ.filter fun r : Fin 15 => 15 - k ≤ r.val) fun r => cred (tallyAt (rvOwn c r) () NR) := by
  induction k with
  | zero =>
    rw [show (fun d : Dev nD => oweFrom d (15 - 0)) = fun _ => (0 : CellTallies nD τ sig Unit) from funext fun d => oweFrom_done d,
      Pipeline.launchCred_zero, show (Finset.univ.filter fun r : Fin 15 => 15 - 0 ≤ r.val) = ∅ from by decide, bigSep_empty]
    exact .rfl
  | succ k ih =>
    have hn : 15 - (k + 1) < 15 := by omega
    have e : 15 - (k + 1) + 1 = 15 - k := by omega
    rw [show (fun d : Dev nD => oweFrom d (15 - (k + 1))) = fun d => oweFrom d (15 - k) + tallyAt (rvOf d ⟨15 - (k + 1), hn⟩) () NR from
        funext fun d => by rw [oweFrom_peel d _ hn, e],
      Pipeline.launchCred_add,
      show (Finset.univ.filter fun r : Fin 15 => 15 - (k + 1) ≤ r.val) = insert ⟨15 - (k + 1), hn⟩ (Finset.univ.filter fun r : Fin 15 => 15 - k ≤ r.val) from by
        ext r; simp only [Finset.mem_filter, Finset.mem_univ, true_and, Finset.mem_insert, Fin.ext_iff]; omega,
      show (bigSep (insert ⟨15 - (k + 1), hn⟩ (Finset.univ.filter fun r : Fin 15 => 15 - k ≤ r.val)) fun r => (cred (tallyAt (rvOwn c r) () NR) : sProp 𝕄))
          = iprop(cred (tallyAt (rvOwn c ⟨15 - (k + 1), hn⟩) () NR) ∗ bigSep (Finset.univ.filter fun r : Fin 15 => 15 - k ≤ r.val) fun r => cred (tallyAt (rvOwn c r) () NR)) from
        bigSep_insert (by simp only [Finset.mem_filter, Finset.mem_univ, true_and]; omega)]
    iintro ⟨H1, H2⟩
    isplitl [H2]
    · iapply (launch_rv (F := F) c ⟨15 - (k + 1), hn⟩); iexact H2
    · iapply (ih (by omega)); iexact H1

omit [FloatOps F] in
theorem cred_from0 (c : Dev nD) :
    (Pipeline.launchCred (fun d : Dev nD => oweFrom d 0) c : sProp 𝕄) ⊢ bigSep Finset.univ fun r : Fin 15 => cred (tallyAt (rvOwn c r) () NR) := by
  have h := cred_from (F := F) c 15 (le_refl _)
  rw [show (Finset.univ.filter fun r : Fin 15 => 15 - 15 ≤ r.val) = Finset.univ from by decide] at h
  exact h

omit [FloatOps F] in
theorem cred_sig (c : Dev nD) (k : ℕ) (hk : k ≤ 5) :
    (Pipeline.launchCred (fun d : Dev nD => oweSig d (5 - k)) c : sProp 𝕄)
      ⊢ iprop(cred (tallyAt (barCell c) () k) ∗ bigSep Finset.univ fun r : Fin 15 => cred (tallyAt (rvOwn c r) () NR)) := by
  induction k with
  | zero =>
    rw [show (fun d : Dev nD => oweSig d (5 - 0)) = fun d => oweFrom d 0 from funext fun d => oweSig_done d, tallyAt_zero, cred_zero]
    iintro H
    isplitr; · iempintro
    iapply (cred_from0 (F := F) c); iexact H
  | succ k ih =>
    have hn : 5 - (k + 1) < 5 := by omega
    have e : 5 - (k + 1) + 1 = 5 - k := by omega
    rw [show (fun d : Dev nD => oweSig d (5 - (k + 1))) = fun d => oweSig d (5 - k) + tallyAt (barCell (pr (5 - (k + 1)) d)) () 1 from
        funext fun d => by rw [oweSig_peel d _ hn, e],
      Pipeline.launchCred_add, ← tallyAt_add]
    iintro ⟨H1, H2⟩
    ihave H1' := (ih (by omega)) $$ H1
    icases H1' with ⟨Hb, Hr⟩
    ihave H2' := (launch_bar (F := F) c (5 - (k + 1))) $$ H2
    isplitl [Hb H2']
    · iapply (cred_add _ _).2; isplitl [Hb] <;> iassumption
    · iexact Hr

omit [FloatOps F] in
/-- The launch credit of device `c`: five units on its entry cell, one landing on each receive cell. -/
theorem creds_intro (c : Dev nD) : (Pipeline.launchCred O₀ c : sProp 𝕄) ⊢ creds c :=
  cred_sig (F := F) c 5 (le_refl _)

/-! ## What a device owes sits above its staging cells -/

theorem oweFrom_pos (c : Dev nD) (n : ℕ) {g : GSem nD τ sig} {u : Unit} (h : 0 < oweFrom c n g u) : ∃ r : Fin 15, g = rvOf c r := by
  by_cases hn : n < 15
  · rw [oweFrom_peel c n hn] at h
    rcases Pipeline.add_pos_cases h with h | h
    · exact oweFrom_pos c (n + 1) h
    · exact ⟨⟨n, hn⟩, (Pipeline.tallyAt_pos h).1⟩
  · rw [oweFrom, dif_neg hn, Pi.zero_apply, Finsupp.zero_apply] at h; exact absurd h (Nat.lt_irrefl 0)
termination_by 15 - n

theorem oweSig_pos (c : Dev nD) (j : ℕ) {g : GSem nD τ sig} {u : Unit} (h : 0 < oweSig c j g u) :
    (∃ k : Fin 5, g = barCell (pr k.val c)) ∨ ∃ r : Fin 15, g = rvOf c r := by
  by_cases hj : j < 5
  · rw [oweSig_peel c j hj] at h
    rcases Pipeline.add_pos_cases h with h | h
    · exact oweSig_pos c (j + 1) h
    · exact Or.inl ⟨⟨j, hj⟩, (Pipeline.tallyAt_pos h).1⟩
  · rw [oweSig, dif_neg hj] at h; exact Or.inr (oweFrom_pos c 0 h)
termination_by 5 - j

theorem O₀_pos {c : Dev nD} {g : GSem nD τ sig} {u : Unit} (h : 0 < O₀ c g u) :
    (∃ k : Fin 5, g = barCell (pr k.val c)) ∨ ∃ r : Fin 15, g = rvOf c r := oweSig_pos c 0 h

theorem lv_stage (c : Dev nD) (q : DmaSem sig) (hq : q.val < 2) : lv ((c : Thread nD τ), .dma q) () = 0 := by
  show (match kindOf q.val with | .rv l k => 2 + 5 * l.val + k.val | _ => 0) = 0
  rw [show kindOf q.val = .idle from if_pos hq]

theorem lv_rvOf_pos (c : Dev nD) (r : Fin 15) : 0 < lv (rvOf c r) () := by
  have h := kindOf_rv (r.val / 5) (r.val % 5) (by have := r.isLt; omega) (Nat.mod_lt _ (by decide))
  show 0 < (match kindOf (2 + (7 + 5 * (r.val / 5) + r.val % 5)) with | .rv l k => 2 + 5 * l.val + k.val | _ => 0)
  rw [h]; exact Nat.lt_of_lt_of_le Nat.zero_lt_two (Nat.le_trans (Nat.le_add_right _ _) (Nat.le_add_right _ _))

omit [FloatOps F] in
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨r, rfl⟩ <;> exact Finset.mem_singleton_self _)
      (fun p hp => by rw [Finset.mem_singleton.mp hp]; exact le_of_eq (lv_stage c q hq))
      (fun g u hg => by
        rcases O₀_pos hg with ⟨k, rfl⟩ | ⟨r, rfl⟩
        · exact Nat.one_pos
        · exact lv_rvOf_pos _ r)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The theorem's side conditions -/

omit [FloatOps F] in
theorem hbm_eq (c : Dev nD) (b : Ref sig .tc) :
    hbmPts m c b = (((c : Thread nD τ).loc b) ↦{fullShare} m ((c : Thread nD τ).loc b) : sProp 𝕄) := by
  show ((View.whole b).loc (c : Thread nD τ) ↦[(View.whole b).set]{fullShare} m ((c : Thread nD τ).loc b) : sProp 𝕄) = _
  rw [View.set_whole]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨H1, H2, H3, H4, H5, H6⟩, Hlev, Hcr, -, HG⟩
  ihave Hc := (creds_intro (F := F) c) $$ Hcr
  imodintro
  unfold start G' hbmArgs
  simp only [hbm_eq]
  isplitl
  · isplitl [HG]; · iexact HG
    isplitl [Hc]; · iexact Hc
    isplitl [Hlev]; · iexact Hlev
    isplitl [H1]; · iexact H1
    isplitl [H2]; · iexact H2
    isplitl [H3]; · iexact H3
    isplitl [H4]; · iexact H4
    isplitl [H5]; · iexact H5
    iexact H6
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(hbmArgs m c ∗ Pipeline.ownSems0 osem c ∗ Pipeline.scopedRest cfg0.spec c) := by
  rw [show (dats m ρ 0 c).Φ (Fin.last cfg0.N) = Φ₁ m c from rfl, scopedRest0_eq]
  unfold Φ₁ scratch Pipeline.ownSems0
  iintro ⟨Hr, Hz, Hh⟩
  isplitl [Hh]; · iexact Hh
  isplitl [Hz]; · iexact Hz
  iexact Hr

/-- The six weight arrays hold what the memory at launch held. -/
def QY (c : Dev nD) (s : MemSt nD τ sig (Elt F)) : Prop :=
  s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)

theorem read_args (c : Dev nD) (s' : Phys nD τ sig (Elt F)) :
    iprop(hbmArgs m c ∗ emp ∗ SI s') ⊢ |={Set.univ}=> iprop(⌜QY m c s'.mem⌝ ∗ SI s') := by
  unfold hbmArgs
  simp only [hbm_eq]
  iintro ⟨⟨H1, H2, H3, H4, H5, H6⟩, -, HSI⟩
  icombine HSI H1 gives %h1
  icombine HSI H2 gives %h2
  icombine HSI H3 gives %h3
  icombine HSI H4 gives %h4
  icombine HSI H5 gives %h5
  icombine HSI H6 gives %h6
  imodintro
  isplitr
  · ipureintro
    exact ⟨Buf.eq_of_forall_mem_univ h1, Buf.eq_of_forall_mem_univ h2, Buf.eq_of_forall_mem_univ h3,
      Buf.eq_of_forall_mem_univ h4, Buf.eq_of_forall_mem_univ h5, Buf.eq_of_forall_mem_univ h6⟩
  iexact HSI

/-! ## The run -/

def QC : PUnit × MemSt nD τ sig (Elt F) → Prop := fun r => ∀ c : Dev nD,
  (∀ w : Fin cfg0.W, r.2.mem ((cfg0.win w).arr.view.loc (c : Thread nD τ)) = (dats m ρ 0 c).arrAt w cfg0.N)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)
  ∧ r.2.mem ((c : Thread nD τ).loc main_arg5) = m ((c : Thread nD τ).loc main_arg5)
  ∧ r.2.mem ((c : Thread nD τ).loc main_arg6) = m ((c : Thread nD τ).loc main_arg6)

set_option maxRecDepth 8000 in
/-- At the compiled mesh of 32 devices, for any float values, from any memory with zero counters: given each device's
    body obligation, every weakly fair execution of @main terminates, and every final state has each device's windowed
    arrays at the proof data's final contents and the six weight arrays unchanged. -/
theorem run_main (hbody : ∀ c, BodyObligation (dats (F := F) m ρ 0 c) (defs₀ (F := F)) 𝒱₀ () Set.univ) :
    θ_run defs (onTc (τ := τ) (main (F := F))) (Idealize.ShloMosaic.s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := hbmArgs m) (Z := fun _ => iprop(emp))
    (hX := start_intro m ρ) (hin := phi0_intro m ρ) (hout := phi1_exit m ρ)
    (QY := QY m)
    (hY := read_args m)
    (hQ := fun _ h c => ⟨(h c).1, (h c).2.2⟩)

/-- info: 'Cert.KernelIdeal.Launch.run_main' depends on axioms: [propext, Classical.choice, Quot.sound] -/
#guard_msgs in #print axioms run_main

/-! ## The final arrays, in closed form -/

/-- The staged input array is never written: after the run it holds what it held. -/
theorem finalA_x (c : Dev nD) : (dats (F := F) m ρ 0 c).arrAt (0 : Fin 2) cfg0.N = m ((c : Thread nD τ).loc main_arg0) :=
  (dats (F := F) m ρ 0 c).arrAt_in (0 : Fin 2) rfl _

/-- The result array's one block, read back, is what the body left in the staging buffer. -/
theorem finalA_o (c : Dev nD) :
    (win0_1.blk t₀).view.read (Elt F) ((dats (F := F) m ρ 0 c).arrAt (1 : Fin 2) cfg0.N) = outAt m c := by
  rw [show cfg0.N = (t₀ : Fin cfg0.N).val + 1 from rfl, (dats m ρ 0 c).arrAt_succ (1 : Fin 2) t₀, flush0_1 t₀, if_pos rfl]
  exact View.read_write_univ _ _

/-- That block is the whole array: the result array holds the kernel's result. -/
theorem finalA_out (c : Dev nD) : (dats (F := F) m ρ 0 c).arrAt (1 : Fin 2) cfg0.N = outAt m c := by
  have hz : (fun a => (win0_1.index t₀) a * main_v1.ty.shape.size a) = fun _ => 0 :=
    funext fun a => by fin_cases a <;> decide
  have hr := fun f => Memref.read_access_unit_zero (Elt F) main_v1 hz (fun a => by fin_cases a <;> decide) f
  have ho := finalA_o m ρ c
  rw [hr] at ho
  exact ho

end Cert.KernelIdeal.Launch

end
-- ==== Proof.InputX.lean ====
import proofs.«900580_g7700000000000581_dist_mlpseq_tp1d_rep_rep_b64_d1024_h2048_v7x_i32_f32_1_alg».proof.Proof.Ghost

/-!
# The staged activations and the output block are the whole arrays

The one grid point's block of either window is its whole array: reading it is the identity, writing it on every index
replaces the contents.
-/

noncomputable section

namespace Cert.KernelIdeal.InputX

open Cert.KernelIdeal Cert.KernelIdeal.Gen Cert.KernelIdeal.Mesh Cert.KernelIdeal.Spec Cert.KernelIdeal.Cells Cert.KernelIdeal.Schedule

open Idealize.ShloMosaic
open Idealize.ShloMosaic.TcCoe
open Idealize.SL.Sem

variable {F : FTy → Type} [FloatOps F]
variable (m : (ℓ : Loc nD τ sig) → Buf (Elt F) ℓ)

/-- The block's offsets are zero. -/
theorem off0 : (fun a => win0_0.index (0 : Fin 1) a * win0_0.size a) = fun _ => 0 := funext fun a => Nat.zero_mul _
theorem off1 : (fun a => win0_1.index (0 : Fin 1) a * win0_1.size a) = fun _ => 0 := funext fun a => Nat.zero_mul _

/-- Reading the input window's block off the array's contents is the identity. -/
theorem blk0_read (f : (main_arg0 : Ref sig .tc).ty.Contents (Elt F)) :
    (win0_0.blk (0 : Fin 1)).view.read (Elt F) f = f :=
  Memref.read_access_unit_zero (Elt F) main_arg0 off0 _ f

/-- Device `c`'s activations are the launch memory's contents of the first argument array. -/
theorem x_eq (c : Dev nD) : (Schedule.inp m).x c = m ((c : Thread nD τ).loc main_arg0) :=
  blk0_read (m ((c : Thread nD τ).loc main_arg0))

/-- The output window's block: reading it is the identity, writing it on every index replaces the contents. -/
theorem blk1_read (f : (main_v1 : Ref sig .tc).ty.Contents (Elt F)) :
    (win0_1.blk (0 : Fin 1)).view.read (Elt F) f = f :=
  Memref.read_access_unit_zero (Elt F) main_v1 off1 _ f
theorem blk1_write (f w : (main_v1 : Ref sig .tc).ty.Contents (Elt F)) :
    (win0_1.blk (0 : Fin 1)).view.write (Elt F) f w Finset.univ = w :=
  Memref.write_access_unit_zero_univ (Elt F) main_v1 off1 _ f w

end Cert.KernelIdeal.InputX
end
-- ==== Proof.ValueSum.lean ====
import proofs.«900580_g7700000000000581_dist_mlpseq_tp1d_rep_rep_b64_d1024_h2048_v7x_i32_f32_1_alg».proof.Proof.Spec
import Idealize.ShloMosaic.Lib.ValueIdx
import Mathlib.Algebra.BigOperators.Group.Finset.Basic

/-!
# Five exchange stages add the partial sums of all 32 devices

At the ideal instance a change of format is the identity and `addf` is `+` on the extended reals, so one stage
adds the partner's running sum to one's own.  After `k` stages device `c` holds the sum of the partial sums over
the subcube spanned by the first `k` masks at `c`; that subcube is built here as a multiset by the same recursion
as the stages, so no disjointness is needed, and after five stages it is every device once.
-/

noncomputable section

namespace Cert.KernelIdeal.ValueBridge

open Idealize.ShloMosaic Cert.KernelIdeal Cert.KernelIdeal.Mesh Cert.KernelIdeal.Spec

/-- One stage at the ideal instance: pointwise `+`. -/
theorem addWire_toWire (a b : Act Ideal) (i : S64x1024.Idx) : addWire a (toWire b) i = a i + b i := rfl

/-- The devices whose partial sums device `c` has added after `k` stages, with multiplicity. -/
def cube : ℕ → Dev nD → Multiset (Dev nD)
  | 0, c => {c}
  | k + 1, c => cube k c + cube k (pr k c)

/-- After five stages: every device, once. -/
theorem cube_five (c : Dev nD) : cube 5 c = (Finset.univ : Finset (Dev nD)).val := by
  revert c; decide +kernel

/-- The running sum after `k` stages is the sum of the partial sums over the subcube. -/
theorem reduce_eq_sum (p : Dev nD → Act Ideal) (i : S64x1024.Idx) :
    ∀ (k : ℕ) (c : Dev nD), reduce p k c i = ((cube k c).map fun d => p d i).sum
  | 0, c => by
    show p c i = _
    simp only [cube, Multiset.map_singleton, Multiset.sum_singleton]
  | k + 1, c => by
    show addWire (reduce p k c) (toWire (reduce p k (pr k c))) i = _
    rw [addWire_toWire, reduce_eq_sum p i k c, reduce_eq_sum p i k (pr k c)]
    simp only [cube, Multiset.map_add, Multiset.sum_add]

/-- Five stages leave on every device the sum of all 32 partial sums. -/
theorem reduce_five (p : Dev nD → Act Ideal) (c : Dev nD) (i : S64x1024.Idx) :
    reduce p 5 c i = ∑ d : Dev nD, p d i := by
  rw [reduce_eq_sum p i 5 c, cube_five c]
  rfl

end Cert.KernelIdeal.ValueBridge

end
-- ==== Proof.ValueLayer.lean ====
import proofs.«900580_g7700000000000581_dist_mlpseq_tp1d_rep_rep_b64_d1024_h2048_v7x_i32_f32_1_alg».proof.Proof.Spec
import proofs.«900580_g7700000000000581_dist_mlpseq_tp1d_rep_rep_b64_d1024_h2048_v7x_i32_f32_1_alg».proof.Proof.Gen.ReferenceIdeal.Run
import proofs.«900580_g7700000000000581_dist_mlpseq_tp1d_rep_rep_b64_d1024_h2048_v7x_i32_f32_1_alg».proof.Proof.Gen.ReferenceIdeal.Read
import Idealize.ShloMosaic.Lib.ValueIdx
import Idealize.ShloMosaic.Lib.Pipeline.Value
import Idealize.ShloMosaic.PureOps.Ideal.Laws
import Idealize.ShloMosaic.Lib.Layout
import Mathlib.Algebra.BigOperators.Fin

/-!
# The 32 partial sums of a layer add up to the whole layer

Device `d` multiplies the activations by columns `2048 d … 2048 d + 2047` of the first weight matrix, clamps at
zero, and multiplies by rows `2048 d … 2048 d + 2047` of the second.  The whole layer's second product sums over all
65536 hidden units; that sum, read as a double sum over the block `d` and the position `k` inside it, is the sum over
the devices of their partial sums.  Only commutativity and associativity of `+` on the extended reals are used.
-/

noncomputable section

namespace Cert.KernelIdeal.ValueBridge

open Idealize.ShloMosaic Idealize.ShloMosaic.ValueIdx Cert.KernelIdeal Cert.KernelIdeal.Spec
open scoped BigOperators

/-! ## The two products of a device, read at an index -/

theorem lhs_first_0 (i : S64x2048.Idx) (q : dot_S64x1024_S1024x2048_S64x2048_1_0_0_1_n_n.contr.Idx) :
    (dot_S64x1024_S1024x2048_S64x2048_1_0_0_1_n_n.lhsIdx i q 0).val = (i 0).val := by
  unfold DotDims.lhsIdx
  rw [dif_neg (show ¬(0 : Fin S64x1024.rank) ∈ dot_S64x1024_S1024x2048_S64x2048_1_0_0_1_n_n.lhsBatch by decide),
    dif_pos (show (0 : Fin S64x1024.rank) ∈ dot_S64x1024_S1024x2048_S64x2048_1_0_0_1_n_n.lhsNonContracting by decide)]
  rfl
theorem lhs_first_1 (i : S64x2048.Idx) (q : dot_S64x1024_S1024x2048_S64x2048_1_0_0_1_n_n.contr.Idx) :
    (dot_S64x1024_S1024x2048_S64x2048_1_0_0_1_n_n.lhsIdx i q 1).val = (q ⟨0, by decide⟩).val :=
  dot_S64x1024_S1024x2048_S64x2048_1_0_0_1_n_n.lhsIdx_val_of_single rfl i q
theorem rhs_first_0 (i : S64x2048.Idx) (q : dot_S64x1024_S1024x2048_S64x2048_1_0_0_1_n_n.contr.Idx) :
    (dot_S64x1024_S1024x2048_S64x2048_1_0_0_1_n_n.rhsIdx i q 0).val = (q ⟨0, by decide⟩).val :=
  dot_S64x1024_S1024x2048_S64x2048_1_0_0_1_n_n.rhsIdx_val_of_single rfl i q
theorem rhs_first_1 (i : S64x2048.Idx) (q : dot_S64x1024_S1024x2048_S64x2048_1_0_0_1_n_n.contr.Idx) :
    (dot_S64x1024_S1024x2048_S64x2048_1_0_0_1_n_n.rhsIdx i q 1).val = (i 1).val := by
  unfold DotDims.rhsIdx
  rw [dif_neg (show ¬(1 : Fin S1024x2048.rank) ∈ dot_S64x1024_S1024x2048_S64x2048_1_0_0_1_n_n.rhsBatch by decide),
    dif_pos (show (1 : Fin S1024x2048.rank) ∈ dot_S64x1024_S1024x2048_S64x2048_1_0_0_1_n_n.rhsNonContracting by decide)]
  rfl

theorem lhs_second_0 (i : S64x1024.Idx) (q : dot_S64x2048_S2048x1024_S64x1024_1_0_0_1_n_n.contr.Idx) :
    (dot_S64x2048_S2048x1024_S64x1024_1_0_0_1_n_n.lhsIdx i q 0).val = (i 0).val := by
  unfold DotDims.lhsIdx
  rw [dif_neg (show ¬(0 : Fin S64x2048.rank) ∈ dot_S64x2048_S2048x1024_S64x1024_1_0_0_1_n_n.lhsBatch by decide),
    dif_pos (show (0 : Fin S64x2048.rank) ∈ dot_S64x2048_S2048x1024_S64x1024_1_0_0_1_n_n.lhsNonContracting by decide)]
  rfl
theorem lhs_second_1 (i : S64x1024.Idx) (q : dot_S64x2048_S2048x1024_S64x1024_1_0_0_1_n_n.contr.Idx) :
    (dot_S64x2048_S2048x1024_S64x1024_1_0_0_1_n_n.lhsIdx i q 1).val = (q ⟨0, by decide⟩).val :=
  dot_S64x2048_S2048x1024_S64x1024_1_0_0_1_n_n.lhsIdx_val_of_single rfl i q
theorem rhs_second_0 (i : S64x1024.Idx) (q : dot_S64x2048_S2048x1024_S64x1024_1_0_0_1_n_n.contr.Idx) :
    (dot_S64x2048_S2048x1024_S64x1024_1_0_0_1_n_n.rhsIdx i q 0).val = (q ⟨0, by decide⟩).val :=
  dot_S64x2048_S2048x1024_S64x1024_1_0_0_1_n_n.rhsIdx_val_of_single rfl i q
theorem rhs_second_1 (i : S64x1024.Idx) (q : dot_S64x2048_S2048x1024_S64x1024_1_0_0_1_n_n.contr.Idx) :
    (dot_S64x2048_S2048x1024_S64x1024_1_0_0_1_n_n.rhsIdx i q 1).val = (i 1).val := by
  unfold DotDims.rhsIdx
  rw [dif_neg (show ¬(1 : Fin S2048x1024.rank) ∈ dot_S64x2048_S2048x1024_S64x1024_1_0_0_1_n_n.rhsBatch by decide),
    dif_pos (show (1 : Fin S2048x1024.rank) ∈ dot_S64x2048_S2048x1024_S64x1024_1_0_0_1_n_n.rhsNonContracting by decide)]
  rfl

/-- The first product into a zero accumulator: row `p` of the activations times column `q` of the weights. -/
theorem first_apply (a : FVec Ideal S64x1024 .f32) (w : FVec Ideal S1024x2048 .f32) (p : Fin 64) (q : Fin 2048) :
    matmul (F := Ideal) dot_S64x1024_S1024x2048_S64x2048_1_0_0_1_n_n none a w (constant S64x2048 .f32 0x00000000#32) (ix2 p q)
      = ∑ k : Fin 1024, a (ix2 p k) * w (ix2 k q) := by
  simp only [matmul]
  rw [Ideal.matmul_constant_zero_apply,
    ← Equiv.sum_comp (contrEquiv1 dot_S64x1024_S1024x2048_S64x2048_1_0_0_1_n_n 1024 rfl rfl).symm]
  refine Finset.sum_congr rfl fun k _ => ?_
  have hk := contrEquiv1_symm_val dot_S64x1024_S1024x2048_S64x2048_1_0_0_1_n_n 1024 rfl rfl k
  have el : dot_S64x1024_S1024x2048_S64x2048_1_0_0_1_n_n.lhsIdx (ix2 p q)
      ((contrEquiv1 dot_S64x1024_S1024x2048_S64x2048_1_0_0_1_n_n 1024 rfl rfl).symm k) = ix2 p k :=
    funext fun b => Fin.ext (by
      match b with
      | ⟨0, _⟩ => exact lhs_first_0 _ _
      | ⟨1, _⟩ => exact (lhs_first_1 _ _).trans hk)
  have er : dot_S64x1024_S1024x2048_S64x2048_1_0_0_1_n_n.rhsIdx (ix2 p q)
      ((contrEquiv1 dot_S64x1024_S1024x2048_S64x2048_1_0_0_1_n_n 1024 rfl rfl).symm k) = ix2 k q :=
    funext fun b => Fin.ext (by
      match b with
      | ⟨0, _⟩ => exact (rhs_first_0 _ _).trans hk
      | ⟨1, _⟩ => exact rhs_first_1 _ _)
  rw [el, er]

/-- The second product into a zero accumulator. -/
theorem second_apply (a : FVec Ideal S64x2048 .f32) (w : FVec Ideal S2048x1024 .f32) (p : Fin 64) (q : Fin 1024) :
    matmul (F := Ideal) dot_S64x2048_S2048x1024_S64x1024_1_0_0_1_n_n none a w (constant S64x1024 .f32 0x00000000#32) (ix2 p q)
      = ∑ k : Fin 2048, a (ix2 p k) * w (ix2 k q) := by
  simp only [matmul]
  rw [Ideal.matmul_constant_zero_apply,
    ← Equiv.sum_comp (contrEquiv1 dot_S64x2048_S2048x1024_S64x1024_1_0_0_1_n_n 2048 rfl rfl).symm]
  refine Finset.sum_congr rfl fun k _ => ?_
  have hk := contrEquiv1_symm_val dot_S64x2048_S2048x1024_S64x1024_1_0_0_1_n_n 2048 rfl rfl k
  have el : dot_S64x2048_S2048x1024_S64x1024_1_0_0_1_n_n.lhsIdx (ix2 p q)
      ((contrEquiv1 dot_S64x2048_S2048x1024_S64x1024_1_0_0_1_n_n 2048 rfl rfl).symm k) = ix2 p k :=
    funext fun b => Fin.ext (by
      match b with
      | ⟨0, _⟩ => exact lhs_second_0 _ _
      | ⟨1, _⟩ => exact (lhs_second_1 _ _).trans hk)
  have er : dot_S64x2048_S2048x1024_S64x1024_1_0_0_1_n_n.rhsIdx (ix2 p q)
      ((contrEquiv1 dot_S64x2048_S2048x1024_S64x1024_1_0_0_1_n_n 2048 rfl rfl).symm k) = ix2 k q :=
    funext fun b => Fin.ext (by
      match b with
      | ⟨0, _⟩ => exact (rhs_second_0 _ _).trans hk
      | ⟨1, _⟩ => exact rhs_second_1 _ _)
  rw [el, er]

/-- The hidden activations of a share: the first product clamped at the zero word's value. -/
theorem hidden_apply (a : Act Ideal) (w1 : WIn Ideal) (p : Fin 64) (k : Fin 2048) :
    Spec.hidden a w1 (ix2 p k)
      = max (∑ k' : Fin 1024, a (ix2 p k') * w1 (ix2 k' k)) (Ideal.ofBits .f32 0x00000000#32) := by
  unfold Spec.hidden
  rw [maximumf_apply, first_apply]
  rfl

/-- A device's partial sum: the hidden activations times the share's rows of the second weights. -/
theorem mlp_apply (a : Act Ideal) (w1 : WIn Ideal) (w2 : WOut Ideal) (p : Fin 64) (q : Fin 1024) :
    mlp a w1 w2 (ix2 p q)
      = ∑ k : Fin 2048, max (∑ k' : Fin 1024, a (ix2 p k') * w1 (ix2 k' k)) (Ideal.ofBits .f32 0x00000000#32) * w2 (ix2 k q) := by
  unfold mlp
  rw [second_apply]
  refine Finset.sum_congr rfl fun k _ => ?_
  rw [hidden_apply]

/-! ## The whole layer, read at an index -/

theorem lidx_second (p : Fin 64) (q : Fin 1024) (K : Fin 65536) :
    Cert.ReferenceIdeal.Read.lidx_main_v3 (ix2 p q) K = ix2 p K := by
  funext b; match b with | ⟨0, _⟩ => rfl | ⟨1, _⟩ => rfl
theorem ridx_second (p : Fin 64) (q : Fin 1024) (K : Fin 65536) :
    Cert.ReferenceIdeal.Read.ridx_main_v3 (ix2 p q) K = ix2 K q := by
  funext b; match b with | ⟨0, _⟩ => rfl | ⟨1, _⟩ => rfl
theorem lidx_first (p : Fin 64) (K : Fin 65536) (k : Fin 1024) :
    Cert.ReferenceIdeal.Read.lidx_main_v0 (ix2 p K) k = ix2 p k := by
  funext b; match b with | ⟨0, _⟩ => rfl | ⟨1, _⟩ => rfl
theorem ridx_first (p : Fin 64) (K : Fin 65536) (k : Fin 1024) :
    Cert.ReferenceIdeal.Read.ridx_main_v0 (ix2 p K) k = ix2 k K := by
  funext b; match b with | ⟨0, _⟩ => rfl | ⟨1, _⟩ => rfl

/-- The whole layer at `(p, q)`: over all 65536 hidden units. -/
theorem layer_apply (a : (⟨Cert.ReferenceIdeal.S64x1024, .f32⟩ : BufTy).Contents (Elt Ideal))
    (Win : (⟨Cert.ReferenceIdeal.S1024x65536, .f32⟩ : BufTy).Contents (Elt Ideal))
    (Wout : (⟨Cert.ReferenceIdeal.S65536x1024, .f32⟩ : BufTy).Contents (Elt Ideal)) (p : Fin 64) (q : Fin 1024) :
    Cert.ReferenceIdeal.Read.val_main_v3 (F := Ideal) a Win Wout (ix2 p q)
      = ∑ K : Fin 65536, max (∑ k' : Fin 1024, a (ix2 p k') * Win (ix2 k' K)) (Ideal.ofBits .f32 0x00000000#32) * Wout (ix2 K q) := by
  rw [Cert.ReferenceIdeal.Read.val_main_v3_apply]
  refine Finset.sum_congr rfl fun K _ => ?_
  rw [lidx_second, ridx_second, Cert.ReferenceIdeal.Read.val_main_v2_apply, Cert.ReferenceIdeal.Read.val_main_v0_apply,
    Cert.ReferenceIdeal.Read.val_main_v1_apply, Cert.ReferenceIdeal.Read.val_main_cst_apply]
  simp only [lidx_first, ridx_first]
  rfl

/-! ## Hidden unit `2048 d + k` is position `k` of block `d` -/

/-- Position `k` of block `d` among the 65536 hidden units. -/
def unit (d : Fin 32) (k : Fin 2048) : Fin 65536 := ⟨d.val * 2048 + k.val, by omega⟩

/-- A sum over the hidden units is the sum over the blocks of the sums over a block. -/
theorem sum_units {M : Type*} [AddCommMonoid M] (g : Fin 65536 → M) :
    ∑ K, g K = ∑ d : Fin 32, ∑ k : Fin 2048, g (unit d k) := by
  rw [← Equiv.sum_comp ((finProdFinEquiv (m := 32) (n := 2048)).trans (finCongr (by norm_num : 32 * 2048 = 65536))) g,
    Fintype.sum_prod_type]
  refine Finset.sum_congr rfl fun d _ => Finset.sum_congr rfl fun k _ => congrArg g (Fin.ext ?_)
  show k.val + 2048 * d.val = d.val * 2048 + k.val
  omega

/-- Column `k` of block `d` of the first weights is column `unit d k` of the whole. -/
theorem cols_idx (h : Layout.Tiles ⟨2, ![1024, 2048]⟩ ⟨2, ![1024, 65536]⟩ 1 32) (d : Fin 32) (k' : Fin 1024) (k : Fin 2048) :
    h.idx d (ix2 k' k) = ix2 k' (unit d k) := by
  funext b; refine Fin.ext ?_; match b with | ⟨0, _⟩ => rfl | ⟨1, _⟩ => rfl
/-- Row `k` of block `d` of the second weights is row `unit d k` of the whole. -/
theorem rows_idx (h : Layout.Tiles ⟨2, ![2048, 1024]⟩ ⟨2, ![65536, 1024]⟩ 0 32) (d : Fin 32) (k : Fin 2048) (q : Fin 1024) :
    h.idx d (ix2 k q) = ix2 (unit d k) q := by
  funext b; refine Fin.ext ?_; match b with | ⟨0, _⟩ => rfl | ⟨1, _⟩ => rfl

/-- The devices' partial sums of a layer add up to the whole layer. -/
theorem sum_mlp (a : Act Ideal)
    (Win : (⟨Cert.ReferenceIdeal.S1024x65536, .f32⟩ : BufTy).Contents (Elt Ideal))
    (Wout : (⟨Cert.ReferenceIdeal.S65536x1024, .f32⟩ : BufTy).Contents (Elt Ideal))
    (h1 : Layout.Tiles ⟨2, ![1024, 2048]⟩ ⟨2, ![1024, 65536]⟩ 1 32)
    (h2 : Layout.Tiles ⟨2, ![2048, 1024]⟩ ⟨2, ![65536, 1024]⟩ 0 32) (i : S64x1024.Idx) :
    ∑ d : Dev nD, mlp a (Layout.block ⟨2, ![1024, 2048]⟩ ⟨2, ![1024, 65536]⟩ 1 32 d Win h1)
        (Layout.block ⟨2, ![2048, 1024]⟩ ⟨2, ![65536, 1024]⟩ 0 32 d Wout h2) i
      = Cert.ReferenceIdeal.Read.val_main_v3 (F := Ideal) a Win Wout i := by
  obtain ⟨p, q, rfl⟩ : ∃ p q, i = ix2 p q := ⟨i 0, i 1, eq_ix2 i⟩
  rw [layer_apply, sum_units]
  refine Finset.sum_congr rfl fun d _ => ?_
  rw [mlp_apply]
  refine Finset.sum_congr rfl fun k _ => ?_
  simp only [Layout.block_apply, cols_idx, rows_idx]

end Cert.KernelIdeal.ValueBridge

end
-- ==== Proof.ValueBridge.lean ====
import proofs.«900580_g7700000000000581_dist_mlpseq_tp1d_rep_rep_b64_d1024_h2048_v7x_i32_f32_1_alg».proof.Proof.ValueSum
import proofs.«900580_g7700000000000581_dist_mlpseq_tp1d_rep_rep_b64_d1024_h2048_v7x_i32_f32_1_alg».proof.Proof.ValueLayer

/-!
# The kernel's result is the reference's value

Every device starts from the same activations.  If every device enters a layer with the same activations, then each
leaves it with the sum over all devices of the partial sums, which is the whole layer of those activations: again the
same on every device.  Three layers give the reference's term.
-/

noncomputable section

namespace Cert.KernelIdeal.ValueBridge

open Idealize.ShloMosaic Cert.KernelIdeal Cert.KernelIdeal.Spec

/-- One layer: from activations common to all devices, with each device holding its blocks of the weights, to the
    whole layer of those activations on every device. -/
theorem layer_step (I : Inputs Ideal) (l : ℕ) (a : Act Ideal)
    (Win : (⟨Cert.ReferenceIdeal.S1024x65536, .f32⟩ : BufTy).Contents (Elt Ideal))
    (Wout : (⟨Cert.ReferenceIdeal.S65536x1024, .f32⟩ : BufTy).Contents (Elt Ideal))
    (ha : ∀ d, layerIn I l d = a)
    (h1 : ∀ d, I.w1 l d = Layout.block ⟨2, ![1024, 2048]⟩ ⟨2, ![1024, 65536]⟩ 1 32 d Win)
    (h2 : ∀ d, I.w2 l d = Layout.block ⟨2, ![2048, 1024]⟩ ⟨2, ![65536, 1024]⟩ 0 32 d Wout) (c : Dev nD) :
    layerIn I (l + 1) c = Cert.ReferenceIdeal.Read.val_main_v3 (F := Ideal) a Win Wout := by
  funext i
  show reduce (fun d => mlp (layerIn I l d) (I.w1 l d) (I.w2 l d)) 5 c i = _
  rw [reduce_five]
  simp only [ha, h1, h2]
  exact sum_mlp a Win Wout _ _ i

/-- The result on every device is the reference's value of the whole arrays. -/
theorem result_eq_reference (I : Cert.KernelIdeal.Spec.Inputs Ideal)
    (X : (⟨Cert.ReferenceIdeal.S64x1024, .f32⟩ : BufTy).Contents (Elt Ideal))
    (A1 A3 A5 : (⟨Cert.ReferenceIdeal.S1024x65536, .f32⟩ : BufTy).Contents (Elt Ideal))
    (A2 A4 A6 : (⟨Cert.ReferenceIdeal.S65536x1024, .f32⟩ : BufTy).Contents (Elt Ideal))
    (hx : ∀ c, I.x c = X)
    (h10 : ∀ c, I.w1 0 c = Layout.block ⟨2, ![1024, 2048]⟩ ⟨2, ![1024, 65536]⟩ 1 32 c A1)
    (h20 : ∀ c, I.w2 0 c = Layout.block ⟨2, ![2048, 1024]⟩ ⟨2, ![65536, 1024]⟩ 0 32 c A2)
    (h11 : ∀ c, I.w1 1 c = Layout.block ⟨2, ![1024, 2048]⟩ ⟨2, ![1024, 65536]⟩ 1 32 c A3)
    (h21 : ∀ c, I.w2 1 c = Layout.block ⟨2, ![2048, 1024]⟩ ⟨2, ![65536, 1024]⟩ 0 32 c A4)
    (h12 : ∀ c, I.w1 2 c = Layout.block ⟨2, ![1024, 2048]⟩ ⟨2, ![1024, 65536]⟩ 1 32 c A5)
    (h22 : ∀ c, I.w2 2 c = Layout.block ⟨2, ![2048, 1024]⟩ ⟨2, ![65536, 1024]⟩ 0 32 c A6) (c : Dev 32) :
    Cert.KernelIdeal.Spec.result I c =
      Host.dotGeneral (F := Ideal) (φ₁ := .f32) (φ₂ := .f32) Cert.ReferenceIdeal.dot_S64x65536_S65536x1024_S64x1024_1_0_0_1_n_n none (maximumf (Host.dotGeneral (F := Ideal) (φ₁ := .f32) (φ₂ := .f32) Cert.ReferenceIdeal.dot_S64x1024_S1024x65536_S64x65536_1_0_0_1_n_n none (Host.dotGeneral (F := Ideal) (φ₁ := .f32) (φ₂ := .f32) Cert.ReferenceIdeal.dot_S64x65536_S65536x1024_S64x1024_1_0_0_1_n_n none (maximumf (Host.dotGeneral (F := Ideal) (φ₁ := .f32) (φ₂ := .f32) Cert.ReferenceIdeal.dot_S64x1024_S1024x65536_S64x65536_1_0_0_1_n_n none (Host.dotGeneral (F := Ideal) (φ₁ := .f32) (φ₂ := .f32) Cert.ReferenceIdeal.dot_S64x65536_S65536x1024_S64x1024_1_0_0_1_n_n none (maximumf (Host.dotGeneral (F := Ideal) (φ₁ := .f32) (φ₂ := .f32) Cert.ReferenceIdeal.dot_S64x1024_S1024x65536_S64x65536_1_0_0_1_n_n none (X) (A1)) (broadcastInDim Cert.ReferenceIdeal.S64x65536 ![] Cert.ReferenceIdeal.Gen.bcast_S_S64x65536 (constant Cert.ReferenceIdeal.S_ .f32 0x00000000#32))) (A2)) (A3)) (broadcastInDim Cert.ReferenceIdeal.S64x65536 ![] Cert.ReferenceIdeal.Gen.bcast_S_S64x65536 (constant Cert.ReferenceIdeal.S_ .f32 0x00000000#32))) (A4)) (A5)) (broadcastInDim Cert.ReferenceIdeal.S64x65536 ![] Cert.ReferenceIdeal.Gen.bcast_S_S64x65536 (constant Cert.ReferenceIdeal.S_ .f32 0x00000000#32))) (A6) := by
  have e1 : ∀ d, layerIn I 1 d = Cert.ReferenceIdeal.Read.val_main_v3 (F := Ideal) X A1 A2 :=
    fun d => layer_step I 0 X A1 A2 hx h10 h20 d
  have e2 : ∀ d, layerIn I 2 d = Cert.ReferenceIdeal.Read.val_main_v3 (F := Ideal)
      (Cert.ReferenceIdeal.Read.val_main_v3 (F := Ideal) X A1 A2) A3 A4 :=
    fun d => layer_step I 1 _ A3 A4 e1 h11 h21 d
  have e3 : layerIn I 3 c = Cert.ReferenceIdeal.Read.val_main_v3 (F := Ideal)
      (Cert.ReferenceIdeal.Read.val_main_v3 (F := Ideal) (Cert.ReferenceIdeal.Read.val_main_v3 (F := Ideal) X A1 A2) A3 A4) A5 A6 :=
    layer_step I 2 _ A5 A6 e2 h12 h22 c
  exact e3

/-- info: 'Cert.KernelIdeal.ValueBridge.result_eq_reference' depends on axioms: [propext, Classical.choice, Quot.sound] -/
#guard_msgs in #print axioms result_eq_reference

end Cert.KernelIdeal.ValueBridge

end
-- ==== Proof.RefFrame.lean ====
import proofs.«900580_g7700000000000581_dist_mlpseq_tp1d_rep_rep_b64_d1024_h2048_v7x_i32_f32_1_alg».proof.Defs
import proofs.«900580_g7700000000000581_dist_mlpseq_tp1d_rep_rep_b64_d1024_h2048_v7x_i32_f32_1_alg».proof.Proof.Gen.ReferenceIdeal
import proofs.«900580_g7700000000000581_dist_mlpseq_tp1d_rep_rep_b64_d1024_h2048_v7x_i32_f32_1_alg».proof.Proof.Gen.ReferenceIdeal.Run
import proofs.«900580_g7700000000000581_dist_mlpseq_tp1d_rep_rep_b64_d1024_h2048_v7x_i32_f32_1_alg».proof.Proof.Gen.ReferenceIdeal.Read
import proofs.«900580_g7700000000000581_dist_mlpseq_tp1d_rep_rep_b64_d1024_h2048_v7x_i32_f32_1_alg».proof.Proof.Gen.Pre_finite_inputs_ReferenceIdeal

/-!
# The reference's side

The reference is a straight line of fifteen host operations on one device: three times a product with the first
weight, a maximum with zero, a product with the second weight.  Its run ends with the result at that composed term
of the arguments and the arguments as they were; the frame is that run with the result dropped.
-/

noncomputable section

namespace Cert.Proof.RefSide

open Idealize.ShloMosaic Idealize.SL.Sem

theorem frame_ri : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.Assembly.lean ====
import proofs.«900580_g7700000000000581_dist_mlpseq_tp1d_rep_rep_b64_d1024_h2048_v7x_i32_f32_1_alg».proof.Defs
import proofs.«900580_g7700000000000581_dist_mlpseq_tp1d_rep_rep_b64_d1024_h2048_v7x_i32_f32_1_alg».proof.Proof.Launch
import proofs.«900580_g7700000000000581_dist_mlpseq_tp1d_rep_rep_b64_d1024_h2048_v7x_i32_f32_1_alg».proof.Proof.InputX
import proofs.«900580_g7700000000000581_dist_mlpseq_tp1d_rep_rep_b64_d1024_h2048_v7x_i32_f32_1_alg».proof.Proof.ValueBridge
import proofs.«900580_g7700000000000581_dist_mlpseq_tp1d_rep_rep_b64_d1024_h2048_v7x_i32_f32_1_alg».proof.Proof.RefFrame
import proofs.«900580_g7700000000000581_dist_mlpseq_tp1d_rep_rep_b64_d1024_h2048_v7x_i32_f32_1_alg».proof.Proof.Gen.Pre_finite_inputs_Kernel

/-!
# From one thread's body to the claims about the idealized kernel

Given the body obligation at every device, the launch runs the whole mesh: every fair execution ends with each
device's staged input array as it was, its six weight arrays as they were, and its result array holding what the body
left in the result's staging buffer, `Spec.result` of the device inputs.  The frame is that run with the result
dropped.  For the equivalence, the devices' inputs are the blocks of the reference's whole arrays, so `Spec.result`
is, at the ideal instance, the reference's composed term on every device: the 32 partial sums of a layer add up to
the whole layer (a sum over 65536 split into 32 blocks of 2048), and five exchange stages across five independent
masks add up all 32 devices' partial sums.
-/

noncomputable section

namespace Cert.Proof.Assembly

open Idealize.ShloMosaic Idealize.ShloMosaic.TcCoe Idealize.SL.Sem
open Idealize.ShloMosaic.Pipeline (BodyObligation)
open Cert.KernelIdeal Cert.KernelIdeal.Gen Cert.KernelIdeal.Schedule Cert.KernelIdeal.Ghost

/-- The body obligation at every device, for a float instance. -/
abbrev BodyAll (F : FTy → Type) [FloatOps F] : Prop :=
  ∀ (m : (ℓ : Loc nD τ sig) → Buf (Elt F) ℓ) (ρ : Dev nD → PrngReg) (c : Dev nD),
    BodyObligation (dats (F := F) m ρ 0 c) (defs₀ (F := F)) 𝒱₀ () Set.univ

theorem frame_of_body (hbody : BodyAll Ideal) : Cert.frame_KernelIdeal := fun m ρ _ =>
  (θ_run (Cert.KernelIdeal.defs (F := Ideal)) _ _).mono
    (fun r h c => ⟨((h c).1 0).trans (Cert.KernelIdeal.Launch.finalA_x m ρ c), (h c).2⟩)
    (Cert.KernelIdeal.Launch.run_main (F := Ideal) m ρ (hbody m ρ))

theorem algebraic_of_body (hbody : BodyAll Ideal) : Cert.algebraic_KernelIdeal_ReferenceIdeal := by
  intro m ρ m' ρ' _ hagree
  refine ⟨_, ?_, (θ_run Cert.ReferenceIdeal.defs _ _).mono (fun _ h => h 0) (Cert.ReferenceIdeal.Value.run (F := Ideal) m' ρ')⟩
  refine (θ_run (Cert.KernelIdeal.defs (F := Ideal)) _ _).mono
    (fun r h c => ⟨?_, ((h c).1 0).trans (Cert.KernelIdeal.Launch.finalA_x m ρ c), (h c).2⟩)
    (Cert.KernelIdeal.Launch.run_main (F := Ideal) m ρ (hbody m ρ))
  refine ((h c).1 1).trans ((Cert.KernelIdeal.Launch.finalA_out m ρ c).trans ?_)
  exact Cert.KernelIdeal.ValueBridge.result_eq_reference (inp m) _ _ _ _ _ _ _
    (fun d => (Cert.KernelIdeal.InputX.x_eq m d).trans (hagree d).1)
    (fun d => (hagree d).2.1) (fun d => (hagree d).2.2.1)
    (fun d => (hagree d).2.2.2.1) (fun d => (hagree d).2.2.2.2.1)
    (fun d => (hagree d).2.2.2.2.2.1) (fun d => (hagree d).2.2.2.2.2.2) c

end Cert.Proof.Assembly

end
-- ==== Proof.Bits.Mesh.lean ====
import proofs.«900580_g7700000000000581_dist_mlpseq_tp1d_rep_rep_b64_d1024_h2048_v7x_i32_f32_1_alg».proof.Proof.Gen.Kernel

/-!
# The mesh of 32 devices as a five-dimensional cube

A device's number is read as five bits.  The kernel's coordinates are `z = n / 8`, `y = (n % 8) / 2`
and `x = (n % 2) xor (y % 2)`; flipping one coordinate bit of `(x, y, z)` is, on the number itself,
the exclusive-or with one of the five masks `1, 3, 8, 4, 16` (a flip of the low bit of `y` also flips
the parity that enters the position of `x`, hence `3`).  Stage `k` of every exchange pairs a device with
the device across mask `k`; the pairing is an involution without fixed points, and the five masks are
independent, so five stages reach the whole cube.
-/

namespace Cert.Kernel.Mesh

open Idealize.ShloMosaic Cert.Kernel Cert.Kernel.Gen

/-- The mask of stage `k`. -/
def mask : ℕ → ℕ
  | 0 => 1 | 1 => 3 | 2 => 8 | 3 => 4 | 4 => 16 | _ => 0

theorem xor_lt (n k : ℕ) (hn : n < 32) : n ^^^ mask k < 32 := by
  have hk : mask k < 32 := by unfold mask; split <;> decide
  exact Nat.xor_lt_two_pow (n := 5) hn hk

/-- The device across mask `k`. -/
def pr (k : ℕ) (c : Dev nD) : Dev nD := ⟨c.val ^^^ mask k, xor_lt c.val k c.isLt⟩

theorem pr_pr (k : ℕ) (c : Dev nD) : pr k (pr k c) = c :=
  Fin.ext (by show (c.val ^^^ mask k) ^^^ mask k = c.val; rw [Nat.xor_assoc, Nat.xor_self, Nat.xor_zero])

/-- Stage `k` as a permutation of the devices. -/
def prE (k : ℕ) : Dev nD ≃ Dev nD := ⟨pr k, pr k, pr_pr k, pr_pr k⟩

theorem pr_ne (k : ℕ) (hk : k < 5) (c : Dev nD) : pr k c ≠ c := by
  have : ∀ k : Fin 5, ∀ c : Dev nD, pr k.val c ≠ c := by decide
  exact this ⟨k, hk⟩ c

theorem pr_inj_stage (j k : ℕ) (hj : j < 5) (hk : k < 5) (c : Dev nD) (h : pr j c = pr k c) : j = k := by
  have : ∀ j k : Fin 5, ∀ c : Dev nD, pr j.val c = pr k.val c → j = k := by decide
  exact congrArg Fin.val (this ⟨j, hj⟩ ⟨k, hk⟩ c h)

/-! The printed device chains.  The five entry signals name the five partners in stage order; the
    transfer of layer `l`, stage `k` is chain `6 + 5 l + k` and names partner `k`. -/

theorem dev1_eq (c : Dev nD) : (⟨k0_dev1 c, k0_dev1_lt c⟩ : Dev nD) = pr 0 c := Fin.ext (by revert c; decide +kernel)
theorem dev2_eq (c : Dev nD) : (⟨k0_dev2 c, k0_dev2_lt c⟩ : Dev nD) = pr 1 c := Fin.ext (by revert c; decide +kernel)
theorem dev3_eq (c : Dev nD) : (⟨k0_dev3 c, k0_dev3_lt c⟩ : Dev nD) = pr 2 c := Fin.ext (by revert c; decide +kernel)
theorem dev4_eq (c : Dev nD) : (⟨k0_dev4 c, k0_dev4_lt c⟩ : Dev nD) = pr 3 c := Fin.ext (by revert c; decide +kernel)
theorem dev5_eq (c : Dev nD) : (⟨k0_dev5 c, k0_dev5_lt c⟩ : Dev nD) = pr 4 c := Fin.ext (by revert c; decide +kernel)
theorem dev6_eq (c : Dev nD) : (⟨k0_dev6 c, k0_dev6_lt c⟩ : Dev nD) = pr 0 c := Fin.ext (by revert c; decide +kernel)
theorem dev7_eq (c : Dev nD) : (⟨k0_dev7 c, k0_dev7_lt c⟩ : Dev nD) = pr 1 c := Fin.ext (by revert c; decide +kernel)
theorem dev8_eq (c : Dev nD) : (⟨k0_dev8 c, k0_dev8_lt c⟩ : Dev nD) = pr 2 c := Fin.ext (by revert c; decide +kernel)
theorem dev9_eq (c : Dev nD) : (⟨k0_dev9 c, k0_dev9_lt c⟩ : Dev nD) = pr 3 c := Fin.ext (by revert c; decide +kernel)
theorem dev10_eq (c : Dev nD) : (⟨k0_dev10 c, k0_dev10_lt c⟩ : Dev nD) = pr 4 c := Fin.ext (by revert c; decide +kernel)
theorem dev11_eq (c : Dev nD) : (⟨k0_dev11 c, k0_dev11_lt c⟩ : Dev nD) = pr 0 c := Fin.ext (by revert c; decide +kernel)
theorem dev12_eq (c : Dev nD) : (⟨k0_dev12 c, k0_dev12_lt c⟩ : Dev nD) = pr 1 c := Fin.ext (by revert c; decide +kernel)
theorem dev13_eq (c : Dev nD) : (⟨k0_dev13 c, k0_dev13_lt c⟩ : Dev nD) = pr 2 c := Fin.ext (by revert c; decide +kernel)
theorem dev14_eq (c : Dev nD) : (⟨k0_dev14 c, k0_dev14_lt c⟩ : Dev nD) = pr 3 c := Fin.ext (by revert c; decide +kernel)
theorem dev15_eq (c : Dev nD) : (⟨k0_dev15 c, k0_dev15_lt c⟩ : Dev nD) = pr 4 c := Fin.ext (by revert c; decide +kernel)
theorem dev16_eq (c : Dev nD) : (⟨k0_dev16 c, k0_dev16_lt c⟩ : Dev nD) = pr 0 c := Fin.ext (by revert c; decide +kernel)
theorem dev17_eq (c : Dev nD) : (⟨k0_dev17 c, k0_dev17_lt c⟩ : Dev nD) = pr 1 c := Fin.ext (by revert c; decide +kernel)
theorem dev18_eq (c : Dev nD) : (⟨k0_dev18 c, k0_dev18_lt c⟩ : Dev nD) = pr 2 c := Fin.ext (by revert c; decide +kernel)
theorem dev19_eq (c : Dev nD) : (⟨k0_dev19 c, k0_dev19_lt c⟩ : Dev nD) = pr 3 c := Fin.ext (by revert c; decide +kernel)
theorem dev20_eq (c : Dev nD) : (⟨k0_dev20 c, k0_dev20_lt c⟩ : Dev nD) = pr 4 c := Fin.ext (by revert c; decide +kernel)

end Cert.Kernel.Mesh
-- ==== Proof.Bits.Spec.lean ====
import proofs.«900580_g7700000000000581_dist_mlpseq_tp1d_rep_rep_b64_d1024_h2048_v7x_i32_f32_1_alg».proof.Proof.Gen.Kernel.Skeleton
import proofs.«900580_g7700000000000581_dist_mlpseq_tp1d_rep_rep_b64_d1024_h2048_v7x_i32_f32_1_alg».proof.Proof.Bits.Mesh

/-!
# What each device computes, as pure functions

One layer on one device is `relu (a · W₁) · W₂` over that device's 2048 columns of `W₁` and 2048 rows of
`W₂`: a partial sum of the whole layer.  The partial sums are added across the 32 devices by five
exchanges: at stage `k` a device rounds its running sum to the wire format, sends it across mask `k`,
and adds what its partner sent.  After five stages the running sum is the input of the next layer.
Everything here is generic in the float instance.
-/

noncomputable section

namespace Cert.Kernel.Spec

open Idealize.ShloMosaic Cert.Kernel Cert.Kernel.Gen Cert.Kernel.Mesh

variable {F : FTy → Type} [FloatOps F]

abbrev Act (F : FTy → Type) [FloatOps F] := FVec F S64x1024 .f32
abbrev Wire (F : FTy → Type) [FloatOps F] := FVec F S64x1024 .bf16
abbrev WIn (F : FTy → Type) [FloatOps F] := FVec F S1024x2048 .f32
abbrev WOut (F : FTy → Type) [FloatOps F] := FVec F S2048x1024 .f32

/-- The hidden activations of one device's share: `relu (a · W₁)`. -/
def hidden (a : Act F) (w1 : WIn F) : FVec F S64x2048 .f32 :=
  maximumf (matmul dot_S64x1024_S1024x2048_S64x2048_1_0_0_1_n_n none a w1 (constant S64x2048 .f32 0x00000000#32))
    (broadcast S64x2048 (Scalar.ofBits .f32 0x00000000#32))

/-- One device's partial sum of a layer: `relu (a · W₁) · W₂`. -/
def mlp (a : Act F) (w1 : WIn F) (w2 : WOut F) : Act F :=
  matmul dot_S64x2048_S2048x1024_S64x1024_1_0_0_1_n_n none (hidden a w1) w2 (constant S64x1024 .f32 0x00000000#32)

/-- A running sum rounded to the wire format. -/
def toWire (a : Act F) : Wire F := truncf .bf16 a bitsLt_bf16_f32

/-- A running sum plus what the partner sent. -/
def addWire (a : Act F) (r : Wire F) : Act F := addf a (extf .f32 r bitsLt_bf16_f32)

/-- The program's inputs, device by device: the activations and, per layer, the two weight blocks. -/
structure Inputs (F : FTy → Type) [FloatOps F] where
  x : Dev nD → Act F
  w1 : ℕ → Dev nD → WIn F
  w2 : ℕ → Dev nD → WOut F

/-- `k` stages of the exchange over partial sums `p`. -/
def reduce (p : Dev nD → Act F) : ℕ → Dev nD → Act F
  | 0, c => p c
  | k + 1, c => addWire (reduce p k c) (toWire (reduce p k (pr k c)))

/-- The input of layer `l` on each device. -/
def layerIn (I : Inputs F) : ℕ → Dev nD → Act F
  | 0, c => I.x c
  | l + 1, c => reduce (fun d => mlp (layerIn I l d) (I.w1 l d) (I.w2 l d)) 5 c

/-- The running sum of layer `l` on device `c` after `k` stages. -/
def acc (I : Inputs F) (l k : ℕ) (c : Dev nD) : Act F :=
  reduce (fun d => mlp (layerIn I l d) (I.w1 l d) (I.w2 l d)) k c

theorem acc_zero (I : Inputs F) (l : ℕ) (c : Dev nD) : acc I l 0 c = mlp (layerIn I l c) (I.w1 l c) (I.w2 l c) := rfl
theorem acc_succ (I : Inputs F) (l k : ℕ) (c : Dev nD) :
    acc I l (k + 1) c = addWire (acc I l k c) (toWire (acc I l k (pr k c))) := rfl
theorem layerIn_succ (I : Inputs F) (l : ℕ) (c : Dev nD) : layerIn I (l + 1) c = acc I l 5 c := rfl

/-- What device `c` puts on the wire at layer `l`, stage `k`. -/
def sent (I : Inputs F) (l k : ℕ) (c : Dev nD) : Wire F := toWire (acc I l k c)

/-- The result on device `c`: the input a fourth layer would have. -/
def result (I : Inputs F) (c : Dev nD) : Act F := layerIn I 3 c

end Cert.Kernel.Spec

end
-- ==== Proof.Bits.Cells.lean ====
import proofs.«900580_g7700000000000581_dist_mlpseq_tp1d_rep_rep_b64_d1024_h2048_v7x_i32_f32_1_alg».proof.Proof.Gen.Kernel.Frame
import proofs.«900580_g7700000000000581_dist_mlpseq_tp1d_rep_rep_b64_d1024_h2048_v7x_i32_f32_1_alg».proof.Proof.Bits.Spec
import Idealize.ShloMosaic.Lib.Pipeline.Launch
import Idealize.ShloMosaic.Lib.Pipeline.Kit
import Idealize.ShloMosaic.Lib.Tactic

/-!
# The buffers, slots, semaphores and cells of the cross-device protocol

Per device: one entry cell (the runtime's barrier semaphore), on which each of the five partners lands one
unit; one send cell, on which the device's own fifteen transfers complete, one a round; fifteen receive
cells, one per (layer, stage), on which the partner of that stage lands its rounded running sum; six copy
cells for the local weight copies.  A partner's entry signal carries the three receive slots the signaller
keeps for that partner, so a transfer into a slot is only made by a device that was handed the slot.
-/

noncomputable section

namespace Cert.Kernel.Cells

open Cert.Kernel Cert.Kernel.Gen Cert.Kernel.Mesh Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties `Fin 5`) -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Buffers -/

abbrev xM : Memref sig .tc .vmem S64x1024 .f32 := Memref.whole cc0_stg0_0
abbrev oM : Memref sig .tc .vmem S64x1024 .f32 := Memref.whole cc0_stg1_0
abbrev winM : Memref sig .tc .vmem S2x1024x2048 .f32 := Memref.whole cc0_scratch0
abbrev woutM : Memref sig .tc .vmem S2x2048x1024 .f32 := Memref.whole cc0_scratch1
abbrev sendM : Memref sig .tc .vmem S64x1024 .bf16 := Memref.whole cc0_scratch2
abbrev recvM : Memref sig .tc .vmem S3x5x64x1024 .bf16 := Memref.whole cc0_scratch3

theorem inbW1 (s : ℕ) (hs : s < 2) : ∀ a, (![s, 0, 0] : Fin 3 → Nat) a + S1x1024x2048.size a ≤ S2x1024x2048.size a := by
  intro a; fin_cases a <;> simp <;> omega
theorem inbW2 (s : ℕ) (hs : s < 2) : ∀ a, (![s, 0, 0] : Fin 3 → Nat) a + S1x2048x1024.size a ≤ S2x2048x1024.size a := by
  intro a; fin_cases a <;> simp <;> omega
theorem inbR (l k : ℕ) (hl : l < 3) (hk : k < 5) : ∀ a, (![l, k, 0, 0] : Fin 4 → Nat) a + S1x1x64x1024.size a ≤ S3x5x64x1024.size a := by
  intro a; fin_cases a <;> simp <;> omega

/-- Slot `s` of the first-weight buffer, as the kernel addresses it. -/
def w1Slot (s : ℕ) (hs : s < 2) : Memref sig .tc .vmem S1024x2048 .f32 :=
  ((winM.slice (Rect.unit (s := S2x1024x2048) ![s, 0, 0] S1x1024x2048.size (inbW1 s hs)) (fun _ => rfl)).squeeze S1024x2048 squeezes_S1x1024x2048_S1024x2048)
def w2Slot (s : ℕ) (hs : s < 2) : Memref sig .tc .vmem S2048x1024 .f32 :=
  ((woutM.slice (Rect.unit (s := S2x2048x1024) ![s, 0, 0] S1x2048x1024.size (inbW2 s hs)) (fun _ => rfl)).squeeze S2048x1024 squeezes_S1x2048x1024_S2048x1024)
/-- The receive slot of layer `l`, stage `k`. -/
def rSlot (l k : ℕ) (hl : l < 3) (hk : k < 5) : Memref sig .tc .vmem S64x1024 .bf16 :=
  ((recvM.slice (Rect.unit (s := S3x5x64x1024) ![l, k, 0, 0] S1x1x64x1024.size (inbR l k hl hk)) (fun _ => rfl)).squeeze S64x1024 squeezes_S1x1x64x1024_S64x1024)

/-! ## Semaphores and cells -/

abbrev barS : Sem sig := (SemArray.scalar (sig.barrier 0 rfl) : Sems sig S_).sem
/-- The protocol's DMA semaphores by number: `2 l + i` the copy of layer `l` (`i = 0` first weight, `1` second),
    `6` the send semaphore, `7 + 5 l + k` the receive semaphore of layer `l`, stage `k`. -/
def dsem (j : ℕ) (hj : j < 22) : DmaSem sig := ⟨2 + j, by show 2 + j < 24; omega⟩

abbrev cpS (l i : ℕ) (hl : l < 3) (hi : i < 2) : DmaSem sig := dsem (2 * l + i) (by omega)
abbrev sdS : DmaSem sig := dsem 6 (by decide)
abbrev rvS (l k : ℕ) (hl : l < 3) (hk : k < 5) : DmaSem sig := dsem (7 + 5 * l + k) (by omega)

abbrev barCell (c : Dev nD) : GSem nD τ sig := ((c : Thread nD τ), .reg barS)
abbrev dCell (c : Dev nD) (j : ℕ) (hj : j < 22) : GSem nD τ sig := ((c : Thread nD τ), .dma (dsem j hj))
abbrev cpCell (c : Dev nD) (l i : ℕ) (hl : l < 3) (hi : i < 2) : GSem nD τ sig := ((c : Thread nD τ), .dma (cpS l i hl hi))
abbrev sdCell (c : Dev nD) : GSem nD τ sig := ((c : Thread nD τ), .dma sdS)
abbrev rvCell (c : Dev nD) (l k : ℕ) (hl : l < 3) (hk : k < 5) : GSem nD τ sig := ((c : Thread nD τ), .dma (rvS l k hl hk))

/-- The kernel's spelling of the semaphores is these. -/
theorem sdS_eq : cc0_scratch5.sem = sdS := by decide

theorem inbC (l i : ℕ) (hl : l < 3) (hi : i < 2) : ∀ a, (![l, i] : Fin 2 → Nat) a + S1x1.size a ≤ S3x2.size a := by
  intro a; fin_cases a <;> simp <;> omega
theorem inbV (l k : ℕ) (hl : l < 3) (hk : k < 5) : ∀ a, (![l, k] : Fin 2 → Nat) a + S1x1.size a ≤ S3x5.size a := by
  intro a; fin_cases a <;> simp <;> omega

/-- The copy semaphore of layer `l`, weight `i`, as the kernel slices it out of its 3×2 array: the six cases are
    decided at once, and the statement does not depend on which proof bounds the slice. -/
theorem cpS_eq (l i : ℕ) (hl : l < 3) (hi : i < 2) (h : ∀ a, (![l, i] : Fin 2 → Nat) a + S1x1.size a ≤ S3x2.size a) :
    ((cc0_scratch4.slice (Rect.unit (s := S3x2) ![l, i] S1x1.size h)).squeeze S_ squeezes_S1x1_S_).sem = cpS l i hl hi := by
  have key : ∀ (l : Fin 3) (i : Fin 2),
      ((cc0_scratch4.slice (Rect.unit (s := S3x2) ![l.val, i.val] S1x1.size (inbC l.val i.val l.isLt i.isLt))).squeeze S_ squeezes_S1x1_S_).sem
        = cpS l.val i.val l.isLt i.isLt := by decide
  exact key ⟨l, hl⟩ ⟨i, hi⟩

/-- The receive semaphore of layer `l`, stage `k`, as the kernel slices it out of its 3×5 array. -/
theorem rvS_eq (l k : ℕ) (hl : l < 3) (hk : k < 5) (h : ∀ a, (![l, k] : Fin 2 → Nat) a + S1x1.size a ≤ S3x5.size a) :
    ((cc0_scratch6.slice (Rect.unit (s := S3x5) ![l, k] S1x1.size h)).squeeze S_ squeezes_S1x1_S_).sem = rvS l k hl hk := by
  have key : ∀ (l : Fin 3) (k : Fin 5),
      ((cc0_scratch6.slice (Rect.unit (s := S3x5) ![l.val, k.val] S1x1.size (inbV l.val k.val l.isLt k.isLt))).squeeze S_ squeezes_S1x1_S_).sem
        = rvS l.val k.val l.isLt k.isLt := by decide
  exact key ⟨l, hl⟩ ⟨k, hk⟩

end Cert.Kernel.Cells

end
-- ==== Proof.Bits.Schedule.lean ====
import proofs.«900580_g7700000000000581_dist_mlpseq_tp1d_rep_rep_b64_d1024_h2048_v7x_i32_f32_1_alg».proof.Proof.Bits.Cells

/-!
# The schedule of the cross-device protocol

One entry cell per device (the runtime's barrier semaphore): a single round of five duties, one unit each, duty `k`
paid by the partner across mask `k`, which hands over the three receive slots it keeps for that partner.  One send
cell: fifteen rounds of one duty, the device's own transfer of that round completing, which returns the send buffer
at what was sent.  Fifteen receive cells: one round of one duty, the partner's transfer landing, which returns the
slot holding the partner's rounded running sum.  Six copy cells: one round of one duty, the local weight copy
landing, which returns the weight slot holding the weight block and the source array.
-/

noncomputable section

namespace Cert.Kernel.Schedule

open Cert.Kernel Cert.Kernel.Gen Cert.Kernel.Mesh Cert.Kernel.Spec Cert.Kernel.Cells

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a DMA semaphore is for -/

inductive Kind : Type
  | idle
  | cp (l : Fin 3) (i : Fin 2)
  | sd
  | rv (l : Fin 3) (k : Fin 5)
  deriving DecidableEq

/-- The role of DMA semaphore number `n`: `0, 1` are the pipeline's; `2 … 7` the copies; `8` the send; `9 … 23` the receives. -/
def kindOf (n : ℕ) : Kind :=
  if n < 2 then .idle
  else if h : n < 8 then .cp ⟨(n - 2) / 2, by omega⟩ ⟨(n - 2) % 2, by omega⟩
  else if n = 8 then .sd
  else if h : n < 24 then .rv ⟨(n - 9) / 5, by omega⟩ ⟨(n - 9) % 5, by omega⟩
  else .idle

theorem kindOf_cp (l i : ℕ) (hl : l < 3) (hi : i < 2) : kindOf (2 + (2 * l + i)) = .cp ⟨l, hl⟩ ⟨i, hi⟩ := by
  have key : ∀ (l : Fin 3) (i : Fin 2), kindOf (2 + (2 * l.val + i.val)) = .cp l i := by decide
  exact key ⟨l, hl⟩ ⟨i, hi⟩
theorem kindOf_sd : kindOf (2 + 6) = .sd := rfl
theorem kindOf_rv (l k : ℕ) (hl : l < 3) (hk : k < 5) : kindOf (2 + (7 + 5 * l + k)) = .rv ⟨l, hl⟩ ⟨k, hk⟩ := by
  have key : ∀ (l : Fin 3) (k : Fin 5), kindOf (2 + (7 + 5 * l.val + k.val)) = .rv l k := by decide
  exact key ⟨l, hl⟩ ⟨k, hk⟩

/-! ## The inputs, device by device, as the memory at launch holds them -/

/-- Device `c`'s activations as the pipeline stages them, and its weight blocks as they lie in HBM. -/
def inp : Inputs F where
  x c := (win0_0.blk (0 : Fin 1)).view.read (Elt F) (m ((c : Thread nD τ).loc main_arg0))
  w1 l c := match l with
    | 0 => m ((c : Thread nD τ).loc main_arg1)
    | 1 => m ((c : Thread nD τ).loc main_arg3)
    | _ => m ((c : Thread nD τ).loc main_arg5)
  w2 l c := match l with
    | 0 => m ((c : Thread nD τ).loc main_arg2)
    | 1 => m ((c : Thread nD τ).loc main_arg4)
    | _ => m ((c : Thread nD τ).loc main_arg6)

/-- The HBM array holding the first weight of layer `l`, and the second. -/
def w1Ref (l : Fin 3) : Ref sig .tc := match l with | 0 => main_arg1 | 1 => main_arg3 | 2 => main_arg5
def w2Ref (l : Fin 3) : Ref sig .tc := match l with | 0 => main_arg2 | 1 => main_arg4 | 2 => main_arg6

/-! ## Credits -/

def NW1 : ℕ := (w1Slot 0 Nat.zero_lt_two).view.dmaCredit
def NW2 : ℕ := (w2Slot 0 Nat.zero_lt_two).view.dmaCredit
def NR : ℕ := (rSlot 0 0 (Nat.succ_pos 2) (Nat.succ_pos 4)).view.dmaCredit

theorem NW1_pos : 0 < NW1 := View.dmaCredit_pos _ (by decide)
theorem NW2_pos : 0 < NW2 := View.dmaCredit_pos _ (by decide)
theorem NR_pos : 0 < NR := View.dmaCredit_pos _ (by decide)

/-! ## What a landed slot holds, read as the kernel reads it -/

/-- A receive slot's contents as the later load and cast read them. -/
def rVal (l : Fin 3) (k : Fin 5) (f : (cc0_scratch3 : Ref sig .tc).ty.Contents (Elt F)) : Wire F :=
  shapeCast S64x1024 (recvM.view.readAt (Elt F) (Rect.unit (s := S3x5x64x1024) ![l.val, k.val, 0, 0] S1x1x64x1024.size (inbR l.val k.val l.isLt k.isLt)).toLoadRect f)
    shapeCasts_S1x1x64x1024_S64x1024
def w1Val (s : Fin 2) (f : (cc0_scratch0 : Ref sig .tc).ty.Contents (Elt F)) : WIn F :=
  shapeCast S1024x2048 (winM.view.readAt (Elt F) (Rect.unit (s := S2x1024x2048) ![s.val, 0, 0] S1x1024x2048.size (inbW1 s.val s.isLt)).toLoadRect f)
    shapeCasts_S1x1024x2048_S1024x2048
def w2Val (s : Fin 2) (f : (cc0_scratch1 : Ref sig .tc).ty.Contents (Elt F)) : WOut F :=
  shapeCast S2048x1024 (woutM.view.readAt (Elt F) (Rect.unit (s := S2x2048x1024) ![s.val, 0, 0] S1x2048x1024.size (inbW2 s.val s.isLt)).toLoadRect f)
    shapeCasts_S1x2048x1024_S2048x1024

/-! ## Points-tos -/

abbrev rPts (c : Dev nD) (l : Fin 3) (k : Fin 5) (f : (cc0_scratch3 : Ref sig .tc).ty.Contents (Elt F)) : sProp 𝕄 :=
  (rSlot l.val k.val l.isLt k.isLt).view.loc (c : Thread nD τ) ↦[(rSlot l.val k.val l.isLt k.isLt).view.set]{fullShare} f
abbrev w1Pts (c : Dev nD) (s : Fin 2) (f : (cc0_scratch0 : Ref sig .tc).ty.Contents (Elt F)) : sProp 𝕄 :=
  (w1Slot s.val s.isLt).view.loc (c : Thread nD τ) ↦[(w1Slot s.val s.isLt).view.set]{fullShare} f
abbrev w2Pts (c : Dev nD) (s : Fin 2) (f : (cc0_scratch1 : Ref sig .tc).ty.Contents (Elt F)) : sProp 𝕄 :=
  (w2Slot s.val s.isLt).view.loc (c : Thread nD τ) ↦[(w2Slot s.val s.isLt).view.set]{fullShare} f
abbrev sendPts (c : Dev nD) (f : (cc0_scratch2 : Ref sig .tc).ty.Contents (Elt F)) : sProp 𝕄 :=
  sendM.view.loc (c : Thread nD τ) ↦[sendM.view.set]{fullShare} f
abbrev hbmPts (c : Dev nD) (b : Ref sig .tc) : sProp 𝕄 :=
  (Memref.whole b : Memref sig .tc b.space b.ty.shape b.ty.elt).view.loc (c : Thread nD τ) ↦[(Memref.whole b : Memref sig .tc b.space b.ty.shape b.ty.elt).view.set]{fullShare} m ((c : Thread nD τ).loc b)

/-! ## Payloads -/

/-- Partner `pr k c`'s entry signal hands `c` the three slots (one per layer) that partner keeps for stage `k`. -/
def barPay (c : Dev nD) (k : Fin 5) : sProp 𝕄 :=
  iprop((∃ f, rPts (pr k.val c) 0 k f) ∗ (∃ f, rPts (pr k.val c) 1 k f) ∗ (∃ f, rPts (pr k.val c) 2 k f))
/-- Round `r` of the send cell returns the send buffer at what was sent in that round. -/
def sdPay (c : Dev nD) (r : ℕ) : sProp 𝕄 := sendPts c (sent (inp m) (r / 5) (r % 5) c)
/-- The receive cell of (layer, stage) returns the slot holding the partner's rounded running sum. -/
def rvPay (c : Dev nD) (l : Fin 3) (k : Fin 5) : sProp 𝕄 :=
  iprop(∃ f, rPts c l k f ∗ ⌜rVal l k f = sent (inp m) l.val k.val (pr k.val c)⌝)
/-- A copy cell returns the weight slot holding the weight block, and the source array. -/
def cpPay (c : Dev nD) (l : Fin 3) (i : Fin 2) : sProp 𝕄 :=
  match i with
  | 0 => iprop((∃ f, w1Pts c ⟨l.val % 2, Nat.mod_lt _ (by decide)⟩ f ∗ ⌜w1Val ⟨l.val % 2, Nat.mod_lt _ (by decide)⟩ f = (inp m).w1 l.val c⌝) ∗ hbmPts m c (w1Ref l))
  | 1 => iprop((∃ f, w2Pts c ⟨l.val % 2, Nat.mod_lt _ (by decide)⟩ f ∗ ⌜w2Val ⟨l.val % 2, Nat.mod_lt _ (by decide)⟩ f = (inp m).w2 l.val c⌝) ∗ hbmPts m c (w2Ref l))

/-! ## The schedule -/

/-- The duties of a DMA cell of kind `kd` in round `r`. -/
def dut (kd : Kind) (r : ℕ) : Finset (Fin 5) := match kd with
  | .idle => ∅
  | .sd => if r < 15 then {0} else ∅
  | _ => if r = 0 then {0} else ∅
/-- The amount of a duty of a DMA cell of kind `kd`. -/
def amt (kd : Kind) : ℕ := match kd with
  | .cp _ i => if i.val = 0 then NW1 else NW2
  | _ => NR
/-- The payload of the duty of a DMA cell of kind `kd` on device `c` in round `r`. -/
def pay (c : Dev nD) (kd : Kind) (r : ℕ) : sProp 𝕄 := match kd with
  | .idle => iprop(emp)
  | .cp l i => cpPay m c l i
  | .sd => sdPay m c r
  | .rv l k => rvPay m c l k

theorem amt_pos (kd : Kind) : 0 < amt kd := by
  cases kd with
  | idle => exact NR_pos
  | cp l i => unfold amt; dsimp only; split; exact NW1_pos; exact NW2_pos
  | sd => exact NR_pos
  | rv l k => exact NR_pos

def Rd : Rounds.Schedule (GSem nD τ sig) (Fin 5) 𝕄 where
  duties g r :=
    if g.1.2 = .tc then
      match g.2 with
      | .reg s => if s = barS ∧ r = 0 then Finset.univ else ∅
      | .dma q => dut (kindOf q.val) r
    else ∅
  unitless _ := False
  amount g _ _ := match g.2 with
    | .reg _ => 1
    | .dma q => amt (kindOf q.val)
  payload g r d := match g.2 with
    | .reg _ => barPay g.1.1 d
    | .dma q => pay m g.1.1 (kindOf q.val) r
  amount_pos g _ _ _ := by
    rcases g with ⟨t, sm⟩
    cases sm with
    | reg s => exact Nat.one_pos
    | dma q => exact amt_pos _

end Cert.Kernel.Schedule

end
-- ==== Proof.Bits.Ghost.lean ====
import proofs.«900580_g7700000000000581_dist_mlpseq_tp1d_rep_rep_b64_d1024_h2048_v7x_i32_f32_1_alg».proof.Proof.Bits.Schedule

/-!
# What a device owes, the levels, and what it starts from

A device owes, in the order it pays: one unit to each of its five partners' entry cells, then, round by round,
the landing of its transfer on the partner's receive cell.  Levels: entry cells at 1, the receive cell of round
`r = 5 l + k` at `2 + r`, every other cell at 0; a device waiting on a cell owes only cells of higher level,
which is the whole deadlock argument.  A device starts from the invariants of its own 23 cells and of the 20
cells it pays, its positions at round 0, the tokens of the duties it pays, and the credit its partners owe it.
-/

noncomputable section

namespace Cert.Kernel.Ghost

open Cert.Kernel Cert.Kernel.Gen Cert.Kernel.Mesh Cert.Kernel.Spec Cert.Kernel.Cells Cert.Kernel.Schedule

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of one device -/

/-- The kernel's own (scoped) semaphores, as the launch indexes them. -/
abbrev osem : Fin 22 → SemLoc sig := fun j => .dma (dsem j.val j.isLt)
/-- All 23 semaphores of the protocol on a device: `0` the entry semaphore, `j + 1` DMA semaphore `j`. -/
def csem (j : Fin 23) : SemLoc sig := if h : j.val = 0 then .reg barS else .dma (dsem (j.val - 1) (by have := j.isLt; omega))
abbrev kcell (ck : Dev nD × Fin 23) : GSem nD τ sig := ((ck.1 : Thread nD τ), csem ck.2)

/-- The receive cell that the transfer of round `r` lands on: the partner's, at this round's (layer, stage). -/
abbrev rvOf (c : Dev nD) (r : Fin 15) : GSem nD τ sig :=
  rvCell (pr (r.val % 5) c) (r.val / 5) (r.val % 5) (by have := r.isLt; omega) (Nat.mod_lt _ (by decide))
/-- The device's own receive cell of round `r`. -/
abbrev rvOwn (c : Dev nD) (r : Fin 15) : GSem nD τ sig :=
  rvCell c (r.val / 5) (r.val % 5) (by have := r.isLt; omega) (Nat.mod_lt _ (by decide))
/-- Its number among the 23. -/
def rvIx (r : Fin 15) : Fin 23 := ⟨8 + r.val, by have := r.isLt; omega⟩

/-! ## What a device owes -/

/-- The landings of rounds `n, n + 1, …, 14`, summed so that the earliest round is the last summand. -/
def oweFrom (c : Dev nD) (n : ℕ) : CellTallies nD τ sig Unit :=
  if h : n < 15 then oweFrom c (n + 1) + tallyAt (rvOf c ⟨n, h⟩) () NR else 0
termination_by 15 - n

theorem oweFrom_peel (c : Dev nD) (n : ℕ) (h : n < 15) :
    oweFrom c n = oweFrom c (n + 1) + tallyAt (rvOf c ⟨n, h⟩) () NR := by
  rw [oweFrom, dif_pos h]
theorem oweFrom_done (c : Dev nD) : oweFrom c 15 = 0 := by rw [oweFrom, dif_neg (by decide)]

/-- The entry signals to partners `j, …, 4`, then every landing. -/
def oweSig (c : Dev nD) (j : ℕ) : CellTallies nD τ sig Unit :=
  if h : j < 5 then oweSig c (j + 1) + tallyAt (barCell (pr j c)) () 1 else oweFrom c 0
termination_by 5 - j

theorem oweSig_peel (c : Dev nD) (j : ℕ) (h : j < 5) :
    oweSig c j = oweSig c (j + 1) + tallyAt (barCell (pr j c)) () 1 := by
  rw [oweSig, dif_pos h]
theorem oweSig_done (c : Dev nD) : oweSig c 5 = oweFrom c 0 := by rw [oweSig, dif_neg (by decide)]

/-- Everything device `c` owes at launch. -/
def O₀ (c : Dev nD) : CellTallies nD τ sig Unit := oweSig c 0

/-! ## Levels -/

def L (g : GSem nD τ sig) : Finset Unit := if g.1.2 = .tc then {()} else ∅
def lv (g : GSem nD τ sig) (_ : Unit) : ℕ := match g.2 with
  | .reg _ => 1
  | .dma q => match kindOf q.val with
    | .rv l k => 2 + 5 * l.val + k.val
    | _ => 0

theorem L_of_ne (g : GSem nD τ sig) (h : g.1.2 ≠ .tc) : L g = ∅ := if_neg h
theorem L_tc (c : Dev nD) (sm : SemLoc sig) : L ((c : Thread nD τ), sm) = {()} := if_pos rfl

/-! ## Ghost resources -/

/-- What device `c` starts from, at the names `K` the launch allocated the cells' invariants at. -/
def ghost (K : Dev nD × Fin 23 → ℕ) (c : Dev nD) : sProp 𝕄 :=
  iprop((bigSep Finset.univ fun j : Fin 23 => cellInv ER (Rd m) (K (c, j)) (kcell (c, j)))
    ∗ (bigSep Finset.univ fun k : Fin 5 => cellInv ER (Rd m) (K (pr k.val c, 0)) (barCell (pr k.val c)))
    ∗ (bigSep Finset.univ fun r : Fin 15 => cellInv ER (Rd m) (K (pr (r.val % 5) c, rvIx r)) (rvOf c r))
    ∗ (bigSep Finset.univ fun j : Fin 23 => reached ER (kcell (c, j)) 0)
    ∗ (bigSep Finset.univ fun k : Fin 5 => reached ER (barCell (pr k.val c)) 0)
    ∗ (bigSep Finset.univ fun r : Fin 15 => reached ER (rvOf c r) 0)
    ∗ (bigSep Finset.univ fun j : Fin 23 => atPos ER (kcell (c, j)) 0 ∅ 0)
    ∗ (bigSep Finset.univ fun k : Fin 5 => dutyTok ER (barCell (pr k.val c)) 0 k)
    ∗ (bigSep Finset.univ fun r : Fin 15 => dutyTok ER (rvOf c r) 0 0)
    ∗ (bigSep Finset.univ fun r : Fin 15 => dutyTok ER (sdCell c) r.val 0)
    ∗ (bigSep Finset.univ fun j : Fin 6 => dutyTok ER (dCell c j.val (by have := j.isLt; omega)) 0 0))

/-- The credit the partners owe device `c`: five units on its entry cell, a landing on each receive cell. -/
def creds (c : Dev nD) : sProp 𝕄 :=
  iprop(cred (tallyAt (barCell c) () 5) ∗ bigSep Finset.univ fun r : Fin 15 => cred (tallyAt (rvOwn c r) () NR))

/-- The six weight arrays in HBM, at what the memory at launch holds. -/
def hbmArgs (c : Dev nD) : sProp 𝕄 :=
  iprop(hbmPts m c main_arg1 ∗ hbmPts m c main_arg2 ∗ hbmPts m c main_arg3 ∗ hbmPts m c main_arg4 ∗ hbmPts m c main_arg5 ∗ hbmPts m c main_arg6)

def start (c : Dev nD) : sProp 𝕄 :=
  iprop((∃ K, ghost m K c) ∗ creds c ∗ levAts L lv ∗ hbmArgs m c)

/-- The four scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- Before the body. -/
def Φ₀ (c : Dev nD) : sProp 𝕄 := iprop(start m c ∗ scratch c)
/-- After the body: the scratch buffers back, the 22 own semaphores at zero (their cells closed), the weight arrays as they were. -/
def Φ₁ (c : Dev nD) : sProp 𝕄 :=
  iprop(scratch c ∗ (bigSep Finset.univ fun j : Fin 22 => semVal ((c : Thread nD τ), osem j) 0) ∗ hbmArgs m c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the kernel leaves in the result's staging buffer. -/
def outAt (c : Dev nD) : (cc0_stg1_0 : Ref sig .tc).ty.Contents (Elt F) := result (inp m) c

def dats (_ : Fin 1) (c : Dev nD) : Dat τ (Elt F) Unit ℕ UU ℕ cfg0 c where
  A w := (Idealize.ShloMosaic.s₀ m ρ).mem ((cfg0.win w).arr.view.loc (c : Thread nD τ))
  after w _ := match w with
    | ⟨0, _⟩ => (inp m).x c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.Ghost

end
-- ==== Proof.Bits.Launch.lean ====
import proofs.«900580_g7700000000000581_dist_mlpseq_tp1d_rep_rep_b64_d1024_h2048_v7x_i32_f32_1_alg».proof.Proof.Bits.Ghost
import proofs.«900580_g7700000000000581_dist_mlpseq_tp1d_rep_rep_b64_d1024_h2048_v7x_i32_f32_1_alg».proof.Proof.Gen.Kernel.Frame
import proofs.«900580_g7700000000000581_dist_mlpseq_tp1d_rep_rep_b64_d1024_h2048_v7x_i32_f32_1_alg».proof.Proof.Gen.Kernel.Launch
import proofs.«900580_g7700000000000581_dist_mlpseq_tp1d_rep_rep_b64_d1024_h2048_v7x_i32_f32_1_alg».proof.Proof.Gen.Kernel.Points
import Idealize.ShloMosaic.Lib.Pipeline.Launch
import Idealize.ShloMosaic.Lib.Pipeline.Kit
import Idealize.ShloMosaic.Lib.Tactic

/-!
# The launch

From the launch element to every device's starting resources: the 23 protocol cells of each device are funded and
their invariants allocated for all devices under one update (the entry cell is the runtime's semaphore, shared
with the five partners that signal it); the duty tokens are dealt around the cube, each to the device that pays
the duty; the launch credit of a device is five units on its entry cell and one landing on each of its fifteen
receive cells.  The run of the program then follows from the body obligation of each device.
-/

noncomputable section

namespace Cert.Kernel.Launch

open Cert.Kernel Cert.Kernel.Gen Cert.Kernel.Mesh Cert.Kernel.Spec Cert.Kernel.Cells Cert.Kernel.Schedule Cert.Kernel.Ghost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens minted -/

theorem ownSemFacts : Pipeline.OwnSemFacts cfg0.spec osem := by decide

theorem share_eq (c : Dev nD) (w : Fin cfg0.W) : (dats m ρ 0 c).share w = fullShare := by unfold Dat.share; split <;> rfl

theorem csem_succ (k : Fin 22) : csem k.succ = osem k := by revert k; decide
theorem csem_injective : Function.Injective csem := by decide

theorem kcell_succ (c : Dev nD) (k : Fin 22) : kcell (c, k.succ) = ((c : Thread nD τ), osem k) := by
  show ((c : Thread nD τ), csem k.succ) = _; rw [csem_succ]

theorem kcell_injective : Function.Injective (kcell : Dev nD × Fin 23 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def protoCells : Finset (GSem nD τ sig) := Finset.univ.map ⟨kcell, kcell_injective⟩

/-- The receive semaphore of round `r` is number `8 + r` among the 23. -/
theorem rv_sem_eq (r : Fin 15) :
    (SemLoc.dma (rvS (r.val / 5) (r.val % 5) (by have := r.isLt; omega) (Nat.mod_lt _ (by decide))) : SemLoc sig) = csem (rvIx r) := by
  revert r; decide
theorem rvOf_eq (c : Dev nD) (r : Fin 15) : rvOf c r = kcell (pr (r.val % 5) c, rvIx r) := Prod.ext rfl (rv_sem_eq r)
theorem rvOwn_eq (c : Dev nD) (r : Fin 15) : rvOwn c r = kcell (c, rvIx r) := Prod.ext rfl (rv_sem_eq r)

/-- The duties minted per device: the entry cell's five, the six copy cells' one each, the send cell's one in each of its
    fifteen rounds, the fifteen receive cells' one each. -/
abbrev TI : Type := Fin 5 ⊕ Fin 6 ⊕ Fin 15 ⊕ Fin 15

def code : TI → SemLoc sig × ℕ × Fin 5
  | .inl d => (.reg barS, 0, d)
  | .inr (.inl j) => (.dma (dsem j.val (by have := j.isLt; omega)), 0, 0)
  | .inr (.inr (.inl r)) => (.dma sdS, r.val, 0)
  | .inr (.inr (.inr r)) => (.dma (rvS (r.val / 5) (r.val % 5) (by have := r.isLt; omega) (Nat.mod_lt _ (by decide))), 0, 0)

theorem code_injective : Function.Injective code := by decide

abbrev tokOf (ci : Dev nD × TI) : GSem nD τ sig × ℕ × Fin 5 := (((ci.1 : Thread nD τ), (code ci.2).1), (code ci.2).2)

theorem tokOf_injective : Function.Injective (tokOf : Dev nD × TI → GSem nD τ sig × ℕ × Fin 5) := by
  rintro ⟨c, i⟩ ⟨c', i'⟩ h
  have h1 : c = c' := by have := congrArg (fun x : GSem nD τ sig × ℕ × Fin 5 => x.1.1.1) h; exact this
  subst h1
  have h2 : code i = code i' :=
    Prod.ext (congrArg (fun x : GSem nD τ sig × ℕ × Fin 5 => x.1.2) h) (congrArg (fun x : GSem nD τ sig × ℕ × Fin 5 => x.2) h)
  rw [code_injective h2]

def protoToks : Finset (GSem nD τ sig × ℕ × Fin 5) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop((bigSep Finset.univ fun d : Fin 5 => dutyTok ER (barCell c) 0 d)
    ∗ (bigSep Finset.univ fun j : Fin 6 => dutyTok ER (dCell c j.val (by have := j.isLt; omega)) 0 0)
    ∗ (bigSep Finset.univ fun r : Fin 15 => dutyTok ER (sdCell c) r.val 0)
    ∗ (bigSep Finset.univ fun r : Fin 15 => dutyTok ER (rvOwn c r) 0 0))

/-- What the launch element deals device `c`. -/
def G (c : Dev nD) : sProp 𝕄 :=
  iprop((bigSep Finset.univ fun j : Fin 23 => roundState ER (Rd m) (kcell (c, j)) 0)
    ∗ (bigSep Finset.univ fun j : Fin 23 => iprop(atPos ER (kcell (c, j)) 0 ∅ 0 ∗ reached ER (kcell (c, j)) 0)) ∗ toks c)

/-- What the global step makes of it. -/
def G' (c : Dev nD) : sProp 𝕄 := iprop(∃ K, ghost m K c)

omit [FloatOps F] in
theorem bigSep_fin_succ {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_insert (by simp [Fin.succ_ne_zero]), bigSep_map]; rfl

omit [FloatOps F] in
theorem toks_eq (c : Dev nD) :
    (bigSep Finset.univ fun i : TI => (dutyTok ER (tokOf (c, i)).1 (tokOf (c, i)).2.1 (tokOf (c, i)).2.2 : sProp 𝕄)) = toks c := by
  unfold toks; rw [bigSep_univ_sum, bigSep_univ_sum, bigSep_univ_sum]; rfl

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 23 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => toks_eq c
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero become the cells' invariants -/

omit [FloatOps F] in
theorem pts_storable (ℓ : Loc nD τ sig) (S : Finset ℓ.2.ty.Idx) (q : PosShare TreeShare) (f : Buf (Elt F) ℓ) :
    BI.Storable (upEmb : UEmb _ 𝕄) (ℓ ↦[S]{q} f : sProp 𝕄) := by infer_instance

omit [FloatOps F] in
instance rSlot_storable (c : Dev nD) (l k : ℕ) (hl : l < 3) (hk : k < 5) (f : (cc0_scratch3 : Ref sig .tc).ty.Contents (Elt F)) :
    BI.Storable (upEmb : UEmb _ 𝕄) ((rSlot l k hl hk).view.loc (c : Thread nD τ) ↦[(rSlot l k hl hk).view.set]{fullShare} f : sProp 𝕄) :=
  pts_storable _ _ _ _
omit [FloatOps F] in
instance w1Slot_storable (c : Dev nD) (s : ℕ) (hs : s < 2) (f : (cc0_scratch0 : Ref sig .tc).ty.Contents (Elt F)) :
    BI.Storable (upEmb : UEmb _ 𝕄) ((w1Slot s hs).view.loc (c : Thread nD τ) ↦[(w1Slot s hs).view.set]{fullShare} f : sProp 𝕄) :=
  pts_storable _ _ _ _
omit [FloatOps F] in
instance w2Slot_storable (c : Dev nD) (s : ℕ) (hs : s < 2) (f : (cc0_scratch1 : Ref sig .tc).ty.Contents (Elt F)) :
    BI.Storable (upEmb : UEmb _ 𝕄) ((w2Slot s hs).view.loc (c : Thread nD τ) ↦[(w2Slot s hs).view.set]{fullShare} f : sProp 𝕄) :=
  pts_storable _ _ _ _

/-- Every payload of the schedule is made of points-tos and pure facts. -/
instance payload_storable (g : GSem nD τ sig) (r : ℕ) (d : Fin 5) :
    BI.Storable (upEmb : UEmb _ 𝕄) ((Rd (F := F) m).payload g r d) := by
  rcases g with ⟨t, sm⟩
  cases sm with
  | reg s => show BI.Storable upEmb (barPay t.1 d); unfold barPay; infer_instance
  | dma q =>
    show BI.Storable upEmb (pay m t.1 (kindOf q.val) r)
    cases kindOf q.val with
    | idle => show BI.Storable upEmb (iprop(emp) : sProp 𝕄); infer_instance
    | cp l i => show BI.Storable upEmb (cpPay m t.1 l i); unfold cpPay; split <;> infer_instance
    | sd => show BI.Storable upEmb (sdPay m t.1 r); unfold sdPay; infer_instance
    | rv l k => show BI.Storable upEmb (rvPay m t.1 l k); unfold rvPay; infer_instance

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 23 => semVal (kcell (c, k)) 0 : sProp 𝕄) := by
  rw [unscopedSems0_eq, bigSep_fin_succ]
  simp only [kcell_succ]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 23 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 23 => semVal (kcell (c, k)) 0) ∗ bigSep Finset.univ fun k : Fin 23 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The records of all cells, and the tokens dealt around the cube -/

def records (K : Dev nD × Fin 23 → ℕ) : sProp 𝕄 :=
  iprop((bigSep Finset.univ fun ck : Dev nD × Fin 23 => cellInv ER (Rd m) (K ck) (kcell ck))
    ∗ bigSep Finset.univ fun ck : Dev nD × Fin 23 => reached ER (kcell ck) 0)

instance records_persistent (K : Dev nD × Fin 23 → ℕ) : BI.Persistent (records m K) := by unfold records; infer_instance

theorem inv_at' (K : Dev nD × Fin 23 → ℕ) (ck : Dev nD × Fin 23) :
    (bigSep Finset.univ fun ck : Dev nD × Fin 23 => (cellInv ER (Rd m) (K ck) (kcell ck) : sProp 𝕄)) ⊢ cellInv ER (Rd m) (K ck) (kcell ck) :=
  bigSep_elim (Finset.mem_univ ck)
omit [FloatOps F] in
theorem reached_at' (ck : Dev nD × Fin 23) :
    (bigSep Finset.univ fun ck : Dev nD × Fin 23 => (reached ER (kcell ck) 0 : sProp 𝕄)) ⊢ reached ER (kcell ck) 0 :=
  bigSep_elim (Finset.mem_univ ck)

theorem inv_at (K : Dev nD × Fin 23 → ℕ) (ck : Dev nD × Fin 23) : records m K ⊢ cellInv ER (Rd m) (K ck) (kcell ck) := by
  unfold records
  iintro ⟨HI, -⟩
  iapply (inv_at' m K ck); iexact HI

theorem reached_at (K : Dev nD × Fin 23 → ℕ) (ck : Dev nD × Fin 23) : records m K ⊢ reached ER (kcell ck) 0 := by
  unfold records
  iintro ⟨-, HR⟩
  iapply (reached_at' (F := F) ck); iexact HR

theorem rec_own_inv (K : Dev nD × Fin 23 → ℕ) (c : Dev nD) :
    records m K ⊢ bigSep Finset.univ fun j : Fin 23 => cellInv ER (Rd m) (K (c, j)) (kcell (c, j)) :=
  bigSep_intro_persistent fun j _ => inv_at m K (c, j)
theorem rec_bar_inv (K : Dev nD × Fin 23 → ℕ) (c : Dev nD) :
    records m K ⊢ bigSep Finset.univ fun k : Fin 5 => cellInv ER (Rd m) (K (pr k.val c, 0)) (barCell (pr k.val c)) :=
  bigSep_intro_persistent fun k _ => inv_at m K (pr k.val c, 0)
theorem rec_rv_inv (K : Dev nD × Fin 23 → ℕ) (c : Dev nD) :
    records m K ⊢ bigSep Finset.univ fun r : Fin 15 => cellInv ER (Rd m) (K (pr (r.val % 5) c, rvIx r)) (rvOf c r) :=
  bigSep_intro_persistent fun r _ => by rw [rvOf_eq]; exact inv_at m K (pr (r.val % 5) c, rvIx r)
theorem rec_own_reached (K : Dev nD × Fin 23 → ℕ) (c : Dev nD) :
    records m K ⊢ bigSep Finset.univ fun j : Fin 23 => reached ER (kcell (c, j)) 0 :=
  bigSep_intro_persistent fun j _ => reached_at m K (c, j)
theorem rec_bar_reached (K : Dev nD × Fin 23 → ℕ) (c : Dev nD) :
    records m K ⊢ bigSep Finset.univ fun k : Fin 5 => reached ER (barCell (pr k.val c)) 0 :=
  bigSep_intro_persistent fun k _ => reached_at m K (pr k.val c, 0)
theorem rec_rv_reached (K : Dev nD × Fin 23 → ℕ) (c : Dev nD) :
    records m K ⊢ bigSep Finset.univ fun r : Fin 15 => reached ER (rvOf c r) 0 :=
  bigSep_intro_persistent fun r _ => by rw [rvOf_eq]; exact reached_at m K (pr (r.val % 5) c, rvIx r)

/-- The tokens of the duties device `c` pays. -/
def payToks (c : Dev nD) : sProp 𝕄 :=
  iprop((bigSep Finset.univ fun k : Fin 5 => dutyTok ER (barCell (pr k.val c)) 0 k)
    ∗ (bigSep Finset.univ fun r : Fin 15 => dutyTok ER (rvOf c r) 0 0)
    ∗ (bigSep Finset.univ fun r : Fin 15 => dutyTok ER (sdCell c) r.val 0)
    ∗ (bigSep Finset.univ fun j : Fin 6 => dutyTok ER (dCell c j.val (by have := j.isLt; omega)) 0 0))
/-- What stays with device `c`: its positions, and those tokens. -/
def linear (c : Dev nD) : sProp 𝕄 :=
  iprop((bigSep Finset.univ fun j : Fin 23 => atPos ER (kcell (c, j)) 0 ∅ 0) ∗ payToks c)

theorem ghost_intro (K : Dev nD × Fin 23 → ℕ) (c : Dev nD) : iprop(records m K ∗ linear c) ⊢ G' m c := by
  unfold linear payToks G' ghost
  iintro ⟨#HR, Hat, HtB, HtV, HtS, HtC⟩
  iexists K
  isplitr; · iapply (rec_own_inv m K c); iexact HR
  isplitr; · iapply (rec_bar_inv m K c); iexact HR
  isplitr; · iapply (rec_rv_inv m K c); iexact HR
  isplitr; · iapply (rec_own_reached m K c); iexact HR
  isplitr; · iapply (rec_bar_reached m K c); iexact HR
  isplitr; · iapply (rec_rv_reached m K c); iexact HR
  isplitl [Hat]; · iexact Hat
  isplitl [HtB]; · iexact HtB
  isplitl [HtV]; · iexact HtV
  isplitl [HtS]; · iexact HtS
  iexact HtC

omit [FloatOps F] in
/-- A family indexed by (device, j) regrouped so that device `c` holds the summand of its partner across mask `e j`. -/
theorem around {J : Type} [Fintype J] (e : J → ℕ) (Φ : Dev nD → J → sProp 𝕄) :
    (bigSep Finset.univ fun c : Dev nD => bigSep Finset.univ fun j : J => Φ c j)
      = bigSep Finset.univ fun c : Dev nD => bigSep Finset.univ fun j : J => Φ (pr (e j) c) j :=
  (bigSep_univ_comm Φ).trans ((bigSep_congr fun (j : J) _ => bigSep_univ_equiv (prE (e j)) (fun c : Dev nD => Φ c j)).trans
    (bigSep_univ_comm fun (j : J) (c : Dev nD) => Φ (pr (e j) c) j))

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    around (fun k : Fin 5 => k.val) (fun c k => (dutyTok ER (barCell c) 0 k : sProp 𝕄)),
    around (fun r : Fin 15 => r.val % 5) (fun c r => (dutyTok ER (rvOwn c r) 0 0 : sProp 𝕄))]
  iintro ⟨H1, H2, H3, H4⟩
  isplitl [H1]; · iexact H1
  isplitl [H4]; · iexact H4
  isplitl [H3]; · iexact H3
  iexact H2

theorem regroup :
    (bigSep Finset.univ fun c : Dev nD => iprop((bigSep Finset.univ fun k => iprop(∃ κ : ℕ, cellInv ER (Rd m) κ (kcell (c, k))))
          ∗ (bigSep Finset.univ fun k : Fin 23 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 23 => iprop(∃ κ : ℕ, cellInv ER (Rd m) κ (kcell ck))),
    bigSep_congr (s := Finset.univ) (fun (c : Dev nD) _ => bigSep_sep' Finset.univ (fun k : Fin 23 => (atPos ER (kcell (c, k)) 0 ∅ 0 : sProp 𝕄)) (fun k => reached ER (kcell (c, k)) 0)),
    bigSep_sep', ← bigSep_univ_prod (fun ck : Dev nD × Fin 23 => (reached ER (kcell ck) 0 : sProp 𝕄))]
  iintro ⟨HI, ⟨Hat, #HR⟩, Htok⟩
  ihave HK := (BI.bigSep_exists_pi Finset.univ (fun (ck : Dev nD × Fin 23) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 23 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- Every device owing one unit to the entry cell of its partner across mask `j`, each device is dealt one unit on its own. -/
theorem launch_bar (c : Dev nD) (j : ℕ) :
    (Pipeline.launchCred (fun d : Dev nD => tallyAt (barCell (pr j d)) () 1) c : sProp 𝕄) ⊢ cred (tallyAt (barCell c) () 1) :=
  Pipeline.launchCred_tallyAt (.reg barS) (pr j) (pr j) (pr_pr j) (pr_pr j) () 1 c

omit [FloatOps F] in
/-- Every device owing the landing of round `r` to its partner's receive cell, each device is dealt that landing on its own. -/
theorem launch_rv (c : Dev nD) (r : Fin 15) :
    (Pipeline.launchCred (fun d : Dev nD => tallyAt (rvOf d r) () NR) c : sProp 𝕄) ⊢ cred (tallyAt (rvOwn c r) () NR) :=
  Pipeline.launchCred_tallyAt (.dma (rvS (r.val / 5) (r.val % 5) (by have := r.isLt; omega) (Nat.mod_lt _ (by decide))))
    (pr (r.val % 5)) (pr (r.val % 5)) (pr_pr _) (pr_pr _) () NR c

omit [FloatOps F] in
theorem cred_from (c : Dev nD) (k : ℕ) (hk : k ≤ 15) :
    (Pipeline.launchCred (fun d : Dev nD => oweFrom d (15 - k)) c : sProp 𝕄)
      ⊢ bigSep (Finset.univ.filter fun r : Fin 15 => 15 - k ≤ r.val) fun r => cred (tallyAt (rvOwn c r) () NR) := by
  induction k with
  | zero =>
    rw [show (fun d : Dev nD => oweFrom d (15 - 0)) = fun _ => (0 : CellTallies nD τ sig Unit) from funext fun d => oweFrom_done d,
      Pipeline.launchCred_zero, show (Finset.univ.filter fun r : Fin 15 => 15 - 0 ≤ r.val) = ∅ from by decide, bigSep_empty]
    exact .rfl
  | succ k ih =>
    have hn : 15 - (k + 1) < 15 := by omega
    have e : 15 - (k + 1) + 1 = 15 - k := by omega
    rw [show (fun d : Dev nD => oweFrom d (15 - (k + 1))) = fun d => oweFrom d (15 - k) + tallyAt (rvOf d ⟨15 - (k + 1), hn⟩) () NR from
        funext fun d => by rw [oweFrom_peel d _ hn, e],
      Pipeline.launchCred_add,
      show (Finset.univ.filter fun r : Fin 15 => 15 - (k + 1) ≤ r.val) = insert ⟨15 - (k + 1), hn⟩ (Finset.univ.filter fun r : Fin 15 => 15 - k ≤ r.val) from by
        ext r; simp only [Finset.mem_filter, Finset.mem_univ, true_and, Finset.mem_insert, Fin.ext_iff]; omega,
      show (bigSep (insert ⟨15 - (k + 1), hn⟩ (Finset.univ.filter fun r : Fin 15 => 15 - k ≤ r.val)) fun r => (cred (tallyAt (rvOwn c r) () NR) : sProp 𝕄))
          = iprop(cred (tallyAt (rvOwn c ⟨15 - (k + 1), hn⟩) () NR) ∗ bigSep (Finset.univ.filter fun r : Fin 15 => 15 - k ≤ r.val) fun r => cred (tallyAt (rvOwn c r) () NR)) from
        bigSep_insert (by simp only [Finset.mem_filter, Finset.mem_univ, true_and]; omega)]
    iintro ⟨H1, H2⟩
    isplitl [H2]
    · iapply (launch_rv (F := F) c ⟨15 - (k + 1), hn⟩); iexact H2
    · iapply (ih (by omega)); iexact H1

omit [FloatOps F] in
theorem cred_from0 (c : Dev nD) :
    (Pipeline.launchCred (fun d : Dev nD => oweFrom d 0) c : sProp 𝕄) ⊢ bigSep Finset.univ fun r : Fin 15 => cred (tallyAt (rvOwn c r) () NR) := by
  have h := cred_from (F := F) c 15 (le_refl _)
  rw [show (Finset.univ.filter fun r : Fin 15 => 15 - 15 ≤ r.val) = Finset.univ from by decide] at h
  exact h

omit [FloatOps F] in
theorem cred_sig (c : Dev nD) (k : ℕ) (hk : k ≤ 5) :
    (Pipeline.launchCred (fun d : Dev nD => oweSig d (5 - k)) c : sProp 𝕄)
      ⊢ iprop(cred (tallyAt (barCell c) () k) ∗ bigSep Finset.univ fun r : Fin 15 => cred (tallyAt (rvOwn c r) () NR)) := by
  induction k with
  | zero =>
    rw [show (fun d : Dev nD => oweSig d (5 - 0)) = fun d => oweFrom d 0 from funext fun d => oweSig_done d, tallyAt_zero, cred_zero]
    iintro H
    isplitr; · iempintro
    iapply (cred_from0 (F := F) c); iexact H
  | succ k ih =>
    have hn : 5 - (k + 1) < 5 := by omega
    have e : 5 - (k + 1) + 1 = 5 - k := by omega
    rw [show (fun d : Dev nD => oweSig d (5 - (k + 1))) = fun d => oweSig d (5 - k) + tallyAt (barCell (pr (5 - (k + 1)) d)) () 1 from
        funext fun d => by rw [oweSig_peel d _ hn, e],
      Pipeline.launchCred_add, ← tallyAt_add]
    iintro ⟨H1, H2⟩
    ihave H1' := (ih (by omega)) $$ H1
    icases H1' with ⟨Hb, Hr⟩
    ihave H2' := (launch_bar (F := F) c (5 - (k + 1))) $$ H2
    isplitl [Hb H2']
    · iapply (cred_add _ _).2; isplitl [Hb] <;> iassumption
    · iexact Hr

omit [FloatOps F] in
/-- The launch credit of device `c`: five units on its entry cell, one landing on each receive cell. -/
theorem creds_intro (c : Dev nD) : (Pipeline.launchCred O₀ c : sProp 𝕄) ⊢ creds c :=
  cred_sig (F := F) c 5 (le_refl _)

/-! ## What a device owes sits above its staging cells -/

theorem oweFrom_pos (c : Dev nD) (n : ℕ) {g : GSem nD τ sig} {u : Unit} (h : 0 < oweFrom c n g u) : ∃ r : Fin 15, g = rvOf c r := by
  by_cases hn : n < 15
  · rw [oweFrom_peel c n hn] at h
    rcases Pipeline.add_pos_cases h with h | h
    · exact oweFrom_pos c (n + 1) h
    · exact ⟨⟨n, hn⟩, (Pipeline.tallyAt_pos h).1⟩
  · rw [oweFrom, dif_neg hn, Pi.zero_apply, Finsupp.zero_apply] at h; exact absurd h (Nat.lt_irrefl 0)
termination_by 15 - n

theorem oweSig_pos (c : Dev nD) (j : ℕ) {g : GSem nD τ sig} {u : Unit} (h : 0 < oweSig c j g u) :
    (∃ k : Fin 5, g = barCell (pr k.val c)) ∨ ∃ r : Fin 15, g = rvOf c r := by
  by_cases hj : j < 5
  · rw [oweSig_peel c j hj] at h
    rcases Pipeline.add_pos_cases h with h | h
    · exact oweSig_pos c (j + 1) h
    · exact Or.inl ⟨⟨j, hj⟩, (Pipeline.tallyAt_pos h).1⟩
  · rw [oweSig, dif_neg hj] at h; exact Or.inr (oweFrom_pos c 0 h)
termination_by 5 - j

theorem O₀_pos {c : Dev nD} {g : GSem nD τ sig} {u : Unit} (h : 0 < O₀ c g u) :
    (∃ k : Fin 5, g = barCell (pr k.val c)) ∨ ∃ r : Fin 15, g = rvOf c r := oweSig_pos c 0 h

theorem lv_stage (c : Dev nD) (q : DmaSem sig) (hq : q.val < 2) : lv ((c : Thread nD τ), .dma q) () = 0 := by
  show (match kindOf q.val with | .rv l k => 2 + 5 * l.val + k.val | _ => 0) = 0
  rw [show kindOf q.val = .idle from if_pos hq]

theorem lv_rvOf_pos (c : Dev nD) (r : Fin 15) : 0 < lv (rvOf c r) () := by
  have h := kindOf_rv (r.val / 5) (r.val % 5) (by have := r.isLt; omega) (Nat.mod_lt _ (by decide))
  show 0 < (match kindOf (2 + (7 + 5 * (r.val / 5) + r.val % 5)) with | .rv l k => 2 + 5 * l.val + k.val | _ => 0)
  rw [h]; exact Nat.lt_of_lt_of_le Nat.zero_lt_two (Nat.le_trans (Nat.le_add_right _ _) (Nat.le_add_right _ _))

omit [FloatOps F] in
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨r, rfl⟩ <;> exact Finset.mem_singleton_self _)
      (fun p hp => by rw [Finset.mem_singleton.mp hp]; exact le_of_eq (lv_stage c q hq))
      (fun g u hg => by
        rcases O₀_pos hg with ⟨k, rfl⟩ | ⟨r, rfl⟩
        · exact Nat.one_pos
        · exact lv_rvOf_pos _ r)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The theorem's side conditions -/

omit [FloatOps F] in
theorem hbm_eq (c : Dev nD) (b : Ref sig .tc) :
    hbmPts m c b = (((c : Thread nD τ).loc b) ↦{fullShare} m ((c : Thread nD τ).loc b) : sProp 𝕄) := by
  show ((View.whole b).loc (c : Thread nD τ) ↦[(View.whole b).set]{fullShare} m ((c : Thread nD τ).loc b) : sProp 𝕄) = _
  rw [View.set_whole]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨H1, H2, H3, H4, H5, H6⟩, Hlev, Hcr, -, HG⟩
  ihave Hc := (creds_intro (F := F) c) $$ Hcr
  imodintro
  unfold start G' hbmArgs
  simp only [hbm_eq]
  isplitl
  · isplitl [HG]; · iexact HG
    isplitl [Hc]; · iexact Hc
    isplitl [Hlev]; · iexact Hlev
    isplitl [H1]; · iexact H1
    isplitl [H2]; · iexact H2
    isplitl [H3]; · iexact H3
    isplitl [H4]; · iexact H4
    isplitl [H5]; · iexact H5
    iexact H6
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(hbmArgs m c ∗ Pipeline.ownSems0 osem c ∗ Pipeline.scopedRest cfg0.spec c) := by
  rw [show (dats m ρ 0 c).Φ (Fin.last cfg0.N) = Φ₁ m c from rfl, scopedRest0_eq]
  unfold Φ₁ scratch Pipeline.ownSems0
  iintro ⟨Hr, Hz, Hh⟩
  isplitl [Hh]; · iexact Hh
  isplitl [Hz]; · iexact Hz
  iexact Hr

/-- The six weight arrays hold what the memory at launch held. -/
def QY (c : Dev nD) (s : MemSt nD τ sig (Elt F)) : Prop :=
  s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)

theorem read_args (c : Dev nD) (s' : Phys nD τ sig (Elt F)) :
    iprop(hbmArgs m c ∗ emp ∗ SI s') ⊢ |={Set.univ}=> iprop(⌜QY m c s'.mem⌝ ∗ SI s') := by
  unfold hbmArgs
  simp only [hbm_eq]
  iintro ⟨⟨H1, H2, H3, H4, H5, H6⟩, -, HSI⟩
  icombine HSI H1 gives %h1
  icombine HSI H2 gives %h2
  icombine HSI H3 gives %h3
  icombine HSI H4 gives %h4
  icombine HSI H5 gives %h5
  icombine HSI H6 gives %h6
  imodintro
  isplitr
  · ipureintro
    exact ⟨Buf.eq_of_forall_mem_univ h1, Buf.eq_of_forall_mem_univ h2, Buf.eq_of_forall_mem_univ h3,
      Buf.eq_of_forall_mem_univ h4, Buf.eq_of_forall_mem_univ h5, Buf.eq_of_forall_mem_univ h6⟩
  iexact HSI

/-! ## The run -/

def QC : PUnit × MemSt nD τ sig (Elt F) → Prop := fun r => ∀ c : Dev nD,
  (∀ w : Fin cfg0.W, r.2.mem ((cfg0.win w).arr.view.loc (c : Thread nD τ)) = (dats m ρ 0 c).arrAt w cfg0.N)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)
  ∧ r.2.mem ((c : Thread nD τ).loc main_arg5) = m ((c : Thread nD τ).loc main_arg5)
  ∧ r.2.mem ((c : Thread nD τ).loc main_arg6) = m ((c : Thread nD τ).loc main_arg6)

set_option maxRecDepth 8000 in
/-- At the compiled mesh of 32 devices, for any float values, from any memory with zero counters: given each device's
    body obligation, every weakly fair execution of @main terminates, and every final state has each device's windowed
    arrays at the proof data's final contents and the six weight arrays unchanged. -/
theorem run_main (hbody : ∀ c, BodyObligation (dats (F := F) m ρ 0 c) (defs₀ (F := F)) 𝒱₀ () Set.univ) :
    θ_run defs (onTc (τ := τ) (main (F := F))) (Idealize.ShloMosaic.s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := hbmArgs m) (Z := fun _ => iprop(emp))
    (hX := start_intro m ρ) (hin := phi0_intro m ρ) (hout := phi1_exit m ρ)
    (QY := QY m)
    (hY := read_args m)
    (hQ := fun _ h c => ⟨(h c).1, (h c).2.2⟩)

/-- info: 'Cert.Kernel.Launch.run_main' depends on axioms: [propext, Classical.choice, Quot.sound] -/
#guard_msgs in #print axioms run_main

/-! ## The final arrays, in closed form -/

/-- The staged input array is never written: after the run it holds what it held. -/
theorem finalA_x (c : Dev nD) : (dats (F := F) m ρ 0 c).arrAt (0 : Fin 2) cfg0.N = m ((c : Thread nD τ).loc main_arg0) :=
  (dats (F := F) m ρ 0 c).arrAt_in (0 : Fin 2) rfl _

/-- The result array's one block, read back, is what the body left in the staging buffer. -/
theorem finalA_o (c : Dev nD) :
    (win0_1.blk t₀).view.read (Elt F) ((dats (F := F) m ρ 0 c).arrAt (1 : Fin 2) cfg0.N) = outAt m c := by
  rw [show cfg0.N = (t₀ : Fin cfg0.N).val + 1 from rfl, (dats m ρ 0 c).arrAt_succ (1 : Fin 2) t₀, flush0_1 t₀, if_pos rfl]
  exact View.read_write_univ _ _

/-- That block is the whole array: the result array holds the kernel's result. -/
theorem finalA_out (c : Dev nD) : (dats (F := F) m ρ 0 c).arrAt (1 : Fin 2) cfg0.N = outAt m c := by
  have hz : (fun a => (win0_1.index t₀) a * main_v1.ty.shape.size a) = fun _ => 0 :=
    funext fun a => by fin_cases a <;> decide
  have hr := fun f => Memref.read_access_unit_zero (Elt F) main_v1 hz (fun a => by fin_cases a <;> decide) f
  have ho := finalA_o m ρ c
  rw [hr] at ho
  exact ho

end Cert.Kernel.Launch

end
-- ==== Proof.AssemblyBits.lean ====
import proofs.«900580_g7700000000000581_dist_mlpseq_tp1d_rep_rep_b64_d1024_h2048_v7x_i32_f32_1_alg».proof.Defs
import proofs.«900580_g7700000000000581_dist_mlpseq_tp1d_rep_rep_b64_d1024_h2048_v7x_i32_f32_1_alg».proof.Proof.Bits.Launch
import proofs.«900580_g7700000000000581_dist_mlpseq_tp1d_rep_rep_b64_d1024_h2048_v7x_i32_f32_1_alg».proof.Proof.Gen.Pre_finite_inputs_Kernel

/-!
# From one thread's body to the frame of the word-level kernel

The same launch at the word-level instance: every fair execution of the mesh ends with each device's argument
arrays as they were.
-/

noncomputable section

namespace Cert.Proof.AssemblyBits

open Idealize.ShloMosaic Idealize.ShloMosaic.TcCoe Idealize.SL.Sem
open Idealize.ShloMosaic.Pipeline (BodyObligation)
open Cert.Kernel Cert.Kernel.Gen Cert.Kernel.Schedule Cert.Kernel.Ghost

/-- The body obligation at every device, for a float instance. -/
abbrev BodyAll (F : FTy → Type) [FloatOps F] : Prop :=
  ∀ (m : (ℓ : Loc nD τ sig) → Buf (Elt F) ℓ) (ρ : Dev nD → PrngReg) (c : Dev nD),
    BodyObligation (dats (F := F) m ρ 0 c) (defs₀ (F := F)) 𝒱₀ () Set.univ

theorem frame_of_body (hbody : BodyAll Bits) : Cert.frame_Kernel := fun m ρ _ =>
  (θ_run (Cert.Kernel.defs (F := Bits)) _ _).mono
    (fun r h c => ⟨((h c).1 0).trans (Cert.Kernel.Launch.finalA_x m ρ c), (h c).2⟩)
    (Cert.Kernel.Launch.run_main (F := Bits) m ρ (hbody m ρ))

end Cert.Proof.AssemblyBits

end
-- ==== Proof.MemLemmas.lean ====
import proofs.«900580_g7700000000000581_dist_mlpseq_tp1d_rep_rep_b64_d1024_h2048_v7x_i32_f32_1_alg».proof.Proof.Cells

/-!
# Memory lemmas for the slots of the weight and receive buffers

What a load through the whole buffer at a slot's rectangle reads after a transfer has landed in the slot; that a
whole-buffer store replaces the contents; that the whole buffer's points-to splits into its slots' and joins back;
that a slot's transfer credit does not depend on the slot.
-/

noncomputable section

namespace Cert.KernelIdeal.MemLemmas

open Cert.KernelIdeal Cert.KernelIdeal.Gen Cert.KernelIdeal.Mesh Cert.KernelIdeal.Spec Cert.KernelIdeal.Cells

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Reading a slot after a transfer has landed in it -/

/-- The rectangle of the receive buffer a load of slot `(l, k)` reads. -/
abbrev rRect (l k : ℕ) (hl : l < 3) (hk : k < 5) : Rect S3x5x64x1024 :=
  Rect.unit (s := S3x5x64x1024) ![l, k, 0, 0] S1x1x64x1024.size (inbR l k hl hk)
abbrev w1Rect (s : ℕ) (hs : s < 2) : Rect S2x1024x2048 :=
  Rect.unit (s := S2x1024x2048) ![s, 0, 0] S1x1024x2048.size (inbW1 s hs)
abbrev w2Rect (s : ℕ) (hs : s < 2) : Rect S2x2048x1024 :=
  Rect.unit (s := S2x2048x1024) ![s, 0, 0] S1x2048x1024.size (inbW2 s hs)

/-- What a load of receive slot `(l, k)` through the whole receive buffer returns, shape-cast to the slot's shape. -/
def slotVal (l k : ℕ) (hl : l < 3) (hk : k < 5) (f : (cc0_scratch3 : Ref sig .tc).ty.Contents (Elt F)) : FVec F S64x1024 .bf16 :=
  shapeCast S64x1024 (recvM.view.readAt (Elt F) (rRect l k hl hk).toLoadRect f) shapeCasts_S1x1x64x1024_S64x1024
def w1Val (s : ℕ) (hs : s < 2) (f : (cc0_scratch0 : Ref sig .tc).ty.Contents (Elt F)) : FVec F S1024x2048 .f32 :=
  shapeCast S1024x2048 (winM.view.readAt (Elt F) (w1Rect s hs).toLoadRect f) shapeCasts_S1x1024x2048_S1024x2048
def w2Val (s : ℕ) (hs : s < 2) (f : (cc0_scratch1 : Ref sig .tc).ty.Contents (Elt F)) : FVec F S2048x1024 .f32 :=
  shapeCast S2048x1024 (woutM.view.readAt (Elt F) (w2Rect s hs).toLoadRect f) shapeCasts_S1x2048x1024_S2048x1024

/-- The load's value is what the slot's own view reads. -/
theorem slotVal_eq_read (l k : ℕ) (hl : l < 3) (hk : k < 5) (f : (cc0_scratch3 : Ref sig .tc).ty.Contents (Elt F)) :
    slotVal l k hl hk f = (rSlot l k hl hk).view.read (Elt F) f := rfl
theorem w1Val_eq_read (s : ℕ) (hs : s < 2) (f : (cc0_scratch0 : Ref sig .tc).ty.Contents (Elt F)) :
    w1Val s hs f = (w1Slot s hs).view.read (Elt F) f := rfl
theorem w2Val_eq_read (s : ℕ) (hs : s < 2) (f : (cc0_scratch1 : Ref sig .tc).ty.Contents (Elt F)) :
    w2Val s hs f = (w2Slot s hs).view.read (Elt F) f := rfl

/-- After any vector `w` is written through the slot on every index, the load returns `w`. -/
theorem slotVal_write (l k : ℕ) (hl : l < 3) (hk : k < 5) (fd : (cc0_scratch3 : Ref sig .tc).ty.Contents (Elt F))
    (w : FVec F S64x1024 .bf16) :
    slotVal l k hl hk ((rSlot l k hl hk).view.write (Elt F) fd w Finset.univ) = w :=
  View.read_write_univ (v := (rSlot l k hl hk).view) fd w
theorem w1Val_write (s : ℕ) (hs : s < 2) (fd : (cc0_scratch0 : Ref sig .tc).ty.Contents (Elt F)) (w : FVec F S1024x2048 .f32) :
    w1Val s hs ((w1Slot s hs).view.write (Elt F) fd w Finset.univ) = w :=
  View.read_write_univ (v := (w1Slot s hs).view) fd w
theorem w2Val_write (s : ℕ) (hs : s < 2) (fd : (cc0_scratch1 : Ref sig .tc).ty.Contents (Elt F)) (w : FVec F S2048x1024 .f32) :
    w2Val s hs ((w2Slot s hs).view.write (Elt F) fd w Finset.univ) = w :=
  View.read_write_univ (v := (w2Slot s hs).view) fd w

/-- READ AFTER LANDING, receive slot: the contents a transfer from a whole send buffer holding `fs` leaves. -/
theorem slotVal_landed (c c' : Dev nD) (l k : ℕ) (hl : l < 3) (hk : k < 5)
    (fd : Buf (Elt F) ((rSlot l k hl hk).view.loc (c : Thread nD τ))) (fs : Buf (Elt F) (sendM.view.loc (c' : Thread nD τ))) :
    slotVal l k hl hk ((rSlot l k hl hk).view.write (Elt F) fd (sendM.view.read (Elt F) fs) Finset.univ) = fs :=
  slotVal_write l k hl hk fd fs

/-- The same with the load spelt out. -/
theorem read_landed (c c' : Dev nD) (l k : ℕ) (hl : l < 3) (hk : k < 5)
    (fd : Buf (Elt F) ((rSlot l k hl hk).view.loc (c : Thread nD τ))) (fs : Buf (Elt F) (sendM.view.loc (c' : Thread nD τ))) :
    shapeCast S64x1024 (recvM.view.readAt (Elt F) (Rect.unit (s := S3x5x64x1024) ![l, k, 0, 0] S1x1x64x1024.size (inbR l k hl hk)).toLoadRect
      ((rSlot l k hl hk).view.write (Elt F) fd (sendM.view.read (Elt F) fs) Finset.univ)) shapeCasts_S1x1x64x1024_S64x1024 = fs :=
  slotVal_write l k hl hk fd fs

/-- READ AFTER LANDING, weight slots: the source any memref of the slot's shape, read at any contents
    (a whole HBM array reads as its contents, `View.read_whole`). -/
theorem w1Val_landed {sp : Space} (c : Dev nD) (s : ℕ) (hs : s < 2) (src : Memref sig .tc sp S1024x2048 .f32)
    (fd : Buf (Elt F) ((w1Slot s hs).view.loc (c : Thread nD τ))) (fs : Buf (Elt F) (src.view.loc (c : Thread nD τ))) :
    w1Val s hs ((w1Slot s hs).view.write (Elt F) fd (src.view.read (Elt F) fs) Finset.univ) = src.view.read (Elt F) fs :=
  w1Val_write s hs fd _
theorem w2Val_landed {sp : Space} (c : Dev nD) (s : ℕ) (hs : s < 2) (src : Memref sig .tc sp S2048x1024 .f32)
    (fd : Buf (Elt F) ((w2Slot s hs).view.loc (c : Thread nD τ))) (fs : Buf (Elt F) (src.view.loc (c : Thread nD τ))) :
    w2Val s hs ((w2Slot s hs).view.write (Elt F) fd (src.view.read (Elt F) fs) Finset.univ) = src.view.read (Elt F) fs :=
  w2Val_write s hs fd _

/-- At the three first-weight arrays and the three second-weight arrays the source reads as its contents. -/
theorem w1Val_landed_arg1 (c : Dev nD) (s : ℕ) (hs : s < 2) (fd : Buf (Elt F) ((w1Slot s hs).view.loc (c : Thread nD τ)))
    (fs : Buf (Elt F) ((c : Thread nD τ).loc main_arg1)) :
    w1Val s hs ((w1Slot s hs).view.write (Elt F) fd ((Memref.whole main_arg1 : Memref sig .tc _ _ _).view.read (Elt F) fs) Finset.univ) = fs :=
  w1Val_write s hs fd _
theorem w1Val_landed_arg3 (c : Dev nD) (s : ℕ) (hs : s < 2) (fd : Buf (Elt F) ((w1Slot s hs).view.loc (c : Thread nD τ)))
    (fs : Buf (Elt F) ((c : Thread nD τ).loc main_arg3)) :
    w1Val s hs ((w1Slot s hs).view.write (Elt F) fd ((Memref.whole main_arg3 : Memref sig .tc _ _ _).view.read (Elt F) fs) Finset.univ) = fs :=
  w1Val_write s hs fd _
theorem w1Val_landed_arg5 (c : Dev nD) (s : ℕ) (hs : s < 2) (fd : Buf (Elt F) ((w1Slot s hs).view.loc (c : Thread nD τ)))
    (fs : Buf (Elt F) ((c : Thread nD τ).loc main_arg5)) :
    w1Val s hs ((w1Slot s hs).view.write (Elt F) fd ((Memref.whole main_arg5 : Memref sig .tc _ _ _).view.read (Elt F) fs) Finset.univ) = fs :=
  w1Val_write s hs fd _
theorem w2Val_landed_arg2 (c : Dev nD) (s : ℕ) (hs : s < 2) (fd : Buf (Elt F) ((w2Slot s hs).view.loc (c : Thread nD τ)))
    (fs : Buf (Elt F) ((c : Thread nD τ).loc main_arg2)) :
    w2Val s hs ((w2Slot s hs).view.write (Elt F) fd ((Memref.whole main_arg2 : Memref sig .tc _ _ _).view.read (Elt F) fs) Finset.univ) = fs :=
  w2Val_write s hs fd _
theorem w2Val_landed_arg4 (c : Dev nD) (s : ℕ) (hs : s < 2) (fd : Buf (Elt F) ((w2Slot s hs).view.loc (c : Thread nD τ)))
    (fs : Buf (Elt F) ((c : Thread nD τ).loc main_arg4)) :
    w2Val s hs ((w2Slot s hs).view.write (Elt F) fd ((Memref.whole main_arg4 : Memref sig .tc _ _ _).view.read (Elt F) fs) Finset.univ) = fs :=
  w2Val_write s hs fd _
theorem w2Val_landed_arg6 (c : Dev nD) (s : ℕ) (hs : s < 2) (fd : Buf (Elt F) ((w2Slot s hs).view.loc (c : Thread nD τ)))
    (fs : Buf (Elt F) ((c : Thread nD τ).loc main_arg6)) :
    w2Val s hs ((w2Slot s hs).view.write (Elt F) fd ((Memref.whole main_arg6 : Memref sig .tc _ _ _).view.read (Elt F) fs) Finset.univ) = fs :=
  w2Val_write s hs fd _

/-! ## Whole-buffer loads and stores -/

theorem zero2 : (![0, 0] : Fin 2 → ℕ) = fun _ => 0 := by funext a; fin_cases a <;> rfl

/-- The rectangle of a `64 × 1024` buffer at zero offsets and full sizes: the whole buffer. -/
abbrev r0 : Rect S64x1024 := Rect.unit (s := S64x1024) ![0, 0] S64x1024.size inb_S64x1024_S64x1024_0_0

theorem sendM_store (f w : (cc0_scratch2 : Ref sig .tc).ty.Contents (Elt F)) :
    ((sendM : Memref sig .tc .vmem S64x1024 .bf16).access r0 : View sig .tc _ _ _).write (Elt F) f w Finset.univ = w :=
  Memref.write_access_unit_zero_univ (Elt F) cc0_scratch2 zero2 _ f w
theorem sendM_read (f : (cc0_scratch2 : Ref sig .tc).ty.Contents (Elt F)) :
    (sendM : Memref sig .tc .vmem S64x1024 .bf16).view.read (Elt F) f = f := rfl
theorem sendM_readAt (f : (cc0_scratch2 : Ref sig .tc).ty.Contents (Elt F)) :
    (sendM : Memref sig .tc .vmem S64x1024 .bf16).view.readAt (Elt F) r0.toLoadRect f = f :=
  Memref.readAt_unit_zero (Elt F) cc0_scratch2 zero2 _ f

theorem xM_store (f w : (cc0_stg0_0 : Ref sig .tc).ty.Contents (Elt F)) :
    ((xM : Memref sig .tc .vmem S64x1024 .f32).access r0 : View sig .tc _ _ _).write (Elt F) f w Finset.univ = w :=
  Memref.write_access_unit_zero_univ (Elt F) cc0_stg0_0 zero2 _ f w
theorem xM_read (f : (cc0_stg0_0 : Ref sig .tc).ty.Contents (Elt F)) :
    (xM : Memref sig .tc .vmem S64x1024 .f32).view.read (Elt F) f = f := rfl
theorem xM_readAt (f : (cc0_stg0_0 : Ref sig .tc).ty.Contents (Elt F)) :
    (xM : Memref sig .tc .vmem S64x1024 .f32).view.readAt (Elt F) r0.toLoadRect f = f :=
  Memref.readAt_unit_zero (Elt F) cc0_stg0_0 zero2 _ f

theorem oM_store (f w : (cc0_stg1_0 : Ref sig .tc).ty.Contents (Elt F)) :
    ((oM : Memref sig .tc .vmem S64x1024 .f32).access r0 : View sig .tc _ _ _).write (Elt F) f w Finset.univ = w :=
  Memref.write_access_unit_zero_univ (Elt F) cc0_stg1_0 zero2 _ f w
theorem oM_read (f : (cc0_stg1_0 : Ref sig .tc).ty.Contents (Elt F)) :
    (oM : Memref sig .tc .vmem S64x1024 .f32).view.read (Elt F) f = f := rfl
theorem oM_readAt (f : (cc0_stg1_0 : Ref sig .tc).ty.Contents (Elt F)) :
    (oM : Memref sig .tc .vmem S64x1024 .f32).view.readAt (Elt F) r0.toLoadRect f = f :=
  Memref.readAt_unit_zero (Elt F) cc0_stg1_0 zero2 _ f

/-- The whole buffers' element sets are everything. -/
theorem sendM_set : (sendM : Memref sig .tc .vmem S64x1024 .bf16).view.set = Finset.univ := View.set_whole _
theorem xM_set : (xM : Memref sig .tc .vmem S64x1024 .f32).view.set = Finset.univ := View.set_whole _
theorem oM_set : (oM : Memref sig .tc .vmem S64x1024 .f32).view.set = Finset.univ := View.set_whole _

/-! ## Transfer credits -/

/-- What a transfer into a receive slot, a first-weight slot, a second-weight slot credits its semaphore. -/
def NR : ℕ := (rSlot 0 0 (by decide) (by decide)).view.dmaCredit
def NW1 : ℕ := (w1Slot 0 (by decide)).view.dmaCredit
def NW2 : ℕ := (w2Slot 0 (by decide)).view.dmaCredit

theorem rSlot_dmaCredit (l k : ℕ) (hl : l < 3) (hk : k < 5) : (rSlot l k hl hk).view.dmaCredit = NR := rfl
theorem w1Slot_dmaCredit (s : ℕ) (hs : s < 2) : (w1Slot s hs).view.dmaCredit = NW1 := rfl
theorem w2Slot_dmaCredit (s : ℕ) (hs : s < 2) : (w2Slot s hs).view.dmaCredit = NW2 := rfl

theorem rSlot_amount (l k : ℕ) (hl : l < 3) (hk : k < 5) (sm : DmaSem sig) : (rSlot l k hl hk).view.amount (.dma sm) = NR := rfl
theorem w1Slot_amount (s : ℕ) (hs : s < 2) (sm : DmaSem sig) : (w1Slot s hs).view.amount (.dma sm) = NW1 := rfl
theorem w2Slot_amount (s : ℕ) (hs : s < 2) (sm : DmaSem sig) : (w2Slot s hs).view.amount (.dma sm) = NW2 := rfl

theorem NR_pos : 0 < NR := View.dmaCredit_pos (v := (rSlot 0 0 (by decide) (by decide)).view) h_S64x1024
theorem NW1_pos : 0 < NW1 := View.dmaCredit_pos (v := (w1Slot 0 (by decide)).view) (by decide)
theorem NW2_pos : 0 < NW2 := View.dmaCredit_pos (v := (w2Slot 0 (by decide)).view) (by decide)

/-! ## Splitting the buffers into their slots and joining them back -/

/-- The elements of a slot, as a set of the whole buffer's indices. -/
def rSlotSet (l k : ℕ) (hl : l < 3) (hk : k < 5) : Finset S3x5x64x1024.Idx := (rSlot l k hl hk).view.set
def w1SlotSet (s : ℕ) (hs : s < 2) : Finset S2x1024x2048.Idx := (w1Slot s hs).view.set
def w2SlotSet (s : ℕ) (hs : s < 2) : Finset S2x2048x1024.Idx := (w2Slot s hs).view.set

/-- A slot's elements are those of its rectangle. -/
theorem rSlotSet_eq (l k : ℕ) (hl : l < 3) (hk : k < 5) : rSlotSet l k hl hk = (rRect l k hl hk).set :=
  (View.set_reshape _ _).trans (View.set_slice_whole cc0_scratch3 _)
theorem w1SlotSet_eq (s : ℕ) (hs : s < 2) : w1SlotSet s hs = (w1Rect s hs).set :=
  (View.set_reshape _ _).trans (View.set_slice_whole cc0_scratch0 _)
theorem w2SlotSet_eq (s : ℕ) (hs : s < 2) : w2SlotSet s hs = (w2Rect s hs).set :=
  (View.set_reshape _ _).trans (View.set_slice_whole cc0_scratch1 _)

/-- Membership in a slot: the leading coordinates are the slot's. -/
theorem mem_rSlotSet (l k : ℕ) (hl : l < 3) (hk : k < 5) (i : S3x5x64x1024.Idx) :
    i ∈ rSlotSet l k hl hk ↔ (i 0 : ℕ) = l ∧ (i 1 : ℕ) = k := by
  rw [rSlotSet_eq]
  refine Rect.mem_set_unit.trans ?_
  constructor
  · intro h
    have h0 : l ≤ (i 0 : ℕ) ∧ (i 0 : ℕ) < l + 1 := h 0
    have h1 : k ≤ (i 1 : ℕ) ∧ (i 1 : ℕ) < k + 1 := h 1
    exact ⟨by omega, by omega⟩
  · rintro ⟨h0, h1⟩ a
    match a with
    | ⟨0, _⟩ => show l ≤ (i 0 : ℕ) ∧ (i 0 : ℕ) < l + 1; omega
    | ⟨1, _⟩ => show k ≤ (i 1 : ℕ) ∧ (i 1 : ℕ) < k + 1; omega
    | ⟨2, _⟩ => exact ⟨Nat.zero_le _, by show (i 2 : ℕ) < 0 + 64; have : (i 2 : ℕ) < 64 := (i 2).isLt; omega⟩
    | ⟨3, _⟩ => exact ⟨Nat.zero_le _, by show (i 3 : ℕ) < 0 + 1024; have : (i 3 : ℕ) < 1024 := (i 3).isLt; omega⟩
theorem mem_w1SlotSet (s : ℕ) (hs : s < 2) (i : S2x1024x2048.Idx) : i ∈ w1SlotSet s hs ↔ (i 0 : ℕ) = s := by
  rw [w1SlotSet_eq]
  refine Rect.mem_set_unit.trans ?_
  constructor
  · intro h
    have h0 : s ≤ (i 0 : ℕ) ∧ (i 0 : ℕ) < s + 1 := h 0
    omega
  · intro h0 a
    match a with
    | ⟨0, _⟩ => show s ≤ (i 0 : ℕ) ∧ (i 0 : ℕ) < s + 1; omega
    | ⟨1, _⟩ => exact ⟨Nat.zero_le _, by show (i 1 : ℕ) < 0 + 1024; have : (i 1 : ℕ) < 1024 := (i 1).isLt; omega⟩
    | ⟨2, _⟩ => exact ⟨Nat.zero_le _, by show (i 2 : ℕ) < 0 + 2048; have : (i 2 : ℕ) < 2048 := (i 2).isLt; omega⟩
theorem mem_w2SlotSet (s : ℕ) (hs : s < 2) (i : S2x2048x1024.Idx) : i ∈ w2SlotSet s hs ↔ (i 0 : ℕ) = s := by
  rw [w2SlotSet_eq]
  refine Rect.mem_set_unit.trans ?_
  constructor
  · intro h
    have h0 : s ≤ (i 0 : ℕ) ∧ (i 0 : ℕ) < s + 1 := h 0
    omega
  · intro h0 a
    match a with
    | ⟨0, _⟩ => show s ≤ (i 0 : ℕ) ∧ (i 0 : ℕ) < s + 1; omega
    | ⟨1, _⟩ => exact ⟨Nat.zero_le _, by show (i 1 : ℕ) < 0 + 2048; have : (i 1 : ℕ) < 2048 := (i 1).isLt; omega⟩
    | ⟨2, _⟩ => exact ⟨Nat.zero_le _, by show (i 2 : ℕ) < 0 + 1024; have : (i 2 : ℕ) < 1024 := (i 2).isLt; omega⟩

/-- Different slots share no element. -/
theorem rSlotSet_disjoint (l k l' k' : ℕ) (hl : l < 3) (hk : k < 5) (hl' : l' < 3) (hk' : k' < 5) (h : l ≠ l' ∨ k ≠ k') :
    Disjoint (rSlotSet l k hl hk) (rSlotSet l' k' hl' hk') := by
  rw [Finset.disjoint_left]
  intro i hi hi'
  rw [mem_rSlotSet] at hi hi'
  omega
theorem w1SlotSet_disjoint (s s' : ℕ) (hs : s < 2) (hs' : s' < 2) (h : s ≠ s') : Disjoint (w1SlotSet s hs) (w1SlotSet s' hs') := by
  rw [Finset.disjoint_left]
  intro i hi hi'
  rw [mem_w1SlotSet] at hi hi'
  omega
theorem w2SlotSet_disjoint (s s' : ℕ) (hs : s < 2) (hs' : s' < 2) (h : s ≠ s') : Disjoint (w2SlotSet s hs) (w2SlotSet s' hs') := by
  rw [Finset.disjoint_left]
  intro i hi hi'
  rw [mem_w2SlotSet] at hi hi'
  omega

/-- The slots' element sets, indexed by the slot. -/
def rSet (t : Fin 3 × Fin 5) : Finset S3x5x64x1024.Idx := rSlotSet t.1 t.2 t.1.isLt t.2.isLt
def w1Set (s : Fin 2) : Finset S2x1024x2048.Idx := w1SlotSet s s.isLt
def w2Set (s : Fin 2) : Finset S2x2048x1024.Idx := w2SlotSet s s.isLt

theorem rSet_disjoint (t t' : Fin 3 × Fin 5) (h : t ≠ t') : Disjoint (rSet t) (rSet t') := by
  apply rSlotSet_disjoint
  by_contra hc
  rw [not_or, not_not, not_not] at hc
  exact h (Prod.ext (Fin.ext hc.1) (Fin.ext hc.2))
theorem w1Set_disjoint (s s' : Fin 2) (h : s ≠ s') : Disjoint (w1Set s) (w1Set s') :=
  w1SlotSet_disjoint _ _ _ _ fun e => h (Fin.ext e)
theorem w2Set_disjoint (s s' : Fin 2) (h : s ≠ s') : Disjoint (w2Set s) (w2Set s') :=
  w2SlotSet_disjoint _ _ _ _ fun e => h (Fin.ext e)

/-- The slots cover their buffer. -/
theorem rSet_cover : (Finset.univ : Finset (Fin 3 × Fin 5)).biUnion rSet = Finset.univ := by
  ext i
  simp only [Finset.mem_biUnion, Finset.mem_univ, true_and, iff_true]
  exact ⟨(⟨(i 0 : ℕ), (i 0).isLt⟩, ⟨(i 1 : ℕ), (i 1).isLt⟩), (mem_rSlotSet _ _ _ _ i).mpr ⟨rfl, rfl⟩⟩
theorem w1Set_cover : (Finset.univ : Finset (Fin 2)).biUnion w1Set = Finset.univ := by
  ext i
  simp only [Finset.mem_biUnion, Finset.mem_univ, true_and, iff_true]
  exact ⟨⟨(i 0 : ℕ), (i 0).isLt⟩, (mem_w1SlotSet _ _ i).mpr rfl⟩
theorem w2Set_cover : (Finset.univ : Finset (Fin 2)).biUnion w2Set = Finset.univ := by
  ext i
  simp only [Finset.mem_biUnion, Finset.mem_univ, true_and, iff_true]
  exact ⟨⟨(i 0 : ℕ), (i 0).isLt⟩, (mem_w2SlotSet _ _ i).mpr rfl⟩

/-- Pairwise disjoint element sets held at arbitrary contents each join into their union held at some contents. -/
theorem pointsTo_biUnion_join_ex {ℓ : Loc nD τ sig} {q : PosShare TreeShare} {T : Type} (S : Finset T) (K : T → Finset (Idx ℓ))
    (f₀ : Buf (Elt F) ℓ) (h : ∀ t ∈ S, ∀ t' ∈ S, t ≠ t' → Disjoint (K t) (K t')) :
    bigSep S (fun t => (iprop(∃ f : Buf (Elt F) ℓ, ℓ ↦[K t]{q} f) : sProp 𝕄))
      ⊢ (iprop(∃ g : Buf (Elt F) ℓ, ℓ ↦[S.biUnion K]{q} g) : sProp 𝕄) := by
  classical
  induction S using Finset.induction_on with
  | empty =>
    iintro -
    iexists f₀
    rw [Finset.biUnion_empty, pointsTo_empty]; iempintro
  | insert t S ht ih =>
    rw [bigSep_insert ht, Finset.biUnion_insert]
    have hd : Disjoint (K t) (S.biUnion K) :=
      (Finset.disjoint_biUnion_right _ _ _).mpr fun t' ht' =>
        h t (Finset.mem_insert_self _ _) t' (Finset.mem_insert_of_mem ht') (fun e => ht (e ▸ ht'))
    refine (show iprop((∃ f : Buf (Elt F) ℓ, ℓ ↦[K t]{q} f) ∗ bigSep S (fun t => (iprop(∃ f : Buf (Elt F) ℓ, ℓ ↦[K t]{q} f) : sProp 𝕄))) ⊢ _ from ?_)
    iintro ⟨⟨%f, Ht⟩, HS⟩
    ihave H := (ih fun t₁ h₁ t₂ h₂ => h t₁ (Finset.mem_insert_of_mem h₁) t₂ (Finset.mem_insert_of_mem h₂)) $$ HS
    icases H with ⟨%g, HS⟩
    iexists (S.biUnion K).piecewise g f
    iapply (pointsTo_join hd)
    isplitl [Ht]; · iexact Ht
    iexact HS

section Split
variable (c : Dev nD) {q : PosShare TreeShare}

/-- SPLIT: the whole receive buffer's points-to is the separating conjunction of its fifteen slots' (an equation,
    so it also joins slots held at the SAME contents). -/
theorem recv_split (f : Buf (Elt F) ((c : Thread nD τ).loc cc0_scratch3)) :
    ((((c : Thread nD τ).loc cc0_scratch3) ↦{q} f) : sProp 𝕄)
      = bigSep (Finset.univ : Finset (Fin 3 × Fin 5)) fun t =>
          ((rSlot t.1 t.2 t.1.isLt t.2.isLt).view.loc (c : Thread nD τ) ↦[(rSlot t.1 t.2 t.1.isLt t.2.isLt).view.set]{q} f) := by
  have h := pointsTo_biUnion (nD := nD) (τ := τ) (sig := sig) (Ix := Unit) (Val := Elt F) (Name := ℕ) (U := UU) (Lvl := ℕ)
    (ℓ := (c : Thread nD τ).loc cc0_scratch3) (q := q) (f := f) (Finset.univ : Finset (Fin 3 × Fin 5)) rSet
    (fun t _ t' _ hne => rSet_disjoint t t' hne)
  rw [rSet_cover] at h
  exact h

/-- JOIN: fifteen slots held at arbitrary contents `fs t` make the whole buffer at contents agreeing with each on its slot. -/
theorem recv_join (fs : Fin 3 × Fin 5 → Buf (Elt F) ((c : Thread nD τ).loc cc0_scratch3)) :
    bigSep (Finset.univ : Finset (Fin 3 × Fin 5)) (fun t =>
        ((rSlot t.1 t.2 t.1.isLt t.2.isLt).view.loc (c : Thread nD τ) ↦[(rSlot t.1 t.2 t.1.isLt t.2.isLt).view.set]{q} fs t : sProp 𝕄))
      ⊢ (iprop(∃ g : Buf (Elt F) ((c : Thread nD τ).loc cc0_scratch3), ⌜∀ t, ∀ i ∈ rSet t, g i = fs t i⌝ ∗ (((c : Thread nD τ).loc cc0_scratch3) ↦{q} g)) : sProp 𝕄) := by
  have h := pointsTo_biUnion_join (nD := nD) (τ := τ) (sig := sig) (Ix := Unit) (Val := Elt F) (Name := ℕ) (U := UU) (Lvl := ℕ)
    (ℓ := (c : Thread nD τ).loc cc0_scratch3) (q := q) (Finset.univ : Finset (Fin 3 × Fin 5)) rSet fs (fs (0, 0))
    (fun t _ t' _ hne => rSet_disjoint t t' hne)
  rw [rSet_cover] at h
  refine h.trans ?_
  iintro ⟨%g, %hg, H⟩
  iexists g
  isplitr
  · ipureintro; exact fun t => hg t (Finset.mem_univ t)
  · iexact H

/-- JOIN, contents forgotten: fifteen slots each held at some contents make the whole buffer at some contents. -/
theorem recv_join_ex (f₀ : Buf (Elt F) ((c : Thread nD τ).loc cc0_scratch3)) :
    bigSep (Finset.univ : Finset (Fin 3 × Fin 5)) (fun t =>
        (iprop(∃ f : Buf (Elt F) ((c : Thread nD τ).loc cc0_scratch3),
          (rSlot t.1 t.2 t.1.isLt t.2.isLt).view.loc (c : Thread nD τ) ↦[(rSlot t.1 t.2 t.1.isLt t.2.isLt).view.set]{q} f) : sProp 𝕄))
      ⊢ (iprop(∃ g : Buf (Elt F) ((c : Thread nD τ).loc cc0_scratch3), ((c : Thread nD τ).loc cc0_scratch3) ↦{q} g) : sProp 𝕄) := by
  have h := pointsTo_biUnion_join_ex (F := F) (ℓ := (c : Thread nD τ).loc cc0_scratch3) (q := q) (Finset.univ : Finset (Fin 3 × Fin 5)) rSet f₀
    (fun t _ t' _ hne => rSet_disjoint t t' hne)
  rw [rSet_cover] at h
  exact h

end Split

section SplitW
variable (c : Dev nD) {q : PosShare TreeShare}

theorem w1SlotSet_union : w1SlotSet 0 Nat.zero_lt_two ∪ w1SlotSet 1 Nat.one_lt_two = Finset.univ := by
  ext i
  simp only [Finset.mem_union, mem_w1SlotSet, Finset.mem_univ, iff_true]
  have : (i 0 : ℕ) < 2 := (i 0).isLt
  omega
theorem w2SlotSet_union : w2SlotSet 0 Nat.zero_lt_two ∪ w2SlotSet 1 Nat.one_lt_two = Finset.univ := by
  ext i
  simp only [Finset.mem_union, mem_w2SlotSet, Finset.mem_univ, iff_true]
  have : (i 0 : ℕ) < 2 := (i 0).isLt
  omega

/-- SPLIT: the first-weight buffer's points-to is its two slots'. -/
theorem win_split (f : Buf (Elt F) ((c : Thread nD τ).loc cc0_scratch0)) :
    ((((c : Thread nD τ).loc cc0_scratch0) ↦{q} f) : sProp 𝕄)
      ⊣⊢ iprop(((w1Slot 0 Nat.zero_lt_two).view.loc (c : Thread nD τ) ↦[(w1Slot 0 Nat.zero_lt_two).view.set]{q} f)
          ∗ ((w1Slot 1 Nat.one_lt_two).view.loc (c : Thread nD τ) ↦[(w1Slot 1 Nat.one_lt_two).view.set]{q} f)) := by
  have h := pointsTo_union (nD := nD) (τ := τ) (sig := sig) (Ix := Unit) (Val := Elt F) (Name := ℕ) (U := UU) (Lvl := ℕ)
    (ℓ := (c : Thread nD τ).loc cc0_scratch0) (q := q) (f := f) (w1SlotSet_disjoint 0 1 Nat.zero_lt_two Nat.one_lt_two Nat.zero_ne_one)
  rw [w1SlotSet_union] at h
  exact h
theorem wout_split (f : Buf (Elt F) ((c : Thread nD τ).loc cc0_scratch1)) :
    ((((c : Thread nD τ).loc cc0_scratch1) ↦{q} f) : sProp 𝕄)
      ⊣⊢ iprop(((w2Slot 0 Nat.zero_lt_two).view.loc (c : Thread nD τ) ↦[(w2Slot 0 Nat.zero_lt_two).view.set]{q} f)
          ∗ ((w2Slot 1 Nat.one_lt_two).view.loc (c : Thread nD τ) ↦[(w2Slot 1 Nat.one_lt_two).view.set]{q} f)) := by
  have h := pointsTo_union (nD := nD) (τ := τ) (sig := sig) (Ix := Unit) (Val := Elt F) (Name := ℕ) (U := UU) (Lvl := ℕ)
    (ℓ := (c : Thread nD τ).loc cc0_scratch1) (q := q) (f := f) (w2SlotSet_disjoint 0 1 Nat.zero_lt_two Nat.one_lt_two Nat.zero_ne_one)
  rw [w2SlotSet_union] at h
  exact h

/-- JOIN: the two slots held at different contents make the whole buffer, slot 1's contents pieced into slot 0's. -/
theorem win_join (f0 f1 : Buf (Elt F) ((c : Thread nD τ).loc cc0_scratch0)) :
    (iprop(((w1Slot 0 Nat.zero_lt_two).view.loc (c : Thread nD τ) ↦[(w1Slot 0 Nat.zero_lt_two).view.set]{q} f0)
          ∗ ((w1Slot 1 Nat.one_lt_two).view.loc (c : Thread nD τ) ↦[(w1Slot 1 Nat.one_lt_two).view.set]{q} f1)) : sProp 𝕄)
      ⊢ (((c : Thread nD τ).loc cc0_scratch0) ↦{q} ((w1SlotSet 1 Nat.one_lt_two).piecewise f1 f0)) := by
  have h := pointsTo_join (nD := nD) (τ := τ) (sig := sig) (Ix := Unit) (Val := Elt F) (Name := ℕ) (U := UU) (Lvl := ℕ)
    (ℓ := (c : Thread nD τ).loc cc0_scratch0) (q := q) (f := f0) (g := f1) (w1SlotSet_disjoint 0 1 Nat.zero_lt_two Nat.one_lt_two Nat.zero_ne_one)
  rw [w1SlotSet_union] at h
  exact h
theorem wout_join (f0 f1 : Buf (Elt F) ((c : Thread nD τ).loc cc0_scratch1)) :
    (iprop(((w2Slot 0 Nat.zero_lt_two).view.loc (c : Thread nD τ) ↦[(w2Slot 0 Nat.zero_lt_two).view.set]{q} f0)
          ∗ ((w2Slot 1 Nat.one_lt_two).view.loc (c : Thread nD τ) ↦[(w2Slot 1 Nat.one_lt_two).view.set]{q} f1)) : sProp 𝕄)
      ⊢ (((c : Thread nD τ).loc cc0_scratch1) ↦{q} ((w2SlotSet 1 Nat.one_lt_two).piecewise f1 f0)) := by
  have h := pointsTo_join (nD := nD) (τ := τ) (sig := sig) (Ix := Unit) (Val := Elt F) (Name := ℕ) (U := UU) (Lvl := ℕ)
    (ℓ := (c : Thread nD τ).loc cc0_scratch1) (q := q) (f := f0) (g := f1) (w2SlotSet_disjoint 0 1 Nat.zero_lt_two Nat.one_lt_two Nat.zero_ne_one)
  rw [w2SlotSet_union] at h
  exact h

/-- JOIN, contents forgotten. -/
theorem win_join_ex :
    (iprop((∃ f : Buf (Elt F) ((c : Thread nD τ).loc cc0_scratch0), (w1Slot 0 Nat.zero_lt_two).view.loc (c : Thread nD τ) ↦[(w1Slot 0 Nat.zero_lt_two).view.set]{q} f)
          ∗ (∃ f : Buf (Elt F) ((c : Thread nD τ).loc cc0_scratch0), (w1Slot 1 Nat.one_lt_two).view.loc (c : Thread nD τ) ↦[(w1Slot 1 Nat.one_lt_two).view.set]{q} f)) : sProp 𝕄)
      ⊢ iprop(∃ g : Buf (Elt F) ((c : Thread nD τ).loc cc0_scratch0), ((c : Thread nD τ).loc cc0_scratch0) ↦{q} g) := by
  iintro ⟨⟨%f0, H0⟩, ⟨%f1, H1⟩⟩
  iexists ((w1SlotSet 1 Nat.one_lt_two).piecewise f1 f0)
  iapply (win_join c f0 f1)
  isplitl [H0]; · iexact H0
  iexact H1
theorem wout_join_ex :
    (iprop((∃ f : Buf (Elt F) ((c : Thread nD τ).loc cc0_scratch1), (w2Slot 0 Nat.zero_lt_two).view.loc (c : Thread nD τ) ↦[(w2Slot 0 Nat.zero_lt_two).view.set]{q} f)
          ∗ (∃ f : Buf (Elt F) ((c : Thread nD τ).loc cc0_scratch1), (w2Slot 1 Nat.one_lt_two).view.loc (c : Thread nD τ) ↦[(w2Slot 1 Nat.one_lt_two).view.set]{q} f)) : sProp 𝕄)
      ⊢ iprop(∃ g : Buf (Elt F) ((c : Thread nD τ).loc cc0_scratch1), ((c : Thread nD τ).loc cc0_scratch1) ↦{q} g) := by
  iintro ⟨⟨%f0, H0⟩, ⟨%f1, H1⟩⟩
  iexists ((w2SlotSet 1 Nat.one_lt_two).piecewise f1 f0)
  iapply (wout_join c f0 f1)
  isplitl [H0]; · iexact H0
  iexact H1

end SplitW

/-- A separating conjunction over the fifteen slots, written out. -/
theorem bigSep_slots (Φ : Fin 3 × Fin 5 → sProp 𝕄) :
    bigSep (Finset.univ : Finset (Fin 3 × Fin 5)) Φ
      = iprop(Φ (0, 0) ∗ Φ (0, 1) ∗ Φ (0, 2) ∗ Φ (0, 3) ∗ Φ (0, 4) ∗ Φ (1, 0) ∗ Φ (1, 1) ∗ Φ (1, 2) ∗ Φ (1, 3) ∗ Φ (1, 4)
          ∗ Φ (2, 0) ∗ Φ (2, 1) ∗ Φ (2, 2) ∗ Φ (2, 3) ∗ Φ (2, 4)) := by
  rw [show (Finset.univ : Finset (Fin 3 × Fin 5)) = {(0, 0), (0, 1), (0, 2), (0, 3), (0, 4), (1, 0), (1, 1), (1, 2), (1, 3), (1, 4),
      (2, 0), (2, 1), (2, 2), (2, 3), (2, 4)} by decide]
  rw [bigSep_insert, bigSep_insert, bigSep_insert, bigSep_insert, bigSep_insert, bigSep_insert, bigSep_insert, bigSep_insert,
    bigSep_insert, bigSep_insert, bigSep_insert, bigSep_insert, bigSep_insert, bigSep_insert, bigSep_singleton]
  · rfl
  all_goals decide

/-! ## The fifteen receive slots written out -/

theorem h0_3 : 0 < 3 := by decide
theorem h1_3 : 1 < 3 := by decide
theorem h2_3 : 2 < 3 := by decide
theorem h0_5 : 0 < 5 := by decide
theorem h1_5 : 1 < 5 := by decide
theorem h2_5 : 2 < 5 := by decide
theorem h3_5 : 3 < 5 := by decide
theorem h4_5 : 4 < 5 := by decide

/-- Receive slot `(l, k)` of device `c` held at share `q` and contents `f`: the points-to a transfer into the slot consumes. -/
abbrev rPts (c : Dev nD) (q : PosShare TreeShare) (l k : ℕ) (hl : l < 3) (hk : k < 5)
    (f : Buf (Elt F) ((c : Thread nD τ).loc cc0_scratch3)) : sProp 𝕄 :=
  (rSlot l k hl hk).view.loc (c : Thread nD τ) ↦[(rSlot l k hl hk).view.set]{q} f

section Chain
variable (c : Dev nD) {q : PosShare TreeShare}

/-- SPLIT, written out: the whole receive buffer's points-to is the fifteen slots', layer by layer, stage by stage. -/
theorem recv_split_chain (f : Buf (Elt F) ((c : Thread nD τ).loc cc0_scratch3)) :
    ((((c : Thread nD τ).loc cc0_scratch3) ↦{q} f) : sProp 𝕄)
      = iprop(rPts c q 0 0 h0_3 h0_5 f ∗ rPts c q 0 1 h0_3 h1_5 f ∗ rPts c q 0 2 h0_3 h2_5 f ∗ rPts c q 0 3 h0_3 h3_5 f ∗ rPts c q 0 4 h0_3 h4_5 f ∗ rPts c q 1 0 h1_3 h0_5 f ∗ rPts c q 1 1 h1_3 h1_5 f ∗ rPts c q 1 2 h1_3 h2_5 f ∗ rPts c q 1 3 h1_3 h3_5 f ∗ rPts c q 1 4 h1_3 h4_5 f ∗ rPts c q 2 0 h2_3 h0_5 f ∗ rPts c q 2 1 h2_3 h1_5 f ∗ rPts c q 2 2 h2_3 h2_5 f ∗ rPts c q 2 3 h2_3 h3_5 f ∗ rPts c q 2 4 h2_3 h4_5 f) := by
  rw [recv_split, bigSep_slots]
  rfl

/-- JOIN, written out, contents forgotten. -/
theorem recv_join_ex_chain (f₀ : Buf (Elt F) ((c : Thread nD τ).loc cc0_scratch3)) :
    (iprop((∃ f : Buf (Elt F) ((c : Thread nD τ).loc cc0_scratch3), rPts c q 0 0 h0_3 h0_5 f)
        ∗ (∃ f : Buf (Elt F) ((c : Thread nD τ).loc cc0_scratch3), rPts c q 0 1 h0_3 h1_5 f)
        ∗ (∃ f : Buf (Elt F) ((c : Thread nD τ).loc cc0_scratch3), rPts c q 0 2 h0_3 h2_5 f)
        ∗ (∃ f : Buf (Elt F) ((c : Thread nD τ).loc cc0_scratch3), rPts c q 0 3 h0_3 h3_5 f)
        ∗ (∃ f : Buf (Elt F) ((c : Thread nD τ).loc cc0_scratch3), rPts c q 0 4 h0_3 h4_5 f)
        ∗ (∃ f : Buf (Elt F) ((c : Thread nD τ).loc cc0_scratch3), rPts c q 1 0 h1_3 h0_5 f)
        ∗ (∃ f : Buf (Elt F) ((c : Thread nD τ).loc cc0_scratch3), rPts c q 1 1 h1_3 h1_5 f)
        ∗ (∃ f : Buf (Elt F) ((c : Thread nD τ).loc cc0_scratch3), rPts c q 1 2 h1_3 h2_5 f)
        ∗ (∃ f : Buf (Elt F) ((c : Thread nD τ).loc cc0_scratch3), rPts c q 1 3 h1_3 h3_5 f)
        ∗ (∃ f : Buf (Elt F) ((c : Thread nD τ).loc cc0_scratch3), rPts c q 1 4 h1_3 h4_5 f)
        ∗ (∃ f : Buf (Elt F) ((c : Thread nD τ).loc cc0_scratch3), rPts c q 2 0 h2_3 h0_5 f)
        ∗ (∃ f : Buf (Elt F) ((c : Thread nD τ).loc cc0_scratch3), rPts c q 2 1 h2_3 h1_5 f)
        ∗ (∃ f : Buf (Elt F) ((c : Thread nD τ).loc cc0_scratch3), rPts c q 2 2 h2_3 h2_5 f)
        ∗ (∃ f : Buf (Elt F) ((c : Thread nD τ).loc cc0_scratch3), rPts c q 2 3 h2_3 h3_5 f)
        ∗ (∃ f : Buf (Elt F) ((c : Thread nD τ).loc cc0_scratch3), rPts c q 2 4 h2_3 h4_5 f)) : sProp 𝕄)
      ⊢ iprop(∃ g : Buf (Elt F) ((c : Thread nD τ).loc cc0_scratch3), ((c : Thread nD τ).loc cc0_scratch3) ↦{q} g) := by
  refine (Entails.of_eq ?_).trans (recv_join_ex c f₀)
  rw [bigSep_slots]
  rfl

end Chain

end Cert.KernelIdeal.MemLemmas
end
-- ==== Proof.Tables.lean ====
import proofs.«900580_g7700000000000581_dist_mlpseq_tp1d_rep_rep_b64_d1024_h2048_v7x_i32_f32_1_alg».proof.Proof.Schedule

/-!
# The schedule's tables, cell by cell

The duties, amounts, expected totals and payloads of each kind of cell, in the form the rules of the rounds
discipline take them: the entry cell's five unit duties in round 0; the send cell's one duty in each of rounds
0 … 14; a receive or copy cell's one duty in round 0; and that nothing is scheduled afterwards.  Each entry is read
off the schedule by decoding the cell's semaphore number.
-/

noncomputable section

namespace Cert.KernelIdeal.Tables

open Cert.KernelIdeal Cert.KernelIdeal.Gen Cert.KernelIdeal.Mesh Cert.KernelIdeal.Spec Cert.KernelIdeal.Cells Cert.KernelIdeal.Schedule

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section
variable (c : Dev nD)

/-! ### Duties -/

theorem duties_bar : (Rd (F := F) m).duties (barCell c) 0 = Finset.univ := by
  show (if (barS : Sem sig) = barS ∧ (0 : ℕ) = 0 then (Finset.univ : Finset (Fin 5)) else ∅) = Finset.univ
  exact if_pos ⟨rfl, rfl⟩
theorem duties_bar_later (r : ℕ) (hr : 1 ≤ r) : (Rd (F := F) m).duties (barCell c) r = ∅ := by
  show (if (barS : Sem sig) = barS ∧ r = 0 then (Finset.univ : Finset (Fin 5)) else ∅) = ∅
  exact if_neg (fun h => by omega)
theorem duties_sd (r : ℕ) (hr : r < 15) : (Rd (F := F) m).duties (sdCell c) r = {0} := by
  show dut (kindOf (2 + 6)) r = {0}
  rw [kindOf_sd]; exact if_pos hr
theorem duties_sd_later (r : ℕ) (hr : 15 ≤ r) : (Rd (F := F) m).duties (sdCell c) r = ∅ := by
  show dut (kindOf (2 + 6)) r = ∅
  rw [kindOf_sd]; exact if_neg (by omega)
theorem duties_rv (l k : ℕ) (hl : l < 3) (hk : k < 5) : (Rd (F := F) m).duties (rvCell c l k hl hk) 0 = {0} := by
  show dut (kindOf (2 + (7 + 5 * l + k))) 0 = {0}
  rw [kindOf_rv l k hl hk]; rfl
theorem duties_rv_later (l k : ℕ) (hl : l < 3) (hk : k < 5) (r : ℕ) (hr : 1 ≤ r) : (Rd (F := F) m).duties (rvCell c l k hl hk) r = ∅ := by
  show dut (kindOf (2 + (7 + 5 * l + k))) r = ∅
  rw [kindOf_rv l k hl hk]; exact if_neg (by omega)
theorem duties_cp (l i : ℕ) (hl : l < 3) (hi : i < 2) : (Rd (F := F) m).duties (cpCell c l i hl hi) 0 = {0} := by
  show dut (kindOf (2 + (2 * l + i))) 0 = {0}
  rw [kindOf_cp l i hl hi]; rfl
theorem duties_cp_later (l i : ℕ) (hl : l < 3) (hi : i < 2) (r : ℕ) (hr : 1 ≤ r) : (Rd (F := F) m).duties (cpCell c l i hl hi) r = ∅ := by
  show dut (kindOf (2 + (2 * l + i))) r = ∅
  rw [kindOf_cp l i hl hi]; exact if_neg (by omega)

/-! ### Amounts -/

theorem amount_bar (r : ℕ) (d : Fin 5) : (Rd (F := F) m).amount (barCell c) r d = 1 := rfl
theorem amount_sd (r : ℕ) (d : Fin 5) : (Rd (F := F) m).amount (sdCell c) r d = NR := by
  show amt (kindOf (2 + 6)) = NR
  rw [kindOf_sd]; rfl
theorem amount_rv (l k : ℕ) (hl : l < 3) (hk : k < 5) (r : ℕ) (d : Fin 5) : (Rd (F := F) m).amount (rvCell c l k hl hk) r d = NR := by
  show amt (kindOf (2 + (7 + 5 * l + k))) = NR
  rw [kindOf_rv l k hl hk]; rfl
theorem amount_cp0 (l : ℕ) (hl : l < 3) (r : ℕ) (d : Fin 5) : (Rd (F := F) m).amount (cpCell c l 0 hl Nat.zero_lt_two) r d = NW1 := by
  show amt (kindOf (2 + (2 * l + 0))) = NW1
  rw [kindOf_cp l 0 hl Nat.zero_lt_two]
  show (if (0 : ℕ) = 0 then NW1 else NW2) = NW1
  exact if_pos rfl
theorem amount_cp1 (l : ℕ) (hl : l < 3) (r : ℕ) (d : Fin 5) : (Rd (F := F) m).amount (cpCell c l 1 hl Nat.one_lt_two) r d = NW2 := by
  show amt (kindOf (2 + (2 * l + 1))) = NW2
  rw [kindOf_cp l 1 hl Nat.one_lt_two]
  show (if (1 : ℕ) = 0 then NW1 else NW2) = NW2
  exact if_neg Nat.one_ne_zero

/-! ### Expected totals -/

theorem expect_bar : (Rd (F := F) m).expect (barCell c) 0 = 5 := by
  unfold Schedule.expect Schedule.amountOf
  rw [duties_bar, Finset.sum_congr rfl fun d _ => amount_bar m c 0 d, Finset.sum_const, Finset.card_univ, Fintype.card_fin, smul_eq_mul]
theorem expect_sd (r : ℕ) (hr : r < 15) : (Rd (F := F) m).expect (sdCell c) r = NR := by
  unfold Schedule.expect Schedule.amountOf; rw [duties_sd m c r hr, Finset.sum_singleton, amount_sd]
theorem expect_rv (l k : ℕ) (hl : l < 3) (hk : k < 5) : (Rd (F := F) m).expect (rvCell c l k hl hk) 0 = NR := by
  unfold Schedule.expect Schedule.amountOf; rw [duties_rv m c l k hl hk, Finset.sum_singleton, amount_rv]
theorem expect_cp0 (l : ℕ) (hl : l < 3) : (Rd (F := F) m).expect (cpCell c l 0 hl Nat.zero_lt_two) 0 = NW1 := by
  unfold Schedule.expect Schedule.amountOf; rw [duties_cp m c l 0 hl Nat.zero_lt_two, Finset.sum_singleton, amount_cp0]
theorem expect_cp1 (l : ℕ) (hl : l < 3) : (Rd (F := F) m).expect (cpCell c l 1 hl Nat.one_lt_two) 0 = NW2 := by
  unfold Schedule.expect Schedule.amountOf; rw [duties_cp m c l 1 hl Nat.one_lt_two, Finset.sum_singleton, amount_cp1]

/-! ### Payloads -/

theorem payload_bar (r : ℕ) (d : Fin 5) : (Rd (F := F) m).payload (barCell c) r d = barPay c d := rfl
theorem payload_sd (r : ℕ) (d : Fin 5) : (Rd (F := F) m).payload (sdCell c) r d = sdPay m c r := by
  show pay m c (kindOf (2 + 6)) r = sdPay m c r
  rw [kindOf_sd]; rfl
theorem payload_rv (l k : ℕ) (hl : l < 3) (hk : k < 5) (r : ℕ) (d : Fin 5) :
    (Rd (F := F) m).payload (rvCell c l k hl hk) r d = rvPay m c ⟨l, hl⟩ ⟨k, hk⟩ := by
  show pay m c (kindOf (2 + (7 + 5 * l + k))) r = rvPay m c ⟨l, hl⟩ ⟨k, hk⟩
  rw [kindOf_rv l k hl hk]; rfl
theorem payload_cp (l i : ℕ) (hl : l < 3) (hi : i < 2) (r : ℕ) (d : Fin 5) :
    (Rd (F := F) m).payload (cpCell c l i hl hi) r d = cpPay m c ⟨l, hl⟩ ⟨i, hi⟩ := by
  show pay m c (kindOf (2 + (2 * l + i))) r = cpPay m c ⟨l, hl⟩ ⟨i, hi⟩
  rw [kindOf_cp l i hl hi]; rfl

/-! ### The rest of a round no duty of which has been taken -/

theorem rest_sd (r : ℕ) (hr : r < 15) :
    bigSep ((Rd (F := F) m).duties (sdCell c) r \ ∅) (fun d => (Rd (F := F) m).payload (sdCell c) r d) = sdPay m c r := by
  rw [Finset.sdiff_empty, duties_sd m c r hr, bigSep_singleton, payload_sd]
theorem rest_rv (l k : ℕ) (hl : l < 3) (hk : k < 5) :
    bigSep ((Rd (F := F) m).duties (rvCell c l k hl hk) 0 \ ∅) (fun d => (Rd (F := F) m).payload (rvCell c l k hl hk) 0 d) = rvPay m c ⟨l, hl⟩ ⟨k, hk⟩ := by
  rw [Finset.sdiff_empty, duties_rv m c l k hl hk, bigSep_singleton, payload_rv]
theorem rest_cp (l i : ℕ) (hl : l < 3) (hi : i < 2) :
    bigSep ((Rd (F := F) m).duties (cpCell c l i hl hi) 0 \ ∅) (fun d => (Rd (F := F) m).payload (cpCell c l i hl hi) 0 d) = cpPay m c ⟨l, hl⟩ ⟨i, hi⟩ := by
  rw [Finset.sdiff_empty, duties_cp m c l i hl hi, bigSep_singleton, payload_cp]
/-- The entry cell's round: the five partners' slots, as a list in stage order. -/
theorem rest_bar :
    bigSep ((Rd (F := F) m).duties (barCell c) 0 \ ∅) (fun d => (Rd (F := F) m).payload (barCell c) 0 d)
      = bigSepL [(0 : Fin 5), 1, 2, 3, 4] (fun d => barPay (F := F) c d) := by
  rw [Finset.sdiff_empty, duties_bar, bigSep_univ_eq_bigSepL [0, 1, 2, 3, 4] (by decide) (by decide)]
  exact congrArg _ (funext fun d => payload_bar m c 0 d)

end

end Cert.KernelIdeal.Tables

end
-- ==== Proof.Waits.lean ====
import proofs.«900580_g7700000000000581_dist_mlpseq_tp1d_rep_rep_b64_d1024_h2048_v7x_i32_f32_1_alg».proof.Proof.Ghost

/-!
# The wait levels

A wait on a cell is allowed while the waiter owes only cells of a strictly higher level.  What a device owes is,
in the order it pays, one unit to each partner's entry cell (level 1) and then, round by round, the landing of
its transfer on the partner's receive cell of that round (round `r` at level `2 + r`); every other cell is at
level 0.  Hence: a level-0 cell may be waited whatever is owed; the entry cell may be waited once only landings
are owed; the receive cell of round `r` may be waited once only the landings of later rounds are owed.
-/

noncomputable section

namespace Cert.KernelIdeal.Waits

open Cert.KernelIdeal Cert.KernelIdeal.Gen Cert.KernelIdeal.Mesh Cert.KernelIdeal.Spec Cert.KernelIdeal.Cells Cert.KernelIdeal.Schedule
open Cert.KernelIdeal.Ghost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Where the owed tallies are positive -/

theorem oweFrom_pos_aux (c : Dev nD) : ∀ (d n : ℕ), n + d = 15 → ∀ (g : GSem nD τ sig) (u : Unit),
    0 < Ghost.oweFrom c n g u → ∃ r : Fin 15, n ≤ r.val ∧ g = Ghost.rvOf c r
  | 0, n, hn, g, u, h => by
    have h15 : n = 15 := by omega
    subst h15
    rw [oweFrom_done] at h
    exact absurd h (Nat.lt_irrefl 0)
  | d + 1, n, hn, g, u, h => by
    have hlt : n < 15 := by omega
    rw [oweFrom_peel c n hlt] at h
    rcases Pipeline.add_pos_cases h with h | h
    · obtain ⟨r, hr, hg⟩ := oweFrom_pos_aux c d (n + 1) (by omega) g u h
      exact ⟨r, by omega, hg⟩
    · rw [tallyAt_apply] at h
      by_cases hc : g = rvOf c ⟨n, hlt⟩ ∧ u = ()
      · exact ⟨⟨n, hlt⟩, le_refl _, hc.1⟩
      · rw [if_neg hc] at h; exact absurd h (Nat.lt_irrefl 0)

/-- The landings owed from round `n` on sit on the receive cells of rounds `n, …, 14`. -/
theorem oweFrom_pos {c : Dev nD} {n : ℕ} {g : GSem nD τ sig} {u : Unit} (h : 0 < Ghost.oweFrom c n g u) :
    ∃ r : Fin 15, n ≤ r.val ∧ g = Ghost.rvOf c r := by
  by_cases hn : n ≤ 15
  · exact oweFrom_pos_aux c (15 - n) n (by omega) g u h
  · rw [oweFrom, dif_neg (by omega)] at h
    exact absurd h (Nat.lt_irrefl 0)

theorem oweSig_pos_aux (c : Dev nD) : ∀ (d j : ℕ), j + d = 5 → ∀ (g : GSem nD τ sig) (u : Unit),
    0 < Ghost.oweSig c j g u → (∃ k, j ≤ k ∧ k < 5 ∧ g = barCell (pr k c)) ∨ ∃ r : Fin 15, g = Ghost.rvOf c r
  | 0, j, hj, g, u, h => by
    have h5 : j = 5 := by omega
    subst h5
    rw [oweSig_done] at h
    obtain ⟨r, _, hg⟩ := oweFrom_pos h
    exact Or.inr ⟨r, hg⟩
  | d + 1, j, hj, g, u, h => by
    have hlt : j < 5 := by omega
    rw [oweSig_peel c j hlt] at h
    rcases Pipeline.add_pos_cases h with h | h
    · rcases oweSig_pos_aux c d (j + 1) (by omega) g u h with ⟨k, hk, hk5, hg⟩ | hr
      · exact Or.inl ⟨k, by omega, hk5, hg⟩
      · exact Or.inr hr
    · rw [tallyAt_apply] at h
      by_cases hc : g = barCell (pr j c) ∧ u = ()
      · exact Or.inl ⟨j, le_refl _, hlt, hc.1⟩
      · rw [if_neg hc] at h; exact absurd h (Nat.lt_irrefl 0)

/-- The signals owed from partner `j` on sit on the entry cells of partners `j, …, 4`; the rest are landings. -/
theorem oweSig_pos {c : Dev nD} {j : ℕ} {g : GSem nD τ sig} {u : Unit} (h : 0 < Ghost.oweSig c j g u) :
    (∃ k, j ≤ k ∧ k < 5 ∧ g = barCell (pr k c)) ∨ ∃ r : Fin 15, g = Ghost.rvOf c r := by
  by_cases hj : j ≤ 5
  · exact oweSig_pos_aux c (5 - j) j (by omega) g u h
  · rw [oweSig, dif_neg (by omega)] at h
    obtain ⟨r, _, hg⟩ := oweFrom_pos h
    exact Or.inr ⟨r, hg⟩

/-! ## The levels of the cells -/

/-- The level of a DMA cell is read off the role of its semaphore's number. -/
theorem lv_dma_rv (t : Thread nD τ) (q : DmaSem sig) (l : Fin 3) (k : Fin 5) (h : kindOf q.val = .rv l k) :
    Ghost.lv (t, .dma q) () = 2 + 5 * l.val + k.val := by
  show (match kindOf q.val with | .rv l k => 2 + 5 * l.val + k.val | _ => 0) = _
  rw [h]

theorem lv_dma_zero (t : Thread nD τ) (q : DmaSem sig) (h : ∀ l k, kindOf q.val ≠ .rv l k) :
    Ghost.lv (t, .dma q) () = 0 := by
  show (match kindOf q.val with | .rv l k => 2 + 5 * l.val + k.val | _ => 0) = 0
  split
  · exact absurd ‹_› (h _ _)
  · rfl

theorem kindOf_low : ∀ n : Fin 9, ∀ (l : Fin 3) (k : Fin 5), kindOf n.val ≠ .rv l k := by decide

/-- Every DMA cell whose semaphore's number is below 9 (staging, copies, send) is at level 0. -/
theorem lv_low (t : Thread nD τ) (q : DmaSem sig) (hq : q.val < 9) : Ghost.lv (t, .dma q) () = 0 :=
  lv_dma_zero t q (kindOf_low ⟨q.val, hq⟩)

/-- The receive cell of round `r`, on whichever device, is at level `2 + r`. -/
theorem lv_rv (t : Thread nD τ) (r : Fin 15) (hl : r.val / 5 < 3) (hk : r.val % 5 < 5) :
    Ghost.lv (t, .dma (rvS (r.val / 5) (r.val % 5) hl hk)) () = 2 + r.val := by
  rw [lv_dma_rv t _ ⟨r.val / 5, hl⟩ ⟨r.val % 5, hk⟩ (kindOf_rv (r.val / 5) (r.val % 5) hl hk)]
  show 2 + 5 * (r.val / 5) + r.val % 5 = 2 + r.val
  omega

theorem lv_rvOf (c : Dev nD) (r : Fin 15) : Ghost.lv (Ghost.rvOf c r) () = 2 + r.val := lv_rv _ r _ _
theorem lv_rvOwn (c : Dev nD) (r : Fin 15) : Ghost.lv (Ghost.rvOwn c r) () = 2 + r.val := lv_rv _ r _ _

theorem lv_bar (c : Dev nD) : Ghost.lv (barCell c) () = 1 := rfl

theorem lv_sd (c : Dev nD) : Ghost.lv (sdCell c) () = 0 := lv_low _ _ (by decide)
theorem lv_cp (c : Dev nD) (l i : ℕ) (hl : l < 3) (hi : i < 2) : Ghost.lv (cpCell c l i hl hi) () = 0 :=
  lv_low _ _ (by show 2 + (2 * l + i) < 9; omega)
/-- The two staging cells: DMA semaphores 0 and 1. -/
theorem lv_stage (t : Thread nD τ) (q : DmaSem sig) (hq : q.val < 2) : Ghost.lv (t, .dma q) () = 0 :=
  lv_low t q (by omega)
theorem lv_stage0 (c : Dev nD) (h : 0 < sig.nDmaSem) : Ghost.lv ((c : Thread nD τ), .dma ⟨0, h⟩) () = 0 := lv_low _ _ (by show (0 : ℕ) < 9; omega)
theorem lv_stage1 (c : Dev nD) (h : 1 < sig.nDmaSem) : Ghost.lv ((c : Thread nD τ), .dma ⟨1, h⟩) () = 0 := lv_low _ _ (by show (1 : ℕ) < 9; omega)

/-! ## Every owed cell is a TensorCore's, and at level at least 1 -/

theorem owe_cases {c : Dev nD} {j n : ℕ} {O : CellTallies nD τ sig Unit}
    (hO : O = Ghost.oweSig c j ∨ O = Ghost.oweFrom c n ∨ O = 0) {g : GSem nD τ sig} {u : Unit} (h : 0 < O g u) :
    (∃ c' : Dev nD, g = barCell c') ∨ ∃ r : Fin 15, g = Ghost.rvOf c r := by
  rcases hO with rfl | rfl | rfl
  · rcases oweSig_pos h with ⟨k, _, _, hg⟩ | hr
    · exact Or.inl ⟨_, hg⟩
    · exact Or.inr hr
  · obtain ⟨r, _, hg⟩ := oweFrom_pos h
    exact Or.inr ⟨r, hg⟩
  · exact absurd h (Nat.lt_irrefl 0)

/-! ## The waits -/

omit [FloatOps F] in
/-- A level-0 cell (send, copy, staging) may be waited whatever of the protocol is owed. -/
theorem mayWait_low (c : Dev nD) (q : DmaSem sig) (hq : Ghost.lv ((c : Thread nD τ), .dma q) () = 0) {j n : ℕ}
    (O : CellTallies nD τ sig Unit) (hO : O = Ghost.oweSig c j ∨ O = Ghost.oweFrom c n ∨ O = 0) :
    (levAts Ghost.L Ghost.lv : sProp 𝕄) ⊢ MayWait (c : Thread nD τ) (.dma q) () O :=
  MayOwe.of_cut (L := Ghost.L) (lev := Ghost.lv) 0
    (fun p hp => by rw [Finset.mem_singleton.mp hp, L_tc]; exact Finset.mem_singleton_self _)
    (fun g u hg => by
      rcases owe_cases hO hg with ⟨c', rfl⟩ | ⟨r, rfl⟩
      · rw [L_tc]; exact Finset.mem_singleton_self _
      · rw [L_tc]; exact Finset.mem_singleton_self _)
    (fun p hp => by rw [Finset.mem_singleton.mp hp]; exact le_of_eq hq)
    (fun g u hg => by
      rcases owe_cases hO hg with ⟨c', rfl⟩ | ⟨r, rfl⟩
      · exact Nat.one_pos
      · have h1 : Ghost.lv (Ghost.rvOf c r) u = 2 + r.val := lv_rvOf c r
        omega)

omit [FloatOps F] in
/-- The entry wait: only landings are owed, and a receive cell is above the entry cell. -/
theorem mayWait_bar (c : Dev nD) :
    (levAts Ghost.L Ghost.lv : sProp 𝕄) ⊢ MayWait (c : Thread nD τ) (.reg barS) () (Ghost.oweFrom c 0) :=
  MayOwe.of_cut (L := Ghost.L) (lev := Ghost.lv) 1
    (fun p hp => by rw [Finset.mem_singleton.mp hp, L_tc]; exact Finset.mem_singleton_self _)
    (fun g u hg => by
      obtain ⟨r, _, rfl⟩ := oweFrom_pos hg
      rw [L_tc]; exact Finset.mem_singleton_self _)
    (fun p hp => by rw [Finset.mem_singleton.mp hp]; exact le_of_eq (lv_bar c))
    (fun g u hg => by
      obtain ⟨r, _, rfl⟩ := oweFrom_pos hg
      have h1 : Ghost.lv (Ghost.rvOf c r) u = 2 + r.val := lv_rvOf c r
      omega)

omit [FloatOps F] in
/-- The receive wait of round `r`: only the landings of later rounds are owed, and their cells are higher. -/
theorem mayWait_rv (c : Dev nD) (r : Fin 15) (hl : r.val / 5 < 3) (hk : r.val % 5 < 5) :
    (levAts Ghost.L Ghost.lv : sProp 𝕄)
      ⊢ MayWait (c : Thread nD τ) (.dma (rvS (r.val / 5) (r.val % 5) hl hk)) () (Ghost.oweFrom c (r.val + 1)) :=
  MayOwe.of_cut (L := Ghost.L) (lev := Ghost.lv) (2 + r.val)
    (fun p hp => by rw [Finset.mem_singleton.mp hp, L_tc]; exact Finset.mem_singleton_self _)
    (fun g u hg => by
      obtain ⟨r', _, rfl⟩ := oweFrom_pos hg
      rw [L_tc]; exact Finset.mem_singleton_self _)
    (fun p hp => by rw [Finset.mem_singleton.mp hp]; exact le_of_eq (lv_rv _ r hl hk))
    (fun g u hg => by
      obtain ⟨r', hr', rfl⟩ := oweFrom_pos hg
      have h1 : Ghost.lv (Ghost.rvOf c r') u = 2 + r'.val := lv_rvOf c r'
      omega)

/-! The same three through the pair set of the one waited pair (the two forms are one by definition). -/

omit [FloatOps F] in
theorem mayOwe_low (c : Dev nD) (q : DmaSem sig) (hq : Ghost.lv ((c : Thread nD τ), .dma q) () = 0) {j n : ℕ}
    (O : CellTallies nD τ sig Unit) (hO : O = Ghost.oweSig c j ∨ O = Ghost.oweFrom c n ∨ O = 0) :
    (levAts Ghost.L Ghost.lv : sProp 𝕄) ⊢ MayOwe (c : Thread nD τ) {(SemLoc.dma q, ())} O :=
  mayWait_low c q hq O hO

omit [FloatOps F] in
theorem mayOwe_bar (c : Dev nD) :
    (levAts Ghost.L Ghost.lv : sProp 𝕄) ⊢ MayOwe (c : Thread nD τ) {(SemLoc.reg barS, ())} (Ghost.oweFrom c 0) :=
  mayWait_bar c

omit [FloatOps F] in
theorem mayOwe_rv (c : Dev nD) (r : Fin 15) (hl : r.val / 5 < 3) (hk : r.val % 5 < 5) :
    (levAts Ghost.L Ghost.lv : sProp 𝕄)
      ⊢ MayOwe (c : Thread nD τ) {(SemLoc.dma (rvS (r.val / 5) (r.val % 5) hl hk), ())} (Ghost.oweFrom c (r.val + 1)) :=
  mayWait_rv c r hl hk

/-- info: 'Cert.KernelIdeal.Waits.mayWait_rv' depends on axioms: [propext, Classical.choice, Quot.sound] -/
#guard_msgs in #print axioms mayWait_rv
/-- info: 'Cert.KernelIdeal.Waits.mayWait_low' depends on axioms: [propext, Classical.choice, Quot.sound] -/
#guard_msgs in #print axioms mayWait_low
/-- info: 'Cert.KernelIdeal.Waits.mayWait_bar' depends on axioms: [propext, Classical.choice, Quot.sound] -/
#guard_msgs in #print axioms mayWait_bar

end Cert.KernelIdeal.Waits

end
-- ==== Proof.BodyRound.lean ====
import proofs.«900580_g7700000000000581_dist_mlpseq_tp1d_rep_rep_b64_d1024_h2048_v7x_i32_f32_1_alg».proof.Proof.Ghost
import proofs.«900580_g7700000000000581_dist_mlpseq_tp1d_rep_rep_b64_d1024_h2048_v7x_i32_f32_1_alg».proof.Proof.MemLemmas
import proofs.«900580_g7700000000000581_dist_mlpseq_tp1d_rep_rep_b64_d1024_h2048_v7x_i32_f32_1_alg».proof.Proof.Tables
import proofs.«900580_g7700000000000581_dist_mlpseq_tp1d_rep_rep_b64_d1024_h2048_v7x_i32_f32_1_alg».proof.Proof.Waits

noncomputable section

namespace Cert.KernelIdeal.BodyRound

open Cert.KernelIdeal Cert.KernelIdeal.Gen Cert.KernelIdeal.Mesh Cert.KernelIdeal.Spec Cert.KernelIdeal.Cells Cert.KernelIdeal.Schedule Cert.KernelIdeal.Ghost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-- One exchange round at a symbolic round number: layer and stage are its quotient and remainder by five. -/
theorem round (c n : Dev nD) (r : Fin 15) (r' : ℕ) (hr' : r' = r.val + 1)
    (hl : r.val / 5 < 3) (hk : r.val % 5 < 5) (hn : n = pr (r.val % 5) c)
    {sS sV : DmaSem sig} (hsS : sS = sdS) (hsV : sV = rvS (r.val / 5) (r.val % 5) hl hk)
    (w : Wire F) (hw : w = sent (inp m) (r.val / 5) (r.val % 5) c)
    {κ₁ κ₂ κ₃ : ℕ} (W : Waits sig Unit)
    (f0 : (cc0_scratch2 : Ref sig .tc).ty.Contents (Elt F))
    {hl1 : (sendM : Memref sig .tc .vmem S64x1024 .bf16).view.LoadsAt MemLemmas.r0.toLoadRect}
    {hst : ((sendM : Memref sig .tc .vmem S64x1024 .bf16).access MemLemmas.r0).Stores Finset.univ}
    {hm : (Finset.univ : Finset MemLemmas.r0.shape.Idx) = Finset.univ ∨ ∀ a, MemLemmas.r0.stride a = 1}
    {hsc : (rSlot (r.val / 5) (r.val % 5) hl hk : Memref sig (Dev.tc n : Thread nD τ).2.kind .vmem S64x1024 .bf16).view.ref.isScScratch = false}
    {hsrc : (sendM : Memref sig .tc .vmem S64x1024 .bf16).view.WordExact}
    {hdst : (rSlot (r.val / 5) (r.val % 5) hl hk : Memref sig .tc .vmem S64x1024 .bf16).view.WordExact}
    {hsem : DmaTarget.Typed .vmem (.dma sV) (.remote (Dev.tc n : Thread nD τ) (rSlot (r.val / 5) (r.val % 5) hl hk : Memref sig .tc .vmem S64x1024 .bf16) (.dma sS) hsc)}
    {hw1 : (rSlot (r.val / 5) (r.val % 5) hl hk : Memref sig .tc .vmem S64x1024 .bf16).view.WordExact}
    {hw2 : (sendM : Memref sig .tc .vmem S64x1024 .bf16).view.WordExact}
    {hw3 : (sendM : Memref sig .tc .vmem S64x1024 .bf16).view.WordExact}
    {hw4 : (rSlot (r.val / 5) (r.val % 5) hl hk : Memref sig .tc .vmem S64x1024 .bf16).view.WordExact}
    {hl2 : (recvM : Memref sig .tc .vmem S3x5x64x1024 .bf16).view.LoadsAt (MemLemmas.rRect (r.val / 5) (r.val % 5) hl hk).toLoadRect}
    {α : Type} {Q : α → sProp 𝕄}
    {kont : ((MemLemmas.rRect (r.val / 5) (r.val % 5) hl hk).toLoadRect.shape.Idx → Elt F .bf16) → Prog (TpuEff nD τ sig (Elt F) Λ₀ .tc) α} :
    iprop(cellInv ER (Rd m) κ₁ (sdCell c) ∗ cellInv ER (Rd m) κ₂ (rvOf c r) ∗ cellInv ER (Rd m) κ₃ (rvOwn c r)
        ∗ reached ER (sdCell c) r.val ∗ reached ER (rvOf c r) 0 ∗ levAts L lv
        ∗ sendPts c f0 ∗ (∃ f, rPts (pr (r.val % 5) c) ⟨r.val / 5, hl⟩ ⟨r.val % 5, hk⟩ f)
        ∗ owes (c : Thread nD τ) (oweFrom c r.val) W
        ∗ dutyTok ER (sdCell c) r.val 0 ∗ dutyTok ER (rvOf c r) 0 0
        ∗ atPos ER (sdCell c) r.val ∅ 0 ∗ atPos ER (rvOwn c r) 0 ∅ 0
        ∗ cred (tallyAt (rvOwn c r) () NR))
      ⊢ iprop((∀ f, (⌜rVal ⟨r.val / 5, hl⟩ ⟨r.val % 5, hk⟩ f = sent (inp m) (r.val / 5) (r.val % 5) (pr (r.val % 5) c)⌝
              ∗ rPts c ⟨r.val / 5, hl⟩ ⟨r.val % 5, hk⟩ f ∗ sendPts c w
              ∗ (∃ W', owes (c : Thread nD τ) (oweFrom c r') W')
              ∗ atPos ER (sdCell c) r' ∅ 0 ∗ reached ER (sdCell c) r' ∗ atPos ER (rvOwn c r) 1 ∅ 0)
            -∗ wp frame (wpE (defs₀ (F := F)) 𝒱₀ (c : Thread nD τ) none) Set.univ (kont ((recvM : Memref sig .tc .vmem S3x5x64x1024 .bf16).view.readAt (Elt F) (MemLemmas.rRect (r.val / 5) (r.val % 5) hl hk).toLoadRect f)) Q)
          -∗ wp frame (wpE (defs₀ (F := F)) 𝒱₀ (c : Thread nD τ) none) Set.univ
              (.op (.load sendM MemLemmas.r0.toLoadRect hl1) fun _ =>
               .op (.store sendM MemLemmas.r0 w Finset.univ hst hm) fun _ =>
               .op (.enqueueDma sendM (.remote (Dev.tc n : Thread nD τ) (rSlot (r.val / 5) (r.val % 5) hl hk) (.dma sS) hsc) (.dma sV) hsrc hdst hsem) fun _ =>
               .op (.waitDma2 sS (rSlot (r.val / 5) (r.val % 5) hl hk) sendM hw1 hw2) fun _ =>
               .op (.waitDma2 sV sendM (rSlot (r.val / 5) (r.val % 5) hl hk) hw3 hw4) fun _ =>
               .op (.load recvM (MemLemmas.rRect (r.val / 5) (r.val % 5) hl hk).toLoadRect hl2) kont) Q) := by
  subst hn hsS hsV hw hr'
  iintro ⟨#HI1, #HI2, #HI3, #Hr1, #Hr2, #Hlev, Hsend, ⟨%fd, Hslot⟩, HO, Ht1, Ht2, Hat1, Hat3, Hc3⟩ Hk
  -- the load of the send buffer: its value is not used
  iapply (wp_load 𝒱₀ (c : Thread nD τ) none Set.univ (m := sendM)
      (S := (sendM : Memref sig .tc .vmem S64x1024 .bf16).view.set) (View.setOn_subset_set _ _)) $$ Hsend
  iintro Hsend
  -- the store of this round's rounded running sum over the whole send buffer
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  -- the transfer into the partner's slot of this (layer, stage)
  iapply (Rounds.wp_send_pointsTo 𝒱₀ ER (Rd m) (c : Thread nD τ) none
      (c' := (pr (r.val % 5) c : Thread nD τ)) (src := sendM) (dst := rSlot (r.val / 5) (r.val % 5) hl hk)
      (fs := sent (inp m) (r.val / 5) (r.val % 5) c) (fd := fd)
      (r₁ := r.val) (r₂ := 0) (d₁ := 0) (d₂ := 0) (κ₁ := κ₁) (κ₂ := κ₂)
      (by rw [Tables.duties_sd m c r.val r.isLt]; exact Finset.mem_singleton_self _)
      (by rw [Tables.duties_rv m (pr (r.val % 5) c) (r.val / 5) (r.val % 5)]; exact Finset.mem_singleton_self _)
      () () NR (MemLemmas.rSlot_amount (r.val / 5) (r.val % 5) hl hk _)
      (Tables.amount_sd m c r.val 0) (Tables.amount_rv m (pr (r.val % 5) c) (r.val / 5) (r.val % 5) hl hk 0 0)
      (oweFrom c (r.val + 1)) (Ghost.oweFrom_peel c r.val r.isLt)
      (by rw [Tables.payload_sd]; exact .rfl)
      (by
        rw [Tables.payload_rv m (pr (r.val % 5) c) (r.val / 5) (r.val % 5) hl hk 0 0]
        unfold rvPay
        iintro H
        iexists _
        isplitl [H]; · iexact H
        ipureintro
        rw [Mesh.pr_pr]
        exact MemLemmas.read_landed (pr (r.val % 5) c) c (r.val / 5) (r.val % 5) hl hk fd _))
    $$ [Hsend Hslot HO Ht1 Ht2]
  · isplitr; · iexact HI1
    isplitr; · iexact HI2
    isplitl [Hsend]; · iexact Hsend
    isplitl [Hslot]; · iexact Hslot
    isplitl [HO]; · iexact HO
    isplitl [Ht1]; · iexact Ht1
    isplitr; · iexact Hr1
    isplitl [Ht2]; · iexact Ht2
    iexact Hr2
  iintro ⟨HcS, HO⟩
  -- the wait on the send cell: the send buffer comes back at what was sent
  iapply (Rounds.wp_wait_rest_token 𝒱₀ ER (Rd m) (c : Thread nD τ) none (κ := κ₁)
      (wpE_waitDma2_eq 𝒱₀ (c : Thread nD τ) none Set.univ) (Set.mem_univ _) ()
      (O := oweFrom c (r.val + 1)) (W := W) (R := r.val) (m := 0) (T := ∅)
      (by rw [Nat.zero_add, Tables.expect_sd m c r.val r.isLt]; rfl)) $$ [HcS HO Hat1]
  · isplitr; · iexact HI1
    isplitl [HcS]; · iexact HcS
    isplitl [HO]; · iexact HO
    isplitr
    · iapply (Waits.mayWait_low c sdS (Waits.lv_sd c) (j := 0) (oweFrom c (r.val + 1)) (Or.inr (Or.inl rfl)))
      iexact Hlev
    iexact Hat1
  iintro ⟨HO, Hat1, HrN, Hpay⟩
  ihave Hsend := (Entails.of_eq (Tables.rest_sd m c r.val r.isLt)) $$ Hpay
  -- the wait on the own receive cell: the slot comes back holding the partner's rounded running sum
  iapply (Rounds.wp_wait_rest_token 𝒱₀ ER (Rd m) (c : Thread nD τ) none (κ := κ₃)
      (wpE_waitDma2_eq 𝒱₀ (c : Thread nD τ) none Set.univ) (Set.mem_univ _) ()
      (O := oweFrom c (r.val + 1)) (W := insert (SemLoc.dma sdS, ()) W) (R := 0) (m := 0) (T := ∅)
      (by rw [Nat.zero_add, Tables.expect_rv m c (r.val / 5) (r.val % 5) hl hk]; rfl)) $$ [Hc3 HO Hat3]
  · isplitr; · iexact HI3
    isplitl [Hc3]; · iexact Hc3
    isplitl [HO]; · iexact HO
    isplitr
    · iapply (Waits.mayWait_rv c r hl hk)
      iexact Hlev
    iexact Hat3
  iintro ⟨HO, Hat3, -, Hpay⟩
  ihave Hp := (Entails.of_eq (Tables.rest_rv m c (r.val / 5) (r.val % 5) hl hk)) $$ Hpay
  unfold rvPay
  icases Hp with ⟨%f, Hslot, %hf⟩
  -- the load of the own slot through the whole receive buffer
  have hS : (recvM : Memref sig .tc .vmem S3x5x64x1024 .bf16).view.setOn (MemLemmas.rRect (r.val / 5) (r.val % 5) hl hk).toLoadRect.set
      ⊆ (rSlot (r.val / 5) (r.val % 5) hl hk).view.set := by
    have e : (rSlot (r.val / 5) (r.val % 5) hl hk).view.set
        = ((recvM : Memref sig .tc .vmem S3x5x64x1024 .bf16).view.slice (MemLemmas.rRect (r.val / 5) (r.val % 5) hl hk)).set :=
      View.set_reshape _ _
    rw [e, View.set_slice]
    exact subset_rfl
  have eS : (rPts c ⟨r.val / 5, hl⟩ ⟨r.val % 5, hk⟩ f : sProp 𝕄)
      = ((recvM : Memref sig .tc .vmem S3x5x64x1024 .bf16).view.loc (c : Thread nD τ)
          ↦[(rSlot (r.val / 5) (r.val % 5) hl hk).view.set]{fullShare} f) := rfl
  ihave Hs := (Entails.of_eq eS) $$ Hslot
  iapply (wp_load 𝒱₀ (c : Thread nD τ) none Set.univ (m := recvM)
      (S := (rSlot (r.val / 5) (r.val % 5) hl hk).view.set) (q := fullShare) (f := f) hS) $$ Hs
  iintro Hs
  ihave Hslot := (Entails.of_eq eS.symm) $$ Hs
  ispecialize Hk $$ %f
  iapply Hk
  isplitr; · ipureintro; exact hf
  isplitl [Hslot]; · iexact Hslot
  isplitl [Hsend]; · unfold sdPay; iexact Hsend
  isplitl [HO]; · iexists _; iexact HO
  isplitl [Hat1]; · iexact Hat1
  isplitl [HrN]; · iexact HrN
  iexact Hat3

#print axioms round

end Cert.KernelIdeal.BodyRound

end
-- ==== Proof.BodyRoundOps.lean ====
import proofs.«900580_g7700000000000581_dist_mlpseq_tp1d_rep_rep_b64_d1024_h2048_v7x_i32_f32_1_alg».proof.Proof.Ghost
import proofs.«900580_g7700000000000581_dist_mlpseq_tp1d_rep_rep_b64_d1024_h2048_v7x_i32_f32_1_alg».proof.Proof.MemLemmas
import proofs.«900580_g7700000000000581_dist_mlpseq_tp1d_rep_rep_b64_d1024_h2048_v7x_i32_f32_1_alg».proof.Proof.Tables
import proofs.«900580_g7700000000000581_dist_mlpseq_tp1d_rep_rep_b64_d1024_h2048_v7x_i32_f32_1_alg».proof.Proof.Waits
import proofs.«900580_g7700000000000581_dist_mlpseq_tp1d_rep_rep_b64_d1024_h2048_v7x_i32_f32_1_alg».proof.Proof.BodyRound

noncomputable section

namespace Cert.KernelIdeal.BodyRoundOps

open Cert.KernelIdeal Cert.KernelIdeal.Gen Cert.KernelIdeal.Mesh Cert.KernelIdeal.Spec Cert.KernelIdeal.Cells Cert.KernelIdeal.Schedule Cert.KernelIdeal.Ghost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-- The transfer of round r to the partner's slot: it pays the send cell's duty of round r and the partner's receive duty. -/
theorem rsend (c n : Dev nD) (r : Fin 15) (r' : ℕ) (hr' : r' = r.val + 1)
    (l k : ℕ) (hl : l < 3) (hk : k < 5) (hlr : l = r.val / 5) (hkr : k = r.val % 5) (hn : n = pr k c)
    {sS sV : DmaSem sig} (hsS : sS = sdS) (hsV : sV = rvS l k hl hk)
    {dA : Memref sig .tc .vmem S64x1024 .bf16} (hdA : dA = rSlot l k hl hk)
    (w : Wire F) (hw : w = sent (inp m) l k c)
    {κ₁ κ₂ : ℕ} (W : Waits sig Unit)
    {hsc : (dA : Memref sig (Dev.tc n : Thread nD τ).2.kind .vmem S64x1024 .bf16).view.ref.isScScratch = false}
    {hsrc : (sendM : Memref sig .tc .vmem S64x1024 .bf16).view.WordExact}
    {hdst : dA.view.WordExact}
    {hsem : DmaTarget.Typed .vmem (.dma sV) (.remote (Dev.tc n : Thread nD τ) dA (.dma sS) hsc)}
    {α : Type} {Q : α → sProp 𝕄} {kont : PUnit → Prog (TpuEff nD τ sig (Elt F) Λ₀ .tc) α} :
    iprop(cellInv ER (Rd m) κ₁ (sdCell c) ∗ cellInv ER (Rd m) κ₂ (rvOf c r)
        ∗ reached ER (sdCell c) r.val ∗ reached ER (rvOf c r) 0
        ∗ sendPts c w ∗ (∃ f, rPts (pr k c) ⟨l, hl⟩ ⟨k, hk⟩ f)
        ∗ owes (c : Thread nD τ) (oweFrom c r.val) W
        ∗ dutyTok ER (sdCell c) r.val 0 ∗ dutyTok ER (rvOf c r) 0 0)
      ⊢ iprop(((cred (tallyAt (sdCell c) () NR) ∗ owes (c : Thread nD τ) (oweFrom c r') W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma sendM (.remote (Dev.tc n : Thread nD τ) dA (.dma sS) hsc) (.dma sV) hsrc hdst hsem) kont) Q) := by
  subst hlr hkr hr' hn hsS hsV hdA hw
  iintro ⟨#HI1, #HI2, #Hr1, #Hr2, Hsend, ⟨%fd, Hslot⟩, HO, Ht1, Ht2⟩ Hk
  iapply (Rounds.wp_send_pointsTo 𝒱₀ ER (Rd m) (c : Thread nD τ) none
      (c' := (pr (r.val % 5) c : Thread nD τ)) (src := sendM) (dst := rSlot (r.val / 5) (r.val % 5) hl hk)
      (fs := sent (inp m) (r.val / 5) (r.val % 5) c) (fd := fd)
      (r₁ := r.val) (r₂ := 0) (d₁ := 0) (d₂ := 0) (κ₁ := κ₁) (κ₂ := κ₂)
      (by rw [Tables.duties_sd m c r.val r.isLt]; exact Finset.mem_singleton_self _)
      (by rw [Tables.duties_rv m (pr (r.val % 5) c) (r.val / 5) (r.val % 5)]; exact Finset.mem_singleton_self _)
      () () NR (MemLemmas.rSlot_amount (r.val / 5) (r.val % 5) hl hk _)
      (Tables.amount_sd m c r.val 0) (Tables.amount_rv m (pr (r.val % 5) c) (r.val / 5) (r.val % 5) hl hk 0 0)
      (oweFrom c (r.val + 1)) (Ghost.oweFrom_peel c r.val r.isLt)
      (by rw [Tables.payload_sd]; exact .rfl)
      (by
        rw [Tables.payload_rv m (pr (r.val % 5) c) (r.val / 5) (r.val % 5) hl hk 0 0]
        unfold rvPay
        iintro H
        iexists _
        isplitl [H]; · iexact H
        ipureintro
        rw [Mesh.pr_pr]
        exact MemLemmas.read_landed (pr (r.val % 5) c) c (r.val / 5) (r.val % 5) hl hk fd _))
    $$ [Hsend Hslot HO Ht1 Ht2]
  · isplitr; · iexact HI1
    isplitr; · iexact HI2
    isplitl [Hsend]; · iexact Hsend
    isplitl [Hslot]; · iexact Hslot
    isplitl [HO]; · iexact HO
    isplitl [Ht1]; · iexact Ht1
    isplitr; · iexact Hr1
    isplitl [Ht2]; · iexact Ht2
    iexact Hr2
  iexact Hk

/-- The wait for the own transfer of round r: the send buffer comes back at what was sent. -/
theorem rwaitS (c n : Dev nD) (r : Fin 15) (r' : ℕ) (hr' : r' = r.val + 1)
    (l k : ℕ) (hl : l < 3) (hk : k < 5) (hlr : l = r.val / 5) (hkr : k = r.val % 5)
    {sS : DmaSem sig} (hsS : sS = sdS)
    {dB : Memref sig .tc .vmem S64x1024 .bf16}
    {κ₁ : ℕ} (W : Waits sig Unit)
    {hw1 : dB.view.WordExact} {hw2 : (sendM : Memref sig .tc .vmem S64x1024 .bf16).view.WordExact}
    {α : Type} {Q : α → sProp 𝕄} {kont : PUnit → Prog (TpuEff nD τ sig (Elt F) Λ₀ .tc) α} :
    iprop(cellInv ER (Rd m) κ₁ (sdCell c) ∗ levAts L lv
        ∗ cred (tallyAt (sdCell c) () NR) ∗ owes (c : Thread nD τ) (oweFrom c r') W
        ∗ atPos ER (sdCell c) r.val ∅ 0)
      ⊢ iprop(((sendPts c (sent (inp m) l k c) ∗ (∃ W', owes (c : Thread nD τ) (oweFrom c r') W')
              ∗ atPos ER (sdCell c) r' ∅ 0 ∗ reached ER (sdCell c) r') -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sS dB sendM hw1 hw2) kont) Q) := by
  subst hlr hkr hr' hsS
  iintro ⟨#HI1, #Hlev, HcS, HO, Hat1⟩ Hk
  iapply (Rounds.wp_wait_rest_token 𝒱₀ ER (Rd m) (c : Thread nD τ) none (κ := κ₁)
      (wpE_waitDma2_eq 𝒱₀ (c : Thread nD τ) none Set.univ) (Set.mem_univ _) ()
      (O := oweFrom c (r.val + 1)) (W := W) (R := r.val) (m := 0) (T := ∅)
      (by rw [Nat.zero_add, Tables.expect_sd m c r.val r.isLt]; rfl)) $$ [HcS HO Hat1]
  · isplitr; · iexact HI1
    isplitl [HcS]; · iexact HcS
    isplitl [HO]; · iexact HO
    isplitr
    · iapply (Waits.mayWait_low c sdS (Waits.lv_sd c) (j := 0) (oweFrom c (r.val + 1)) (Or.inr (Or.inl rfl)))
      iexact Hlev
    iexact Hat1
  iintro ⟨HO, Hat1, HrN, Hpay⟩
  ihave Hsend := (Entails.of_eq (Tables.rest_sd m c r.val r.isLt)) $$ Hpay
  iapply Hk
  isplitl [Hsend]; · unfold sdPay; iexact Hsend
  isplitl [HO]; · iexists _; iexact HO
  isplitl [Hat1]; · iexact Hat1
  iexact HrN

/-- The wait for the partner's transfer of round r: the own slot comes back holding what the partner sent. -/
theorem rwaitV (c n : Dev nD) (r : Fin 15) (r' : ℕ) (hr' : r' = r.val + 1)
    (l k : ℕ) (hl : l < 3) (hk : k < 5) (hlr : l = r.val / 5) (hkr : k = r.val % 5)
    {sV : DmaSem sig} (hsV : sV = rvS l k hl hk)
    {dC : Memref sig .tc .vmem S64x1024 .bf16}
    {κ₃ : ℕ} (W : Waits sig Unit)
    {hw3 : (sendM : Memref sig .tc .vmem S64x1024 .bf16).view.WordExact} {hw4 : dC.view.WordExact}
    {α : Type} {Q : α → sProp 𝕄} {kont : PUnit → Prog (TpuEff nD τ sig (Elt F) Λ₀ .tc) α} :
    iprop(cellInv ER (Rd m) κ₃ (rvOwn c r) ∗ levAts L lv
        ∗ cred (tallyAt (rvOwn c r) () NR) ∗ owes (c : Thread nD τ) (oweFrom c r') W
        ∗ atPos ER (rvOwn c r) 0 ∅ 0)
      ⊢ iprop((((∃ f, rPts c ⟨l, hl⟩ ⟨k, hk⟩ f ∗ ⌜rVal ⟨l, hl⟩ ⟨k, hk⟩ f = sent (inp m) l k (pr k c)⌝)
              ∗ (∃ W', owes (c : Thread nD τ) (oweFrom c r') W')
              ∗ atPos ER (rvOwn c r) 1 ∅ 0) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sV sendM dC hw3 hw4) kont) Q) := by
  subst hlr hkr hr' hsV
  iintro ⟨#HI3, #Hlev, Hc3, HO, Hat3⟩ Hk
  iapply (Rounds.wp_wait_rest_token 𝒱₀ ER (Rd m) (c : Thread nD τ) none (κ := κ₃)
      (wpE_waitDma2_eq 𝒱₀ (c : Thread nD τ) none Set.univ) (Set.mem_univ _) ()
      (O := oweFrom c (r.val + 1)) (W := W) (R := 0) (m := 0) (T := ∅)
      (by rw [Nat.zero_add, Tables.expect_rv m c (r.val / 5) (r.val % 5) hl hk]; rfl)) $$ [Hc3 HO Hat3]
  · isplitr; · iexact HI3
    isplitl [Hc3]; · iexact Hc3
    isplitl [HO]; · iexact HO
    isplitr
    · iapply (Waits.mayWait_rv c r hl hk)
      iexact Hlev
    iexact Hat3
  iintro ⟨HO, Hat3, -, Hpay⟩
  ihave Hp := (Entails.of_eq (Tables.rest_rv m c (r.val / 5) (r.val % 5) hl hk)) $$ Hpay
  unfold rvPay
  icases Hp with ⟨%f, Hslot, %hf⟩
  iapply Hk
  isplitl [Hslot]
  · iexists f
    isplitl [Hslot]; · iexact Hslot
    ipureintro; exact hf
  isplitl [HO]; · iexists _; iexact HO
  iexact Hat3

/-- The load of the own slot (l, k) through the whole receive buffer. -/
theorem rload (c : Dev nD) (l k : ℕ) (hl : l < 3) (hk : k < 5)
    {lr : LoadRect S3x5x64x1024} (hlrr : lr = (MemLemmas.rRect l k hl hk).toLoadRect)
    (f : (cc0_scratch3 : Ref sig .tc).ty.Contents (Elt F))
    {hl2 : (recvM : Memref sig .tc .vmem S3x5x64x1024 .bf16).view.LoadsAt lr}
    {α : Type} {Q : α → sProp 𝕄}
    {kont : (lr.shape.Idx → Elt F .bf16) → Prog (TpuEff nD τ sig (Elt F) Λ₀ .tc) α} :
    (rPts c ⟨l, hl⟩ ⟨k, hk⟩ f : sProp 𝕄)
      ⊢ iprop((rPts c ⟨l, hl⟩ ⟨k, hk⟩ f -∗ wp frame (wpE (defs₀ (F := F)) 𝒱₀ (c : Thread nD τ) none) Set.univ (kont ((recvM : Memref sig .tc .vmem S3x5x64x1024 .bf16).view.readAt (Elt F) lr f)) Q)
          -∗ wp frame (wpE (defs₀ (F := F)) 𝒱₀ (c : Thread nD τ) none) Set.univ (.op (.load recvM lr hl2) kont) Q) := by
  subst hlrr
  have hS : (recvM : Memref sig .tc .vmem S3x5x64x1024 .bf16).view.setOn (MemLemmas.rRect l k hl hk).toLoadRect.set
      ⊆ (rSlot l k hl hk).view.set := by
    have e : (rSlot l k hl hk).view.set
        = ((recvM : Memref sig .tc .vmem S3x5x64x1024 .bf16).view.slice (MemLemmas.rRect l k hl hk)).set :=
      View.set_reshape _ _
    rw [e, View.set_slice]
    exact subset_rfl
  have eS : (rPts c ⟨l, hl⟩ ⟨k, hk⟩ f : sProp 𝕄)
      = ((recvM : Memref sig .tc .vmem S3x5x64x1024 .bf16).view.loc (c : Thread nD τ)
          ↦[(rSlot l k hl hk).view.set]{fullShare} f) := rfl
  iintro Hslot Hk
  ihave Hs := (Entails.of_eq eS) $$ Hslot
  iapply (wp_load 𝒱₀ (c : Thread nD τ) none Set.univ (m := recvM)
      (S := (rSlot l k hl hk).view.set) (q := fullShare) (f := f) hS) $$ Hs
  iintro Hs
  ihave Hslot := (Entails.of_eq eS.symm) $$ Hs
  iapply Hk
  iexact Hslot
#print axioms rsend
#print axioms rwaitS
#print axioms rwaitV
#print axioms rload

end Cert.KernelIdeal.BodyRoundOps

end
-- ==== Proof.BodyWeights.lean ====
import proofs.«900580_g7700000000000581_dist_mlpseq_tp1d_rep_rep_b64_d1024_h2048_v7x_i32_f32_1_alg».proof.Proof.Ghost
import proofs.«900580_g7700000000000581_dist_mlpseq_tp1d_rep_rep_b64_d1024_h2048_v7x_i32_f32_1_alg».proof.Proof.MemLemmas
import proofs.«900580_g7700000000000581_dist_mlpseq_tp1d_rep_rep_b64_d1024_h2048_v7x_i32_f32_1_alg».proof.Proof.Tables
import proofs.«900580_g7700000000000581_dist_mlpseq_tp1d_rep_rep_b64_d1024_h2048_v7x_i32_f32_1_alg».proof.Proof.Waits

noncomputable section

namespace Cert.KernelIdeal.BodyWeights

open Cert.KernelIdeal Cert.KernelIdeal.Gen Cert.KernelIdeal.Mesh Cert.KernelIdeal.Spec Cert.KernelIdeal.Cells Cert.KernelIdeal.Schedule Cert.KernelIdeal.Ghost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] Tables.duties_cp Tables.amount_cp0 Tables.amount_cp1 Tables.expect_cp0 Tables.expect_cp1 Tables.payload_cp

/-- A layer's two weight copies awaited and the two weight slots loaded. -/
theorem waitw (c : Dev nD) (l : Fin 3) (O : CellTallies nD τ sig Unit) {j n : ℕ}
    (hO : O = oweSig c j ∨ O = oweFrom c n ∨ O = 0)
    {s1 s2 : DmaSem sig} (hs1 : s1 = cpS l.val 0 l.isLt Nat.zero_lt_two) (hs2 : s2 = cpS l.val 1 l.isLt Nat.one_lt_two)
    {κ₁ κ₂ : ℕ} (W : Waits sig Unit)
    {src1 : Memref sig .tc .hbm S1024x2048 .f32} {src2 : Memref sig .tc .hbm S2048x1024 .f32}
    {ha1 : src1.view.WordExact} {ha2 : (w1Slot (l.val % 2) (Nat.mod_lt _ Nat.zero_lt_two)).view.WordExact}
    {hb1 : src2.view.WordExact} {hb2 : (w2Slot (l.val % 2) (Nat.mod_lt _ Nat.zero_lt_two)).view.WordExact}
    {hl1 : (winM : Memref sig .tc .vmem S2x1024x2048 .f32).view.LoadsAt (MemLemmas.w1Rect (l.val % 2) (Nat.mod_lt _ Nat.zero_lt_two)).toLoadRect}
    {hl2 : (woutM : Memref sig .tc .vmem S2x2048x1024 .f32).view.LoadsAt (MemLemmas.w2Rect (l.val % 2) (Nat.mod_lt _ Nat.zero_lt_two)).toLoadRect}
    {α : Type} {Q : α → sProp 𝕄}
    {kont : ((MemLemmas.w1Rect (l.val % 2) (Nat.mod_lt _ Nat.zero_lt_two)).toLoadRect.shape.Idx → Elt F .f32)
      → ((MemLemmas.w2Rect (l.val % 2) (Nat.mod_lt _ Nat.zero_lt_two)).toLoadRect.shape.Idx → Elt F .f32) → Prog (TpuEff nD τ sig (Elt F) Λ₀ .tc) α} :
    iprop(cellInv ER (Rd m) κ₁ (cpCell c l.val 0 l.isLt Nat.zero_lt_two) ∗ cellInv ER (Rd m) κ₂ (cpCell c l.val 1 l.isLt Nat.one_lt_two) ∗ levAts L lv
        ∗ cred (tallyAt (cpCell c l.val 0 l.isLt Nat.zero_lt_two) () NW1) ∗ cred (tallyAt (cpCell c l.val 1 l.isLt Nat.one_lt_two) () NW2)
        ∗ owes (c : Thread nD τ) O W
        ∗ atPos ER (cpCell c l.val 0 l.isLt Nat.zero_lt_two) 0 ∅ 0 ∗ atPos ER (cpCell c l.val 1 l.isLt Nat.one_lt_two) 0 ∅ 0)
      ⊢ iprop((∀ f1 f2, (⌜w1Val ⟨l.val % 2, Nat.mod_lt _ Nat.zero_lt_two⟩ f1 = (inp m).w1 l.val c⌝ ∗ ⌜w2Val ⟨l.val % 2, Nat.mod_lt _ Nat.zero_lt_two⟩ f2 = (inp m).w2 l.val c⌝
              ∗ w1Pts c ⟨l.val % 2, Nat.mod_lt _ Nat.zero_lt_two⟩ f1 ∗ w2Pts c ⟨l.val % 2, Nat.mod_lt _ Nat.zero_lt_two⟩ f2
              ∗ hbmPts m c (w1Ref l) ∗ hbmPts m c (w2Ref l)
              ∗ (∃ W', owes (c : Thread nD τ) O W')
              ∗ atPos ER (cpCell c l.val 0 l.isLt Nat.zero_lt_two) 1 ∅ 0 ∗ atPos ER (cpCell c l.val 1 l.isLt Nat.one_lt_two) 1 ∅ 0)
            -∗ wp frame (wpE (defs₀ (F := F)) 𝒱₀ (c : Thread nD τ) none) Set.univ (kont ((winM : Memref sig .tc .vmem S2x1024x2048 .f32).view.readAt (Elt F) (MemLemmas.w1Rect (l.val % 2) (Nat.mod_lt _ Nat.zero_lt_two)).toLoadRect f1)
                  ((woutM : Memref sig .tc .vmem S2x2048x1024 .f32).view.readAt (Elt F) (MemLemmas.w2Rect (l.val % 2) (Nat.mod_lt _ Nat.zero_lt_two)).toLoadRect f2)) Q)
          -∗ wp frame (wpE (defs₀ (F := F)) 𝒱₀ (c : Thread nD τ) none) Set.univ
              (.op (.waitDma2 s1 src1 (w1Slot (l.val % 2) (Nat.mod_lt _ Nat.zero_lt_two)) ha1 ha2) fun _ =>
               .op (.load winM (MemLemmas.w1Rect (l.val % 2) (Nat.mod_lt _ Nat.zero_lt_two)).toLoadRect hl1) fun v1 =>
               .op (.waitDma2 s2 src2 (w2Slot (l.val % 2) (Nat.mod_lt _ Nat.zero_lt_two)) hb1 hb2) fun _ =>
               .op (.load woutM (MemLemmas.w2Rect (l.val % 2) (Nat.mod_lt _ Nat.zero_lt_two)).toLoadRect hl2) fun v2 => kont v1 v2) Q) := by
  subst hs1 hs2
  have hmw1 := Waits.mayWait_low (F := F) c _ (Waits.lv_cp c l.val 0 l.isLt Nat.zero_lt_two) O hO
  have hmw2 := Waits.mayWait_low (F := F) c _ (Waits.lv_cp c l.val 1 l.isLt Nat.one_lt_two) O hO
  have hS1 : (winM : Memref sig .tc .vmem S2x1024x2048 .f32).view.setOn (MemLemmas.w1Rect (l.val % 2) (Nat.mod_lt _ Nat.zero_lt_two)).toLoadRect.set
      ⊆ (w1Slot (l.val % 2) (Nat.mod_lt _ Nat.zero_lt_two)).view.set := by
    apply Memref.setOn_subset_of_access_subset (c := (c : Thread nD τ))
    exact subset_of_eq ((View.set_slice_whole cc0_scratch0 _).trans (MemLemmas.w1SlotSet_eq _ _).symm)
  have hS2 : (woutM : Memref sig .tc .vmem S2x2048x1024 .f32).view.setOn (MemLemmas.w2Rect (l.val % 2) (Nat.mod_lt _ Nat.zero_lt_two)).toLoadRect.set
      ⊆ (w2Slot (l.val % 2) (Nat.mod_lt _ Nat.zero_lt_two)).view.set := by
    apply Memref.setOn_subset_of_access_subset (c := (c : Thread nD τ))
    exact subset_of_eq ((View.set_slice_whole cc0_scratch1 _).trans (MemLemmas.w2SlotSet_eq _ _).symm)
  iintro ⟨#HI1, #HI2, #Hlev, Hc1, Hc2, HO, Hat1, Hat2⟩ Hk
  sl_exec
  unfold cpPay
  icases Hat1_pay1 with ⟨⟨%f1, Hw1, %hf1⟩, Hh1⟩
  sl_exec
  unfold cpPay
  icases Hat2_pay1 with ⟨⟨%f2, Hw2, %hf2⟩, Hh2⟩
  sl_exec
  unfold waitw.sl.v1 waitw.sl.v2
  iapply Hk
  isplitr; · ipureintro; exact hf1
  isplitr; · ipureintro; exact hf2
  isplitl [Hw1]; · iexact Hw1
  isplitl [Hw2]; · iexact Hw2
  isplitl [Hh1]; · iexact Hh1
  isplitl [Hh2]; · iexact Hh2
  isplitl [HO]; · iexists _; iexact HO
  isplitl [Hat1]; · iexact Hat1
  iexact Hat2

/-- The two weight copies of layer l started, from any two source arrays held whole: each pays its copy cell's one duty,
    given that the landed slot with the source back makes the cell's payload. -/
theorem copy2 (c : Dev nD) (l : Fin 3)
    {s1 s2 : DmaSem sig} (hs1 : s1 = cpS l.val 0 l.isLt Nat.zero_lt_two) (hs2 : s2 = cpS l.val 1 l.isLt Nat.one_lt_two)
    {κ₁ κ₂ : ℕ}
    {src1 : Memref sig .tc .hbm S1024x2048 .f32} {src2 : Memref sig .tc .hbm S2048x1024 .f32}
    (fs1 : Buf (Elt F) (src1.view.loc (c : Thread nD τ))) (fs2 : Buf (Elt F) (src2.view.loc (c : Thread nD τ)))
    (fd1 : (cc0_scratch0 : Ref sig .tc).ty.Contents (Elt F)) (fd2 : (cc0_scratch1 : Ref sig .tc).ty.Contents (Elt F))
    (hp1 : iprop(w1Pts c ⟨l.val % 2, Nat.mod_lt _ Nat.zero_lt_two⟩ ((w1Slot (l.val % 2) (Nat.mod_lt _ Nat.zero_lt_two)).view.write (Elt F) fd1 (src1.view.read (Elt F) fs1) Finset.univ)
        ∗ (src1.view.loc (c : Thread nD τ) ↦[src1.view.set]{fullShare} fs1)) ⊢ cpPay m c l 0)
    (hp2 : iprop(w2Pts c ⟨l.val % 2, Nat.mod_lt _ Nat.zero_lt_two⟩ ((w2Slot (l.val % 2) (Nat.mod_lt _ Nat.zero_lt_two)).view.write (Elt F) fd2 (src2.view.read (Elt F) fs2) Finset.univ)
        ∗ (src2.view.loc (c : Thread nD τ) ↦[src2.view.set]{fullShare} fs2)) ⊢ cpPay m c l 1)
    {ha1 : src1.view.WordExact} {ha2 : (w1Slot (l.val % 2) (Nat.mod_lt _ Nat.zero_lt_two)).view.WordExact}
    {ha3 : DmaTarget.Typed (nD := nD) (τ := τ) .hbm (.dma s1) (DmaTarget.here (p := (Proc.tc : Proc τ)) (w1Slot (l.val % 2) (Nat.mod_lt _ Nat.zero_lt_two)))}
    {hb1 : src2.view.WordExact} {hb2 : (w2Slot (l.val % 2) (Nat.mod_lt _ Nat.zero_lt_two)).view.WordExact}
    {hb3 : DmaTarget.Typed (nD := nD) (τ := τ) .hbm (.dma s2) (DmaTarget.here (p := (Proc.tc : Proc τ)) (w2Slot (l.val % 2) (Nat.mod_lt _ Nat.zero_lt_two)))}
    {α : Type} {Q : α → sProp 𝕄} {kont : PUnit → Prog (TpuEff nD τ sig (Elt F) Λ₀ .tc) α} :
    iprop(cellInv ER (Rd m) κ₁ (cpCell c l.val 0 l.isLt Nat.zero_lt_two) ∗ cellInv ER (Rd m) κ₂ (cpCell c l.val 1 l.isLt Nat.one_lt_two)
        ∗ reached ER (cpCell c l.val 0 l.isLt Nat.zero_lt_two) 0 ∗ reached ER (cpCell c l.val 1 l.isLt Nat.one_lt_two) 0
        ∗ dutyTok ER (cpCell c l.val 0 l.isLt Nat.zero_lt_two) 0 0 ∗ dutyTok ER (cpCell c l.val 1 l.isLt Nat.one_lt_two) 0 0
        ∗ (src1.view.loc (c : Thread nD τ) ↦[src1.view.set]{fullShare} fs1) ∗ (src2.view.loc (c : Thread nD τ) ↦[src2.view.set]{fullShare} fs2)
        ∗ w1Pts c ⟨l.val % 2, Nat.mod_lt _ Nat.zero_lt_two⟩ fd1 ∗ w2Pts c ⟨l.val % 2, Nat.mod_lt _ Nat.zero_lt_two⟩ fd2)
      ⊢ iprop(((cred (tallyAt (cpCell c l.val 0 l.isLt Nat.zero_lt_two) () NW1) ∗ cred (tallyAt (cpCell c l.val 1 l.isLt Nat.one_lt_two) () NW2)) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma src1 (.here (w1Slot (l.val % 2) (Nat.mod_lt _ Nat.zero_lt_two))) (.dma s1) ha1 ha2 ha3) fun _ =>
               .op (.enqueueDma src2 (.here (w2Slot (l.val % 2) (Nat.mod_lt _ Nat.zero_lt_two))) (.dma s2) hb1 hb2 hb3) kont) Q) := by
  subst hs1 hs2
  iintro ⟨#HI1, #HI2, #Hr1, #Hr2, Ht1, Ht2, Hs1, Hs2, Hd1, Hd2⟩ Hk
  iapply (Rounds.wp_copy_pointsTo 𝒱₀ ER (Rd m) (c : Thread nD τ) none (κ := κ₁) (r := 0) (d := 0) (fs := fs1) (fd := fd1)
      (by rw [Tables.duties_cp]; exact Finset.mem_singleton_self _) () NW1 (MemLemmas.w1Slot_amount _ _ _)
      (Tables.amount_cp0 m c l.val l.isLt 0 0)
      (by rw [Tables.payload_cp]; exact hp1)) $$ [Hs1 Hd1 Ht1]
  · isplitr; · iexact HI1
    isplitl [Hs1]; · iexact Hs1
    isplitl [Hd1]; · iexact Hd1
    isplitl [Ht1]; · iexact Ht1
    iexact Hr1
  iintro Hc1
  iapply (Rounds.wp_copy_pointsTo 𝒱₀ ER (Rd m) (c : Thread nD τ) none (κ := κ₂) (r := 0) (d := 0) (fs := fs2) (fd := fd2)
      (by rw [Tables.duties_cp]; exact Finset.mem_singleton_self _) () NW2 (MemLemmas.w2Slot_amount _ _ _)
      (Tables.amount_cp1 m c l.val l.isLt 0 0)
      (by rw [Tables.payload_cp]; exact hp2)) $$ [Hs2 Hd2 Ht2]
  · isplitr; · iexact HI2
    isplitl [Hs2]; · iexact Hs2
    isplitl [Hd2]; · iexact Hd2
    isplitl [Ht2]; · iexact Ht2
    iexact Hr2
  iintro Hc2
  iapply Hk
  isplitl [Hc1]; · iexact Hc1
  iexact Hc2

/-- Layer 0: the landed first-weight slot with its source array back is the first copy cell's payload. -/
theorem cpPay_w1_0 (c : Dev nD) (fd : (cc0_scratch0 : Ref sig .tc).ty.Contents (Elt F)) :
    iprop(w1Pts c ⟨0 % 2, Nat.mod_lt _ Nat.zero_lt_two⟩ ((w1Slot (0 % 2) (Nat.mod_lt _ Nat.zero_lt_two)).view.write (Elt F) fd
          ((Memref.whole main_arg1 : Memref sig .tc .hbm S1024x2048 .f32).view.read (Elt F) (m ((c : Thread nD τ).loc main_arg1))) Finset.univ)
        ∗ hbmPts m c main_arg1) ⊢ cpPay m c 0 0 := by
  unfold cpPay
  iintro ⟨H1, H2⟩
  isplitl [H1]
  · iexists _
    isplitl [H1]
    · iexact H1
    · ipureintro
      exact MemLemmas.w1Val_landed_arg1 c 0 (by decide) fd _
  · iexact H2

/-- Layer 0: the same for the second weight. -/
theorem cpPay_w2_0 (c : Dev nD) (fd : (cc0_scratch1 : Ref sig .tc).ty.Contents (Elt F)) :
    iprop(w2Pts c ⟨0 % 2, Nat.mod_lt _ Nat.zero_lt_two⟩ ((w2Slot (0 % 2) (Nat.mod_lt _ Nat.zero_lt_two)).view.write (Elt F) fd
          ((Memref.whole main_arg2 : Memref sig .tc .hbm S2048x1024 .f32).view.read (Elt F) (m ((c : Thread nD τ).loc main_arg2))) Finset.univ)
        ∗ hbmPts m c main_arg2) ⊢ cpPay m c 0 1 := by
  unfold cpPay
  iintro ⟨H1, H2⟩
  isplitl [H1]
  · iexists _
    isplitl [H1]
    · iexact H1
    · ipureintro
      exact MemLemmas.w2Val_landed_arg2 c 0 (by decide) fd _
  · iexact H2

/-- Layer 1: the landed first-weight slot with its source array back is the first copy cell's payload. -/
theorem cpPay_w1_1 (c : Dev nD) (fd : (cc0_scratch0 : Ref sig .tc).ty.Contents (Elt F)) :
    iprop(w1Pts c ⟨1 % 2, Nat.mod_lt _ Nat.zero_lt_two⟩ ((w1Slot (1 % 2) (Nat.mod_lt _ Nat.zero_lt_two)).view.write (Elt F) fd
          ((Memref.whole main_arg3 : Memref sig .tc .hbm S1024x2048 .f32).view.read (Elt F) (m ((c : Thread nD τ).loc main_arg3))) Finset.univ)
        ∗ hbmPts m c main_arg3) ⊢ cpPay m c 1 0 := by
  unfold cpPay
  iintro ⟨H1, H2⟩
  isplitl [H1]
  · iexists _
    isplitl [H1]
    · iexact H1
    · ipureintro
      exact MemLemmas.w1Val_landed_arg3 c 1 (by decide) fd _
  · iexact H2

/-- Layer 1: the same for the second weight. -/
theorem cpPay_w2_1 (c : Dev nD) (fd : (cc0_scratch1 : Ref sig .tc).ty.Contents (Elt F)) :
    iprop(w2Pts c ⟨1 % 2, Nat.mod_lt _ Nat.zero_lt_two⟩ ((w2Slot (1 % 2) (Nat.mod_lt _ Nat.zero_lt_two)).view.write (Elt F) fd
          ((Memref.whole main_arg4 : Memref sig .tc .hbm S2048x1024 .f32).view.read (Elt F) (m ((c : Thread nD τ).loc main_arg4))) Finset.univ)
        ∗ hbmPts m c main_arg4) ⊢ cpPay m c 1 1 := by
  unfold cpPay
  iintro ⟨H1, H2⟩
  isplitl [H1]
  · iexists _
    isplitl [H1]
    · iexact H1
    · ipureintro
      exact MemLemmas.w2Val_landed_arg4 c 1 (by decide) fd _
  · iexact H2

/-- Layer 2: the landed first-weight slot with its source array back is the first copy cell's payload. -/
theorem cpPay_w1_2 (c : Dev nD) (fd : (cc0_scratch0 : Ref sig .tc).ty.Contents (Elt F)) :
    iprop(w1Pts c ⟨2 % 2, Nat.mod_lt _ Nat.zero_lt_two⟩ ((w1Slot (2 % 2) (Nat.mod_lt _ Nat.zero_lt_two)).view.write (Elt F) fd
          ((Memref.whole main_arg5 : Memref sig .tc .hbm S1024x2048 .f32).view.read (Elt F) (m ((c : Thread nD τ).loc main_arg5))) Finset.univ)
        ∗ hbmPts m c main_arg5) ⊢ cpPay m c 2 0 := by
  unfold cpPay
  iintro ⟨H1, H2⟩
  isplitl [H1]
  · iexists _
    isplitl [H1]
    · iexact H1
    · ipureintro
      exact MemLemmas.w1Val_landed_arg5 c 0 (by decide) fd _
  · iexact H2

/-- Layer 2: the same for the second weight. -/
theorem cpPay_w2_2 (c : Dev nD) (fd : (cc0_scratch1 : Ref sig .tc).ty.Contents (Elt F)) :
    iprop(w2Pts c ⟨2 % 2, Nat.mod_lt _ Nat.zero_lt_two⟩ ((w2Slot (2 % 2) (Nat.mod_lt _ Nat.zero_lt_two)).view.write (Elt F) fd
          ((Memref.whole main_arg6 : Memref sig .tc .hbm S2048x1024 .f32).view.read (Elt F) (m ((c : Thread nD τ).loc main_arg6))) Finset.univ)
        ∗ hbmPts m c main_arg6) ⊢ cpPay m c 2 1 := by
  unfold cpPay
  iintro ⟨H1, H2⟩
  isplitl [H1]
  · iexists _
    isplitl [H1]
    · iexact H1
    · ipureintro
      exact MemLemmas.w2Val_landed_arg6 c 0 (by decide) fd _
  · iexact H2

#print axioms waitw
#print axioms copy2
#print axioms cpPay_w1_0
#print axioms cpPay_w2_0
#print axioms cpPay_w1_1
#print axioms cpPay_w2_1
#print axioms cpPay_w1_2
#print axioms cpPay_w2_2

end Cert.KernelIdeal.BodyWeights

end
-- ==== Proof.BodyEntry.lean ====
import proofs.«900580_g7700000000000581_dist_mlpseq_tp1d_rep_rep_b64_d1024_h2048_v7x_i32_f32_1_alg».proof.Proof.Ghost
import proofs.«900580_g7700000000000581_dist_mlpseq_tp1d_rep_rep_b64_d1024_h2048_v7x_i32_f32_1_alg».proof.Proof.MemLemmas
import proofs.«900580_g7700000000000581_dist_mlpseq_tp1d_rep_rep_b64_d1024_h2048_v7x_i32_f32_1_alg».proof.Proof.Tables
import proofs.«900580_g7700000000000581_dist_mlpseq_tp1d_rep_rep_b64_d1024_h2048_v7x_i32_f32_1_alg».proof.Proof.Waits

noncomputable section

namespace Cert.KernelIdeal.BodyEntry

open Cert.KernelIdeal Cert.KernelIdeal.Gen Cert.KernelIdeal.Mesh Cert.KernelIdeal.Spec Cert.KernelIdeal.Cells Cert.KernelIdeal.Schedule Cert.KernelIdeal.Ghost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-- What the entry signal to the partner of stage `k` carries: the partner's partner is the device itself, so the
    three slots are the device's own. -/
theorem payload_bar_pr (c : Dev nD) (k : Fin 5) (r : ℕ) :
    (Rd (F := F) m).payload (barCell (pr k.val c)) r k
      = iprop((∃ f, rPts (F := F) c 0 k f) ∗ (∃ f, rPts (F := F) c 1 k f) ∗ (∃ f, rPts (F := F) c 2 k f)) := by
  rw [Tables.payload_bar]; unfold barPay; rw [Mesh.pr_pr]

/-- The five partners' payloads, in stage order. -/
theorem univBar (c : Dev nD) :
    bigSep (Finset.univ : Finset (Fin 5)) (fun d => barPay (F := F) c d)
      = iprop(barPay (F := F) c 0 ∗ barPay (F := F) c 1 ∗ barPay (F := F) c 2 ∗ barPay (F := F) c 3 ∗ barPay (F := F) c 4) :=
  (bigSep_univ_eq_bigSepL [(0 : Fin 5), 1, 2, 3, 4] (by decide) (by decide) (fun d => barPay (F := F) c d)).trans rfl

section
attribute [local sl_rounds] Tables.duties_bar Tables.amount_bar payload_bar_pr

/-- The entry signal to the partner of stage k: it hands over the three receive slots kept for that partner. -/
theorem signal1 (c n : Dev nD) (k : Fin 5) (hn : n = pr k.val c) (a : ℕ) (ha : a = 1)
    {sB : Sem sig} (hsB : sB = barS) {κ : ℕ} (W : Waits sig Unit)
    (f0 f1 f2 : (cc0_scratch3 : Ref sig .tc).ty.Contents (Elt F))
    {α : Type} {Q : α → sProp 𝕄} {kont : PUnit → Prog (TpuEff nD τ sig (Elt F) Λ₀ .tc) α} :
    iprop(cellInv ER (Rd m) κ (barCell (pr k.val c)) ∗ reached ER (barCell (pr k.val c)) 0
        ∗ dutyTok ER (barCell (pr k.val c)) 0 k
        ∗ owes (c : Thread nD τ) (oweSig c k.val) W
        ∗ rPts c 0 k f0 ∗ rPts c 1 k f1 ∗ rPts c 2 k f2)
      ⊢ iprop((owes (c : Thread nD τ) (oweSig c (k.val + 1)) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal ((n : Dev nD) : Thread nD τ) sB a) kont) Q) := by
  subst hn ha hsB
  rw [Ghost.oweSig_peel c k.val k.isLt]
  iintro ⟨#HI, #Hr, Htok, HO, H0, H1, H2⟩ Hk
  sl_exec
  iapply Hk
  iexact HO
end

section
attribute [local sl_rounds] Tables.duties_bar Tables.amount_bar Tables.payload_bar Tables.expect_bar

/-- The wait for the five partners' entry signals: each partner's three slots of its stage come with it. -/
theorem barwait (c : Dev nD) (a : ℕ) (ha : a = 5) {sB : Sem sig} (hsB : sB = barS) {κ : ℕ} (W : Waits sig Unit)
    {α : Type} {Q : α → sProp 𝕄} {kont : PUnit → Prog (TpuEff nD τ sig (Elt F) Λ₀ .tc) α} :
    iprop(cellInv ER (Rd m) κ (barCell c) ∗ levAts L lv ∗ cred (tallyAt (barCell c) () 5)
        ∗ owes (c : Thread nD τ) (oweFrom c 0) W ∗ atPos ER (barCell c) 0 ∅ 0)
      ⊢ iprop((((∃ W', owes (c : Thread nD τ) (oweFrom c 0) W') ∗ atPos ER (barCell c) 1 ∅ 0
              ∗ barPay (F := F) c 0 ∗ barPay (F := F) c 1 ∗ barPay (F := F) c 2 ∗ barPay (F := F) c 3 ∗ barPay (F := F) c 4) -∗ wp frame (wpE (defs₀ (F := F)) 𝒱₀ (c : Thread nD τ) none) Set.univ (kont ⟨⟩) Q)
          -∗ wp frame (wpE (defs₀ (F := F)) 𝒱₀ (c : Thread nD τ) none) Set.univ (.op (.semWait sB a) kont) Q) := by
  subst ha hsB
  iintro ⟨#HI, #Hlev, Hc, HO, Hat⟩ Hk
  have hmw := Waits.mayWait_bar (F := F) c
  sl_exec
  ihave Hp := (Entails.of_eq (univBar c)) $$ Hat_pay1
  icases Hp with ⟨P0, P1, P2, P3, P4⟩
  iapply Hk
  isplitl [HO]; · iexists _; iexact HO
  isplitl [Hat]; · iexact Hat
  isplitl [P0]; · iexact P0
  isplitl [P1]; · iexact P1
  isplitl [P2]; · iexact P2
  isplitl [P3]; · iexact P3
  iexact P4
end

#print axioms signal1
#print axioms barwait

end Cert.KernelIdeal.BodyEntry

end
-- ==== Proof.Payloads.lean ====
import proofs.«900580_g7700000000000581_dist_mlpseq_tp1d_rep_rep_b64_d1024_h2048_v7x_i32_f32_1_alg».proof.Proof.Spec

/-!
# The body's pure values in canonical form

Each value the body computes is one of four functions of the specification, applied to the values read
before it: a layer's partial sum, its hidden activations, a rounding to the wire format, or the sum with a
received slot.  A loaded receive slot and the loaded weight blocks enter through the cast that drops their
leading unit axes; a cast to the same shape is the identity.  All equations are generic in the float instance
and read from the body's name on the left to the canonical form on the right.
-/

noncomputable section

namespace Cert.KernelIdeal.Payloads

open Idealize.ShloMosaic Cert.KernelIdeal Cert.KernelIdeal.Gen Cert.KernelIdeal.Spec

variable {F : FTy → Type} [FloatOps F]

/-- A cast to the same shape is the identity: the re-indexing of a shape onto itself fixes every index. -/
theorem shapeCast_same {s : Shape} {α : Type} (v : s.Idx → α) (h : s.ShapeCasts s) : shapeCast s v h = v := by
  funext i
  unfold shapeCast
  rw [Shape.reshapeEquiv_self]

/-- A loaded receive slot, its two leading unit axes dropped. -/
local notation "R⟨" r "⟩" => shapeCast S64x1024 r shapeCasts_S1x1x64x1024_S64x1024
/-- A loaded first weight block, its leading unit axis dropped. -/
local notation "W₁⟨" w "⟩" => shapeCast S1024x2048 w shapeCasts_S1x1024x2048_S1024x2048
/-- A loaded second weight block, its leading unit axis dropped. -/
local notation "W₂⟨" w "⟩" => shapeCast S2048x1024 w shapeCasts_S1x2048x1024_S2048x1024

/-! ## Layer 0 -/

theorem pay1_eq (x : Vec F S64x1024 .f32) (w1 : Vec F S1x1024x2048 .f32) (w2 : Vec F S1x2048x1024 .f32) :
    k0_pay1 x w1 w2 = mlp x W₁⟨w1⟩ W₂⟨w2⟩ := by
  have h : k0_pay1 x w1 w2 = mlp (shapeCast S64x1024 x shapeCasts_S64x1024_S64x1024) W₁⟨w1⟩ W₂⟨w2⟩ := rfl
  rw [h, shapeCast_same]

theorem pay2_eq (a : FVec F S64x1024 .f32) : k0_pay2 a = toWire a := by
  simp only [k0_pay2, toWire, shapeCast_same]

theorem pay3_eq (a : FVec F S64x1024 .f32) (r : Vec F S1x1x64x1024 .bf16) :
    k0_pay3 a r = addWire a R⟨r⟩ := rfl

theorem pay4_eq (a : FVec F S64x1024 .f32) (r : Vec F S1x1x64x1024 .bf16) :
    k0_pay4 a r = toWire (addWire a R⟨r⟩) := by
  simp only [k0_pay4, pay3_eq, toWire, shapeCast_same]

theorem pay5_eq (a : FVec F S64x1024 .f32) (r : Vec F S1x1x64x1024 .bf16) :
    k0_pay5 a r = addWire a R⟨r⟩ := rfl

theorem pay6_eq (a : FVec F S64x1024 .f32) (r : Vec F S1x1x64x1024 .bf16) :
    k0_pay6 a r = toWire (addWire a R⟨r⟩) := by
  simp only [k0_pay6, pay5_eq, toWire, shapeCast_same]

theorem pay7_eq (a : FVec F S64x1024 .f32) (r : Vec F S1x1x64x1024 .bf16) :
    k0_pay7 a r = addWire a R⟨r⟩ := rfl

theorem pay8_eq (a : FVec F S64x1024 .f32) (r : Vec F S1x1x64x1024 .bf16) :
    k0_pay8 a r = toWire (addWire a R⟨r⟩) := by
  simp only [k0_pay8, pay7_eq, toWire, shapeCast_same]

theorem pay9_eq (a : FVec F S64x1024 .f32) (r r' : Vec F S1x1x64x1024 .bf16) :
    k0_pay9 a r r' = addWire (addWire a R⟨r⟩) R⟨r'⟩ := rfl

theorem pay10_eq (a : FVec F S64x1024 .f32) (r r' : Vec F S1x1x64x1024 .bf16) :
    k0_pay10 a r r' = toWire (addWire (addWire a R⟨r⟩) R⟨r'⟩) := rfl

theorem pay11_eq (w : FVec F S64x1024 .bf16) : k0_pay11 w = w := by
  simp only [k0_pay11, shapeCast_same]

theorem pay12_eq (a : FVec F S64x1024 .f32) (r : Vec F S1x1x64x1024 .bf16) :
    k0_pay12 a r = addWire a R⟨r⟩ := rfl

/-! ## Layer 1 -/

theorem pay13_eq (a : FVec F S64x1024 .f32) (w1 : Vec F S1x1024x2048 .f32) (w2 : Vec F S1x2048x1024 .f32) :
    k0_pay13 a w1 w2 = mlp a W₁⟨w1⟩ W₂⟨w2⟩ := rfl

theorem pay14_eq (a : FVec F S64x1024 .f32) (w1 : Vec F S1x1024x2048 .f32) (w2 : Vec F S1x2048x1024 .f32) :
    k0_pay14 a w1 w2 = toWire (mlp a W₁⟨w1⟩ W₂⟨w2⟩) := by
  simp only [k0_pay14, pay13_eq, toWire, shapeCast_same]

theorem pay15_eq (a : FVec F S64x1024 .f32) (r : Vec F S1x1x64x1024 .bf16) :
    k0_pay15 a r = addWire a R⟨r⟩ := rfl

theorem pay16_eq (a : FVec F S64x1024 .f32) (r : Vec F S1x1x64x1024 .bf16) :
    k0_pay16 a r = toWire (addWire a R⟨r⟩) := by
  simp only [k0_pay16, pay15_eq, toWire, shapeCast_same]

theorem pay17_eq (a : FVec F S64x1024 .f32) (r : Vec F S1x1x64x1024 .bf16) :
    k0_pay17 a r = addWire a R⟨r⟩ := rfl

theorem pay18_eq (a : FVec F S64x1024 .f32) (r : Vec F S1x1x64x1024 .bf16) :
    k0_pay18 a r = toWire (addWire a R⟨r⟩) := by
  simp only [k0_pay18, pay17_eq, toWire, shapeCast_same]

theorem pay19_eq (a : FVec F S64x1024 .f32) (r : Vec F S1x1x64x1024 .bf16) :
    k0_pay19 a r = addWire a R⟨r⟩ := rfl

theorem pay20_eq (a : FVec F S64x1024 .f32) (r : Vec F S1x1x64x1024 .bf16) :
    k0_pay20 a r = toWire (addWire a R⟨r⟩) := by
  simp only [k0_pay20, pay19_eq, toWire, shapeCast_same]

theorem pay21_eq (a : FVec F S64x1024 .f32) (r : Vec F S1x1x64x1024 .bf16) :
    k0_pay21 a r = addWire a R⟨r⟩ := rfl

theorem pay22_eq (a : FVec F S64x1024 .f32) (r : Vec F S1x1x64x1024 .bf16) :
    k0_pay22 a r = toWire (addWire a R⟨r⟩) := by
  simp only [k0_pay22, pay21_eq, toWire, shapeCast_same]

/-! ## Layer 2: the last sum of layer 1 is folded into the hidden activations, and the second product is
a value of its own -/

theorem pay23_eq (a : FVec F S64x1024 .f32) (r : Vec F S1x1x64x1024 .bf16) (w1 : Vec F S1x1024x2048 .f32) :
    k0_pay23 a r w1 = hidden (addWire a R⟨r⟩) W₁⟨w1⟩ := rfl

/-- The second product over any hidden activations. -/
theorem pay24_raw (h : FVec F S64x2048 .f32) (w2 : Vec F S1x2048x1024 .f32) :
    k0_pay24 h w2 = matmul dot_S64x2048_S2048x1024_S64x1024_1_0_0_1_n_n none h W₂⟨w2⟩ (constant S64x1024 .f32 0x00000000#32) := rfl

theorem pay24_eq (a : FVec F S64x1024 .f32) (w : FVec F S1024x2048 .f32) (w2 : Vec F S1x2048x1024 .f32) :
    k0_pay24 (hidden a w) w2 = mlp a w W₂⟨w2⟩ := rfl

theorem pay25_eq (a : FVec F S64x1024 .f32) (w : FVec F S1024x2048 .f32) (w2 : Vec F S1x2048x1024 .f32) :
    k0_pay25 (hidden a w) w2 = toWire (mlp a w W₂⟨w2⟩) := by
  simp only [k0_pay25, pay24_eq, toWire, shapeCast_same]

theorem pay26_eq (a : FVec F S64x1024 .f32) (w : FVec F S1024x2048 .f32) (w2 : Vec F S1x2048x1024 .f32)
    (r : Vec F S1x1x64x1024 .bf16) :
    k0_pay26 (hidden a w) w2 r = addWire (mlp a w W₂⟨w2⟩) R⟨r⟩ := rfl

theorem pay27_eq (a : FVec F S64x1024 .f32) (w : FVec F S1024x2048 .f32) (w2 : Vec F S1x2048x1024 .f32)
    (r : Vec F S1x1x64x1024 .bf16) :
    k0_pay27 (hidden a w) w2 r = toWire (addWire (mlp a w W₂⟨w2⟩) R⟨r⟩) := rfl

/-- The four values of layer 2 built on the hidden activations, from the running sum and the slot. -/
theorem pay24_pay23 (a : FVec F S64x1024 .f32) (r : Vec F S1x1x64x1024 .bf16) (w1 : Vec F S1x1024x2048 .f32)
    (w2 : Vec F S1x2048x1024 .f32) :
    k0_pay24 (k0_pay23 a r w1) w2 = mlp (addWire a R⟨r⟩) W₁⟨w1⟩ W₂⟨w2⟩ := rfl

theorem pay25_pay23 (a : FVec F S64x1024 .f32) (r : Vec F S1x1x64x1024 .bf16) (w1 : Vec F S1x1024x2048 .f32)
    (w2 : Vec F S1x2048x1024 .f32) :
    k0_pay25 (k0_pay23 a r w1) w2 = toWire (mlp (addWire a R⟨r⟩) W₁⟨w1⟩ W₂⟨w2⟩) := by
  rw [pay23_eq, pay25_eq]

theorem pay26_pay23 (a : FVec F S64x1024 .f32) (r : Vec F S1x1x64x1024 .bf16) (w1 : Vec F S1x1024x2048 .f32)
    (w2 : Vec F S1x2048x1024 .f32) (r' : Vec F S1x1x64x1024 .bf16) :
    k0_pay26 (k0_pay23 a r w1) w2 r' = addWire (mlp (addWire a R⟨r⟩) W₁⟨w1⟩ W₂⟨w2⟩) R⟨r'⟩ := rfl

theorem pay27_pay23 (a : FVec F S64x1024 .f32) (r : Vec F S1x1x64x1024 .bf16) (w1 : Vec F S1x1024x2048 .f32)
    (w2 : Vec F S1x2048x1024 .f32) (r' : Vec F S1x1x64x1024 .bf16) :
    k0_pay27 (k0_pay23 a r w1) w2 r' = toWire (addWire (mlp (addWire a R⟨r⟩) W₁⟨w1⟩ W₂⟨w2⟩) R⟨r'⟩) := rfl

theorem pay28_eq (w : FVec F S64x1024 .bf16) : k0_pay28 w = w := by
  simp only [k0_pay28, shapeCast_same]

theorem pay29_eq (a : FVec F S64x1024 .f32) (r : Vec F S1x1x64x1024 .bf16) :
    k0_pay29 a r = addWire a R⟨r⟩ := rfl

theorem pay30_eq (a : FVec F S64x1024 .f32) (r : Vec F S1x1x64x1024 .bf16) :
    k0_pay30 a r = toWire (addWire a R⟨r⟩) := by
  simp only [k0_pay30, pay29_eq, toWire, shapeCast_same]

theorem pay31_eq (a : FVec F S64x1024 .f32) (r : Vec F S1x1x64x1024 .bf16) :
    k0_pay31 a r = addWire a R⟨r⟩ := rfl

theorem pay32_eq (a : FVec F S64x1024 .f32) (r : Vec F S1x1x64x1024 .bf16) :
    k0_pay32 a r = toWire (addWire a R⟨r⟩) := by
  simp only [k0_pay32, pay31_eq, toWire, shapeCast_same]

theorem pay33_eq (a : FVec F S64x1024 .f32) (r : Vec F S1x1x64x1024 .bf16) :
    k0_pay33 a r = addWire a R⟨r⟩ := rfl

theorem pay34_eq (a : FVec F S64x1024 .f32) (r : Vec F S1x1x64x1024 .bf16) :
    k0_pay34 a r = toWire (addWire a R⟨r⟩) := by
  simp only [k0_pay34, pay33_eq, toWire, shapeCast_same]

theorem pay35_eq (a : FVec F S64x1024 .f32) (r : Vec F S1x1x64x1024 .bf16) :
    k0_pay35 a r = addWire a R⟨r⟩ := rfl

/-- info: 'Cert.KernelIdeal.Payloads.pay1_eq' depends on axioms: [propext, Classical.choice, Quot.sound] -/
#guard_msgs in #print axioms pay1_eq

/-- info: 'Cert.KernelIdeal.Payloads.pay27_pay23' depends on axioms: [propext, Classical.choice, Quot.sound] -/
#guard_msgs in #print axioms pay27_pay23

end Cert.KernelIdeal.Payloads

end
-- ==== Proof.BodySound.lean ====
import proofs.«900580_g7700000000000581_dist_mlpseq_tp1d_rep_rep_b64_d1024_h2048_v7x_i32_f32_1_alg».proof.Proof.BodyRound
import proofs.«900580_g7700000000000581_dist_mlpseq_tp1d_rep_rep_b64_d1024_h2048_v7x_i32_f32_1_alg».proof.Proof.BodyRoundOps
import proofs.«900580_g7700000000000581_dist_mlpseq_tp1d_rep_rep_b64_d1024_h2048_v7x_i32_f32_1_alg».proof.Proof.BodyWeights
import proofs.«900580_g7700000000000581_dist_mlpseq_tp1d_rep_rep_b64_d1024_h2048_v7x_i32_f32_1_alg».proof.Proof.BodyEntry
import proofs.«900580_g7700000000000581_dist_mlpseq_tp1d_rep_rep_b64_d1024_h2048_v7x_i32_f32_1_alg».proof.Proof.Ghost
import proofs.«900580_g7700000000000581_dist_mlpseq_tp1d_rep_rep_b64_d1024_h2048_v7x_i32_f32_1_alg».proof.Proof.MemLemmas
import proofs.«900580_g7700000000000581_dist_mlpseq_tp1d_rep_rep_b64_d1024_h2048_v7x_i32_f32_1_alg».proof.Proof.Tables
import proofs.«900580_g7700000000000581_dist_mlpseq_tp1d_rep_rep_b64_d1024_h2048_v7x_i32_f32_1_alg».proof.Proof.Waits
import proofs.«900580_g7700000000000581_dist_mlpseq_tp1d_rep_rep_b64_d1024_h2048_v7x_i32_f32_1_alg».proof.Proof.Payloads
import proofs.«900580_g7700000000000581_dist_mlpseq_tp1d_rep_rep_b64_d1024_h2048_v7x_i32_f32_1_alg».proof.Proof.Gen.KernelIdeal.Skeleton

noncomputable section

open Cert.KernelIdeal Cert.KernelIdeal.Gen Cert.KernelIdeal.Mesh Cert.KernelIdeal.Spec Cert.KernelIdeal.Cells Cert.KernelIdeal.Schedule Cert.KernelIdeal.Ghost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-!
# One thread's kernel body

From what a device starts from (its cells' invariants, positions, duty tokens and credits, the six weight arrays, the
four scratch buffers, what it owes) to what it ends with: the result staging buffer holding the specification's
result, the activations unchanged, the own cells closed, nothing owed.  The body is stepped operation by operation:
the weight copies of a layer, the five entry signals, the wait for the partners, then per round the rounding and
store of the running sum, the transfer to the partner, the two waits and the load of what the partner sent, the
running sum being the specification's at every step.
-/

namespace Cert.KernelIdeal.Body

open Cert.KernelIdeal.MemLemmas (h0_3 h1_3 h2_3 h0_5 h1_5 h2_5 h3_5 h4_5)

/-! ## Families over the cells, written out -/

theorem bigSep5 (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ

theorem bigSep6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

theorem bigSep15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [(0 : Fin 15), 1, 2, 3, 4, 5, 6, 7, 8, 9, 10, 11, 12, 13, 14] (by decide) (by decide) Φ

theorem bigSep22 (Φ : Fin 22 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21) :=
  bigSep_univ_eq_bigSepL [(0 : Fin 22), 1, 2, 3, 4, 5, 6, 7, 8, 9, 10, 11, 12, 13, 14, 15, 16, 17, 18, 19, 20, 21] (by decide) (by decide) Φ

theorem bigSep23 (Φ : Fin 23 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22) :=
  bigSep_univ_eq_bigSepL [(0 : Fin 23), 1, 2, 3, 4, 5, 6, 7, 8, 9, 10, 11, 12, 13, 14, 15, 16, 17, 18, 19, 20, 21, 22] (by decide) (by decide) Φ

theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetch_0 (t : Fin cfg0.N) : (cfg0.win (0 : Fin 2)).fetch t = true := fetch0_0 t

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What one thread's body starts from, the names of the cells' invariants fixed. -/
def bodyPre (K : Dev nD × Fin 23 → ℕ) (c : Dev nD) : sProp 𝕄 :=
  iprop((ghost m K c ∗ creds c ∗ levAts L lv ∗ hbmArgs m c ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it ends with. -/
def bodyPost (c : Dev nD) : sProp 𝕄 :=
  iprop(Φ₁ m c ∗ (dats m ρ 0 c).owesAt () t₀.succ ∗ stg c cc0_stg0_0 ((inp m).x c) ∗ stg c cc0_stg1_0 (outAt m c))

/-! ## The running sum, step by step -/

theorem acc_first (I : Inputs F) (c : Dev nD) (x : Act F) (w1 : WIn F) (w2 : WOut F)
    (hx : x = I.x c) (h1 : w1 = I.w1 0 c) (h2 : w2 = I.w2 0 c) : mlp x w1 w2 = acc I 0 0 c := by
  subst hx h1 h2; rfl
theorem acc_step (I : Inputs F) (l k : ℕ) (c : Dev nD) (a : Act F) (v : Wire F)
    (ha : a = acc I l k c) (hv : v = sent I l k (pr k c)) : addWire a v = acc I l (k + 1) c := by
  subst ha hv; rfl
theorem acc_head (I : Inputs F) (l : ℕ) (c : Dev nD) (a : Act F) (w1 : WIn F) (w2 : WOut F)
    (ha : a = acc I l 5 c) (h1 : w1 = I.w1 (l + 1) c) (h2 : w2 = I.w2 (l + 1) c) : mlp a w1 w2 = acc I (l + 1) 0 c := by
  subst ha h1 h2; rfl

omit [FloatOps F] in
theorem sendPts_eq (c : Dev nD) (f : Buf (Elt F) ((c : Thread nD τ).loc cc0_scratch2)) :
    sendPts c f = (((c : Thread nD τ).loc cc0_scratch2) ↦{fullShare} f : sProp 𝕄) := by
  unfold sendPts; rw [MemLemmas.sendM_set]

set_option maxRecDepth 65536 in
set_option maxHeartbeats 8000000 in
/-- The body, from what it starts from to what it ends with. -/
theorem sound_body (K : Dev nD × Fin 23 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6) Kt := by
  simp only [cc0_body_eq_skeleton]; unfold cc0_body_skel
  simp only [k0_part20_eq_skeleton]; unfold k0_part20_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel
  simp only [semSignalWord, semWaitWord, Prog.lift, Prog.bind_op, Prog.bind_ret, Prog.pure_eq_ret, wp_deviceId]
  simp only [Payloads.pay1_eq, Payloads.pay2_eq, Payloads.pay3_eq, Payloads.pay4_eq, Payloads.pay5_eq, Payloads.pay6_eq, Payloads.pay7_eq, Payloads.pay8_eq, Payloads.pay9_eq, Payloads.pay10_eq, Payloads.pay11_eq, Payloads.pay12_eq, Payloads.pay13_eq, Payloads.pay14_eq, Payloads.pay15_eq, Payloads.pay16_eq, Payloads.pay17_eq, Payloads.pay18_eq, Payloads.pay19_eq, Payloads.pay20_eq, Payloads.pay21_eq, Payloads.pay22_eq, Payloads.pay23_eq, Payloads.pay24_eq, Payloads.pay25_eq, Payloads.pay26_eq, Payloads.pay27_eq, Payloads.pay28_eq, Payloads.pay29_eq, Payloads.pay30_eq, Payloads.pay31_eq, Payloads.pay32_eq, Payloads.pay33_eq, Payloads.pay34_eq, Payloads.pay35_eq]
  unfold bodyPre ghost creds hbmArgs scratch
  simp only [bigSep5, bigSep6, bigSep15, bigSep23]
  iintro ⟨⟨⟨⟨⟨#HI0, #HI1, #HI2, #HI3, #HI4, #HI5, #HI6, #HI7, #HI8, #HI9, #HI10, #HI11, #HI12, #HI13, #HI14, #HI15, #HI16, #HI17, #HI18, #HI19, #HI20, #HI21, #HI22⟩, ⟨#HIb0, #HIb1, #HIb2, #HIb3, #HIb4⟩, ⟨#HIr0, #HIr1, #HIr2, #HIr3, #HIr4, #HIr5, #HIr6, #HIr7, #HIr8, #HIr9, #HIr10, #HIr11, #HIr12, #HIr13, #HIr14⟩, ⟨#Hr0, #Hr1, #Hr2, #Hr3, #Hr4, #Hr5, #Hr6, #Hr7, #Hr8, #Hr9, #Hr10, #Hr11, #Hr12, #Hr13, #Hr14, #Hr15, #Hr16, #Hr17, #Hr18, #Hr19, #Hr20, #Hr21, #Hr22⟩, ⟨#Hrb0, #Hrb1, #Hrb2, #Hrb3, #Hrb4⟩, ⟨#Hrr0, #Hrr1, #Hrr2, #Hrr3, #Hrr4, #Hrr5, #Hrr6, #Hrr7, #Hrr8, #Hrr9, #Hrr10, #Hrr11, #Hrr12, #Hrr13, #Hrr14⟩, ⟨Hat0, Hat1, Hat2, Hat3, Hat4, Hat5, Hat6, Hat7, Hat8, Hat9, Hat10, Hat11, Hat12, Hat13, Hat14, Hat15, Hat16, Hat17, Hat18, Hat19, Hat20, Hat21, Hat22⟩, ⟨Htb0, Htb1, Htb2, Htb3, Htb4⟩, ⟨Htr0, Htr1, Htr2, Htr3, Htr4, Htr5, Htr6, Htr7, Htr8, Htr9, Htr10, Htr11, Htr12, Htr13, Htr14⟩, ⟨Hts0, Hts1, Hts2, Hts3, Hts4, Hts5, Hts6, Hts7, Hts8, Hts9, Hts10, Hts11, Hts12, Hts13, Hts14⟩, ⟨Htc0, Htc1, Htc2, Htc3, Htc4, Htc5⟩⟩, ⟨HcB, ⟨Hcr0, Hcr1, Hcr2, Hcr3, Hcr4, Hcr5, Hcr6, Hcr7, Hcr8, Hcr9, Hcr10, Hcr11, Hcr12, Hcr13, Hcr14⟩⟩, #Hlev, ⟨Hh1, Hh2, Hh3, Hh4, Hh5, Hh6⟩, ⟨⟨%fw1, Hw1⟩, ⟨%fw2, Hw2⟩, ⟨%fs, Hsend⟩, ⟨%fr, Hrecv⟩⟩⟩, Ho, ⟨%d0, %g0, %hg0, Hx⟩, ⟨%d1, %g1, %hg1, Hout⟩⟩, Hk⟩
  have hx : g0 = (inp m).x c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = oweSig c 0 from rfl]
  ihave Hw1s := (MemLemmas.win_split c fw1).1 $$ Hw1
  icases Hw1s with ⟨Hw1a, Hw1b⟩
  ihave Hw2s := (MemLemmas.wout_split c fw2).1 $$ Hw2
  icases Hw2s with ⟨Hw2a, Hw2b⟩
  ihave Hrs := (Entails.of_eq (MemLemmas.recv_split_chain c fr)) $$ Hrecv
  icases Hrs with ⟨Hq00, Hq01, Hq02, Hq03, Hq04, Hq10, Hq11, Hq12, Hq13, Hq14, Hq20, Hq21, Hq22, Hq23, Hq24⟩
  ihave Hsend := (Entails.of_eq (sendPts_eq c fs).symm) $$ Hsend
  -- the weight copies of layer 0
  iapply (BodyWeights.copy2 m c (0 : Fin 3) (Cells.cpS_eq 0 0 h0_3 Nat.zero_lt_two inb_S3x2_S1x1_0_0) (Cells.cpS_eq 0 1 h0_3 Nat.one_lt_two inb_S3x2_S1x1_0_1)
      (src1 := (Memref.whole main_arg1 : Memref sig .tc .hbm S1024x2048 .f32)) (src2 := (Memref.whole main_arg2 : Memref sig .tc .hbm S2048x1024 .f32))
      (m ((c : Thread nD τ).loc main_arg1)) (m ((c : Thread nD τ).loc main_arg2)) fw1 fw2
      (BodyWeights.cpPay_w1_0 m c fw1) (BodyWeights.cpPay_w2_0 m c fw2)) $$ [Htc0 Htc1 Hh1 Hh2 Hw1a Hw2a]
  · isplitr; · iexact HI1
    isplitr; · iexact HI2
    isplitr; · iexact Hr1
    isplitr; · iexact Hr2
    isplitl [Htc0]; · iexact Htc0
    isplitl [Htc1]; · iexact Htc1
    isplitl [Hh1]; · iexact Hh1
    isplitl [Hh2]; · iexact Hh2
    isplitl [Hw1a]; · iexact Hw1a
    iexact Hw2a
  iintro ⟨Hcc0, Hcc1⟩
  -- the entry signal to the partner of stage 0
  iapply (BodyEntry.signal1 m c _ (0 : Fin 5) (Mesh.dev1_eq c) _ rfl rfl W fr fr fr) $$ [Htb0 HO Hq00 Hq10 Hq20]
  · isplitr; · iexact HIb0
    isplitr; · iexact Hrb0
    isplitl [Htb0]; · iexact Htb0
    isplitl [HO]; · iexact HO
    isplitl [Hq00]; · iexact Hq00
    isplitl [Hq10]; · iexact Hq10
    iexact Hq20
  iintro HO
  -- the entry signal to the partner of stage 1
  iapply (BodyEntry.signal1 m c _ (1 : Fin 5) (Mesh.dev2_eq c) _ rfl rfl W fr fr fr) $$ [Htb1 HO Hq01 Hq11 Hq21]
  · isplitr; · iexact HIb1
    isplitr; · iexact Hrb1
    isplitl [Htb1]; · iexact Htb1
    isplitl [HO]; · iexact HO
    isplitl [Hq01]; · iexact Hq01
    isplitl [Hq11]; · iexact Hq11
    iexact Hq21
  iintro HO
  -- the entry signal to the partner of stage 2
  iapply (BodyEntry.signal1 m c _ (2 : Fin 5) (Mesh.dev3_eq c) _ rfl rfl W fr fr fr) $$ [Htb2 HO Hq02 Hq12 Hq22]
  · isplitr; · iexact HIb2
    isplitr; · iexact Hrb2
    isplitl [Htb2]; · iexact Htb2
    isplitl [HO]; · iexact HO
    isplitl [Hq02]; · iexact Hq02
    isplitl [Hq12]; · iexact Hq12
    iexact Hq22
  iintro HO
  -- the entry signal to the partner of stage 3
  iapply (BodyEntry.signal1 m c _ (3 : Fin 5) (Mesh.dev4_eq c) _ rfl rfl W fr fr fr) $$ [Htb3 HO Hq03 Hq13 Hq23]
  · isplitr; · iexact HIb3
    isplitr; · iexact Hrb3
    isplitl [Htb3]; · iexact Htb3
    isplitl [HO]; · iexact HO
    isplitl [Hq03]; · iexact Hq03
    isplitl [Hq13]; · iexact Hq13
    iexact Hq23
  iintro HO
  -- the entry signal to the partner of stage 4
  iapply (BodyEntry.signal1 m c _ (4 : Fin 5) (Mesh.dev5_eq c) _ rfl rfl W fr fr fr) $$ [Htb4 HO Hq04 Hq14 Hq24]
  · isplitr; · iexact HIb4
    isplitr; · iexact Hrb4
    isplitl [Htb4]; · iexact Htb4
    isplitl [HO]; · iexact HO
    isplitl [Hq04]; · iexact Hq04
    isplitl [Hq14]; · iexact Hq14
    iexact Hq24
  iintro HO
  -- the activations loaded
  iapply (wp_load 𝒱₀ (c : Thread nD τ) none Set.univ (m := xM) (Finset.subset_univ _)) $$ Hx; iintro Hx
  -- layer 0's weights awaited and loaded
  iapply (BodyWeights.waitw m c (0 : Fin 3) (oweSig c 5) (j := 5) (n := 0) (Or.inl rfl) (Cells.cpS_eq 0 0 h0_3 Nat.zero_lt_two inb_S3x2_S1x1_0_0) (Cells.cpS_eq 0 1 h0_3 Nat.one_lt_two inb_S3x2_S1x1_0_1) W) $$ [Hcc0 Hcc1 HO Hat1 Hat2]
  · isplitr; · iexact HI1
    isplitr; · iexact HI2
    isplitr; · iexact Hlev
    isplitl [Hcc0]; · iexact Hcc0
    isplitl [Hcc1]; · iexact Hcc1
    isplitl [HO]; · iexact HO
    isplitl [Hat1]; · iexact Hat1
    iexact Hat2
  iintro %f1_0 %f2_0 ⟨%hf1_0, %hf2_0, Hw1v0, Hw2v0, Hha0, Hhb0, ⟨%W, HO⟩, Hat1, Hat2⟩
  generalize hVx : (xM : Memref sig .tc .vmem S64x1024 .f32).view.readAt (Elt F) _ ((inp m).x c) = vx
  have hvx : vx = (inp m).x c := hVx.symm.trans (MemLemmas.xM_readAt _)
  subst hvx
  generalize hV1_0 : (winM : Memref sig .tc .vmem S2x1024x2048 .f32).view.readAt (Elt F) _ f1_0 = v1_0
  generalize hV2_0 : (woutM : Memref sig .tc .vmem S2x2048x1024 .f32).view.readAt (Elt F) _ f2_0 = v2_0
  have hw1_0 : shapeCast S1024x2048 v1_0 shapeCasts_S1x1024x2048_S1024x2048 = (inp m).w1 0 c := by rw [← hV1_0]; exact hf1_0
  have hw2_0 : shapeCast S2048x1024 v2_0 shapeCasts_S1x2048x1024_S2048x1024 = (inp m).w2 0 c := by rw [← hV2_0]; exact hf2_0
  rw [hw1_0, hw2_0, show mlp ((inp m).x c) ((inp m).w1 0 c) ((inp m).w2 0 c) = acc (inp m) 0 0 c from rfl]
  -- the weight copies of layer 1
  iapply (BodyWeights.copy2 m c (1 : Fin 3) (Cells.cpS_eq 1 0 h1_3 Nat.zero_lt_two inb_S3x2_S1x1_1_0) (Cells.cpS_eq 1 1 h1_3 Nat.one_lt_two inb_S3x2_S1x1_1_1)
      (src1 := (Memref.whole main_arg3 : Memref sig .tc .hbm S1024x2048 .f32)) (src2 := (Memref.whole main_arg4 : Memref sig .tc .hbm S2048x1024 .f32))
      (m ((c : Thread nD τ).loc main_arg3)) (m ((c : Thread nD τ).loc main_arg4)) fw1 fw2
      (BodyWeights.cpPay_w1_1 m c fw1) (BodyWeights.cpPay_w2_1 m c fw2)) $$ [Htc2 Htc3 Hh3 Hh4 Hw1b Hw2b]
  · isplitr; · iexact HI3
    isplitr; · iexact HI4
    isplitr; · iexact Hr3
    isplitr; · iexact Hr4
    isplitl [Htc2]; · iexact Htc2
    isplitl [Htc3]; · iexact Htc3
    isplitl [Hh3]; · iexact Hh3
    isplitl [Hh4]; · iexact Hh4
    isplitl [Hw1b]; · iexact Hw1b
    iexact Hw2b
  iintro ⟨Hcc2, Hcc3⟩
  -- the wait for the five partners
  ihave HO := (Entails.of_eq (congrArg (fun O => owes (c : Thread nD τ) O W) (Ghost.oweSig_done c))) $$ HO
  iapply (BodyEntry.barwait m c _ rfl rfl W) $$ [HcB HO Hat0]
  · isplitr; · iexact HI0
    isplitr; · iexact Hlev
    isplitl [HcB]; · iexact HcB
    isplitl [HO]; · iexact HO
    iexact Hat0
  iintro ⟨⟨%W, HO⟩, Hat0, Hb0, Hb1, Hb2, Hb3, Hb4⟩
  unfold Schedule.barPay
  icases Hb0 with ⟨Hp00, Hp10, Hp20⟩
  icases Hb1 with ⟨Hp01, Hp11, Hp21⟩
  icases Hb2 with ⟨Hp02, Hp12, Hp22⟩
  icases Hb3 with ⟨Hp03, Hp13, Hp23⟩
  icases Hb4 with ⟨Hp04, Hp14, Hp24⟩
  -- round 0: layer 0, stage 0
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (0 : Fin 15) 1 rfl 0 0 h0_3 h0_5 rfl rfl (Mesh.dev6_eq c) Cells.sdS_eq (Cells.rvS_eq 0 0 h0_3 h0_5 inb_S3x5_S1x1_0_0) rfl (toWire (acc (inp m) 0 0 c)) rfl W) $$ [Hsend Hp00 HO Hts0 Htr0]
  · isplitr; · iexact HI7
    isplitr; · iexact HIr0
    isplitr; · iexact Hr7
    isplitr; · iexact Hrr0
    isplitl [Hsend]; · iexact Hsend
    isplitl [Hp00]; · iexact Hp00
    isplitl [HO]; · iexact HO
    isplitl [Hts0]; · iexact Hts0
    iexact Htr0
  iintro ⟨HcS, HO⟩
  iapply (BodyRoundOps.rwaitS m c c (0 : Fin 15) 1 rfl 0 0 h0_3 h0_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS1⟩
  iapply (BodyRoundOps.rwaitV m c c (0 : Fin 15) 1 rfl 0 0 h0_3 h0_5 rfl rfl (Cells.rvS_eq 0 0 h0_3 h0_5 inb_S3x5_S1x1_0_0) W) $$ [Hcr0 HO Hat8]
  · isplitr; · iexact HI8
    isplitr; · iexact Hlev
    isplitl [Hcr0]; · iexact Hcr0
    isplitl [HO]; · iexact HO
    iexact Hat8
  iintro ⟨⟨%fq0, Hq00, %hv0⟩, ⟨%W, HO⟩, Hat8⟩
  iapply (BodyRoundOps.rload c 0 0 h0_3 h0_5 rfl fq0) $$ Hq00
  iintro Hq00
  generalize hV0 : (recvM : Memref sig .tc .vmem S3x5x64x1024 .bf16).view.readAt (Elt F) _ fq0 = vq0
  have hvq0 : shapeCast S64x1024 vq0 shapeCasts_S1x1x64x1024_S64x1024 = sent (inp m) 0 0 (pr 0 c) := by rw [← hV0]; exact hv0
  rw [hvq0, show addWire (acc (inp m) 0 0 c) (sent (inp m) 0 0 (pr 0 c)) = acc (inp m) 0 1 c from rfl]
  -- round 1: layer 0, stage 1
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (1 : Fin 15) 2 rfl 0 1 h0_3 h1_5 rfl rfl (Mesh.dev7_eq c) Cells.sdS_eq (Cells.rvS_eq 0 1 h0_3 h1_5 inb_S3x5_S1x1_0_1) rfl (toWire (acc (inp m) 0 1 c)) rfl W) $$ [Hsend Hp01 HO Hts1 Htr1]
  · isplitr; · iexact HI7
    isplitr; · iexact HIr1
    isplitr; · iexact HrS1
    isplitr; · iexact Hrr1
    isplitl [Hsend]; · iexact Hsend
    isplitl [Hp01]; · iexact Hp01
    isplitl [HO]; · iexact HO
    isplitl [Hts1]; · iexact Hts1
    iexact Htr1
  iintro ⟨HcS, HO⟩
  iapply (BodyRoundOps.rwaitS m c c (1 : Fin 15) 2 rfl 0 1 h0_3 h1_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS2⟩
  iapply (BodyRoundOps.rwaitV m c c (1 : Fin 15) 2 rfl 0 1 h0_3 h1_5 rfl rfl (Cells.rvS_eq 0 1 h0_3 h1_5 inb_S3x5_S1x1_0_1) W) $$ [Hcr1 HO Hat9]
  · isplitr; · iexact HI9
    isplitr; · iexact Hlev
    isplitl [Hcr1]; · iexact Hcr1
    isplitl [HO]; · iexact HO
    iexact Hat9
  iintro ⟨⟨%fq1, Hq01, %hv1⟩, ⟨%W, HO⟩, Hat9⟩
  iapply (BodyRoundOps.rload c 0 1 h0_3 h1_5 rfl fq1) $$ Hq01
  iintro Hq01
  generalize hV1 : (recvM : Memref sig .tc .vmem S3x5x64x1024 .bf16).view.readAt (Elt F) _ fq1 = vq1
  have hvq1 : shapeCast S64x1024 vq1 shapeCasts_S1x1x64x1024_S64x1024 = sent (inp m) 0 1 (pr 1 c) := by rw [← hV1]; exact hv1
  rw [hvq1, show addWire (acc (inp m) 0 1 c) (sent (inp m) 0 1 (pr 1 c)) = acc (inp m) 0 2 c from rfl]
  -- round 2: layer 0, stage 2
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (2 : Fin 15) 3 rfl 0 2 h0_3 h2_5 rfl rfl (Mesh.dev8_eq c) Cells.sdS_eq (Cells.rvS_eq 0 2 h0_3 h2_5 inb_S3x5_S1x1_0_2) rfl (toWire (acc (inp m) 0 2 c)) rfl W) $$ [Hsend Hp02 HO Hts2 Htr2]
  · isplitr; · iexact HI7
    isplitr; · iexact HIr2
    isplitr; · iexact HrS2
    isplitr; · iexact Hrr2
    isplitl [Hsend]; · iexact Hsend
    isplitl [Hp02]; · iexact Hp02
    isplitl [HO]; · iexact HO
    isplitl [Hts2]; · iexact Hts2
    iexact Htr2
  iintro ⟨HcS, HO⟩
  iapply (BodyRoundOps.rwaitS m c c (2 : Fin 15) 3 rfl 0 2 h0_3 h2_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS3⟩
  iapply (BodyRoundOps.rwaitV m c c (2 : Fin 15) 3 rfl 0 2 h0_3 h2_5 rfl rfl (Cells.rvS_eq 0 2 h0_3 h2_5 inb_S3x5_S1x1_0_2) W) $$ [Hcr2 HO Hat10]
  · isplitr; · iexact HI10
    isplitr; · iexact Hlev
    isplitl [Hcr2]; · iexact Hcr2
    isplitl [HO]; · iexact HO
    iexact Hat10
  iintro ⟨⟨%fq2, Hq02, %hv2⟩, ⟨%W, HO⟩, Hat10⟩
  iapply (BodyRoundOps.rload c 0 2 h0_3 h2_5 rfl fq2) $$ Hq02
  iintro Hq02
  generalize hV2 : (recvM : Memref sig .tc .vmem S3x5x64x1024 .bf16).view.readAt (Elt F) _ fq2 = vq2
  have hvq2 : shapeCast S64x1024 vq2 shapeCasts_S1x1x64x1024_S64x1024 = sent (inp m) 0 2 (pr 2 c) := by rw [← hV2]; exact hv2
  rw [hvq2, show addWire (acc (inp m) 0 2 c) (sent (inp m) 0 2 (pr 2 c)) = acc (inp m) 0 3 c from rfl]
  -- round 3: layer 0, stage 3
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (3 : Fin 15) 4 rfl 0 3 h0_3 h3_5 rfl rfl (Mesh.dev9_eq c) Cells.sdS_eq (Cells.rvS_eq 0 3 h0_3 h3_5 inb_S3x5_S1x1_0_3) rfl (toWire (acc (inp m) 0 3 c)) rfl W) $$ [Hsend Hp03 HO Hts3 Htr3]
  · isplitr; · iexact HI7
    isplitr; · iexact HIr3
    isplitr; · iexact HrS3
    isplitr; · iexact Hrr3
    isplitl [Hsend]; · iexact Hsend
    isplitl [Hp03]; · iexact Hp03
    isplitl [HO]; · iexact HO
    isplitl [Hts3]; · iexact Hts3
    iexact Htr3
  iintro ⟨HcS, HO⟩
  iapply (BodyRoundOps.rwaitS m c c (3 : Fin 15) 4 rfl 0 3 h0_3 h3_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS4⟩
  iapply (BodyRoundOps.rwaitV m c c (3 : Fin 15) 4 rfl 0 3 h0_3 h3_5 rfl rfl (Cells.rvS_eq 0 3 h0_3 h3_5 inb_S3x5_S1x1_0_3) W) $$ [Hcr3 HO Hat11]
  · isplitr; · iexact HI11
    isplitr; · iexact Hlev
    isplitl [Hcr3]; · iexact Hcr3
    isplitl [HO]; · iexact HO
    iexact Hat11
  iintro ⟨⟨%fq3, Hq03, %hv3⟩, ⟨%W, HO⟩, Hat11⟩
  iapply (BodyRoundOps.rload c 0 3 h0_3 h3_5 rfl fq3) $$ Hq03
  iintro Hq03
  generalize hV3 : (recvM : Memref sig .tc .vmem S3x5x64x1024 .bf16).view.readAt (Elt F) _ fq3 = vq3
  have hvq3 : shapeCast S64x1024 vq3 shapeCasts_S1x1x64x1024_S64x1024 = sent (inp m) 0 3 (pr 3 c) := by rw [← hV3]; exact hv3
  rw [hvq3, show addWire (acc (inp m) 0 3 c) (sent (inp m) 0 3 (pr 3 c)) = acc (inp m) 0 4 c from rfl]
  -- round 4: layer 0, stage 4
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (4 : Fin 15) 5 rfl 0 4 h0_3 h4_5 rfl rfl (Mesh.dev10_eq c) Cells.sdS_eq (Cells.rvS_eq 0 4 h0_3 h4_5 inb_S3x5_S1x1_0_4) rfl (toWire (acc (inp m) 0 4 c)) rfl W) $$ [Hsend Hp04 HO Hts4 Htr4]
  · isplitr; · iexact HI7
    isplitr; · iexact HIr4
    isplitr; · iexact HrS4
    isplitr; · iexact Hrr4
    isplitl [Hsend]; · iexact Hsend
    isplitl [Hp04]; · iexact Hp04
    isplitl [HO]; · iexact HO
    isplitl [Hts4]; · iexact Hts4
    iexact Htr4
  iintro ⟨HcS, HO⟩
  iapply (BodyRoundOps.rwaitS m c c (4 : Fin 15) 5 rfl 0 4 h0_3 h4_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS5⟩
  iapply (BodyRoundOps.rwaitV m c c (4 : Fin 15) 5 rfl 0 4 h0_3 h4_5 rfl rfl (Cells.rvS_eq 0 4 h0_3 h4_5 inb_S3x5_S1x1_0_4) W) $$ [Hcr4 HO Hat12]
  · isplitr; · iexact HI12
    isplitr; · iexact Hlev
    isplitl [Hcr4]; · iexact Hcr4
    isplitl [HO]; · iexact HO
    iexact Hat12
  iintro ⟨⟨%fq4, Hq04, %hv4⟩, ⟨%W, HO⟩, Hat12⟩
  iapply (BodyRoundOps.rload c 0 4 h0_3 h4_5 rfl fq4) $$ Hq04
  iintro Hq04
  generalize hV4 : (recvM : Memref sig .tc .vmem S3x5x64x1024 .bf16).view.readAt (Elt F) _ fq4 = vq4
  have hvq4 : shapeCast S64x1024 vq4 shapeCasts_S1x1x64x1024_S64x1024 = sent (inp m) 0 4 (pr 4 c) := by rw [← hV4]; exact hv4
  rw [hvq4, show addWire (acc (inp m) 0 4 c) (sent (inp m) 0 4 (pr 4 c)) = acc (inp m) 0 5 c from rfl]
  -- layer 1's weights awaited and loaded
  iapply (BodyWeights.waitw m c (1 : Fin 3) (oweFrom c 5) (j := 0) (n := 5) (Or.inr (Or.inl rfl)) (Cells.cpS_eq 1 0 h1_3 Nat.zero_lt_two inb_S3x2_S1x1_1_0) (Cells.cpS_eq 1 1 h1_3 Nat.one_lt_two inb_S3x2_S1x1_1_1) W) $$ [Hcc2 Hcc3 HO Hat3 Hat4]
  · isplitr; · iexact HI3
    isplitr; · iexact HI4
    isplitr; · iexact Hlev
    isplitl [Hcc2]; · iexact Hcc2
    isplitl [Hcc3]; · iexact Hcc3
    isplitl [HO]; · iexact HO
    isplitl [Hat3]; · iexact Hat3
    iexact Hat4
  iintro %f1_1 %f2_1 ⟨%hf1_1, %hf2_1, Hw1v1, Hw2v1, Hha1, Hhb1, ⟨%W, HO⟩, Hat3, Hat4⟩
  generalize hV1_1 : (winM : Memref sig .tc .vmem S2x1024x2048 .f32).view.readAt (Elt F) _ f1_1 = v1_1
  generalize hV2_1 : (woutM : Memref sig .tc .vmem S2x2048x1024 .f32).view.readAt (Elt F) _ f2_1 = v2_1
  have hw1_1 : shapeCast S1024x2048 v1_1 shapeCasts_S1x1024x2048_S1024x2048 = (inp m).w1 1 c := by rw [← hV1_1]; exact hf1_1
  have hw2_1 : shapeCast S2048x1024 v2_1 shapeCasts_S1x2048x1024_S2048x1024 = (inp m).w2 1 c := by rw [← hV2_1]; exact hf2_1
  rw [hw1_1, hw2_1, show mlp (acc (inp m) 0 5 c) ((inp m).w1 1 c) ((inp m).w2 1 c) = acc (inp m) 1 0 c from rfl]
  -- the weight copies of layer 2
  iapply (BodyWeights.copy2 m c (2 : Fin 3) (Cells.cpS_eq 2 0 h2_3 Nat.zero_lt_two inb_S3x2_S1x1_2_0) (Cells.cpS_eq 2 1 h2_3 Nat.one_lt_two inb_S3x2_S1x1_2_1)
      (src1 := (Memref.whole main_arg5 : Memref sig .tc .hbm S1024x2048 .f32)) (src2 := (Memref.whole main_arg6 : Memref sig .tc .hbm S2048x1024 .f32))
      (m ((c : Thread nD τ).loc main_arg5)) (m ((c : Thread nD τ).loc main_arg6)) f1_0 f2_0
      (BodyWeights.cpPay_w1_2 m c f1_0) (BodyWeights.cpPay_w2_2 m c f2_0)) $$ [Htc4 Htc5 Hh5 Hh6 Hw1v0 Hw2v0]
  · isplitr; · iexact HI5
    isplitr; · iexact HI6
    isplitr; · iexact Hr5
    isplitr; · iexact Hr6
    isplitl [Htc4]; · iexact Htc4
    isplitl [Htc5]; · iexact Htc5
    isplitl [Hh5]; · iexact Hh5
    isplitl [Hh6]; · iexact Hh6
    isplitl [Hw1v0]; · iexact Hw1v0
    iexact Hw2v0
  iintro ⟨Hcc4, Hcc5⟩
  -- round 5: layer 1, stage 0
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (5 : Fin 15) 6 rfl 1 0 h1_3 h0_5 rfl rfl (Mesh.dev11_eq c) Cells.sdS_eq (Cells.rvS_eq 1 0 h1_3 h0_5 inb_S3x5_S1x1_1_0) rfl (toWire (acc (inp m) 1 0 c)) rfl W) $$ [Hsend Hp10 HO Hts5 Htr5]
  · isplitr; · iexact HI7
    isplitr; · iexact HIr5
    isplitr; · iexact HrS5
    isplitr; · iexact Hrr5
    isplitl [Hsend]; · iexact Hsend
    isplitl [Hp10]; · iexact Hp10
    isplitl [HO]; · iexact HO
    isplitl [Hts5]; · iexact Hts5
    iexact Htr5
  iintro ⟨HcS, HO⟩
  iapply (BodyRoundOps.rwaitS m c c (5 : Fin 15) 6 rfl 1 0 h1_3 h0_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS6⟩
  iapply (BodyRoundOps.rwaitV m c c (5 : Fin 15) 6 rfl 1 0 h1_3 h0_5 rfl rfl (Cells.rvS_eq 1 0 h1_3 h0_5 inb_S3x5_S1x1_1_0) W) $$ [Hcr5 HO Hat13]
  · isplitr; · iexact HI13
    isplitr; · iexact Hlev
    isplitl [Hcr5]; · iexact Hcr5
    isplitl [HO]; · iexact HO
    iexact Hat13
  iintro ⟨⟨%fq5, Hq10, %hv5⟩, ⟨%W, HO⟩, Hat13⟩
  iapply (BodyRoundOps.rload c 1 0 h1_3 h0_5 rfl fq5) $$ Hq10
  iintro Hq10
  generalize hV5 : (recvM : Memref sig .tc .vmem S3x5x64x1024 .bf16).view.readAt (Elt F) _ fq5 = vq5
  have hvq5 : shapeCast S64x1024 vq5 shapeCasts_S1x1x64x1024_S64x1024 = sent (inp m) 1 0 (pr 0 c) := by rw [← hV5]; exact hv5
  rw [hvq5, show addWire (acc (inp m) 1 0 c) (sent (inp m) 1 0 (pr 0 c)) = acc (inp m) 1 1 c from rfl]
  -- round 6: layer 1, stage 1
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (6 : Fin 15) 7 rfl 1 1 h1_3 h1_5 rfl rfl (Mesh.dev12_eq c) Cells.sdS_eq (Cells.rvS_eq 1 1 h1_3 h1_5 inb_S3x5_S1x1_1_1) rfl (toWire (acc (inp m) 1 1 c)) rfl W) $$ [Hsend Hp11 HO Hts6 Htr6]
  · isplitr; · iexact HI7
    isplitr; · iexact HIr6
    isplitr; · iexact HrS6
    isplitr; · iexact Hrr6
    isplitl [Hsend]; · iexact Hsend
    isplitl [Hp11]; · iexact Hp11
    isplitl [HO]; · iexact HO
    isplitl [Hts6]; · iexact Hts6
    iexact Htr6
  iintro ⟨HcS, HO⟩
  iapply (BodyRoundOps.rwaitS m c c (6 : Fin 15) 7 rfl 1 1 h1_3 h1_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS7⟩
  iapply (BodyRoundOps.rwaitV m c c (6 : Fin 15) 7 rfl 1 1 h1_3 h1_5 rfl rfl (Cells.rvS_eq 1 1 h1_3 h1_5 inb_S3x5_S1x1_1_1) W) $$ [Hcr6 HO Hat14]
  · isplitr; · iexact HI14
    isplitr; · iexact Hlev
    isplitl [Hcr6]; · iexact Hcr6
    isplitl [HO]; · iexact HO
    iexact Hat14
  iintro ⟨⟨%fq6, Hq11, %hv6⟩, ⟨%W, HO⟩, Hat14⟩
  iapply (BodyRoundOps.rload c 1 1 h1_3 h1_5 rfl fq6) $$ Hq11
  iintro Hq11
  generalize hV6 : (recvM : Memref sig .tc .vmem S3x5x64x1024 .bf16).view.readAt (Elt F) _ fq6 = vq6
  have hvq6 : shapeCast S64x1024 vq6 shapeCasts_S1x1x64x1024_S64x1024 = sent (inp m) 1 1 (pr 1 c) := by rw [← hV6]; exact hv6
  rw [hvq6, show addWire (acc (inp m) 1 1 c) (sent (inp m) 1 1 (pr 1 c)) = acc (inp m) 1 2 c from rfl]
  -- round 7: layer 1, stage 2
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (7 : Fin 15) 8 rfl 1 2 h1_3 h2_5 rfl rfl (Mesh.dev13_eq c) Cells.sdS_eq (Cells.rvS_eq 1 2 h1_3 h2_5 inb_S3x5_S1x1_1_2) rfl (toWire (acc (inp m) 1 2 c)) rfl W) $$ [Hsend Hp12 HO Hts7 Htr7]
  · isplitr; · iexact HI7
    isplitr; · iexact HIr7
    isplitr; · iexact HrS7
    isplitr; · iexact Hrr7
    isplitl [Hsend]; · iexact Hsend
    isplitl [Hp12]; · iexact Hp12
    isplitl [HO]; · iexact HO
    isplitl [Hts7]; · iexact Hts7
    iexact Htr7
  iintro ⟨HcS, HO⟩
  iapply (BodyRoundOps.rwaitS m c c (7 : Fin 15) 8 rfl 1 2 h1_3 h2_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS8⟩
  iapply (BodyRoundOps.rwaitV m c c (7 : Fin 15) 8 rfl 1 2 h1_3 h2_5 rfl rfl (Cells.rvS_eq 1 2 h1_3 h2_5 inb_S3x5_S1x1_1_2) W) $$ [Hcr7 HO Hat15]
  · isplitr; · iexact HI15
    isplitr; · iexact Hlev
    isplitl [Hcr7]; · iexact Hcr7
    isplitl [HO]; · iexact HO
    iexact Hat15
  iintro ⟨⟨%fq7, Hq12, %hv7⟩, ⟨%W, HO⟩, Hat15⟩
  iapply (BodyRoundOps.rload c 1 2 h1_3 h2_5 rfl fq7) $$ Hq12
  iintro Hq12
  generalize hV7 : (recvM : Memref sig .tc .vmem S3x5x64x1024 .bf16).view.readAt (Elt F) _ fq7 = vq7
  have hvq7 : shapeCast S64x1024 vq7 shapeCasts_S1x1x64x1024_S64x1024 = sent (inp m) 1 2 (pr 2 c) := by rw [← hV7]; exact hv7
  rw [hvq7, show addWire (acc (inp m) 1 2 c) (sent (inp m) 1 2 (pr 2 c)) = acc (inp m) 1 3 c from rfl]
  -- round 8: layer 1, stage 3
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (8 : Fin 15) 9 rfl 1 3 h1_3 h3_5 rfl rfl (Mesh.dev14_eq c) Cells.sdS_eq (Cells.rvS_eq 1 3 h1_3 h3_5 inb_S3x5_S1x1_1_3) rfl (toWire (acc (inp m) 1 3 c)) rfl W) $$ [Hsend Hp13 HO Hts8 Htr8]
  · isplitr; · iexact HI7
    isplitr; · iexact HIr8
    isplitr; · iexact HrS8
    isplitr; · iexact Hrr8
    isplitl [Hsend]; · iexact Hsend
    isplitl [Hp13]; · iexact Hp13
    isplitl [HO]; · iexact HO
    isplitl [Hts8]; · iexact Hts8
    iexact Htr8
  iintro ⟨HcS, HO⟩
  iapply (BodyRoundOps.rwaitS m c c (8 : Fin 15) 9 rfl 1 3 h1_3 h3_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS9⟩
  iapply (BodyRoundOps.rwaitV m c c (8 : Fin 15) 9 rfl 1 3 h1_3 h3_5 rfl rfl (Cells.rvS_eq 1 3 h1_3 h3_5 inb_S3x5_S1x1_1_3) W) $$ [Hcr8 HO Hat16]
  · isplitr; · iexact HI16
    isplitr; · iexact Hlev
    isplitl [Hcr8]; · iexact Hcr8
    isplitl [HO]; · iexact HO
    iexact Hat16
  iintro ⟨⟨%fq8, Hq13, %hv8⟩, ⟨%W, HO⟩, Hat16⟩
  iapply (BodyRoundOps.rload c 1 3 h1_3 h3_5 rfl fq8) $$ Hq13
  iintro Hq13
  generalize hV8 : (recvM : Memref sig .tc .vmem S3x5x64x1024 .bf16).view.readAt (Elt F) _ fq8 = vq8
  have hvq8 : shapeCast S64x1024 vq8 shapeCasts_S1x1x64x1024_S64x1024 = sent (inp m) 1 3 (pr 3 c) := by rw [← hV8]; exact hv8
  rw [hvq8, show addWire (acc (inp m) 1 3 c) (sent (inp m) 1 3 (pr 3 c)) = acc (inp m) 1 4 c from rfl]
  -- round 9: layer 1, stage 4
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (9 : Fin 15) 10 rfl 1 4 h1_3 h4_5 rfl rfl (Mesh.dev15_eq c) Cells.sdS_eq (Cells.rvS_eq 1 4 h1_3 h4_5 inb_S3x5_S1x1_1_4) rfl (toWire (acc (inp m) 1 4 c)) rfl W) $$ [Hsend Hp14 HO Hts9 Htr9]
  · isplitr; · iexact HI7
    isplitr; · iexact HIr9
    isplitr; · iexact HrS9
    isplitr; · iexact Hrr9
    isplitl [Hsend]; · iexact Hsend
    isplitl [Hp14]; · iexact Hp14
    isplitl [HO]; · iexact HO
    isplitl [Hts9]; · iexact Hts9
    iexact Htr9
  iintro ⟨HcS, HO⟩
  iapply (BodyRoundOps.rwaitS m c c (9 : Fin 15) 10 rfl 1 4 h1_3 h4_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS10⟩
  iapply (BodyRoundOps.rwaitV m c c (9 : Fin 15) 10 rfl 1 4 h1_3 h4_5 rfl rfl (Cells.rvS_eq 1 4 h1_3 h4_5 inb_S3x5_S1x1_1_4) W) $$ [Hcr9 HO Hat17]
  · isplitr; · iexact HI17
    isplitr; · iexact Hlev
    isplitl [Hcr9]; · iexact Hcr9
    isplitl [HO]; · iexact HO
    iexact Hat17
  iintro ⟨⟨%fq9, Hq14, %hv9⟩, ⟨%W, HO⟩, Hat17⟩
  iapply (BodyRoundOps.rload c 1 4 h1_3 h4_5 rfl fq9) $$ Hq14
  iintro Hq14
  generalize hV9 : (recvM : Memref sig .tc .vmem S3x5x64x1024 .bf16).view.readAt (Elt F) _ fq9 = vq9
  have hvq9 : shapeCast S64x1024 vq9 shapeCasts_S1x1x64x1024_S64x1024 = sent (inp m) 1 4 (pr 4 c) := by rw [← hV9]; exact hv9
  rw [hvq9, show addWire (acc (inp m) 1 4 c) (sent (inp m) 1 4 (pr 4 c)) = acc (inp m) 1 5 c from rfl]
  -- layer 2's weights awaited and loaded
  iapply (BodyWeights.waitw m c (2 : Fin 3) (oweFrom c 10) (j := 0) (n := 10) (Or.inr (Or.inl rfl)) (Cells.cpS_eq 2 0 h2_3 Nat.zero_lt_two inb_S3x2_S1x1_2_0) (Cells.cpS_eq 2 1 h2_3 Nat.one_lt_two inb_S3x2_S1x1_2_1) W) $$ [Hcc4 Hcc5 HO Hat5 Hat6]
  · isplitr; · iexact HI5
    isplitr; · iexact HI6
    isplitr; · iexact Hlev
    isplitl [Hcc4]; · iexact Hcc4
    isplitl [Hcc5]; · iexact Hcc5
    isplitl [HO]; · iexact HO
    isplitl [Hat5]; · iexact Hat5
    iexact Hat6
  iintro %f1_2 %f2_2 ⟨%hf1_2, %hf2_2, Hw1v2, Hw2v2, Hha2, Hhb2, ⟨%W, HO⟩, Hat5, Hat6⟩
  generalize hV1_2 : (winM : Memref sig .tc .vmem S2x1024x2048 .f32).view.readAt (Elt F) _ f1_2 = v1_2
  generalize hV2_2 : (woutM : Memref sig .tc .vmem S2x2048x1024 .f32).view.readAt (Elt F) _ f2_2 = v2_2
  have hw1_2 : shapeCast S1024x2048 v1_2 shapeCasts_S1x1024x2048_S1024x2048 = (inp m).w1 2 c := by rw [← hV1_2]; exact hf1_2
  have hw2_2 : shapeCast S2048x1024 v2_2 shapeCasts_S1x2048x1024_S2048x1024 = (inp m).w2 2 c := by rw [← hV2_2]; exact hf2_2
  rw [hw1_2, hw2_2, show mlp (acc (inp m) 1 5 c) ((inp m).w1 2 c) ((inp m).w2 2 c) = acc (inp m) 2 0 c from rfl]
  -- round 10: layer 2, stage 0
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (10 : Fin 15) 11 rfl 2 0 h2_3 h0_5 rfl rfl (Mesh.dev16_eq c) Cells.sdS_eq (Cells.rvS_eq 2 0 h2_3 h0_5 inb_S3x5_S1x1_2_0) rfl (toWire (acc (inp m) 2 0 c)) rfl W) $$ [Hsend Hp20 HO Hts10 Htr10]
  · isplitr; · iexact HI7
    isplitr; · iexact HIr10
    isplitr; · iexact HrS10
    isplitr; · iexact Hrr10
    isplitl [Hsend]; · iexact Hsend
    isplitl [Hp20]; · iexact Hp20
    isplitl [HO]; · iexact HO
    isplitl [Hts10]; · iexact Hts10
    iexact Htr10
  iintro ⟨HcS, HO⟩
  iapply (BodyRoundOps.rwaitS m c c (10 : Fin 15) 11 rfl 2 0 h2_3 h0_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS11⟩
  iapply (BodyRoundOps.rwaitV m c c (10 : Fin 15) 11 rfl 2 0 h2_3 h0_5 rfl rfl (Cells.rvS_eq 2 0 h2_3 h0_5 inb_S3x5_S1x1_2_0) W) $$ [Hcr10 HO Hat18]
  · isplitr; · iexact HI18
    isplitr; · iexact Hlev
    isplitl [Hcr10]; · iexact Hcr10
    isplitl [HO]; · iexact HO
    iexact Hat18
  iintro ⟨⟨%fq10, Hq20, %hv10⟩, ⟨%W, HO⟩, Hat18⟩
  iapply (BodyRoundOps.rload c 2 0 h2_3 h0_5 rfl fq10) $$ Hq20
  iintro Hq20
  generalize hV10 : (recvM : Memref sig .tc .vmem S3x5x64x1024 .bf16).view.readAt (Elt F) _ fq10 = vq10
  have hvq10 : shapeCast S64x1024 vq10 shapeCasts_S1x1x64x1024_S64x1024 = sent (inp m) 2 0 (pr 0 c) := by rw [← hV10]; exact hv10
  rw [hvq10, show addWire (acc (inp m) 2 0 c) (sent (inp m) 2 0 (pr 0 c)) = acc (inp m) 2 1 c from rfl]
  -- round 11: layer 2, stage 1
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (11 : Fin 15) 12 rfl 2 1 h2_3 h1_5 rfl rfl (Mesh.dev17_eq c) Cells.sdS_eq (Cells.rvS_eq 2 1 h2_3 h1_5 inb_S3x5_S1x1_2_1) rfl (toWire (acc (inp m) 2 1 c)) rfl W) $$ [Hsend Hp21 HO Hts11 Htr11]
  · isplitr; · iexact HI7
    isplitr; · iexact HIr11
    isplitr; · iexact HrS11
    isplitr; · iexact Hrr11
    isplitl [Hsend]; · iexact Hsend
    isplitl [Hp21]; · iexact Hp21
    isplitl [HO]; · iexact HO
    isplitl [Hts11]; · iexact Hts11
    iexact Htr11
  iintro ⟨HcS, HO⟩
  iapply (BodyRoundOps.rwaitS m c c (11 : Fin 15) 12 rfl 2 1 h2_3 h1_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS12⟩
  iapply (BodyRoundOps.rwaitV m c c (11 : Fin 15) 12 rfl 2 1 h2_3 h1_5 rfl rfl (Cells.rvS_eq 2 1 h2_3 h1_5 inb_S3x5_S1x1_2_1) W) $$ [Hcr11 HO Hat19]
  · isplitr; · iexact HI19
    isplitr; · iexact Hlev
    isplitl [Hcr11]; · iexact Hcr11
    isplitl [HO]; · iexact HO
    iexact Hat19
  iintro ⟨⟨%fq11, Hq21, %hv11⟩, ⟨%W, HO⟩, Hat19⟩
  iapply (BodyRoundOps.rload c 2 1 h2_3 h1_5 rfl fq11) $$ Hq21
  iintro Hq21
  generalize hV11 : (recvM : Memref sig .tc .vmem S3x5x64x1024 .bf16).view.readAt (Elt F) _ fq11 = vq11
  have hvq11 : shapeCast S64x1024 vq11 shapeCasts_S1x1x64x1024_S64x1024 = sent (inp m) 2 1 (pr 1 c) := by rw [← hV11]; exact hv11
  rw [hvq11, show addWire (acc (inp m) 2 1 c) (sent (inp m) 2 1 (pr 1 c)) = acc (inp m) 2 2 c from rfl]
  -- round 12: layer 2, stage 2
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (12 : Fin 15) 13 rfl 2 2 h2_3 h2_5 rfl rfl (Mesh.dev18_eq c) Cells.sdS_eq (Cells.rvS_eq 2 2 h2_3 h2_5 inb_S3x5_S1x1_2_2) rfl (toWire (acc (inp m) 2 2 c)) rfl W) $$ [Hsend Hp22 HO Hts12 Htr12]
  · isplitr; · iexact HI7
    isplitr; · iexact HIr12
    isplitr; · iexact HrS12
    isplitr; · iexact Hrr12
    isplitl [Hsend]; · iexact Hsend
    isplitl [Hp22]; · iexact Hp22
    isplitl [HO]; · iexact HO
    isplitl [Hts12]; · iexact Hts12
    iexact Htr12
  iintro ⟨HcS, HO⟩
  iapply (BodyRoundOps.rwaitS m c c (12 : Fin 15) 13 rfl 2 2 h2_3 h2_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS13⟩
  iapply (BodyRoundOps.rwaitV m c c (12 : Fin 15) 13 rfl 2 2 h2_3 h2_5 rfl rfl (Cells.rvS_eq 2 2 h2_3 h2_5 inb_S3x5_S1x1_2_2) W) $$ [Hcr12 HO Hat20]
  · isplitr; · iexact HI20
    isplitr; · iexact Hlev
    isplitl [Hcr12]; · iexact Hcr12
    isplitl [HO]; · iexact HO
    iexact Hat20
  iintro ⟨⟨%fq12, Hq22, %hv12⟩, ⟨%W, HO⟩, Hat20⟩
  iapply (BodyRoundOps.rload c 2 2 h2_3 h2_5 rfl fq12) $$ Hq22
  iintro Hq22
  generalize hV12 : (recvM : Memref sig .tc .vmem S3x5x64x1024 .bf16).view.readAt (Elt F) _ fq12 = vq12
  have hvq12 : shapeCast S64x1024 vq12 shapeCasts_S1x1x64x1024_S64x1024 = sent (inp m) 2 2 (pr 2 c) := by rw [← hV12]; exact hv12
  rw [hvq12, show addWire (acc (inp m) 2 2 c) (sent (inp m) 2 2 (pr 2 c)) = acc (inp m) 2 3 c from rfl]
  -- round 13: layer 2, stage 3
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (13 : Fin 15) 14 rfl 2 3 h2_3 h3_5 rfl rfl (Mesh.dev19_eq c) Cells.sdS_eq (Cells.rvS_eq 2 3 h2_3 h3_5 inb_S3x5_S1x1_2_3) rfl (toWire (acc (inp m) 2 3 c)) rfl W) $$ [Hsend Hp23 HO Hts13 Htr13]
  · isplitr; · iexact HI7
    isplitr; · iexact HIr13
    isplitr; · iexact HrS13
    isplitr; · iexact Hrr13
    isplitl [Hsend]; · iexact Hsend
    isplitl [Hp23]; · iexact Hp23
    isplitl [HO]; · iexact HO
    isplitl [Hts13]; · iexact Hts13
    iexact Htr13
  iintro ⟨HcS, HO⟩
  iapply (BodyRoundOps.rwaitS m c c (13 : Fin 15) 14 rfl 2 3 h2_3 h3_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS14⟩
  iapply (BodyRoundOps.rwaitV m c c (13 : Fin 15) 14 rfl 2 3 h2_3 h3_5 rfl rfl (Cells.rvS_eq 2 3 h2_3 h3_5 inb_S3x5_S1x1_2_3) W) $$ [Hcr13 HO Hat21]
  · isplitr; · iexact HI21
    isplitr; · iexact Hlev
    isplitl [Hcr13]; · iexact Hcr13
    isplitl [HO]; · iexact HO
    iexact Hat21
  iintro ⟨⟨%fq13, Hq23, %hv13⟩, ⟨%W, HO⟩, Hat21⟩
  iapply (BodyRoundOps.rload c 2 3 h2_3 h3_5 rfl fq13) $$ Hq23
  iintro Hq23
  generalize hV13 : (recvM : Memref sig .tc .vmem S3x5x64x1024 .bf16).view.readAt (Elt F) _ fq13 = vq13
  have hvq13 : shapeCast S64x1024 vq13 shapeCasts_S1x1x64x1024_S64x1024 = sent (inp m) 2 3 (pr 3 c) := by rw [← hV13]; exact hv13
  rw [hvq13, show addWire (acc (inp m) 2 3 c) (sent (inp m) 2 3 (pr 3 c)) = acc (inp m) 2 4 c from rfl]
  -- round 14: layer 2, stage 4
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (14 : Fin 15) 15 rfl 2 4 h2_3 h4_5 rfl rfl (Mesh.dev20_eq c) Cells.sdS_eq (Cells.rvS_eq 2 4 h2_3 h4_5 inb_S3x5_S1x1_2_4) rfl (toWire (acc (inp m) 2 4 c)) rfl W) $$ [Hsend Hp24 HO Hts14 Htr14]
  · isplitr; · iexact HI7
    isplitr; · iexact HIr14
    isplitr; · iexact HrS14
    isplitr; · iexact Hrr14
    isplitl [Hsend]; · iexact Hsend
    isplitl [Hp24]; · iexact Hp24
    isplitl [HO]; · iexact HO
    isplitl [Hts14]; · iexact Hts14
    iexact Htr14
  iintro ⟨HcS, HO⟩
  iapply (BodyRoundOps.rwaitS m c c (14 : Fin 15) 15 rfl 2 4 h2_3 h4_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS15⟩
  iapply (BodyRoundOps.rwaitV m c c (14 : Fin 15) 15 rfl 2 4 h2_3 h4_5 rfl rfl (Cells.rvS_eq 2 4 h2_3 h4_5 inb_S3x5_S1x1_2_4) W) $$ [Hcr14 HO Hat22]
  · isplitr; · iexact HI22
    isplitr; · iexact Hlev
    isplitl [Hcr14]; · iexact Hcr14
    isplitl [HO]; · iexact HO
    iexact Hat22
  iintro ⟨⟨%fq14, Hq24, %hv14⟩, ⟨%W, HO⟩, Hat22⟩
  iapply (BodyRoundOps.rload c 2 4 h2_3 h4_5 rfl fq14) $$ Hq24
  iintro Hq24
  generalize hV14 : (recvM : Memref sig .tc .vmem S3x5x64x1024 .bf16).view.readAt (Elt F) _ fq14 = vq14
  have hvq14 : shapeCast S64x1024 vq14 shapeCasts_S1x1x64x1024_S64x1024 = sent (inp m) 2 4 (pr 4 c) := by rw [← hV14]; exact hv14
  rw [hvq14, show addWire (acc (inp m) 2 4 c) (sent (inp m) 2 4 (pr 4 c)) = acc (inp m) 2 5 c from rfl]
  -- the device owes nothing more
  ihave HO := (Entails.of_eq (congrArg (fun O => owes (c : Thread nD τ) O W) (Ghost.oweFrom_done c))) $$ HO
  -- the own cells close: their counters at zero are the device's again
  imod (Rounds.cell_close ER (Rd m) (g := cpCell c 0 0 h0_3 Nat.zero_lt_two) (Set.mem_univ (K (c, 1))) (fun h => h) (R := 1) (fun r hr => Tables.duties_cp_later m c 0 0 h0_3 Nat.zero_lt_two r hr)) $$ [Hat1] with Hz1
  · isplitr; · iexact HI1
    iexact Hat1
  imod (Rounds.cell_close ER (Rd m) (g := cpCell c 0 1 h0_3 Nat.one_lt_two) (Set.mem_univ (K (c, 2))) (fun h => h) (R := 1) (fun r hr => Tables.duties_cp_later m c 0 1 h0_3 Nat.one_lt_two r hr)) $$ [Hat2] with Hz2
  · isplitr; · iexact HI2
    iexact Hat2
  imod (Rounds.cell_close ER (Rd m) (g := cpCell c 1 0 h1_3 Nat.zero_lt_two) (Set.mem_univ (K (c, 3))) (fun h => h) (R := 1) (fun r hr => Tables.duties_cp_later m c 1 0 h1_3 Nat.zero_lt_two r hr)) $$ [Hat3] with Hz3
  · isplitr; · iexact HI3
    iexact Hat3
  imod (Rounds.cell_close ER (Rd m) (g := cpCell c 1 1 h1_3 Nat.one_lt_two) (Set.mem_univ (K (c, 4))) (fun h => h) (R := 1) (fun r hr => Tables.duties_cp_later m c 1 1 h1_3 Nat.one_lt_two r hr)) $$ [Hat4] with Hz4
  · isplitr; · iexact HI4
    iexact Hat4
  imod (Rounds.cell_close ER (Rd m) (g := cpCell c 2 0 h2_3 Nat.zero_lt_two) (Set.mem_univ (K (c, 5))) (fun h => h) (R := 1) (fun r hr => Tables.duties_cp_later m c 2 0 h2_3 Nat.zero_lt_two r hr)) $$ [Hat5] with Hz5
  · isplitr; · iexact HI5
    iexact Hat5
  imod (Rounds.cell_close ER (Rd m) (g := cpCell c 2 1 h2_3 Nat.one_lt_two) (Set.mem_univ (K (c, 6))) (fun h => h) (R := 1) (fun r hr => Tables.duties_cp_later m c 2 1 h2_3 Nat.one_lt_two r hr)) $$ [Hat6] with Hz6
  · isplitr; · iexact HI6
    iexact Hat6
  imod (Rounds.cell_close ER (Rd m) (g := sdCell c) (Set.mem_univ (K (c, 7))) (fun h => h) (R := 15) (fun r hr => Tables.duties_sd_later m c r hr)) $$ [Hat7] with Hz7
  · isplitr; · iexact HI7
    iexact Hat7
  imod (Rounds.cell_close ER (Rd m) (g := rvCell c 0 0 h0_3 h0_5) (Set.mem_univ (K (c, 8))) (fun h => h) (R := 1) (fun r hr => Tables.duties_rv_later m c 0 0 h0_3 h0_5 r hr)) $$ [Hat8] with Hz8
  · isplitr; · iexact HI8
    iexact Hat8
  imod (Rounds.cell_close ER (Rd m) (g := rvCell c 0 1 h0_3 h1_5) (Set.mem_univ (K (c, 9))) (fun h => h) (R := 1) (fun r hr => Tables.duties_rv_later m c 0 1 h0_3 h1_5 r hr)) $$ [Hat9] with Hz9
  · isplitr; · iexact HI9
    iexact Hat9
  imod (Rounds.cell_close ER (Rd m) (g := rvCell c 0 2 h0_3 h2_5) (Set.mem_univ (K (c, 10))) (fun h => h) (R := 1) (fun r hr => Tables.duties_rv_later m c 0 2 h0_3 h2_5 r hr)) $$ [Hat10] with Hz10
  · isplitr; · iexact HI10
    iexact Hat10
  imod (Rounds.cell_close ER (Rd m) (g := rvCell c 0 3 h0_3 h3_5) (Set.mem_univ (K (c, 11))) (fun h => h) (R := 1) (fun r hr => Tables.duties_rv_later m c 0 3 h0_3 h3_5 r hr)) $$ [Hat11] with Hz11
  · isplitr; · iexact HI11
    iexact Hat11
  imod (Rounds.cell_close ER (Rd m) (g := rvCell c 0 4 h0_3 h4_5) (Set.mem_univ (K (c, 12))) (fun h => h) (R := 1) (fun r hr => Tables.duties_rv_later m c 0 4 h0_3 h4_5 r hr)) $$ [Hat12] with Hz12
  · isplitr; · iexact HI12
    iexact Hat12
  imod (Rounds.cell_close ER (Rd m) (g := rvCell c 1 0 h1_3 h0_5) (Set.mem_univ (K (c, 13))) (fun h => h) (R := 1) (fun r hr => Tables.duties_rv_later m c 1 0 h1_3 h0_5 r hr)) $$ [Hat13] with Hz13
  · isplitr; · iexact HI13
    iexact Hat13
  imod (Rounds.cell_close ER (Rd m) (g := rvCell c 1 1 h1_3 h1_5) (Set.mem_univ (K (c, 14))) (fun h => h) (R := 1) (fun r hr => Tables.duties_rv_later m c 1 1 h1_3 h1_5 r hr)) $$ [Hat14] with Hz14
  · isplitr; · iexact HI14
    iexact Hat14
  imod (Rounds.cell_close ER (Rd m) (g := rvCell c 1 2 h1_3 h2_5) (Set.mem_univ (K (c, 15))) (fun h => h) (R := 1) (fun r hr => Tables.duties_rv_later m c 1 2 h1_3 h2_5 r hr)) $$ [Hat15] with Hz15
  · isplitr; · iexact HI15
    iexact Hat15
  imod (Rounds.cell_close ER (Rd m) (g := rvCell c 1 3 h1_3 h3_5) (Set.mem_univ (K (c, 16))) (fun h => h) (R := 1) (fun r hr => Tables.duties_rv_later m c 1 3 h1_3 h3_5 r hr)) $$ [Hat16] with Hz16
  · isplitr; · iexact HI16
    iexact Hat16
  imod (Rounds.cell_close ER (Rd m) (g := rvCell c 1 4 h1_3 h4_5) (Set.mem_univ (K (c, 17))) (fun h => h) (R := 1) (fun r hr => Tables.duties_rv_later m c 1 4 h1_3 h4_5 r hr)) $$ [Hat17] with Hz17
  · isplitr; · iexact HI17
    iexact Hat17
  imod (Rounds.cell_close ER (Rd m) (g := rvCell c 2 0 h2_3 h0_5) (Set.mem_univ (K (c, 18))) (fun h => h) (R := 1) (fun r hr => Tables.duties_rv_later m c 2 0 h2_3 h0_5 r hr)) $$ [Hat18] with Hz18
  · isplitr; · iexact HI18
    iexact Hat18
  imod (Rounds.cell_close ER (Rd m) (g := rvCell c 2 1 h2_3 h1_5) (Set.mem_univ (K (c, 19))) (fun h => h) (R := 1) (fun r hr => Tables.duties_rv_later m c 2 1 h2_3 h1_5 r hr)) $$ [Hat19] with Hz19
  · isplitr; · iexact HI19
    iexact Hat19
  imod (Rounds.cell_close ER (Rd m) (g := rvCell c 2 2 h2_3 h2_5) (Set.mem_univ (K (c, 20))) (fun h => h) (R := 1) (fun r hr => Tables.duties_rv_later m c 2 2 h2_3 h2_5 r hr)) $$ [Hat20] with Hz20
  · isplitr; · iexact HI20
    iexact Hat20
  imod (Rounds.cell_close ER (Rd m) (g := rvCell c 2 3 h2_3 h3_5) (Set.mem_univ (K (c, 21))) (fun h => h) (R := 1) (fun r hr => Tables.duties_rv_later m c 2 3 h2_3 h3_5 r hr)) $$ [Hat21] with Hz21
  · isplitr; · iexact HI21
    iexact Hat21
  imod (Rounds.cell_close ER (Rd m) (g := rvCell c 2 4 h2_3 h4_5) (Set.mem_univ (K (c, 22))) (fun h => h) (R := 1) (fun r hr => Tables.duties_rv_later m c 2 4 h2_3 h4_5 r hr)) $$ [Hat22] with Hz22
  · isplitr; · iexact HI22
    iexact Hat22
  -- the result stored
  iapply (wp_load 𝒱₀ (c : Thread nD τ) none Set.univ (m := oM) (Finset.subset_univ _)) $$ Hout; iintro Hout
  iapply (wp_store 𝒱₀ (c : Thread nD τ) none Set.univ (m := oM) (r := MemLemmas.r0) (Mk := Finset.univ) (Finset.subset_univ _)) $$ Hout; iintro Hout
  rw [MemLemmas.oM_store, wp_ret]; imodintro
  iapply Hk
  unfold bodyPost Φ₁ Dat.owesAt Pipeline.owesWithin scratch hbmArgs
  rw [show (dats m ρ 0 c).owed t₀.succ = 0 from rfl]
  simp only [bigSep22]
  isplitl [Hw1v2 Hw1v1 Hw2v2 Hw2v1 Hsend Hq00 Hq01 Hq02 Hq03 Hq04 Hq10 Hq11 Hq12 Hq13 Hq14 Hq20 Hq21 Hq22 Hq23 Hq24 Hz1 Hz2 Hz3 Hz4 Hz5 Hz6 Hz7 Hz8 Hz9 Hz10 Hz11 Hz12 Hz13 Hz14 Hz15 Hz16 Hz17 Hz18 Hz19 Hz20 Hz21 Hz22 Hha0 Hhb0 Hha1 Hhb1 Hha2 Hhb2]
  · isplitl [Hw1v2 Hw1v1 Hw2v2 Hw2v1 Hsend Hq00 Hq01 Hq02 Hq03 Hq04 Hq10 Hq11 Hq12 Hq13 Hq14 Hq20 Hq21 Hq22 Hq23 Hq24]
    · isplitl [Hw1v2 Hw1v1]
      · iapply (MemLemmas.win_join_ex c)
        isplitl [Hw1v2]; · iexists _; iexact Hw1v2
        iexists _; iexact Hw1v1
      isplitl [Hw2v2 Hw2v1]
      · iapply (MemLemmas.wout_join_ex c)
        isplitl [Hw2v2]; · iexists _; iexact Hw2v2
        iexists _; iexact Hw2v1
      isplitl [Hsend]
      · iexists _
        ihave Hs := (Entails.of_eq (sendPts_eq c _)) $$ Hsend
        iexact Hs
      iapply (MemLemmas.recv_join_ex_chain c fr)
      isplitl [Hq00]; · iexists _; iexact Hq00
      isplitl [Hq01]; · iexists _; iexact Hq01
      isplitl [Hq02]; · iexists _; iexact Hq02
      isplitl [Hq03]; · iexists _; iexact Hq03
      isplitl [Hq04]; · iexists _; iexact Hq04
      isplitl [Hq10]; · iexists _; iexact Hq10
      isplitl [Hq11]; · iexists _; iexact Hq11
      isplitl [Hq12]; · iexists _; iexact Hq12
      isplitl [Hq13]; · iexists _; iexact Hq13
      isplitl [Hq14]; · iexists _; iexact Hq14
      isplitl [Hq20]; · iexists _; iexact Hq20
      isplitl [Hq21]; · iexists _; iexact Hq21
      isplitl [Hq22]; · iexists _; iexact Hq22
      isplitl [Hq23]; · iexists _; iexact Hq23
      iexists _; iexact Hq24
    isplitl [Hz1 Hz2 Hz3 Hz4 Hz5 Hz6 Hz7 Hz8 Hz9 Hz10 Hz11 Hz12 Hz13 Hz14 Hz15 Hz16 Hz17 Hz18 Hz19 Hz20 Hz21 Hz22]
    · isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      isplitl [Hz9]; · iexact Hz9
      isplitl [Hz10]; · iexact Hz10
      isplitl [Hz11]; · iexact Hz11
      isplitl [Hz12]; · iexact Hz12
      isplitl [Hz13]; · iexact Hz13
      isplitl [Hz14]; · iexact Hz14
      isplitl [Hz15]; · iexact Hz15
      isplitl [Hz16]; · iexact Hz16
      isplitl [Hz17]; · iexact Hz17
      isplitl [Hz18]; · iexact Hz18
      isplitl [Hz19]; · iexact Hz19
      isplitl [Hz20]; · iexact Hz20
      isplitl [Hz21]; · iexact Hz21
      iexact Hz22
    · isplitl [Hha0]; · iexact Hha0
      isplitl [Hhb0]; · iexact Hhb0
      isplitl [Hha1]; · iexact Hha1
      isplitl [Hhb1]; · iexact Hhb1
      isplitl [Hha2]; · iexact Hha2
      iexact Hhb2
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

#print axioms sound_body

end Cert.KernelIdeal.Body

end
-- ==== Proof.Body.lean ====
import proofs.«900580_g7700000000000581_dist_mlpseq_tp1d_rep_rep_b64_d1024_h2048_v7x_i32_f32_1_alg».proof.Proof.BodySound

/-!
# The body obligation

The library's obligation for one thread's kernel body at its one point, from the body's own statement: the
obligation's precondition is named, opened at the names of the cells' invariants, and handed to the body piece by
piece; the body's postcondition is the obligation's.
-/

noncomputable section

namespace Cert.KernelIdeal.Body

open Cert.KernelIdeal Cert.KernelIdeal.Gen Cert.KernelIdeal.Mesh Cert.KernelIdeal.Spec Cert.KernelIdeal.Cells Cert.KernelIdeal.Schedule Cert.KernelIdeal.Ghost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536 in
/-- What the body obligation hands a thread at its one point. -/
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in
/-- The library's body obligation on device c. -/
theorem body_obligation (c : Dev nD) : BodyObligation (Ghost.dats (F := F) m ρ 0 c) (defs₀ (F := F)) Ghost.𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6) (fun _ => bodyPost m ρ c)
  unfold bodyPre' Φ₀ start
  iintro ⟨⟨⟨⟨%K, Hg⟩, Hc, Hl, Hh⟩, Hscr⟩, Ho, Hx, Hout⟩
  iapply (sound_body m ρ K c fun _ => bodyPost m ρ c)
  unfold bodyPre
  isplitr []
  · isplitl [Hg Hc Hl Hh Hscr]
    · isplitl [Hg]; · iexact Hg
      isplitl [Hc]; · iexact Hc
      isplitl [Hl]; · iexact Hl
      isplitl [Hh]; · iexact Hh
      iexact Hscr
    isplitl [Ho]; · iexact Ho
    isplitl [Hx]; · iexact Hx
    iexact Hout
  · iintro H; iexact H

#print axioms body_obligation

end Cert.KernelIdeal.Body

end
-- ==== Proof.Bits.MemLemmas.lean ====
import proofs.«900580_g7700000000000581_dist_mlpseq_tp1d_rep_rep_b64_d1024_h2048_v7x_i32_f32_1_alg».proof.Proof.Bits.Cells

/-!
# Memory lemmas for the slots of the weight and receive buffers

What a load through the whole buffer at a slot's rectangle reads after a transfer has landed in the slot; that a
whole-buffer store replaces the contents; that the whole buffer's points-to splits into its slots' and joins back;
that a slot's transfer credit does not depend on the slot.
-/

noncomputable section

namespace Cert.Kernel.MemLemmas

open Cert.Kernel Cert.Kernel.Gen Cert.Kernel.Mesh Cert.Kernel.Spec Cert.Kernel.Cells

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Reading a slot after a transfer has landed in it -/

/-- The rectangle of the receive buffer a load of slot `(l, k)` reads. -/
abbrev rRect (l k : ℕ) (hl : l < 3) (hk : k < 5) : Rect S3x5x64x1024 :=
  Rect.unit (s := S3x5x64x1024) ![l, k, 0, 0] S1x1x64x1024.size (inbR l k hl hk)
abbrev w1Rect (s : ℕ) (hs : s < 2) : Rect S2x1024x2048 :=
  Rect.unit (s := S2x1024x2048) ![s, 0, 0] S1x1024x2048.size (inbW1 s hs)
abbrev w2Rect (s : ℕ) (hs : s < 2) : Rect S2x2048x1024 :=
  Rect.unit (s := S2x2048x1024) ![s, 0, 0] S1x2048x1024.size (inbW2 s hs)

/-- What a load of receive slot `(l, k)` through the whole receive buffer returns, shape-cast to the slot's shape. -/
def slotVal (l k : ℕ) (hl : l < 3) (hk : k < 5) (f : (cc0_scratch3 : Ref sig .tc).ty.Contents (Elt F)) : FVec F S64x1024 .bf16 :=
  shapeCast S64x1024 (recvM.view.readAt (Elt F) (rRect l k hl hk).toLoadRect f) shapeCasts_S1x1x64x1024_S64x1024
def w1Val (s : ℕ) (hs : s < 2) (f : (cc0_scratch0 : Ref sig .tc).ty.Contents (Elt F)) : FVec F S1024x2048 .f32 :=
  shapeCast S1024x2048 (winM.view.readAt (Elt F) (w1Rect s hs).toLoadRect f) shapeCasts_S1x1024x2048_S1024x2048
def w2Val (s : ℕ) (hs : s < 2) (f : (cc0_scratch1 : Ref sig .tc).ty.Contents (Elt F)) : FVec F S2048x1024 .f32 :=
  shapeCast S2048x1024 (woutM.view.readAt (Elt F) (w2Rect s hs).toLoadRect f) shapeCasts_S1x2048x1024_S2048x1024

/-- The load's value is what the slot's own view reads. -/
theorem slotVal_eq_read (l k : ℕ) (hl : l < 3) (hk : k < 5) (f : (cc0_scratch3 : Ref sig .tc).ty.Contents (Elt F)) :
    slotVal l k hl hk f = (rSlot l k hl hk).view.read (Elt F) f := rfl
theorem w1Val_eq_read (s : ℕ) (hs : s < 2) (f : (cc0_scratch0 : Ref sig .tc).ty.Contents (Elt F)) :
    w1Val s hs f = (w1Slot s hs).view.read (Elt F) f := rfl
theorem w2Val_eq_read (s : ℕ) (hs : s < 2) (f : (cc0_scratch1 : Ref sig .tc).ty.Contents (Elt F)) :
    w2Val s hs f = (w2Slot s hs).view.read (Elt F) f := rfl

/-- After any vector `w` is written through the slot on every index, the load returns `w`. -/
theorem slotVal_write (l k : ℕ) (hl : l < 3) (hk : k < 5) (fd : (cc0_scratch3 : Ref sig .tc).ty.Contents (Elt F))
    (w : FVec F S64x1024 .bf16) :
    slotVal l k hl hk ((rSlot l k hl hk).view.write (Elt F) fd w Finset.univ) = w :=
  View.read_write_univ (v := (rSlot l k hl hk).view) fd w
theorem w1Val_write (s : ℕ) (hs : s < 2) (fd : (cc0_scratch0 : Ref sig .tc).ty.Contents (Elt F)) (w : FVec F S1024x2048 .f32) :
    w1Val s hs ((w1Slot s hs).view.write (Elt F) fd w Finset.univ) = w :=
  View.read_write_univ (v := (w1Slot s hs).view) fd w
theorem w2Val_write (s : ℕ) (hs : s < 2) (fd : (cc0_scratch1 : Ref sig .tc).ty.Contents (Elt F)) (w : FVec F S2048x1024 .f32) :
    w2Val s hs ((w2Slot s hs).view.write (Elt F) fd w Finset.univ) = w :=
  View.read_write_univ (v := (w2Slot s hs).view) fd w

/-- READ AFTER LANDING, receive slot: the contents a transfer from a whole send buffer holding `fs` leaves. -/
theorem slotVal_landed (c c' : Dev nD) (l k : ℕ) (hl : l < 3) (hk : k < 5)
    (fd : Buf (Elt F) ((rSlot l k hl hk).view.loc (c : Thread nD τ))) (fs : Buf (Elt F) (sendM.view.loc (c' : Thread nD τ))) :
    slotVal l k hl hk ((rSlot l k hl hk).view.write (Elt F) fd (sendM.view.read (Elt F) fs) Finset.univ) = fs :=
  slotVal_write l k hl hk fd fs

/-- The same with the load spelt out. -/
theorem read_landed (c c' : Dev nD) (l k : ℕ) (hl : l < 3) (hk : k < 5)
    (fd : Buf (Elt F) ((rSlot l k hl hk).view.loc (c : Thread nD τ))) (fs : Buf (Elt F) (sendM.view.loc (c' : Thread nD τ))) :
    shapeCast S64x1024 (recvM.view.readAt (Elt F) (Rect.unit (s := S3x5x64x1024) ![l, k, 0, 0] S1x1x64x1024.size (inbR l k hl hk)).toLoadRect
      ((rSlot l k hl hk).view.write (Elt F) fd (sendM.view.read (Elt F) fs) Finset.univ)) shapeCasts_S1x1x64x1024_S64x1024 = fs :=
  slotVal_write l k hl hk fd fs

/-- READ AFTER LANDING, weight slots: the source any memref of the slot's shape, read at any contents
    (a whole HBM array reads as its contents, `View.read_whole`). -/
theorem w1Val_landed {sp : Space} (c : Dev nD) (s : ℕ) (hs : s < 2) (src : Memref sig .tc sp S1024x2048 .f32)
    (fd : Buf (Elt F) ((w1Slot s hs).view.loc (c : Thread nD τ))) (fs : Buf (Elt F) (src.view.loc (c : Thread nD τ))) :
    w1Val s hs ((w1Slot s hs).view.write (Elt F) fd (src.view.read (Elt F) fs) Finset.univ) = src.view.read (Elt F) fs :=
  w1Val_write s hs fd _
theorem w2Val_landed {sp : Space} (c : Dev nD) (s : ℕ) (hs : s < 2) (src : Memref sig .tc sp S2048x1024 .f32)
    (fd : Buf (Elt F) ((w2Slot s hs).view.loc (c : Thread nD τ))) (fs : Buf (Elt F) (src.view.loc (c : Thread nD τ))) :
    w2Val s hs ((w2Slot s hs).view.write (Elt F) fd (src.view.read (Elt F) fs) Finset.univ) = src.view.read (Elt F) fs :=
  w2Val_write s hs fd _

/-- At the three first-weight arrays and the three second-weight arrays the source reads as its contents. -/
theorem w1Val_landed_arg1 (c : Dev nD) (s : ℕ) (hs : s < 2) (fd : Buf (Elt F) ((w1Slot s hs).view.loc (c : Thread nD τ)))
    (fs : Buf (Elt F) ((c : Thread nD τ).loc main_arg1)) :
    w1Val s hs ((w1Slot s hs).view.write (Elt F) fd ((Memref.whole main_arg1 : Memref sig .tc _ _ _).view.read (Elt F) fs) Finset.univ) = fs :=
  w1Val_write s hs fd _
theorem w1Val_landed_arg3 (c : Dev nD) (s : ℕ) (hs : s < 2) (fd : Buf (Elt F) ((w1Slot s hs).view.loc (c : Thread nD τ)))
    (fs : Buf (Elt F) ((c : Thread nD τ).loc main_arg3)) :
    w1Val s hs ((w1Slot s hs).view.write (Elt F) fd ((Memref.whole main_arg3 : Memref sig .tc _ _ _).view.read (Elt F) fs) Finset.univ) = fs :=
  w1Val_write s hs fd _
theorem w1Val_landed_arg5 (c : Dev nD) (s : ℕ) (hs : s < 2) (fd : Buf (Elt F) ((w1Slot s hs).view.loc (c : Thread nD τ)))
    (fs : Buf (Elt F) ((c : Thread nD τ).loc main_arg5)) :
    w1Val s hs ((w1Slot s hs).view.write (Elt F) fd ((Memref.whole main_arg5 : Memref sig .tc _ _ _).view.read (Elt F) fs) Finset.univ) = fs :=
  w1Val_write s hs fd _
theorem w2Val_landed_arg2 (c : Dev nD) (s : ℕ) (hs : s < 2) (fd : Buf (Elt F) ((w2Slot s hs).view.loc (c : Thread nD τ)))
    (fs : Buf (Elt F) ((c : Thread nD τ).loc main_arg2)) :
    w2Val s hs ((w2Slot s hs).view.write (Elt F) fd ((Memref.whole main_arg2 : Memref sig .tc _ _ _).view.read (Elt F) fs) Finset.univ) = fs :=
  w2Val_write s hs fd _
theorem w2Val_landed_arg4 (c : Dev nD) (s : ℕ) (hs : s < 2) (fd : Buf (Elt F) ((w2Slot s hs).view.loc (c : Thread nD τ)))
    (fs : Buf (Elt F) ((c : Thread nD τ).loc main_arg4)) :
    w2Val s hs ((w2Slot s hs).view.write (Elt F) fd ((Memref.whole main_arg4 : Memref sig .tc _ _ _).view.read (Elt F) fs) Finset.univ) = fs :=
  w2Val_write s hs fd _
theorem w2Val_landed_arg6 (c : Dev nD) (s : ℕ) (hs : s < 2) (fd : Buf (Elt F) ((w2Slot s hs).view.loc (c : Thread nD τ)))
    (fs : Buf (Elt F) ((c : Thread nD τ).loc main_arg6)) :
    w2Val s hs ((w2Slot s hs).view.write (Elt F) fd ((Memref.whole main_arg6 : Memref sig .tc _ _ _).view.read (Elt F) fs) Finset.univ) = fs :=
  w2Val_write s hs fd _

/-! ## Whole-buffer loads and stores -/

theorem zero2 : (![0, 0] : Fin 2 → ℕ) = fun _ => 0 := by funext a; fin_cases a <;> rfl

/-- The rectangle of a `64 × 1024` buffer at zero offsets and full sizes: the whole buffer. -/
abbrev r0 : Rect S64x1024 := Rect.unit (s := S64x1024) ![0, 0] S64x1024.size inb_S64x1024_S64x1024_0_0

theorem sendM_store (f w : (cc0_scratch2 : Ref sig .tc).ty.Contents (Elt F)) :
    ((sendM : Memref sig .tc .vmem S64x1024 .bf16).access r0 : View sig .tc _ _ _).write (Elt F) f w Finset.univ = w :=
  Memref.write_access_unit_zero_univ (Elt F) cc0_scratch2 zero2 _ f w
theorem sendM_read (f : (cc0_scratch2 : Ref sig .tc).ty.Contents (Elt F)) :
    (sendM : Memref sig .tc .vmem S64x1024 .bf16).view.read (Elt F) f = f := rfl
theorem sendM_readAt (f : (cc0_scratch2 : Ref sig .tc).ty.Contents (Elt F)) :
    (sendM : Memref sig .tc .vmem S64x1024 .bf16).view.readAt (Elt F) r0.toLoadRect f = f :=
  Memref.readAt_unit_zero (Elt F) cc0_scratch2 zero2 _ f

theorem xM_store (f w : (cc0_stg0_0 : Ref sig .tc).ty.Contents (Elt F)) :
    ((xM : Memref sig .tc .vmem S64x1024 .f32).access r0 : View sig .tc _ _ _).write (Elt F) f w Finset.univ = w :=
  Memref.write_access_unit_zero_univ (Elt F) cc0_stg0_0 zero2 _ f w
theorem xM_read (f : (cc0_stg0_0 : Ref sig .tc).ty.Contents (Elt F)) :
    (xM : Memref sig .tc .vmem S64x1024 .f32).view.read (Elt F) f = f := rfl
theorem xM_readAt (f : (cc0_stg0_0 : Ref sig .tc).ty.Contents (Elt F)) :
    (xM : Memref sig .tc .vmem S64x1024 .f32).view.readAt (Elt F) r0.toLoadRect f = f :=
  Memref.readAt_unit_zero (Elt F) cc0_stg0_0 zero2 _ f

theorem oM_store (f w : (cc0_stg1_0 : Ref sig .tc).ty.Contents (Elt F)) :
    ((oM : Memref sig .tc .vmem S64x1024 .f32).access r0 : View sig .tc _ _ _).write (Elt F) f w Finset.univ = w :=
  Memref.write_access_unit_zero_univ (Elt F) cc0_stg1_0 zero2 _ f w
theorem oM_read (f : (cc0_stg1_0 : Ref sig .tc).ty.Contents (Elt F)) :
    (oM : Memref sig .tc .vmem S64x1024 .f32).view.read (Elt F) f = f := rfl
theorem oM_readAt (f : (cc0_stg1_0 : Ref sig .tc).ty.Contents (Elt F)) :
    (oM : Memref sig .tc .vmem S64x1024 .f32).view.readAt (Elt F) r0.toLoadRect f = f :=
  Memref.readAt_unit_zero (Elt F) cc0_stg1_0 zero2 _ f

/-- The whole buffers' element sets are everything. -/
theorem sendM_set : (sendM : Memref sig .tc .vmem S64x1024 .bf16).view.set = Finset.univ := View.set_whole _
theorem xM_set : (xM : Memref sig .tc .vmem S64x1024 .f32).view.set = Finset.univ := View.set_whole _
theorem oM_set : (oM : Memref sig .tc .vmem S64x1024 .f32).view.set = Finset.univ := View.set_whole _

/-! ## Transfer credits -/

/-- What a transfer into a receive slot, a first-weight slot, a second-weight slot credits its semaphore. -/
def NR : ℕ := (rSlot 0 0 (by decide) (by decide)).view.dmaCredit
def NW1 : ℕ := (w1Slot 0 (by decide)).view.dmaCredit
def NW2 : ℕ := (w2Slot 0 (by decide)).view.dmaCredit

theorem rSlot_dmaCredit (l k : ℕ) (hl : l < 3) (hk : k < 5) : (rSlot l k hl hk).view.dmaCredit = NR := rfl
theorem w1Slot_dmaCredit (s : ℕ) (hs : s < 2) : (w1Slot s hs).view.dmaCredit = NW1 := rfl
theorem w2Slot_dmaCredit (s : ℕ) (hs : s < 2) : (w2Slot s hs).view.dmaCredit = NW2 := rfl

theorem rSlot_amount (l k : ℕ) (hl : l < 3) (hk : k < 5) (sm : DmaSem sig) : (rSlot l k hl hk).view.amount (.dma sm) = NR := rfl
theorem w1Slot_amount (s : ℕ) (hs : s < 2) (sm : DmaSem sig) : (w1Slot s hs).view.amount (.dma sm) = NW1 := rfl
theorem w2Slot_amount (s : ℕ) (hs : s < 2) (sm : DmaSem sig) : (w2Slot s hs).view.amount (.dma sm) = NW2 := rfl

theorem NR_pos : 0 < NR := View.dmaCredit_pos (v := (rSlot 0 0 (by decide) (by decide)).view) h_S64x1024
theorem NW1_pos : 0 < NW1 := View.dmaCredit_pos (v := (w1Slot 0 (by decide)).view) (by decide)
theorem NW2_pos : 0 < NW2 := View.dmaCredit_pos (v := (w2Slot 0 (by decide)).view) (by decide)

/-! ## Splitting the buffers into their slots and joining them back -/

/-- The elements of a slot, as a set of the whole buffer's indices. -/
def rSlotSet (l k : ℕ) (hl : l < 3) (hk : k < 5) : Finset S3x5x64x1024.Idx := (rSlot l k hl hk).view.set
def w1SlotSet (s : ℕ) (hs : s < 2) : Finset S2x1024x2048.Idx := (w1Slot s hs).view.set
def w2SlotSet (s : ℕ) (hs : s < 2) : Finset S2x2048x1024.Idx := (w2Slot s hs).view.set

/-- A slot's elements are those of its rectangle. -/
theorem rSlotSet_eq (l k : ℕ) (hl : l < 3) (hk : k < 5) : rSlotSet l k hl hk = (rRect l k hl hk).set :=
  (View.set_reshape _ _).trans (View.set_slice_whole cc0_scratch3 _)
theorem w1SlotSet_eq (s : ℕ) (hs : s < 2) : w1SlotSet s hs = (w1Rect s hs).set :=
  (View.set_reshape _ _).trans (View.set_slice_whole cc0_scratch0 _)
theorem w2SlotSet_eq (s : ℕ) (hs : s < 2) : w2SlotSet s hs = (w2Rect s hs).set :=
  (View.set_reshape _ _).trans (View.set_slice_whole cc0_scratch1 _)

/-- Membership in a slot: the leading coordinates are the slot's. -/
theorem mem_rSlotSet (l k : ℕ) (hl : l < 3) (hk : k < 5) (i : S3x5x64x1024.Idx) :
    i ∈ rSlotSet l k hl hk ↔ (i 0 : ℕ) = l ∧ (i 1 : ℕ) = k := by
  rw [rSlotSet_eq]
  refine Rect.mem_set_unit.trans ?_
  constructor
  · intro h
    have h0 : l ≤ (i 0 : ℕ) ∧ (i 0 : ℕ) < l + 1 := h 0
    have h1 : k ≤ (i 1 : ℕ) ∧ (i 1 : ℕ) < k + 1 := h 1
    exact ⟨by omega, by omega⟩
  · rintro ⟨h0, h1⟩ a
    match a with
    | ⟨0, _⟩ => show l ≤ (i 0 : ℕ) ∧ (i 0 : ℕ) < l + 1; omega
    | ⟨1, _⟩ => show k ≤ (i 1 : ℕ) ∧ (i 1 : ℕ) < k + 1; omega
    | ⟨2, _⟩ => exact ⟨Nat.zero_le _, by show (i 2 : ℕ) < 0 + 64; have : (i 2 : ℕ) < 64 := (i 2).isLt; omega⟩
    | ⟨3, _⟩ => exact ⟨Nat.zero_le _, by show (i 3 : ℕ) < 0 + 1024; have : (i 3 : ℕ) < 1024 := (i 3).isLt; omega⟩
theorem mem_w1SlotSet (s : ℕ) (hs : s < 2) (i : S2x1024x2048.Idx) : i ∈ w1SlotSet s hs ↔ (i 0 : ℕ) = s := by
  rw [w1SlotSet_eq]
  refine Rect.mem_set_unit.trans ?_
  constructor
  · intro h
    have h0 : s ≤ (i 0 : ℕ) ∧ (i 0 : ℕ) < s + 1 := h 0
    omega
  · intro h0 a
    match a with
    | ⟨0, _⟩ => show s ≤ (i 0 : ℕ) ∧ (i 0 : ℕ) < s + 1; omega
    | ⟨1, _⟩ => exact ⟨Nat.zero_le _, by show (i 1 : ℕ) < 0 + 1024; have : (i 1 : ℕ) < 1024 := (i 1).isLt; omega⟩
    | ⟨2, _⟩ => exact ⟨Nat.zero_le _, by show (i 2 : ℕ) < 0 + 2048; have : (i 2 : ℕ) < 2048 := (i 2).isLt; omega⟩
theorem mem_w2SlotSet (s : ℕ) (hs : s < 2) (i : S2x2048x1024.Idx) : i ∈ w2SlotSet s hs ↔ (i 0 : ℕ) = s := by
  rw [w2SlotSet_eq]
  refine Rect.mem_set_unit.trans ?_
  constructor
  · intro h
    have h0 : s ≤ (i 0 : ℕ) ∧ (i 0 : ℕ) < s + 1 := h 0
    omega
  · intro h0 a
    match a with
    | ⟨0, _⟩ => show s ≤ (i 0 : ℕ) ∧ (i 0 : ℕ) < s + 1; omega
    | ⟨1, _⟩ => exact ⟨Nat.zero_le _, by show (i 1 : ℕ) < 0 + 2048; have : (i 1 : ℕ) < 2048 := (i 1).isLt; omega⟩
    | ⟨2, _⟩ => exact ⟨Nat.zero_le _, by show (i 2 : ℕ) < 0 + 1024; have : (i 2 : ℕ) < 1024 := (i 2).isLt; omega⟩

/-- Different slots share no element. -/
theorem rSlotSet_disjoint (l k l' k' : ℕ) (hl : l < 3) (hk : k < 5) (hl' : l' < 3) (hk' : k' < 5) (h : l ≠ l' ∨ k ≠ k') :
    Disjoint (rSlotSet l k hl hk) (rSlotSet l' k' hl' hk') := by
  rw [Finset.disjoint_left]
  intro i hi hi'
  rw [mem_rSlotSet] at hi hi'
  omega
theorem w1SlotSet_disjoint (s s' : ℕ) (hs : s < 2) (hs' : s' < 2) (h : s ≠ s') : Disjoint (w1SlotSet s hs) (w1SlotSet s' hs') := by
  rw [Finset.disjoint_left]
  intro i hi hi'
  rw [mem_w1SlotSet] at hi hi'
  omega
theorem w2SlotSet_disjoint (s s' : ℕ) (hs : s < 2) (hs' : s' < 2) (h : s ≠ s') : Disjoint (w2SlotSet s hs) (w2SlotSet s' hs') := by
  rw [Finset.disjoint_left]
  intro i hi hi'
  rw [mem_w2SlotSet] at hi hi'
  omega

/-- The slots' element sets, indexed by the slot. -/
def rSet (t : Fin 3 × Fin 5) : Finset S3x5x64x1024.Idx := rSlotSet t.1 t.2 t.1.isLt t.2.isLt
def w1Set (s : Fin 2) : Finset S2x1024x2048.Idx := w1SlotSet s s.isLt
def w2Set (s : Fin 2) : Finset S2x2048x1024.Idx := w2SlotSet s s.isLt

theorem rSet_disjoint (t t' : Fin 3 × Fin 5) (h : t ≠ t') : Disjoint (rSet t) (rSet t') := by
  apply rSlotSet_disjoint
  by_contra hc
  rw [not_or, not_not, not_not] at hc
  exact h (Prod.ext (Fin.ext hc.1) (Fin.ext hc.2))
theorem w1Set_disjoint (s s' : Fin 2) (h : s ≠ s') : Disjoint (w1Set s) (w1Set s') :=
  w1SlotSet_disjoint _ _ _ _ fun e => h (Fin.ext e)
theorem w2Set_disjoint (s s' : Fin 2) (h : s ≠ s') : Disjoint (w2Set s) (w2Set s') :=
  w2SlotSet_disjoint _ _ _ _ fun e => h (Fin.ext e)

/-- The slots cover their buffer. -/
theorem rSet_cover : (Finset.univ : Finset (Fin 3 × Fin 5)).biUnion rSet = Finset.univ := by
  ext i
  simp only [Finset.mem_biUnion, Finset.mem_univ, true_and, iff_true]
  exact ⟨(⟨(i 0 : ℕ), (i 0).isLt⟩, ⟨(i 1 : ℕ), (i 1).isLt⟩), (mem_rSlotSet _ _ _ _ i).mpr ⟨rfl, rfl⟩⟩
theorem w1Set_cover : (Finset.univ : Finset (Fin 2)).biUnion w1Set = Finset.univ := by
  ext i
  simp only [Finset.mem_biUnion, Finset.mem_univ, true_and, iff_true]
  exact ⟨⟨(i 0 : ℕ), (i 0).isLt⟩, (mem_w1SlotSet _ _ i).mpr rfl⟩
theorem w2Set_cover : (Finset.univ : Finset (Fin 2)).biUnion w2Set = Finset.univ := by
  ext i
  simp only [Finset.mem_biUnion, Finset.mem_univ, true_and, iff_true]
  exact ⟨⟨(i 0 : ℕ), (i 0).isLt⟩, (mem_w2SlotSet _ _ i).mpr rfl⟩

/-- Pairwise disjoint element sets held at arbitrary contents each join into their union held at some contents. -/
theorem pointsTo_biUnion_join_ex {ℓ : Loc nD τ sig} {q : PosShare TreeShare} {T : Type} (S : Finset T) (K : T → Finset (Idx ℓ))
    (f₀ : Buf (Elt F) ℓ) (h : ∀ t ∈ S, ∀ t' ∈ S, t ≠ t' → Disjoint (K t) (K t')) :
    bigSep S (fun t => (iprop(∃ f : Buf (Elt F) ℓ, ℓ ↦[K t]{q} f) : sProp 𝕄))
      ⊢ (iprop(∃ g : Buf (Elt F) ℓ, ℓ ↦[S.biUnion K]{q} g) : sProp 𝕄) := by
  classical
  induction S using Finset.induction_on with
  | empty =>
    iintro -
    iexists f₀
    rw [Finset.biUnion_empty, pointsTo_empty]; iempintro
  | insert t S ht ih =>
    rw [bigSep_insert ht, Finset.biUnion_insert]
    have hd : Disjoint (K t) (S.biUnion K) :=
      (Finset.disjoint_biUnion_right _ _ _).mpr fun t' ht' =>
        h t (Finset.mem_insert_self _ _) t' (Finset.mem_insert_of_mem ht') (fun e => ht (e ▸ ht'))
    refine (show iprop((∃ f : Buf (Elt F) ℓ, ℓ ↦[K t]{q} f) ∗ bigSep S (fun t => (iprop(∃ f : Buf (Elt F) ℓ, ℓ ↦[K t]{q} f) : sProp 𝕄))) ⊢ _ from ?_)
    iintro ⟨⟨%f, Ht⟩, HS⟩
    ihave H := (ih fun t₁ h₁ t₂ h₂ => h t₁ (Finset.mem_insert_of_mem h₁) t₂ (Finset.mem_insert_of_mem h₂)) $$ HS
    icases H with ⟨%g, HS⟩
    iexists (S.biUnion K).piecewise g f
    iapply (pointsTo_join hd)
    isplitl [Ht]; · iexact Ht
    iexact HS

section Split
variable (c : Dev nD) {q : PosShare TreeShare}

/-- SPLIT: the whole receive buffer's points-to is the separating conjunction of its fifteen slots' (an equation,
    so it also joins slots held at the SAME contents). -/
theorem recv_split (f : Buf (Elt F) ((c : Thread nD τ).loc cc0_scratch3)) :
    ((((c : Thread nD τ).loc cc0_scratch3) ↦{q} f) : sProp 𝕄)
      = bigSep (Finset.univ : Finset (Fin 3 × Fin 5)) fun t =>
          ((rSlot t.1 t.2 t.1.isLt t.2.isLt).view.loc (c : Thread nD τ) ↦[(rSlot t.1 t.2 t.1.isLt t.2.isLt).view.set]{q} f) := by
  have h := pointsTo_biUnion (nD := nD) (τ := τ) (sig := sig) (Ix := Unit) (Val := Elt F) (Name := ℕ) (U := UU) (Lvl := ℕ)
    (ℓ := (c : Thread nD τ).loc cc0_scratch3) (q := q) (f := f) (Finset.univ : Finset (Fin 3 × Fin 5)) rSet
    (fun t _ t' _ hne => rSet_disjoint t t' hne)
  rw [rSet_cover] at h
  exact h

/-- JOIN: fifteen slots held at arbitrary contents `fs t` make the whole buffer at contents agreeing with each on its slot. -/
theorem recv_join (fs : Fin 3 × Fin 5 → Buf (Elt F) ((c : Thread nD τ).loc cc0_scratch3)) :
    bigSep (Finset.univ : Finset (Fin 3 × Fin 5)) (fun t =>
        ((rSlot t.1 t.2 t.1.isLt t.2.isLt).view.loc (c : Thread nD τ) ↦[(rSlot t.1 t.2 t.1.isLt t.2.isLt).view.set]{q} fs t : sProp 𝕄))
      ⊢ (iprop(∃ g : Buf (Elt F) ((c : Thread nD τ).loc cc0_scratch3), ⌜∀ t, ∀ i ∈ rSet t, g i = fs t i⌝ ∗ (((c : Thread nD τ).loc cc0_scratch3) ↦{q} g)) : sProp 𝕄) := by
  have h := pointsTo_biUnion_join (nD := nD) (τ := τ) (sig := sig) (Ix := Unit) (Val := Elt F) (Name := ℕ) (U := UU) (Lvl := ℕ)
    (ℓ := (c : Thread nD τ).loc cc0_scratch3) (q := q) (Finset.univ : Finset (Fin 3 × Fin 5)) rSet fs (fs (0, 0))
    (fun t _ t' _ hne => rSet_disjoint t t' hne)
  rw [rSet_cover] at h
  refine h.trans ?_
  iintro ⟨%g, %hg, H⟩
  iexists g
  isplitr
  · ipureintro; exact fun t => hg t (Finset.mem_univ t)
  · iexact H

/-- JOIN, contents forgotten: fifteen slots each held at some contents make the whole buffer at some contents. -/
theorem recv_join_ex (f₀ : Buf (Elt F) ((c : Thread nD τ).loc cc0_scratch3)) :
    bigSep (Finset.univ : Finset (Fin 3 × Fin 5)) (fun t =>
        (iprop(∃ f : Buf (Elt F) ((c : Thread nD τ).loc cc0_scratch3),
          (rSlot t.1 t.2 t.1.isLt t.2.isLt).view.loc (c : Thread nD τ) ↦[(rSlot t.1 t.2 t.1.isLt t.2.isLt).view.set]{q} f) : sProp 𝕄))
      ⊢ (iprop(∃ g : Buf (Elt F) ((c : Thread nD τ).loc cc0_scratch3), ((c : Thread nD τ).loc cc0_scratch3) ↦{q} g) : sProp 𝕄) := by
  have h := pointsTo_biUnion_join_ex (F := F) (ℓ := (c : Thread nD τ).loc cc0_scratch3) (q := q) (Finset.univ : Finset (Fin 3 × Fin 5)) rSet f₀
    (fun t _ t' _ hne => rSet_disjoint t t' hne)
  rw [rSet_cover] at h
  exact h

end Split

section SplitW
variable (c : Dev nD) {q : PosShare TreeShare}

theorem w1SlotSet_union : w1SlotSet 0 Nat.zero_lt_two ∪ w1SlotSet 1 Nat.one_lt_two = Finset.univ := by
  ext i
  simp only [Finset.mem_union, mem_w1SlotSet, Finset.mem_univ, iff_true]
  have : (i 0 : ℕ) < 2 := (i 0).isLt
  omega
theorem w2SlotSet_union : w2SlotSet 0 Nat.zero_lt_two ∪ w2SlotSet 1 Nat.one_lt_two = Finset.univ := by
  ext i
  simp only [Finset.mem_union, mem_w2SlotSet, Finset.mem_univ, iff_true]
  have : (i 0 : ℕ) < 2 := (i 0).isLt
  omega

/-- SPLIT: the first-weight buffer's points-to is its two slots'. -/
theorem win_split (f : Buf (Elt F) ((c : Thread nD τ).loc cc0_scratch0)) :
    ((((c : Thread nD τ).loc cc0_scratch0) ↦{q} f) : sProp 𝕄)
      ⊣⊢ iprop(((w1Slot 0 Nat.zero_lt_two).view.loc (c : Thread nD τ) ↦[(w1Slot 0 Nat.zero_lt_two).view.set]{q} f)
          ∗ ((w1Slot 1 Nat.one_lt_two).view.loc (c : Thread nD τ) ↦[(w1Slot 1 Nat.one_lt_two).view.set]{q} f)) := by
  have h := pointsTo_union (nD := nD) (τ := τ) (sig := sig) (Ix := Unit) (Val := Elt F) (Name := ℕ) (U := UU) (Lvl := ℕ)
    (ℓ := (c : Thread nD τ).loc cc0_scratch0) (q := q) (f := f) (w1SlotSet_disjoint 0 1 Nat.zero_lt_two Nat.one_lt_two Nat.zero_ne_one)
  rw [w1SlotSet_union] at h
  exact h
theorem wout_split (f : Buf (Elt F) ((c : Thread nD τ).loc cc0_scratch1)) :
    ((((c : Thread nD τ).loc cc0_scratch1) ↦{q} f) : sProp 𝕄)
      ⊣⊢ iprop(((w2Slot 0 Nat.zero_lt_two).view.loc (c : Thread nD τ) ↦[(w2Slot 0 Nat.zero_lt_two).view.set]{q} f)
          ∗ ((w2Slot 1 Nat.one_lt_two).view.loc (c : Thread nD τ) ↦[(w2Slot 1 Nat.one_lt_two).view.set]{q} f)) := by
  have h := pointsTo_union (nD := nD) (τ := τ) (sig := sig) (Ix := Unit) (Val := Elt F) (Name := ℕ) (U := UU) (Lvl := ℕ)
    (ℓ := (c : Thread nD τ).loc cc0_scratch1) (q := q) (f := f) (w2SlotSet_disjoint 0 1 Nat.zero_lt_two Nat.one_lt_two Nat.zero_ne_one)
  rw [w2SlotSet_union] at h
  exact h

/-- JOIN: the two slots held at different contents make the whole buffer, slot 1's contents pieced into slot 0's. -/
theorem win_join (f0 f1 : Buf (Elt F) ((c : Thread nD τ).loc cc0_scratch0)) :
    (iprop(((w1Slot 0 Nat.zero_lt_two).view.loc (c : Thread nD τ) ↦[(w1Slot 0 Nat.zero_lt_two).view.set]{q} f0)
          ∗ ((w1Slot 1 Nat.one_lt_two).view.loc (c : Thread nD τ) ↦[(w1Slot 1 Nat.one_lt_two).view.set]{q} f1)) : sProp 𝕄)
      ⊢ (((c : Thread nD τ).loc cc0_scratch0) ↦{q} ((w1SlotSet 1 Nat.one_lt_two).piecewise f1 f0)) := by
  have h := pointsTo_join (nD := nD) (τ := τ) (sig := sig) (Ix := Unit) (Val := Elt F) (Name := ℕ) (U := UU) (Lvl := ℕ)
    (ℓ := (c : Thread nD τ).loc cc0_scratch0) (q := q) (f := f0) (g := f1) (w1SlotSet_disjoint 0 1 Nat.zero_lt_two Nat.one_lt_two Nat.zero_ne_one)
  rw [w1SlotSet_union] at h
  exact h
theorem wout_join (f0 f1 : Buf (Elt F) ((c : Thread nD τ).loc cc0_scratch1)) :
    (iprop(((w2Slot 0 Nat.zero_lt_two).view.loc (c : Thread nD τ) ↦[(w2Slot 0 Nat.zero_lt_two).view.set]{q} f0)
          ∗ ((w2Slot 1 Nat.one_lt_two).view.loc (c : Thread nD τ) ↦[(w2Slot 1 Nat.one_lt_two).view.set]{q} f1)) : sProp 𝕄)
      ⊢ (((c : Thread nD τ).loc cc0_scratch1) ↦{q} ((w2SlotSet 1 Nat.one_lt_two).piecewise f1 f0)) := by
  have h := pointsTo_join (nD := nD) (τ := τ) (sig := sig) (Ix := Unit) (Val := Elt F) (Name := ℕ) (U := UU) (Lvl := ℕ)
    (ℓ := (c : Thread nD τ).loc cc0_scratch1) (q := q) (f := f0) (g := f1) (w2SlotSet_disjoint 0 1 Nat.zero_lt_two Nat.one_lt_two Nat.zero_ne_one)
  rw [w2SlotSet_union] at h
  exact h

/-- JOIN, contents forgotten. -/
theorem win_join_ex :
    (iprop((∃ f : Buf (Elt F) ((c : Thread nD τ).loc cc0_scratch0), (w1Slot 0 Nat.zero_lt_two).view.loc (c : Thread nD τ) ↦[(w1Slot 0 Nat.zero_lt_two).view.set]{q} f)
          ∗ (∃ f : Buf (Elt F) ((c : Thread nD τ).loc cc0_scratch0), (w1Slot 1 Nat.one_lt_two).view.loc (c : Thread nD τ) ↦[(w1Slot 1 Nat.one_lt_two).view.set]{q} f)) : sProp 𝕄)
      ⊢ iprop(∃ g : Buf (Elt F) ((c : Thread nD τ).loc cc0_scratch0), ((c : Thread nD τ).loc cc0_scratch0) ↦{q} g) := by
  iintro ⟨⟨%f0, H0⟩, ⟨%f1, H1⟩⟩
  iexists ((w1SlotSet 1 Nat.one_lt_two).piecewise f1 f0)
  iapply (win_join c f0 f1)
  isplitl [H0]; · iexact H0
  iexact H1
theorem wout_join_ex :
    (iprop((∃ f : Buf (Elt F) ((c : Thread nD τ).loc cc0_scratch1), (w2Slot 0 Nat.zero_lt_two).view.loc (c : Thread nD τ) ↦[(w2Slot 0 Nat.zero_lt_two).view.set]{q} f)
          ∗ (∃ f : Buf (Elt F) ((c : Thread nD τ).loc cc0_scratch1), (w2Slot 1 Nat.one_lt_two).view.loc (c : Thread nD τ) ↦[(w2Slot 1 Nat.one_lt_two).view.set]{q} f)) : sProp 𝕄)
      ⊢ iprop(∃ g : Buf (Elt F) ((c : Thread nD τ).loc cc0_scratch1), ((c : Thread nD τ).loc cc0_scratch1) ↦{q} g) := by
  iintro ⟨⟨%f0, H0⟩, ⟨%f1, H1⟩⟩
  iexists ((w2SlotSet 1 Nat.one_lt_two).piecewise f1 f0)
  iapply (wout_join c f0 f1)
  isplitl [H0]; · iexact H0
  iexact H1

end SplitW

/-- A separating conjunction over the fifteen slots, written out. -/
theorem bigSep_slots (Φ : Fin 3 × Fin 5 → sProp 𝕄) :
    bigSep (Finset.univ : Finset (Fin 3 × Fin 5)) Φ
      = iprop(Φ (0, 0) ∗ Φ (0, 1) ∗ Φ (0, 2) ∗ Φ (0, 3) ∗ Φ (0, 4) ∗ Φ (1, 0) ∗ Φ (1, 1) ∗ Φ (1, 2) ∗ Φ (1, 3) ∗ Φ (1, 4)
          ∗ Φ (2, 0) ∗ Φ (2, 1) ∗ Φ (2, 2) ∗ Φ (2, 3) ∗ Φ (2, 4)) := by
  rw [show (Finset.univ : Finset (Fin 3 × Fin 5)) = {(0, 0), (0, 1), (0, 2), (0, 3), (0, 4), (1, 0), (1, 1), (1, 2), (1, 3), (1, 4),
      (2, 0), (2, 1), (2, 2), (2, 3), (2, 4)} by decide]
  rw [bigSep_insert, bigSep_insert, bigSep_insert, bigSep_insert, bigSep_insert, bigSep_insert, bigSep_insert, bigSep_insert,
    bigSep_insert, bigSep_insert, bigSep_insert, bigSep_insert, bigSep_insert, bigSep_insert, bigSep_singleton]
  · rfl
  all_goals decide

/-! ## The fifteen receive slots written out -/

theorem h0_3 : 0 < 3 := by decide
theorem h1_3 : 1 < 3 := by decide
theorem h2_3 : 2 < 3 := by decide
theorem h0_5 : 0 < 5 := by decide
theorem h1_5 : 1 < 5 := by decide
theorem h2_5 : 2 < 5 := by decide
theorem h3_5 : 3 < 5 := by decide
theorem h4_5 : 4 < 5 := by decide

/-- Receive slot `(l, k)` of device `c` held at share `q` and contents `f`: the points-to a transfer into the slot consumes. -/
abbrev rPts (c : Dev nD) (q : PosShare TreeShare) (l k : ℕ) (hl : l < 3) (hk : k < 5)
    (f : Buf (Elt F) ((c : Thread nD τ).loc cc0_scratch3)) : sProp 𝕄 :=
  (rSlot l k hl hk).view.loc (c : Thread nD τ) ↦[(rSlot l k hl hk).view.set]{q} f

section Chain
variable (c : Dev nD) {q : PosShare TreeShare}

/-- SPLIT, written out: the whole receive buffer's points-to is the fifteen slots', layer by layer, stage by stage. -/
theorem recv_split_chain (f : Buf (Elt F) ((c : Thread nD τ).loc cc0_scratch3)) :
    ((((c : Thread nD τ).loc cc0_scratch3) ↦{q} f) : sProp 𝕄)
      = iprop(rPts c q 0 0 h0_3 h0_5 f ∗ rPts c q 0 1 h0_3 h1_5 f ∗ rPts c q 0 2 h0_3 h2_5 f ∗ rPts c q 0 3 h0_3 h3_5 f ∗ rPts c q 0 4 h0_3 h4_5 f ∗ rPts c q 1 0 h1_3 h0_5 f ∗ rPts c q 1 1 h1_3 h1_5 f ∗ rPts c q 1 2 h1_3 h2_5 f ∗ rPts c q 1 3 h1_3 h3_5 f ∗ rPts c q 1 4 h1_3 h4_5 f ∗ rPts c q 2 0 h2_3 h0_5 f ∗ rPts c q 2 1 h2_3 h1_5 f ∗ rPts c q 2 2 h2_3 h2_5 f ∗ rPts c q 2 3 h2_3 h3_5 f ∗ rPts c q 2 4 h2_3 h4_5 f) := by
  rw [recv_split, bigSep_slots]
  rfl

/-- JOIN, written out, contents forgotten. -/
theorem recv_join_ex_chain (f₀ : Buf (Elt F) ((c : Thread nD τ).loc cc0_scratch3)) :
    (iprop((∃ f : Buf (Elt F) ((c : Thread nD τ).loc cc0_scratch3), rPts c q 0 0 h0_3 h0_5 f)
        ∗ (∃ f : Buf (Elt F) ((c : Thread nD τ).loc cc0_scratch3), rPts c q 0 1 h0_3 h1_5 f)
        ∗ (∃ f : Buf (Elt F) ((c : Thread nD τ).loc cc0_scratch3), rPts c q 0 2 h0_3 h2_5 f)
        ∗ (∃ f : Buf (Elt F) ((c : Thread nD τ).loc cc0_scratch3), rPts c q 0 3 h0_3 h3_5 f)
        ∗ (∃ f : Buf (Elt F) ((c : Thread nD τ).loc cc0_scratch3), rPts c q 0 4 h0_3 h4_5 f)
        ∗ (∃ f : Buf (Elt F) ((c : Thread nD τ).loc cc0_scratch3), rPts c q 1 0 h1_3 h0_5 f)
        ∗ (∃ f : Buf (Elt F) ((c : Thread nD τ).loc cc0_scratch3), rPts c q 1 1 h1_3 h1_5 f)
        ∗ (∃ f : Buf (Elt F) ((c : Thread nD τ).loc cc0_scratch3), rPts c q 1 2 h1_3 h2_5 f)
        ∗ (∃ f : Buf (Elt F) ((c : Thread nD τ).loc cc0_scratch3), rPts c q 1 3 h1_3 h3_5 f)
        ∗ (∃ f : Buf (Elt F) ((c : Thread nD τ).loc cc0_scratch3), rPts c q 1 4 h1_3 h4_5 f)
        ∗ (∃ f : Buf (Elt F) ((c : Thread nD τ).loc cc0_scratch3), rPts c q 2 0 h2_3 h0_5 f)
        ∗ (∃ f : Buf (Elt F) ((c : Thread nD τ).loc cc0_scratch3), rPts c q 2 1 h2_3 h1_5 f)
        ∗ (∃ f : Buf (Elt F) ((c : Thread nD τ).loc cc0_scratch3), rPts c q 2 2 h2_3 h2_5 f)
        ∗ (∃ f : Buf (Elt F) ((c : Thread nD τ).loc cc0_scratch3), rPts c q 2 3 h2_3 h3_5 f)
        ∗ (∃ f : Buf (Elt F) ((c : Thread nD τ).loc cc0_scratch3), rPts c q 2 4 h2_3 h4_5 f)) : sProp 𝕄)
      ⊢ iprop(∃ g : Buf (Elt F) ((c : Thread nD τ).loc cc0_scratch3), ((c : Thread nD τ).loc cc0_scratch3) ↦{q} g) := by
  refine (Entails.of_eq ?_).trans (recv_join_ex c f₀)
  rw [bigSep_slots]
  rfl

end Chain

end Cert.Kernel.MemLemmas
end
-- ==== Proof.Bits.Tables.lean ====
import proofs.«900580_g7700000000000581_dist_mlpseq_tp1d_rep_rep_b64_d1024_h2048_v7x_i32_f32_1_alg».proof.Proof.Bits.Schedule

/-!
# The schedule's tables, cell by cell

The duties, amounts, expected totals and payloads of each kind of cell, in the form the rules of the rounds
discipline take them: the entry cell's five unit duties in round 0; the send cell's one duty in each of rounds
0 … 14; a receive or copy cell's one duty in round 0; and that nothing is scheduled afterwards.  Each entry is read
off the schedule by decoding the cell's semaphore number.
-/

noncomputable section

namespace Cert.Kernel.Tables

open Cert.Kernel Cert.Kernel.Gen Cert.Kernel.Mesh Cert.Kernel.Spec Cert.Kernel.Cells Cert.Kernel.Schedule

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section
variable (c : Dev nD)

/-! ### Duties -/

theorem duties_bar : (Rd (F := F) m).duties (barCell c) 0 = Finset.univ := by
  show (if (barS : Sem sig) = barS ∧ (0 : ℕ) = 0 then (Finset.univ : Finset (Fin 5)) else ∅) = Finset.univ
  exact if_pos ⟨rfl, rfl⟩
theorem duties_bar_later (r : ℕ) (hr : 1 ≤ r) : (Rd (F := F) m).duties (barCell c) r = ∅ := by
  show (if (barS : Sem sig) = barS ∧ r = 0 then (Finset.univ : Finset (Fin 5)) else ∅) = ∅
  exact if_neg (fun h => by omega)
theorem duties_sd (r : ℕ) (hr : r < 15) : (Rd (F := F) m).duties (sdCell c) r = {0} := by
  show dut (kindOf (2 + 6)) r = {0}
  rw [kindOf_sd]; exact if_pos hr
theorem duties_sd_later (r : ℕ) (hr : 15 ≤ r) : (Rd (F := F) m).duties (sdCell c) r = ∅ := by
  show dut (kindOf (2 + 6)) r = ∅
  rw [kindOf_sd]; exact if_neg (by omega)
theorem duties_rv (l k : ℕ) (hl : l < 3) (hk : k < 5) : (Rd (F := F) m).duties (rvCell c l k hl hk) 0 = {0} := by
  show dut (kindOf (2 + (7 + 5 * l + k))) 0 = {0}
  rw [kindOf_rv l k hl hk]; rfl
theorem duties_rv_later (l k : ℕ) (hl : l < 3) (hk : k < 5) (r : ℕ) (hr : 1 ≤ r) : (Rd (F := F) m).duties (rvCell c l k hl hk) r = ∅ := by
  show dut (kindOf (2 + (7 + 5 * l + k))) r = ∅
  rw [kindOf_rv l k hl hk]; exact if_neg (by omega)
theorem duties_cp (l i : ℕ) (hl : l < 3) (hi : i < 2) : (Rd (F := F) m).duties (cpCell c l i hl hi) 0 = {0} := by
  show dut (kindOf (2 + (2 * l + i))) 0 = {0}
  rw [kindOf_cp l i hl hi]; rfl
theorem duties_cp_later (l i : ℕ) (hl : l < 3) (hi : i < 2) (r : ℕ) (hr : 1 ≤ r) : (Rd (F := F) m).duties (cpCell c l i hl hi) r = ∅ := by
  show dut (kindOf (2 + (2 * l + i))) r = ∅
  rw [kindOf_cp l i hl hi]; exact if_neg (by omega)

/-! ### Amounts -/

theorem amount_bar (r : ℕ) (d : Fin 5) : (Rd (F := F) m).amount (barCell c) r d = 1 := rfl
theorem amount_sd (r : ℕ) (d : Fin 5) : (Rd (F := F) m).amount (sdCell c) r d = NR := by
  show amt (kindOf (2 + 6)) = NR
  rw [kindOf_sd]; rfl
theorem amount_rv (l k : ℕ) (hl : l < 3) (hk : k < 5) (r : ℕ) (d : Fin 5) : (Rd (F := F) m).amount (rvCell c l k hl hk) r d = NR := by
  show amt (kindOf (2 + (7 + 5 * l + k))) = NR
  rw [kindOf_rv l k hl hk]; rfl
theorem amount_cp0 (l : ℕ) (hl : l < 3) (r : ℕ) (d : Fin 5) : (Rd (F := F) m).amount (cpCell c l 0 hl Nat.zero_lt_two) r d = NW1 := by
  show amt (kindOf (2 + (2 * l + 0))) = NW1
  rw [kindOf_cp l 0 hl Nat.zero_lt_two]
  show (if (0 : ℕ) = 0 then NW1 else NW2) = NW1
  exact if_pos rfl
theorem amount_cp1 (l : ℕ) (hl : l < 3) (r : ℕ) (d : Fin 5) : (Rd (F := F) m).amount (cpCell c l 1 hl Nat.one_lt_two) r d = NW2 := by
  show amt (kindOf (2 + (2 * l + 1))) = NW2
  rw [kindOf_cp l 1 hl Nat.one_lt_two]
  show (if (1 : ℕ) = 0 then NW1 else NW2) = NW2
  exact if_neg Nat.one_ne_zero

/-! ### Expected totals -/

theorem expect_bar : (Rd (F := F) m).expect (barCell c) 0 = 5 := by
  unfold Schedule.expect Schedule.amountOf
  rw [duties_bar, Finset.sum_congr rfl fun d _ => amount_bar m c 0 d, Finset.sum_const, Finset.card_univ, Fintype.card_fin, smul_eq_mul]
theorem expect_sd (r : ℕ) (hr : r < 15) : (Rd (F := F) m).expect (sdCell c) r = NR := by
  unfold Schedule.expect Schedule.amountOf; rw [duties_sd m c r hr, Finset.sum_singleton, amount_sd]
theorem expect_rv (l k : ℕ) (hl : l < 3) (hk : k < 5) : (Rd (F := F) m).expect (rvCell c l k hl hk) 0 = NR := by
  unfold Schedule.expect Schedule.amountOf; rw [duties_rv m c l k hl hk, Finset.sum_singleton, amount_rv]
theorem expect_cp0 (l : ℕ) (hl : l < 3) : (Rd (F := F) m).expect (cpCell c l 0 hl Nat.zero_lt_two) 0 = NW1 := by
  unfold Schedule.expect Schedule.amountOf; rw [duties_cp m c l 0 hl Nat.zero_lt_two, Finset.sum_singleton, amount_cp0]
theorem expect_cp1 (l : ℕ) (hl : l < 3) : (Rd (F := F) m).expect (cpCell c l 1 hl Nat.one_lt_two) 0 = NW2 := by
  unfold Schedule.expect Schedule.amountOf; rw [duties_cp m c l 1 hl Nat.one_lt_two, Finset.sum_singleton, amount_cp1]

/-! ### Payloads -/

theorem payload_bar (r : ℕ) (d : Fin 5) : (Rd (F := F) m).payload (barCell c) r d = barPay c d := rfl
theorem payload_sd (r : ℕ) (d : Fin 5) : (Rd (F := F) m).payload (sdCell c) r d = sdPay m c r := by
  show pay m c (kindOf (2 + 6)) r = sdPay m c r
  rw [kindOf_sd]; rfl
theorem payload_rv (l k : ℕ) (hl : l < 3) (hk : k < 5) (r : ℕ) (d : Fin 5) :
    (Rd (F := F) m).payload (rvCell c l k hl hk) r d = rvPay m c ⟨l, hl⟩ ⟨k, hk⟩ := by
  show pay m c (kindOf (2 + (7 + 5 * l + k))) r = rvPay m c ⟨l, hl⟩ ⟨k, hk⟩
  rw [kindOf_rv l k hl hk]; rfl
theorem payload_cp (l i : ℕ) (hl : l < 3) (hi : i < 2) (r : ℕ) (d : Fin 5) :
    (Rd (F := F) m).payload (cpCell c l i hl hi) r d = cpPay m c ⟨l, hl⟩ ⟨i, hi⟩ := by
  show pay m c (kindOf (2 + (2 * l + i))) r = cpPay m c ⟨l, hl⟩ ⟨i, hi⟩
  rw [kindOf_cp l i hl hi]; rfl

/-! ### The rest of a round no duty of which has been taken -/

theorem rest_sd (r : ℕ) (hr : r < 15) :
    bigSep ((Rd (F := F) m).duties (sdCell c) r \ ∅) (fun d => (Rd (F := F) m).payload (sdCell c) r d) = sdPay m c r := by
  rw [Finset.sdiff_empty, duties_sd m c r hr, bigSep_singleton, payload_sd]
theorem rest_rv (l k : ℕ) (hl : l < 3) (hk : k < 5) :
    bigSep ((Rd (F := F) m).duties (rvCell c l k hl hk) 0 \ ∅) (fun d => (Rd (F := F) m).payload (rvCell c l k hl hk) 0 d) = rvPay m c ⟨l, hl⟩ ⟨k, hk⟩ := by
  rw [Finset.sdiff_empty, duties_rv m c l k hl hk, bigSep_singleton, payload_rv]
theorem rest_cp (l i : ℕ) (hl : l < 3) (hi : i < 2) :
    bigSep ((Rd (F := F) m).duties (cpCell c l i hl hi) 0 \ ∅) (fun d => (Rd (F := F) m).payload (cpCell c l i hl hi) 0 d) = cpPay m c ⟨l, hl⟩ ⟨i, hi⟩ := by
  rw [Finset.sdiff_empty, duties_cp m c l i hl hi, bigSep_singleton, payload_cp]
/-- The entry cell's round: the five partners' slots, as a list in stage order. -/
theorem rest_bar :
    bigSep ((Rd (F := F) m).duties (barCell c) 0 \ ∅) (fun d => (Rd (F := F) m).payload (barCell c) 0 d)
      = bigSepL [(0 : Fin 5), 1, 2, 3, 4] (fun d => barPay (F := F) c d) := by
  rw [Finset.sdiff_empty, duties_bar, bigSep_univ_eq_bigSepL [0, 1, 2, 3, 4] (by decide) (by decide)]
  exact congrArg _ (funext fun d => payload_bar m c 0 d)

end

end Cert.Kernel.Tables

end
-- ==== Proof.Bits.Waits.lean ====
import proofs.«900580_g7700000000000581_dist_mlpseq_tp1d_rep_rep_b64_d1024_h2048_v7x_i32_f32_1_alg».proof.Proof.Bits.Ghost

/-!
# The wait levels

A wait on a cell is allowed while the waiter owes only cells of a strictly higher level.  What a device owes is,
in the order it pays, one unit to each partner's entry cell (level 1) and then, round by round, the landing of
its transfer on the partner's receive cell of that round (round `r` at level `2 + r`); every other cell is at
level 0.  Hence: a level-0 cell may be waited whatever is owed; the entry cell may be waited once only landings
are owed; the receive cell of round `r` may be waited once only the landings of later rounds are owed.
-/

noncomputable section

namespace Cert.Kernel.Waits

open Cert.Kernel Cert.Kernel.Gen Cert.Kernel.Mesh Cert.Kernel.Spec Cert.Kernel.Cells Cert.Kernel.Schedule
open Cert.Kernel.Ghost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Where the owed tallies are positive -/

theorem oweFrom_pos_aux (c : Dev nD) : ∀ (d n : ℕ), n + d = 15 → ∀ (g : GSem nD τ sig) (u : Unit),
    0 < Ghost.oweFrom c n g u → ∃ r : Fin 15, n ≤ r.val ∧ g = Ghost.rvOf c r
  | 0, n, hn, g, u, h => by
    have h15 : n = 15 := by omega
    subst h15
    rw [oweFrom_done] at h
    exact absurd h (Nat.lt_irrefl 0)
  | d + 1, n, hn, g, u, h => by
    have hlt : n < 15 := by omega
    rw [oweFrom_peel c n hlt] at h
    rcases Pipeline.add_pos_cases h with h | h
    · obtain ⟨r, hr, hg⟩ := oweFrom_pos_aux c d (n + 1) (by omega) g u h
      exact ⟨r, by omega, hg⟩
    · rw [tallyAt_apply] at h
      by_cases hc : g = rvOf c ⟨n, hlt⟩ ∧ u = ()
      · exact ⟨⟨n, hlt⟩, le_refl _, hc.1⟩
      · rw [if_neg hc] at h; exact absurd h (Nat.lt_irrefl 0)

/-- The landings owed from round `n` on sit on the receive cells of rounds `n, …, 14`. -/
theorem oweFrom_pos {c : Dev nD} {n : ℕ} {g : GSem nD τ sig} {u : Unit} (h : 0 < Ghost.oweFrom c n g u) :
    ∃ r : Fin 15, n ≤ r.val ∧ g = Ghost.rvOf c r := by
  by_cases hn : n ≤ 15
  · exact oweFrom_pos_aux c (15 - n) n (by omega) g u h
  · rw [oweFrom, dif_neg (by omega)] at h
    exact absurd h (Nat.lt_irrefl 0)

theorem oweSig_pos_aux (c : Dev nD) : ∀ (d j : ℕ), j + d = 5 → ∀ (g : GSem nD τ sig) (u : Unit),
    0 < Ghost.oweSig c j g u → (∃ k, j ≤ k ∧ k < 5 ∧ g = barCell (pr k c)) ∨ ∃ r : Fin 15, g = Ghost.rvOf c r
  | 0, j, hj, g, u, h => by
    have h5 : j = 5 := by omega
    subst h5
    rw [oweSig_done] at h
    obtain ⟨r, _, hg⟩ := oweFrom_pos h
    exact Or.inr ⟨r, hg⟩
  | d + 1, j, hj, g, u, h => by
    have hlt : j < 5 := by omega
    rw [oweSig_peel c j hlt] at h
    rcases Pipeline.add_pos_cases h with h | h
    · rcases oweSig_pos_aux c d (j + 1) (by omega) g u h with ⟨k, hk, hk5, hg⟩ | hr
      · exact Or.inl ⟨k, by omega, hk5, hg⟩
      · exact Or.inr hr
    · rw [tallyAt_apply] at h
      by_cases hc : g = barCell (pr j c) ∧ u = ()
      · exact Or.inl ⟨j, le_refl _, hlt, hc.1⟩
      · rw [if_neg hc] at h; exact absurd h (Nat.lt_irrefl 0)

/-- The signals owed from partner `j` on sit on the entry cells of partners `j, …, 4`; the rest are landings. -/
theorem oweSig_pos {c : Dev nD} {j : ℕ} {g : GSem nD τ sig} {u : Unit} (h : 0 < Ghost.oweSig c j g u) :
    (∃ k, j ≤ k ∧ k < 5 ∧ g = barCell (pr k c)) ∨ ∃ r : Fin 15, g = Ghost.rvOf c r := by
  by_cases hj : j ≤ 5
  · exact oweSig_pos_aux c (5 - j) j (by omega) g u h
  · rw [oweSig, dif_neg (by omega)] at h
    obtain ⟨r, _, hg⟩ := oweFrom_pos h
    exact Or.inr ⟨r, hg⟩

/-! ## The levels of the cells -/

/-- The level of a DMA cell is read off the role of its semaphore's number. -/
theorem lv_dma_rv (t : Thread nD τ) (q : DmaSem sig) (l : Fin 3) (k : Fin 5) (h : kindOf q.val = .rv l k) :
    Ghost.lv (t, .dma q) () = 2 + 5 * l.val + k.val := by
  show (match kindOf q.val with | .rv l k => 2 + 5 * l.val + k.val | _ => 0) = _
  rw [h]

theorem lv_dma_zero (t : Thread nD τ) (q : DmaSem sig) (h : ∀ l k, kindOf q.val ≠ .rv l k) :
    Ghost.lv (t, .dma q) () = 0 := by
  show (match kindOf q.val with | .rv l k => 2 + 5 * l.val + k.val | _ => 0) = 0
  split
  · exact absurd ‹_› (h _ _)
  · rfl

theorem kindOf_low : ∀ n : Fin 9, ∀ (l : Fin 3) (k : Fin 5), kindOf n.val ≠ .rv l k := by decide

/-- Every DMA cell whose semaphore's number is below 9 (staging, copies, send) is at level 0. -/
theorem lv_low (t : Thread nD τ) (q : DmaSem sig) (hq : q.val < 9) : Ghost.lv (t, .dma q) () = 0 :=
  lv_dma_zero t q (kindOf_low ⟨q.val, hq⟩)

/-- The receive cell of round `r`, on whichever device, is at level `2 + r`. -/
theorem lv_rv (t : Thread nD τ) (r : Fin 15) (hl : r.val / 5 < 3) (hk : r.val % 5 < 5) :
    Ghost.lv (t, .dma (rvS (r.val / 5) (r.val % 5) hl hk)) () = 2 + r.val := by
  rw [lv_dma_rv t _ ⟨r.val / 5, hl⟩ ⟨r.val % 5, hk⟩ (kindOf_rv (r.val / 5) (r.val % 5) hl hk)]
  show 2 + 5 * (r.val / 5) + r.val % 5 = 2 + r.val
  omega

theorem lv_rvOf (c : Dev nD) (r : Fin 15) : Ghost.lv (Ghost.rvOf c r) () = 2 + r.val := lv_rv _ r _ _
theorem lv_rvOwn (c : Dev nD) (r : Fin 15) : Ghost.lv (Ghost.rvOwn c r) () = 2 + r.val := lv_rv _ r _ _

theorem lv_bar (c : Dev nD) : Ghost.lv (barCell c) () = 1 := rfl

theorem lv_sd (c : Dev nD) : Ghost.lv (sdCell c) () = 0 := lv_low _ _ (by decide)
theorem lv_cp (c : Dev nD) (l i : ℕ) (hl : l < 3) (hi : i < 2) : Ghost.lv (cpCell c l i hl hi) () = 0 :=
  lv_low _ _ (by show 2 + (2 * l + i) < 9; omega)
/-- The two staging cells: DMA semaphores 0 and 1. -/
theorem lv_stage (t : Thread nD τ) (q : DmaSem sig) (hq : q.val < 2) : Ghost.lv (t, .dma q) () = 0 :=
  lv_low t q (by omega)
theorem lv_stage0 (c : Dev nD) (h : 0 < sig.nDmaSem) : Ghost.lv ((c : Thread nD τ), .dma ⟨0, h⟩) () = 0 := lv_low _ _ (by show (0 : ℕ) < 9; omega)
theorem lv_stage1 (c : Dev nD) (h : 1 < sig.nDmaSem) : Ghost.lv ((c : Thread nD τ), .dma ⟨1, h⟩) () = 0 := lv_low _ _ (by show (1 : ℕ) < 9; omega)

/-! ## Every owed cell is a TensorCore's, and at level at least 1 -/

theorem owe_cases {c : Dev nD} {j n : ℕ} {O : CellTallies nD τ sig Unit}
    (hO : O = Ghost.oweSig c j ∨ O = Ghost.oweFrom c n ∨ O = 0) {g : GSem nD τ sig} {u : Unit} (h : 0 < O g u) :
    (∃ c' : Dev nD, g = barCell c') ∨ ∃ r : Fin 15, g = Ghost.rvOf c r := by
  rcases hO with rfl | rfl | rfl
  · rcases oweSig_pos h with ⟨k, _, _, hg⟩ | hr
    · exact Or.inl ⟨_, hg⟩
    · exact Or.inr hr
  · obtain ⟨r, _, hg⟩ := oweFrom_pos h
    exact Or.inr ⟨r, hg⟩
  · exact absurd h (Nat.lt_irrefl 0)

/-! ## The waits -/

omit [FloatOps F] in
/-- A level-0 cell (send, copy, staging) may be waited whatever of the protocol is owed. -/
theorem mayWait_low (c : Dev nD) (q : DmaSem sig) (hq : Ghost.lv ((c : Thread nD τ), .dma q) () = 0) {j n : ℕ}
    (O : CellTallies nD τ sig Unit) (hO : O = Ghost.oweSig c j ∨ O = Ghost.oweFrom c n ∨ O = 0) :
    (levAts Ghost.L Ghost.lv : sProp 𝕄) ⊢ MayWait (c : Thread nD τ) (.dma q) () O :=
  MayOwe.of_cut (L := Ghost.L) (lev := Ghost.lv) 0
    (fun p hp => by rw [Finset.mem_singleton.mp hp, L_tc]; exact Finset.mem_singleton_self _)
    (fun g u hg => by
      rcases owe_cases hO hg with ⟨c', rfl⟩ | ⟨r, rfl⟩
      · rw [L_tc]; exact Finset.mem_singleton_self _
      · rw [L_tc]; exact Finset.mem_singleton_self _)
    (fun p hp => by rw [Finset.mem_singleton.mp hp]; exact le_of_eq hq)
    (fun g u hg => by
      rcases owe_cases hO hg with ⟨c', rfl⟩ | ⟨r, rfl⟩
      · exact Nat.one_pos
      · have h1 : Ghost.lv (Ghost.rvOf c r) u = 2 + r.val := lv_rvOf c r
        omega)

omit [FloatOps F] in
/-- The entry wait: only landings are owed, and a receive cell is above the entry cell. -/
theorem mayWait_bar (c : Dev nD) :
    (levAts Ghost.L Ghost.lv : sProp 𝕄) ⊢ MayWait (c : Thread nD τ) (.reg barS) () (Ghost.oweFrom c 0) :=
  MayOwe.of_cut (L := Ghost.L) (lev := Ghost.lv) 1
    (fun p hp => by rw [Finset.mem_singleton.mp hp, L_tc]; exact Finset.mem_singleton_self _)
    (fun g u hg => by
      obtain ⟨r, _, rfl⟩ := oweFrom_pos hg
      rw [L_tc]; exact Finset.mem_singleton_self _)
    (fun p hp => by rw [Finset.mem_singleton.mp hp]; exact le_of_eq (lv_bar c))
    (fun g u hg => by
      obtain ⟨r, _, rfl⟩ := oweFrom_pos hg
      have h1 : Ghost.lv (Ghost.rvOf c r) u = 2 + r.val := lv_rvOf c r
      omega)

omit [FloatOps F] in
/-- The receive wait of round `r`: only the landings of later rounds are owed, and their cells are higher. -/
theorem mayWait_rv (c : Dev nD) (r : Fin 15) (hl : r.val / 5 < 3) (hk : r.val % 5 < 5) :
    (levAts Ghost.L Ghost.lv : sProp 𝕄)
      ⊢ MayWait (c : Thread nD τ) (.dma (rvS (r.val / 5) (r.val % 5) hl hk)) () (Ghost.oweFrom c (r.val + 1)) :=
  MayOwe.of_cut (L := Ghost.L) (lev := Ghost.lv) (2 + r.val)
    (fun p hp => by rw [Finset.mem_singleton.mp hp, L_tc]; exact Finset.mem_singleton_self _)
    (fun g u hg => by
      obtain ⟨r', _, rfl⟩ := oweFrom_pos hg
      rw [L_tc]; exact Finset.mem_singleton_self _)
    (fun p hp => by rw [Finset.mem_singleton.mp hp]; exact le_of_eq (lv_rv _ r hl hk))
    (fun g u hg => by
      obtain ⟨r', hr', rfl⟩ := oweFrom_pos hg
      have h1 : Ghost.lv (Ghost.rvOf c r') u = 2 + r'.val := lv_rvOf c r'
      omega)

/-! The same three through the pair set of the one waited pair (the two forms are one by definition). -/

omit [FloatOps F] in
theorem mayOwe_low (c : Dev nD) (q : DmaSem sig) (hq : Ghost.lv ((c : Thread nD τ), .dma q) () = 0) {j n : ℕ}
    (O : CellTallies nD τ sig Unit) (hO : O = Ghost.oweSig c j ∨ O = Ghost.oweFrom c n ∨ O = 0) :
    (levAts Ghost.L Ghost.lv : sProp 𝕄) ⊢ MayOwe (c : Thread nD τ) {(SemLoc.dma q, ())} O :=
  mayWait_low c q hq O hO

omit [FloatOps F] in
theorem mayOwe_bar (c : Dev nD) :
    (levAts Ghost.L Ghost.lv : sProp 𝕄) ⊢ MayOwe (c : Thread nD τ) {(SemLoc.reg barS, ())} (Ghost.oweFrom c 0) :=
  mayWait_bar c

omit [FloatOps F] in
theorem mayOwe_rv (c : Dev nD) (r : Fin 15) (hl : r.val / 5 < 3) (hk : r.val % 5 < 5) :
    (levAts Ghost.L Ghost.lv : sProp 𝕄)
      ⊢ MayOwe (c : Thread nD τ) {(SemLoc.dma (rvS (r.val / 5) (r.val % 5) hl hk), ())} (Ghost.oweFrom c (r.val + 1)) :=
  mayWait_rv c r hl hk

/-- info: 'Cert.Kernel.Waits.mayWait_rv' depends on axioms: [propext, Classical.choice, Quot.sound] -/
#guard_msgs in #print axioms mayWait_rv
/-- info: 'Cert.Kernel.Waits.mayWait_low' depends on axioms: [propext, Classical.choice, Quot.sound] -/
#guard_msgs in #print axioms mayWait_low
/-- info: 'Cert.Kernel.Waits.mayWait_bar' depends on axioms: [propext, Classical.choice, Quot.sound] -/
#guard_msgs in #print axioms mayWait_bar

end Cert.Kernel.Waits

end
-- ==== Proof.Bits.BodyRound.lean ====
import proofs.«900580_g7700000000000581_dist_mlpseq_tp1d_rep_rep_b64_d1024_h2048_v7x_i32_f32_1_alg».proof.Proof.Bits.Ghost
import proofs.«900580_g7700000000000581_dist_mlpseq_tp1d_rep_rep_b64_d1024_h2048_v7x_i32_f32_1_alg».proof.Proof.Bits.MemLemmas
import proofs.«900580_g7700000000000581_dist_mlpseq_tp1d_rep_rep_b64_d1024_h2048_v7x_i32_f32_1_alg».proof.Proof.Bits.Tables
import proofs.«900580_g7700000000000581_dist_mlpseq_tp1d_rep_rep_b64_d1024_h2048_v7x_i32_f32_1_alg».proof.Proof.Bits.Waits

noncomputable section

namespace Cert.Kernel.BodyRound

open Cert.Kernel Cert.Kernel.Gen Cert.Kernel.Mesh Cert.Kernel.Spec Cert.Kernel.Cells Cert.Kernel.Schedule Cert.Kernel.Ghost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-- One exchange round at a symbolic round number: layer and stage are its quotient and remainder by five. -/
theorem round (c n : Dev nD) (r : Fin 15) (r' : ℕ) (hr' : r' = r.val + 1)
    (hl : r.val / 5 < 3) (hk : r.val % 5 < 5) (hn : n = pr (r.val % 5) c)
    {sS sV : DmaSem sig} (hsS : sS = sdS) (hsV : sV = rvS (r.val / 5) (r.val % 5) hl hk)
    (w : Wire F) (hw : w = sent (inp m) (r.val / 5) (r.val % 5) c)
    {κ₁ κ₂ κ₃ : ℕ} (W : Waits sig Unit)
    (f0 : (cc0_scratch2 : Ref sig .tc).ty.Contents (Elt F))
    {hl1 : (sendM : Memref sig .tc .vmem S64x1024 .bf16).view.LoadsAt MemLemmas.r0.toLoadRect}
    {hst : ((sendM : Memref sig .tc .vmem S64x1024 .bf16).access MemLemmas.r0).Stores Finset.univ}
    {hm : (Finset.univ : Finset MemLemmas.r0.shape.Idx) = Finset.univ ∨ ∀ a, MemLemmas.r0.stride a = 1}
    {hsc : (rSlot (r.val / 5) (r.val % 5) hl hk : Memref sig (Dev.tc n : Thread nD τ).2.kind .vmem S64x1024 .bf16).view.ref.isScScratch = false}
    {hsrc : (sendM : Memref sig .tc .vmem S64x1024 .bf16).view.WordExact}
    {hdst : (rSlot (r.val / 5) (r.val % 5) hl hk : Memref sig .tc .vmem S64x1024 .bf16).view.WordExact}
    {hsem : DmaTarget.Typed .vmem (.dma sV) (.remote (Dev.tc n : Thread nD τ) (rSlot (r.val / 5) (r.val % 5) hl hk : Memref sig .tc .vmem S64x1024 .bf16) (.dma sS) hsc)}
    {hw1 : (rSlot (r.val / 5) (r.val % 5) hl hk : Memref sig .tc .vmem S64x1024 .bf16).view.WordExact}
    {hw2 : (sendM : Memref sig .tc .vmem S64x1024 .bf16).view.WordExact}
    {hw3 : (sendM : Memref sig .tc .vmem S64x1024 .bf16).view.WordExact}
    {hw4 : (rSlot (r.val / 5) (r.val % 5) hl hk : Memref sig .tc .vmem S64x1024 .bf16).view.WordExact}
    {hl2 : (recvM : Memref sig .tc .vmem S3x5x64x1024 .bf16).view.LoadsAt (MemLemmas.rRect (r.val / 5) (r.val % 5) hl hk).toLoadRect}
    {α : Type} {Q : α → sProp 𝕄}
    {kont : ((MemLemmas.rRect (r.val / 5) (r.val % 5) hl hk).toLoadRect.shape.Idx → Elt F .bf16) → Prog (TpuEff nD τ sig (Elt F) Λ₀ .tc) α} :
    iprop(cellInv ER (Rd m) κ₁ (sdCell c) ∗ cellInv ER (Rd m) κ₂ (rvOf c r) ∗ cellInv ER (Rd m) κ₃ (rvOwn c r)
        ∗ reached ER (sdCell c) r.val ∗ reached ER (rvOf c r) 0 ∗ levAts L lv
        ∗ sendPts c f0 ∗ (∃ f, rPts (pr (r.val % 5) c) ⟨r.val / 5, hl⟩ ⟨r.val % 5, hk⟩ f)
        ∗ owes (c : Thread nD τ) (oweFrom c r.val) W
        ∗ dutyTok ER (sdCell c) r.val 0 ∗ dutyTok ER (rvOf c r) 0 0
        ∗ atPos ER (sdCell c) r.val ∅ 0 ∗ atPos ER (rvOwn c r) 0 ∅ 0
        ∗ cred (tallyAt (rvOwn c r) () NR))
      ⊢ iprop((∀ f, (⌜rVal ⟨r.val / 5, hl⟩ ⟨r.val % 5, hk⟩ f = sent (inp m) (r.val / 5) (r.val % 5) (pr (r.val % 5) c)⌝
              ∗ rPts c ⟨r.val / 5, hl⟩ ⟨r.val % 5, hk⟩ f ∗ sendPts c w
              ∗ (∃ W', owes (c : Thread nD τ) (oweFrom c r') W')
              ∗ atPos ER (sdCell c) r' ∅ 0 ∗ reached ER (sdCell c) r' ∗ atPos ER (rvOwn c r) 1 ∅ 0)
            -∗ wp frame (wpE (defs₀ (F := F)) 𝒱₀ (c : Thread nD τ) none) Set.univ (kont ((recvM : Memref sig .tc .vmem S3x5x64x1024 .bf16).view.readAt (Elt F) (MemLemmas.rRect (r.val / 5) (r.val % 5) hl hk).toLoadRect f)) Q)
          -∗ wp frame (wpE (defs₀ (F := F)) 𝒱₀ (c : Thread nD τ) none) Set.univ
              (.op (.load sendM MemLemmas.r0.toLoadRect hl1) fun _ =>
               .op (.store sendM MemLemmas.r0 w Finset.univ hst hm) fun _ =>
               .op (.enqueueDma sendM (.remote (Dev.tc n : Thread nD τ) (rSlot (r.val / 5) (r.val % 5) hl hk) (.dma sS) hsc) (.dma sV) hsrc hdst hsem) fun _ =>
               .op (.waitDma2 sS (rSlot (r.val / 5) (r.val % 5) hl hk) sendM hw1 hw2) fun _ =>
               .op (.waitDma2 sV sendM (rSlot (r.val / 5) (r.val % 5) hl hk) hw3 hw4) fun _ =>
               .op (.load recvM (MemLemmas.rRect (r.val / 5) (r.val % 5) hl hk).toLoadRect hl2) kont) Q) := by
  subst hn hsS hsV hw hr'
  iintro ⟨#HI1, #HI2, #HI3, #Hr1, #Hr2, #Hlev, Hsend, ⟨%fd, Hslot⟩, HO, Ht1, Ht2, Hat1, Hat3, Hc3⟩ Hk
  -- the load of the send buffer: its value is not used
  iapply (wp_load 𝒱₀ (c : Thread nD τ) none Set.univ (m := sendM)
      (S := (sendM : Memref sig .tc .vmem S64x1024 .bf16).view.set) (View.setOn_subset_set _ _)) $$ Hsend
  iintro Hsend
  -- the store of this round's rounded running sum over the whole send buffer
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  -- the transfer into the partner's slot of this (layer, stage)
  iapply (Rounds.wp_send_pointsTo 𝒱₀ ER (Rd m) (c : Thread nD τ) none
      (c' := (pr (r.val % 5) c : Thread nD τ)) (src := sendM) (dst := rSlot (r.val / 5) (r.val % 5) hl hk)
      (fs := sent (inp m) (r.val / 5) (r.val % 5) c) (fd := fd)
      (r₁ := r.val) (r₂ := 0) (d₁ := 0) (d₂ := 0) (κ₁ := κ₁) (κ₂ := κ₂)
      (by rw [Tables.duties_sd m c r.val r.isLt]; exact Finset.mem_singleton_self _)
      (by rw [Tables.duties_rv m (pr (r.val % 5) c) (r.val / 5) (r.val % 5)]; exact Finset.mem_singleton_self _)
      () () NR (MemLemmas.rSlot_amount (r.val / 5) (r.val % 5) hl hk _)
      (Tables.amount_sd m c r.val 0) (Tables.amount_rv m (pr (r.val % 5) c) (r.val / 5) (r.val % 5) hl hk 0 0)
      (oweFrom c (r.val + 1)) (Ghost.oweFrom_peel c r.val r.isLt)
      (by rw [Tables.payload_sd]; exact .rfl)
      (by
        rw [Tables.payload_rv m (pr (r.val % 5) c) (r.val / 5) (r.val % 5) hl hk 0 0]
        unfold rvPay
        iintro H
        iexists _
        isplitl [H]; · iexact H
        ipureintro
        rw [Mesh.pr_pr]
        exact MemLemmas.read_landed (pr (r.val % 5) c) c (r.val / 5) (r.val % 5) hl hk fd _))
    $$ [Hsend Hslot HO Ht1 Ht2]
  · isplitr; · iexact HI1
    isplitr; · iexact HI2
    isplitl [Hsend]; · iexact Hsend
    isplitl [Hslot]; · iexact Hslot
    isplitl [HO]; · iexact HO
    isplitl [Ht1]; · iexact Ht1
    isplitr; · iexact Hr1
    isplitl [Ht2]; · iexact Ht2
    iexact Hr2
  iintro ⟨HcS, HO⟩
  -- the wait on the send cell: the send buffer comes back at what was sent
  iapply (Rounds.wp_wait_rest_token 𝒱₀ ER (Rd m) (c : Thread nD τ) none (κ := κ₁)
      (wpE_waitDma2_eq 𝒱₀ (c : Thread nD τ) none Set.univ) (Set.mem_univ _) ()
      (O := oweFrom c (r.val + 1)) (W := W) (R := r.val) (m := 0) (T := ∅)
      (by rw [Nat.zero_add, Tables.expect_sd m c r.val r.isLt]; rfl)) $$ [HcS HO Hat1]
  · isplitr; · iexact HI1
    isplitl [HcS]; · iexact HcS
    isplitl [HO]; · iexact HO
    isplitr
    · iapply (Waits.mayWait_low c sdS (Waits.lv_sd c) (j := 0) (oweFrom c (r.val + 1)) (Or.inr (Or.inl rfl)))
      iexact Hlev
    iexact Hat1
  iintro ⟨HO, Hat1, HrN, Hpay⟩
  ihave Hsend := (Entails.of_eq (Tables.rest_sd m c r.val r.isLt)) $$ Hpay
  -- the wait on the own receive cell: the slot comes back holding the partner's rounded running sum
  iapply (Rounds.wp_wait_rest_token 𝒱₀ ER (Rd m) (c : Thread nD τ) none (κ := κ₃)
      (wpE_waitDma2_eq 𝒱₀ (c : Thread nD τ) none Set.univ) (Set.mem_univ _) ()
      (O := oweFrom c (r.val + 1)) (W := insert (SemLoc.dma sdS, ()) W) (R := 0) (m := 0) (T := ∅)
      (by rw [Nat.zero_add, Tables.expect_rv m c (r.val / 5) (r.val % 5) hl hk]; rfl)) $$ [Hc3 HO Hat3]
  · isplitr; · iexact HI3
    isplitl [Hc3]; · iexact Hc3
    isplitl [HO]; · iexact HO
    isplitr
    · iapply (Waits.mayWait_rv c r hl hk)
      iexact Hlev
    iexact Hat3
  iintro ⟨HO, Hat3, -, Hpay⟩
  ihave Hp := (Entails.of_eq (Tables.rest_rv m c (r.val / 5) (r.val % 5) hl hk)) $$ Hpay
  unfold rvPay
  icases Hp with ⟨%f, Hslot, %hf⟩
  -- the load of the own slot through the whole receive buffer
  have hS : (recvM : Memref sig .tc .vmem S3x5x64x1024 .bf16).view.setOn (MemLemmas.rRect (r.val / 5) (r.val % 5) hl hk).toLoadRect.set
      ⊆ (rSlot (r.val / 5) (r.val % 5) hl hk).view.set := by
    have e : (rSlot (r.val / 5) (r.val % 5) hl hk).view.set
        = ((recvM : Memref sig .tc .vmem S3x5x64x1024 .bf16).view.slice (MemLemmas.rRect (r.val / 5) (r.val % 5) hl hk)).set :=
      View.set_reshape _ _
    rw [e, View.set_slice]
    exact subset_rfl
  have eS : (rPts c ⟨r.val / 5, hl⟩ ⟨r.val % 5, hk⟩ f : sProp 𝕄)
      = ((recvM : Memref sig .tc .vmem S3x5x64x1024 .bf16).view.loc (c : Thread nD τ)
          ↦[(rSlot (r.val / 5) (r.val % 5) hl hk).view.set]{fullShare} f) := rfl
  ihave Hs := (Entails.of_eq eS) $$ Hslot
  iapply (wp_load 𝒱₀ (c : Thread nD τ) none Set.univ (m := recvM)
      (S := (rSlot (r.val / 5) (r.val % 5) hl hk).view.set) (q := fullShare) (f := f) hS) $$ Hs
  iintro Hs
  ihave Hslot := (Entails.of_eq eS.symm) $$ Hs
  ispecialize Hk $$ %f
  iapply Hk
  isplitr; · ipureintro; exact hf
  isplitl [Hslot]; · iexact Hslot
  isplitl [Hsend]; · unfold sdPay; iexact Hsend
  isplitl [HO]; · iexists _; iexact HO
  isplitl [Hat1]; · iexact Hat1
  isplitl [HrN]; · iexact HrN
  iexact Hat3

#print axioms round

end Cert.Kernel.BodyRound

end
-- ==== Proof.Bits.BodyRoundOps.lean ====
import proofs.«900580_g7700000000000581_dist_mlpseq_tp1d_rep_rep_b64_d1024_h2048_v7x_i32_f32_1_alg».proof.Proof.Bits.Ghost
import proofs.«900580_g7700000000000581_dist_mlpseq_tp1d_rep_rep_b64_d1024_h2048_v7x_i32_f32_1_alg».proof.Proof.Bits.MemLemmas
import proofs.«900580_g7700000000000581_dist_mlpseq_tp1d_rep_rep_b64_d1024_h2048_v7x_i32_f32_1_alg».proof.Proof.Bits.Tables
import proofs.«900580_g7700000000000581_dist_mlpseq_tp1d_rep_rep_b64_d1024_h2048_v7x_i32_f32_1_alg».proof.Proof.Bits.Waits
import proofs.«900580_g7700000000000581_dist_mlpseq_tp1d_rep_rep_b64_d1024_h2048_v7x_i32_f32_1_alg».proof.Proof.Bits.BodyRound

noncomputable section

namespace Cert.Kernel.BodyRoundOps

open Cert.Kernel Cert.Kernel.Gen Cert.Kernel.Mesh Cert.Kernel.Spec Cert.Kernel.Cells Cert.Kernel.Schedule Cert.Kernel.Ghost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-- The transfer of round r to the partner's slot: it pays the send cell's duty of round r and the partner's receive duty. -/
theorem rsend (c n : Dev nD) (r : Fin 15) (r' : ℕ) (hr' : r' = r.val + 1)
    (l k : ℕ) (hl : l < 3) (hk : k < 5) (hlr : l = r.val / 5) (hkr : k = r.val % 5) (hn : n = pr k c)
    {sS sV : DmaSem sig} (hsS : sS = sdS) (hsV : sV = rvS l k hl hk)
    {dA : Memref sig .tc .vmem S64x1024 .bf16} (hdA : dA = rSlot l k hl hk)
    (w : Wire F) (hw : w = sent (inp m) l k c)
    {κ₁ κ₂ : ℕ} (W : Waits sig Unit)
    {hsc : (dA : Memref sig (Dev.tc n : Thread nD τ).2.kind .vmem S64x1024 .bf16).view.ref.isScScratch = false}
    {hsrc : (sendM : Memref sig .tc .vmem S64x1024 .bf16).view.WordExact}
    {hdst : dA.view.WordExact}
    {hsem : DmaTarget.Typed .vmem (.dma sV) (.remote (Dev.tc n : Thread nD τ) dA (.dma sS) hsc)}
    {α : Type} {Q : α → sProp 𝕄} {kont : PUnit → Prog (TpuEff nD τ sig (Elt F) Λ₀ .tc) α} :
    iprop(cellInv ER (Rd m) κ₁ (sdCell c) ∗ cellInv ER (Rd m) κ₂ (rvOf c r)
        ∗ reached ER (sdCell c) r.val ∗ reached ER (rvOf c r) 0
        ∗ sendPts c w ∗ (∃ f, rPts (pr k c) ⟨l, hl⟩ ⟨k, hk⟩ f)
        ∗ owes (c : Thread nD τ) (oweFrom c r.val) W
        ∗ dutyTok ER (sdCell c) r.val 0 ∗ dutyTok ER (rvOf c r) 0 0)
      ⊢ iprop(((cred (tallyAt (sdCell c) () NR) ∗ owes (c : Thread nD τ) (oweFrom c r') W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma sendM (.remote (Dev.tc n : Thread nD τ) dA (.dma sS) hsc) (.dma sV) hsrc hdst hsem) kont) Q) := by
  subst hlr hkr hr' hn hsS hsV hdA hw
  iintro ⟨#HI1, #HI2, #Hr1, #Hr2, Hsend, ⟨%fd, Hslot⟩, HO, Ht1, Ht2⟩ Hk
  iapply (Rounds.wp_send_pointsTo 𝒱₀ ER (Rd m) (c : Thread nD τ) none
      (c' := (pr (r.val % 5) c : Thread nD τ)) (src := sendM) (dst := rSlot (r.val / 5) (r.val % 5) hl hk)
      (fs := sent (inp m) (r.val / 5) (r.val % 5) c) (fd := fd)
      (r₁ := r.val) (r₂ := 0) (d₁ := 0) (d₂ := 0) (κ₁ := κ₁) (κ₂ := κ₂)
      (by rw [Tables.duties_sd m c r.val r.isLt]; exact Finset.mem_singleton_self _)
      (by rw [Tables.duties_rv m (pr (r.val % 5) c) (r.val / 5) (r.val % 5)]; exact Finset.mem_singleton_self _)
      () () NR (MemLemmas.rSlot_amount (r.val / 5) (r.val % 5) hl hk _)
      (Tables.amount_sd m c r.val 0) (Tables.amount_rv m (pr (r.val % 5) c) (r.val / 5) (r.val % 5) hl hk 0 0)
      (oweFrom c (r.val + 1)) (Ghost.oweFrom_peel c r.val r.isLt)
      (by rw [Tables.payload_sd]; exact .rfl)
      (by
        rw [Tables.payload_rv m (pr (r.val % 5) c) (r.val / 5) (r.val % 5) hl hk 0 0]
        unfold rvPay
        iintro H
        iexists _
        isplitl [H]; · iexact H
        ipureintro
        rw [Mesh.pr_pr]
        exact MemLemmas.read_landed (pr (r.val % 5) c) c (r.val / 5) (r.val % 5) hl hk fd _))
    $$ [Hsend Hslot HO Ht1 Ht2]
  · isplitr; · iexact HI1
    isplitr; · iexact HI2
    isplitl [Hsend]; · iexact Hsend
    isplitl [Hslot]; · iexact Hslot
    isplitl [HO]; · iexact HO
    isplitl [Ht1]; · iexact Ht1
    isplitr; · iexact Hr1
    isplitl [Ht2]; · iexact Ht2
    iexact Hr2
  iexact Hk

/-- The wait for the own transfer of round r: the send buffer comes back at what was sent. -/
theorem rwaitS (c n : Dev nD) (r : Fin 15) (r' : ℕ) (hr' : r' = r.val + 1)
    (l k : ℕ) (hl : l < 3) (hk : k < 5) (hlr : l = r.val / 5) (hkr : k = r.val % 5)
    {sS : DmaSem sig} (hsS : sS = sdS)
    {dB : Memref sig .tc .vmem S64x1024 .bf16}
    {κ₁ : ℕ} (W : Waits sig Unit)
    {hw1 : dB.view.WordExact} {hw2 : (sendM : Memref sig .tc .vmem S64x1024 .bf16).view.WordExact}
    {α : Type} {Q : α → sProp 𝕄} {kont : PUnit → Prog (TpuEff nD τ sig (Elt F) Λ₀ .tc) α} :
    iprop(cellInv ER (Rd m) κ₁ (sdCell c) ∗ levAts L lv
        ∗ cred (tallyAt (sdCell c) () NR) ∗ owes (c : Thread nD τ) (oweFrom c r') W
        ∗ atPos ER (sdCell c) r.val ∅ 0)
      ⊢ iprop(((sendPts c (sent (inp m) l k c) ∗ (∃ W', owes (c : Thread nD τ) (oweFrom c r') W')
              ∗ atPos ER (sdCell c) r' ∅ 0 ∗ reached ER (sdCell c) r') -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sS dB sendM hw1 hw2) kont) Q) := by
  subst hlr hkr hr' hsS
  iintro ⟨#HI1, #Hlev, HcS, HO, Hat1⟩ Hk
  iapply (Rounds.wp_wait_rest_token 𝒱₀ ER (Rd m) (c : Thread nD τ) none (κ := κ₁)
      (wpE_waitDma2_eq 𝒱₀ (c : Thread nD τ) none Set.univ) (Set.mem_univ _) ()
      (O := oweFrom c (r.val + 1)) (W := W) (R := r.val) (m := 0) (T := ∅)
      (by rw [Nat.zero_add, Tables.expect_sd m c r.val r.isLt]; rfl)) $$ [HcS HO Hat1]
  · isplitr; · iexact HI1
    isplitl [HcS]; · iexact HcS
    isplitl [HO]; · iexact HO
    isplitr
    · iapply (Waits.mayWait_low c sdS (Waits.lv_sd c) (j := 0) (oweFrom c (r.val + 1)) (Or.inr (Or.inl rfl)))
      iexact Hlev
    iexact Hat1
  iintro ⟨HO, Hat1, HrN, Hpay⟩
  ihave Hsend := (Entails.of_eq (Tables.rest_sd m c r.val r.isLt)) $$ Hpay
  iapply Hk
  isplitl [Hsend]; · unfold sdPay; iexact Hsend
  isplitl [HO]; · iexists _; iexact HO
  isplitl [Hat1]; · iexact Hat1
  iexact HrN

/-- The wait for the partner's transfer of round r: the own slot comes back holding what the partner sent. -/
theorem rwaitV (c n : Dev nD) (r : Fin 15) (r' : ℕ) (hr' : r' = r.val + 1)
    (l k : ℕ) (hl : l < 3) (hk : k < 5) (hlr : l = r.val / 5) (hkr : k = r.val % 5)
    {sV : DmaSem sig} (hsV : sV = rvS l k hl hk)
    {dC : Memref sig .tc .vmem S64x1024 .bf16}
    {κ₃ : ℕ} (W : Waits sig Unit)
    {hw3 : (sendM : Memref sig .tc .vmem S64x1024 .bf16).view.WordExact} {hw4 : dC.view.WordExact}
    {α : Type} {Q : α → sProp 𝕄} {kont : PUnit → Prog (TpuEff nD τ sig (Elt F) Λ₀ .tc) α} :
    iprop(cellInv ER (Rd m) κ₃ (rvOwn c r) ∗ levAts L lv
        ∗ cred (tallyAt (rvOwn c r) () NR) ∗ owes (c : Thread nD τ) (oweFrom c r') W
        ∗ atPos ER (rvOwn c r) 0 ∅ 0)
      ⊢ iprop((((∃ f, rPts c ⟨l, hl⟩ ⟨k, hk⟩ f ∗ ⌜rVal ⟨l, hl⟩ ⟨k, hk⟩ f = sent (inp m) l k (pr k c)⌝)
              ∗ (∃ W', owes (c : Thread nD τ) (oweFrom c r') W')
              ∗ atPos ER (rvOwn c r) 1 ∅ 0) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sV sendM dC hw3 hw4) kont) Q) := by
  subst hlr hkr hr' hsV
  iintro ⟨#HI3, #Hlev, Hc3, HO, Hat3⟩ Hk
  iapply (Rounds.wp_wait_rest_token 𝒱₀ ER (Rd m) (c : Thread nD τ) none (κ := κ₃)
      (wpE_waitDma2_eq 𝒱₀ (c : Thread nD τ) none Set.univ) (Set.mem_univ _) ()
      (O := oweFrom c (r.val + 1)) (W := W) (R := 0) (m := 0) (T := ∅)
      (by rw [Nat.zero_add, Tables.expect_rv m c (r.val / 5) (r.val % 5) hl hk]; rfl)) $$ [Hc3 HO Hat3]
  · isplitr; · iexact HI3
    isplitl [Hc3]; · iexact Hc3
    isplitl [HO]; · iexact HO
    isplitr
    · iapply (Waits.mayWait_rv c r hl hk)
      iexact Hlev
    iexact Hat3
  iintro ⟨HO, Hat3, -, Hpay⟩
  ihave Hp := (Entails.of_eq (Tables.rest_rv m c (r.val / 5) (r.val % 5) hl hk)) $$ Hpay
  unfold rvPay
  icases Hp with ⟨%f, Hslot, %hf⟩
  iapply Hk
  isplitl [Hslot]
  · iexists f
    isplitl [Hslot]; · iexact Hslot
    ipureintro; exact hf
  isplitl [HO]; · iexists _; iexact HO
  iexact Hat3

/-- The load of the own slot (l, k) through the whole receive buffer. -/
theorem rload (c : Dev nD) (l k : ℕ) (hl : l < 3) (hk : k < 5)
    {lr : LoadRect S3x5x64x1024} (hlrr : lr = (MemLemmas.rRect l k hl hk).toLoadRect)
    (f : (cc0_scratch3 : Ref sig .tc).ty.Contents (Elt F))
    {hl2 : (recvM : Memref sig .tc .vmem S3x5x64x1024 .bf16).view.LoadsAt lr}
    {α : Type} {Q : α → sProp 𝕄}
    {kont : (lr.shape.Idx → Elt F .bf16) → Prog (TpuEff nD τ sig (Elt F) Λ₀ .tc) α} :
    (rPts c ⟨l, hl⟩ ⟨k, hk⟩ f : sProp 𝕄)
      ⊢ iprop((rPts c ⟨l, hl⟩ ⟨k, hk⟩ f -∗ wp frame (wpE (defs₀ (F := F)) 𝒱₀ (c : Thread nD τ) none) Set.univ (kont ((recvM : Memref sig .tc .vmem S3x5x64x1024 .bf16).view.readAt (Elt F) lr f)) Q)
          -∗ wp frame (wpE (defs₀ (F := F)) 𝒱₀ (c : Thread nD τ) none) Set.univ (.op (.load recvM lr hl2) kont) Q) := by
  subst hlrr
  have hS : (recvM : Memref sig .tc .vmem S3x5x64x1024 .bf16).view.setOn (MemLemmas.rRect l k hl hk).toLoadRect.set
      ⊆ (rSlot l k hl hk).view.set := by
    have e : (rSlot l k hl hk).view.set
        = ((recvM : Memref sig .tc .vmem S3x5x64x1024 .bf16).view.slice (MemLemmas.rRect l k hl hk)).set :=
      View.set_reshape _ _
    rw [e, View.set_slice]
    exact subset_rfl
  have eS : (rPts c ⟨l, hl⟩ ⟨k, hk⟩ f : sProp 𝕄)
      = ((recvM : Memref sig .tc .vmem S3x5x64x1024 .bf16).view.loc (c : Thread nD τ)
          ↦[(rSlot l k hl hk).view.set]{fullShare} f) := rfl
  iintro Hslot Hk
  ihave Hs := (Entails.of_eq eS) $$ Hslot
  iapply (wp_load 𝒱₀ (c : Thread nD τ) none Set.univ (m := recvM)
      (S := (rSlot l k hl hk).view.set) (q := fullShare) (f := f) hS) $$ Hs
  iintro Hs
  ihave Hslot := (Entails.of_eq eS.symm) $$ Hs
  iapply Hk
  iexact Hslot
#print axioms rsend
#print axioms rwaitS
#print axioms rwaitV
#print axioms rload

end Cert.Kernel.BodyRoundOps

end
-- ==== Proof.Bits.BodyWeights.lean ====
import proofs.«900580_g7700000000000581_dist_mlpseq_tp1d_rep_rep_b64_d1024_h2048_v7x_i32_f32_1_alg».proof.Proof.Bits.Ghost
import proofs.«900580_g7700000000000581_dist_mlpseq_tp1d_rep_rep_b64_d1024_h2048_v7x_i32_f32_1_alg».proof.Proof.Bits.MemLemmas
import proofs.«900580_g7700000000000581_dist_mlpseq_tp1d_rep_rep_b64_d1024_h2048_v7x_i32_f32_1_alg».proof.Proof.Bits.Tables
import proofs.«900580_g7700000000000581_dist_mlpseq_tp1d_rep_rep_b64_d1024_h2048_v7x_i32_f32_1_alg».proof.Proof.Bits.Waits

noncomputable section

namespace Cert.Kernel.BodyWeights

open Cert.Kernel Cert.Kernel.Gen Cert.Kernel.Mesh Cert.Kernel.Spec Cert.Kernel.Cells Cert.Kernel.Schedule Cert.Kernel.Ghost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] Tables.duties_cp Tables.amount_cp0 Tables.amount_cp1 Tables.expect_cp0 Tables.expect_cp1 Tables.payload_cp

/-- A layer's two weight copies awaited and the two weight slots loaded. -/
theorem waitw (c : Dev nD) (l : Fin 3) (O : CellTallies nD τ sig Unit) {j n : ℕ}
    (hO : O = oweSig c j ∨ O = oweFrom c n ∨ O = 0)
    {s1 s2 : DmaSem sig} (hs1 : s1 = cpS l.val 0 l.isLt Nat.zero_lt_two) (hs2 : s2 = cpS l.val 1 l.isLt Nat.one_lt_two)
    {κ₁ κ₂ : ℕ} (W : Waits sig Unit)
    {src1 : Memref sig .tc .hbm S1024x2048 .f32} {src2 : Memref sig .tc .hbm S2048x1024 .f32}
    {ha1 : src1.view.WordExact} {ha2 : (w1Slot (l.val % 2) (Nat.mod_lt _ Nat.zero_lt_two)).view.WordExact}
    {hb1 : src2.view.WordExact} {hb2 : (w2Slot (l.val % 2) (Nat.mod_lt _ Nat.zero_lt_two)).view.WordExact}
    {hl1 : (winM : Memref sig .tc .vmem S2x1024x2048 .f32).view.LoadsAt (MemLemmas.w1Rect (l.val % 2) (Nat.mod_lt _ Nat.zero_lt_two)).toLoadRect}
    {hl2 : (woutM : Memref sig .tc .vmem S2x2048x1024 .f32).view.LoadsAt (MemLemmas.w2Rect (l.val % 2) (Nat.mod_lt _ Nat.zero_lt_two)).toLoadRect}
    {α : Type} {Q : α → sProp 𝕄}
    {kont : ((MemLemmas.w1Rect (l.val % 2) (Nat.mod_lt _ Nat.zero_lt_two)).toLoadRect.shape.Idx → Elt F .f32)
      → ((MemLemmas.w2Rect (l.val % 2) (Nat.mod_lt _ Nat.zero_lt_two)).toLoadRect.shape.Idx → Elt F .f32) → Prog (TpuEff nD τ sig (Elt F) Λ₀ .tc) α} :
    iprop(cellInv ER (Rd m) κ₁ (cpCell c l.val 0 l.isLt Nat.zero_lt_two) ∗ cellInv ER (Rd m) κ₂ (cpCell c l.val 1 l.isLt Nat.one_lt_two) ∗ levAts L lv
        ∗ cred (tallyAt (cpCell c l.val 0 l.isLt Nat.zero_lt_two) () NW1) ∗ cred (tallyAt (cpCell c l.val 1 l.isLt Nat.one_lt_two) () NW2)
        ∗ owes (c : Thread nD τ) O W
        ∗ atPos ER (cpCell c l.val 0 l.isLt Nat.zero_lt_two) 0 ∅ 0 ∗ atPos ER (cpCell c l.val 1 l.isLt Nat.one_lt_two) 0 ∅ 0)
      ⊢ iprop((∀ f1 f2, (⌜w1Val ⟨l.val % 2, Nat.mod_lt _ Nat.zero_lt_two⟩ f1 = (inp m).w1 l.val c⌝ ∗ ⌜w2Val ⟨l.val % 2, Nat.mod_lt _ Nat.zero_lt_two⟩ f2 = (inp m).w2 l.val c⌝
              ∗ w1Pts c ⟨l.val % 2, Nat.mod_lt _ Nat.zero_lt_two⟩ f1 ∗ w2Pts c ⟨l.val % 2, Nat.mod_lt _ Nat.zero_lt_two⟩ f2
              ∗ hbmPts m c (w1Ref l) ∗ hbmPts m c (w2Ref l)
              ∗ (∃ W', owes (c : Thread nD τ) O W')
              ∗ atPos ER (cpCell c l.val 0 l.isLt Nat.zero_lt_two) 1 ∅ 0 ∗ atPos ER (cpCell c l.val 1 l.isLt Nat.one_lt_two) 1 ∅ 0)
            -∗ wp frame (wpE (defs₀ (F := F)) 𝒱₀ (c : Thread nD τ) none) Set.univ (kont ((winM : Memref sig .tc .vmem S2x1024x2048 .f32).view.readAt (Elt F) (MemLemmas.w1Rect (l.val % 2) (Nat.mod_lt _ Nat.zero_lt_two)).toLoadRect f1)
                  ((woutM : Memref sig .tc .vmem S2x2048x1024 .f32).view.readAt (Elt F) (MemLemmas.w2Rect (l.val % 2) (Nat.mod_lt _ Nat.zero_lt_two)).toLoadRect f2)) Q)
          -∗ wp frame (wpE (defs₀ (F := F)) 𝒱₀ (c : Thread nD τ) none) Set.univ
              (.op (.waitDma2 s1 src1 (w1Slot (l.val % 2) (Nat.mod_lt _ Nat.zero_lt_two)) ha1 ha2) fun _ =>
               .op (.load winM (MemLemmas.w1Rect (l.val % 2) (Nat.mod_lt _ Nat.zero_lt_two)).toLoadRect hl1) fun v1 =>
               .op (.waitDma2 s2 src2 (w2Slot (l.val % 2) (Nat.mod_lt _ Nat.zero_lt_two)) hb1 hb2) fun _ =>
               .op (.load woutM (MemLemmas.w2Rect (l.val % 2) (Nat.mod_lt _ Nat.zero_lt_two)).toLoadRect hl2) fun v2 => kont v1 v2) Q) := by
  subst hs1 hs2
  have hmw1 := Waits.mayWait_low (F := F) c _ (Waits.lv_cp c l.val 0 l.isLt Nat.zero_lt_two) O hO
  have hmw2 := Waits.mayWait_low (F := F) c _ (Waits.lv_cp c l.val 1 l.isLt Nat.one_lt_two) O hO
  have hS1 : (winM : Memref sig .tc .vmem S2x1024x2048 .f32).view.setOn (MemLemmas.w1Rect (l.val % 2) (Nat.mod_lt _ Nat.zero_lt_two)).toLoadRect.set
      ⊆ (w1Slot (l.val % 2) (Nat.mod_lt _ Nat.zero_lt_two)).view.set := by
    apply Memref.setOn_subset_of_access_subset (c := (c : Thread nD τ))
    exact subset_of_eq ((View.set_slice_whole cc0_scratch0 _).trans (MemLemmas.w1SlotSet_eq _ _).symm)
  have hS2 : (woutM : Memref sig .tc .vmem S2x2048x1024 .f32).view.setOn (MemLemmas.w2Rect (l.val % 2) (Nat.mod_lt _ Nat.zero_lt_two)).toLoadRect.set
      ⊆ (w2Slot (l.val % 2) (Nat.mod_lt _ Nat.zero_lt_two)).view.set := by
    apply Memref.setOn_subset_of_access_subset (c := (c : Thread nD τ))
    exact subset_of_eq ((View.set_slice_whole cc0_scratch1 _).trans (MemLemmas.w2SlotSet_eq _ _).symm)
  iintro ⟨#HI1, #HI2, #Hlev, Hc1, Hc2, HO, Hat1, Hat2⟩ Hk
  sl_exec
  unfold cpPay
  icases Hat1_pay1 with ⟨⟨%f1, Hw1, %hf1⟩, Hh1⟩
  sl_exec
  unfold cpPay
  icases Hat2_pay1 with ⟨⟨%f2, Hw2, %hf2⟩, Hh2⟩
  sl_exec
  unfold waitw.sl.v1 waitw.sl.v2
  iapply Hk
  isplitr; · ipureintro; exact hf1
  isplitr; · ipureintro; exact hf2
  isplitl [Hw1]; · iexact Hw1
  isplitl [Hw2]; · iexact Hw2
  isplitl [Hh1]; · iexact Hh1
  isplitl [Hh2]; · iexact Hh2
  isplitl [HO]; · iexists _; iexact HO
  isplitl [Hat1]; · iexact Hat1
  iexact Hat2

/-- The two weight copies of layer l started, from any two source arrays held whole: each pays its copy cell's one duty,
    given that the landed slot with the source back makes the cell's payload. -/
theorem copy2 (c : Dev nD) (l : Fin 3)
    {s1 s2 : DmaSem sig} (hs1 : s1 = cpS l.val 0 l.isLt Nat.zero_lt_two) (hs2 : s2 = cpS l.val 1 l.isLt Nat.one_lt_two)
    {κ₁ κ₂ : ℕ}
    {src1 : Memref sig .tc .hbm S1024x2048 .f32} {src2 : Memref sig .tc .hbm S2048x1024 .f32}
    (fs1 : Buf (Elt F) (src1.view.loc (c : Thread nD τ))) (fs2 : Buf (Elt F) (src2.view.loc (c : Thread nD τ)))
    (fd1 : (cc0_scratch0 : Ref sig .tc).ty.Contents (Elt F)) (fd2 : (cc0_scratch1 : Ref sig .tc).ty.Contents (Elt F))
    (hp1 : iprop(w1Pts c ⟨l.val % 2, Nat.mod_lt _ Nat.zero_lt_two⟩ ((w1Slot (l.val % 2) (Nat.mod_lt _ Nat.zero_lt_two)).view.write (Elt F) fd1 (src1.view.read (Elt F) fs1) Finset.univ)
        ∗ (src1.view.loc (c : Thread nD τ) ↦[src1.view.set]{fullShare} fs1)) ⊢ cpPay m c l 0)
    (hp2 : iprop(w2Pts c ⟨l.val % 2, Nat.mod_lt _ Nat.zero_lt_two⟩ ((w2Slot (l.val % 2) (Nat.mod_lt _ Nat.zero_lt_two)).view.write (Elt F) fd2 (src2.view.read (Elt F) fs2) Finset.univ)
        ∗ (src2.view.loc (c : Thread nD τ) ↦[src2.view.set]{fullShare} fs2)) ⊢ cpPay m c l 1)
    {ha1 : src1.view.WordExact} {ha2 : (w1Slot (l.val % 2) (Nat.mod_lt _ Nat.zero_lt_two)).view.WordExact}
    {ha3 : DmaTarget.Typed (nD := nD) (τ := τ) .hbm (.dma s1) (DmaTarget.here (p := (Proc.tc : Proc τ)) (w1Slot (l.val % 2) (Nat.mod_lt _ Nat.zero_lt_two)))}
    {hb1 : src2.view.WordExact} {hb2 : (w2Slot (l.val % 2) (Nat.mod_lt _ Nat.zero_lt_two)).view.WordExact}
    {hb3 : DmaTarget.Typed (nD := nD) (τ := τ) .hbm (.dma s2) (DmaTarget.here (p := (Proc.tc : Proc τ)) (w2Slot (l.val % 2) (Nat.mod_lt _ Nat.zero_lt_two)))}
    {α : Type} {Q : α → sProp 𝕄} {kont : PUnit → Prog (TpuEff nD τ sig (Elt F) Λ₀ .tc) α} :
    iprop(cellInv ER (Rd m) κ₁ (cpCell c l.val 0 l.isLt Nat.zero_lt_two) ∗ cellInv ER (Rd m) κ₂ (cpCell c l.val 1 l.isLt Nat.one_lt_two)
        ∗ reached ER (cpCell c l.val 0 l.isLt Nat.zero_lt_two) 0 ∗ reached ER (cpCell c l.val 1 l.isLt Nat.one_lt_two) 0
        ∗ dutyTok ER (cpCell c l.val 0 l.isLt Nat.zero_lt_two) 0 0 ∗ dutyTok ER (cpCell c l.val 1 l.isLt Nat.one_lt_two) 0 0
        ∗ (src1.view.loc (c : Thread nD τ) ↦[src1.view.set]{fullShare} fs1) ∗ (src2.view.loc (c : Thread nD τ) ↦[src2.view.set]{fullShare} fs2)
        ∗ w1Pts c ⟨l.val % 2, Nat.mod_lt _ Nat.zero_lt_two⟩ fd1 ∗ w2Pts c ⟨l.val % 2, Nat.mod_lt _ Nat.zero_lt_two⟩ fd2)
      ⊢ iprop(((cred (tallyAt (cpCell c l.val 0 l.isLt Nat.zero_lt_two) () NW1) ∗ cred (tallyAt (cpCell c l.val 1 l.isLt Nat.one_lt_two) () NW2)) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma src1 (.here (w1Slot (l.val % 2) (Nat.mod_lt _ Nat.zero_lt_two))) (.dma s1) ha1 ha2 ha3) fun _ =>
               .op (.enqueueDma src2 (.here (w2Slot (l.val % 2) (Nat.mod_lt _ Nat.zero_lt_two))) (.dma s2) hb1 hb2 hb3) kont) Q) := by
  subst hs1 hs2
  iintro ⟨#HI1, #HI2, #Hr1, #Hr2, Ht1, Ht2, Hs1, Hs2, Hd1, Hd2⟩ Hk
  iapply (Rounds.wp_copy_pointsTo 𝒱₀ ER (Rd m) (c : Thread nD τ) none (κ := κ₁) (r := 0) (d := 0) (fs := fs1) (fd := fd1)
      (by rw [Tables.duties_cp]; exact Finset.mem_singleton_self _) () NW1 (MemLemmas.w1Slot_amount _ _ _)
      (Tables.amount_cp0 m c l.val l.isLt 0 0)
      (by rw [Tables.payload_cp]; exact hp1)) $$ [Hs1 Hd1 Ht1]
  · isplitr; · iexact HI1
    isplitl [Hs1]; · iexact Hs1
    isplitl [Hd1]; · iexact Hd1
    isplitl [Ht1]; · iexact Ht1
    iexact Hr1
  iintro Hc1
  iapply (Rounds.wp_copy_pointsTo 𝒱₀ ER (Rd m) (c : Thread nD τ) none (κ := κ₂) (r := 0) (d := 0) (fs := fs2) (fd := fd2)
      (by rw [Tables.duties_cp]; exact Finset.mem_singleton_self _) () NW2 (MemLemmas.w2Slot_amount _ _ _)
      (Tables.amount_cp1 m c l.val l.isLt 0 0)
      (by rw [Tables.payload_cp]; exact hp2)) $$ [Hs2 Hd2 Ht2]
  · isplitr; · iexact HI2
    isplitl [Hs2]; · iexact Hs2
    isplitl [Hd2]; · iexact Hd2
    isplitl [Ht2]; · iexact Ht2
    iexact Hr2
  iintro Hc2
  iapply Hk
  isplitl [Hc1]; · iexact Hc1
  iexact Hc2

/-- Layer 0: the landed first-weight slot with its source array back is the first copy cell's payload. -/
theorem cpPay_w1_0 (c : Dev nD) (fd : (cc0_scratch0 : Ref sig .tc).ty.Contents (Elt F)) :
    iprop(w1Pts c ⟨0 % 2, Nat.mod_lt _ Nat.zero_lt_two⟩ ((w1Slot (0 % 2) (Nat.mod_lt _ Nat.zero_lt_two)).view.write (Elt F) fd
          ((Memref.whole main_arg1 : Memref sig .tc .hbm S1024x2048 .f32).view.read (Elt F) (m ((c : Thread nD τ).loc main_arg1))) Finset.univ)
        ∗ hbmPts m c main_arg1) ⊢ cpPay m c 0 0 := by
  unfold cpPay
  iintro ⟨H1, H2⟩
  isplitl [H1]
  · iexists _
    isplitl [H1]
    · iexact H1
    · ipureintro
      exact MemLemmas.w1Val_landed_arg1 c 0 (by decide) fd _
  · iexact H2

/-- Layer 0: the same for the second weight. -/
theorem cpPay_w2_0 (c : Dev nD) (fd : (cc0_scratch1 : Ref sig .tc).ty.Contents (Elt F)) :
    iprop(w2Pts c ⟨0 % 2, Nat.mod_lt _ Nat.zero_lt_two⟩ ((w2Slot (0 % 2) (Nat.mod_lt _ Nat.zero_lt_two)).view.write (Elt F) fd
          ((Memref.whole main_arg2 : Memref sig .tc .hbm S2048x1024 .f32).view.read (Elt F) (m ((c : Thread nD τ).loc main_arg2))) Finset.univ)
        ∗ hbmPts m c main_arg2) ⊢ cpPay m c 0 1 := by
  unfold cpPay
  iintro ⟨H1, H2⟩
  isplitl [H1]
  · iexists _
    isplitl [H1]
    · iexact H1
    · ipureintro
      exact MemLemmas.w2Val_landed_arg2 c 0 (by decide) fd _
  · iexact H2

/-- Layer 1: the landed first-weight slot with its source array back is the first copy cell's payload. -/
theorem cpPay_w1_1 (c : Dev nD) (fd : (cc0_scratch0 : Ref sig .tc).ty.Contents (Elt F)) :
    iprop(w1Pts c ⟨1 % 2, Nat.mod_lt _ Nat.zero_lt_two⟩ ((w1Slot (1 % 2) (Nat.mod_lt _ Nat.zero_lt_two)).view.write (Elt F) fd
          ((Memref.whole main_arg3 : Memref sig .tc .hbm S1024x2048 .f32).view.read (Elt F) (m ((c : Thread nD τ).loc main_arg3))) Finset.univ)
        ∗ hbmPts m c main_arg3) ⊢ cpPay m c 1 0 := by
  unfold cpPay
  iintro ⟨H1, H2⟩
  isplitl [H1]
  · iexists _
    isplitl [H1]
    · iexact H1
    · ipureintro
      exact MemLemmas.w1Val_landed_arg3 c 1 (by decide) fd _
  · iexact H2

/-- Layer 1: the same for the second weight. -/
theorem cpPay_w2_1 (c : Dev nD) (fd : (cc0_scratch1 : Ref sig .tc).ty.Contents (Elt F)) :
    iprop(w2Pts c ⟨1 % 2, Nat.mod_lt _ Nat.zero_lt_two⟩ ((w2Slot (1 % 2) (Nat.mod_lt _ Nat.zero_lt_two)).view.write (Elt F) fd
          ((Memref.whole main_arg4 : Memref sig .tc .hbm S2048x1024 .f32).view.read (Elt F) (m ((c : Thread nD τ).loc main_arg4))) Finset.univ)
        ∗ hbmPts m c main_arg4) ⊢ cpPay m c 1 1 := by
  unfold cpPay
  iintro ⟨H1, H2⟩
  isplitl [H1]
  · iexists _
    isplitl [H1]
    · iexact H1
    · ipureintro
      exact MemLemmas.w2Val_landed_arg4 c 1 (by decide) fd _
  · iexact H2

/-- Layer 2: the landed first-weight slot with its source array back is the first copy cell's payload. -/
theorem cpPay_w1_2 (c : Dev nD) (fd : (cc0_scratch0 : Ref sig .tc).ty.Contents (Elt F)) :
    iprop(w1Pts c ⟨2 % 2, Nat.mod_lt _ Nat.zero_lt_two⟩ ((w1Slot (2 % 2) (Nat.mod_lt _ Nat.zero_lt_two)).view.write (Elt F) fd
          ((Memref.whole main_arg5 : Memref sig .tc .hbm S1024x2048 .f32).view.read (Elt F) (m ((c : Thread nD τ).loc main_arg5))) Finset.univ)
        ∗ hbmPts m c main_arg5) ⊢ cpPay m c 2 0 := by
  unfold cpPay
  iintro ⟨H1, H2⟩
  isplitl [H1]
  · iexists _
    isplitl [H1]
    · iexact H1
    · ipureintro
      exact MemLemmas.w1Val_landed_arg5 c 0 (by decide) fd _
  · iexact H2

/-- Layer 2: the same for the second weight. -/
theorem cpPay_w2_2 (c : Dev nD) (fd : (cc0_scratch1 : Ref sig .tc).ty.Contents (Elt F)) :
    iprop(w2Pts c ⟨2 % 2, Nat.mod_lt _ Nat.zero_lt_two⟩ ((w2Slot (2 % 2) (Nat.mod_lt _ Nat.zero_lt_two)).view.write (Elt F) fd
          ((Memref.whole main_arg6 : Memref sig .tc .hbm S2048x1024 .f32).view.read (Elt F) (m ((c : Thread nD τ).loc main_arg6))) Finset.univ)
        ∗ hbmPts m c main_arg6) ⊢ cpPay m c 2 1 := by
  unfold cpPay
  iintro ⟨H1, H2⟩
  isplitl [H1]
  · iexists _
    isplitl [H1]
    · iexact H1
    · ipureintro
      exact MemLemmas.w2Val_landed_arg6 c 0 (by decide) fd _
  · iexact H2

#print axioms waitw
#print axioms copy2
#print axioms cpPay_w1_0
#print axioms cpPay_w2_0
#print axioms cpPay_w1_1
#print axioms cpPay_w2_1
#print axioms cpPay_w1_2
#print axioms cpPay_w2_2

end Cert.Kernel.BodyWeights

end
-- ==== Proof.Bits.BodyEntry.lean ====
import proofs.«900580_g7700000000000581_dist_mlpseq_tp1d_rep_rep_b64_d1024_h2048_v7x_i32_f32_1_alg».proof.Proof.Bits.Ghost
import proofs.«900580_g7700000000000581_dist_mlpseq_tp1d_rep_rep_b64_d1024_h2048_v7x_i32_f32_1_alg».proof.Proof.Bits.MemLemmas
import proofs.«900580_g7700000000000581_dist_mlpseq_tp1d_rep_rep_b64_d1024_h2048_v7x_i32_f32_1_alg».proof.Proof.Bits.Tables
import proofs.«900580_g7700000000000581_dist_mlpseq_tp1d_rep_rep_b64_d1024_h2048_v7x_i32_f32_1_alg».proof.Proof.Bits.Waits

noncomputable section

namespace Cert.Kernel.BodyEntry

open Cert.Kernel Cert.Kernel.Gen Cert.Kernel.Mesh Cert.Kernel.Spec Cert.Kernel.Cells Cert.Kernel.Schedule Cert.Kernel.Ghost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-- What the entry signal to the partner of stage `k` carries: the partner's partner is the device itself, so the
    three slots are the device's own. -/
theorem payload_bar_pr (c : Dev nD) (k : Fin 5) (r : ℕ) :
    (Rd (F := F) m).payload (barCell (pr k.val c)) r k
      = iprop((∃ f, rPts (F := F) c 0 k f) ∗ (∃ f, rPts (F := F) c 1 k f) ∗ (∃ f, rPts (F := F) c 2 k f)) := by
  rw [Tables.payload_bar]; unfold barPay; rw [Mesh.pr_pr]

/-- The five partners' payloads, in stage order. -/
theorem univBar (c : Dev nD) :
    bigSep (Finset.univ : Finset (Fin 5)) (fun d => barPay (F := F) c d)
      = iprop(barPay (F := F) c 0 ∗ barPay (F := F) c 1 ∗ barPay (F := F) c 2 ∗ barPay (F := F) c 3 ∗ barPay (F := F) c 4) :=
  (bigSep_univ_eq_bigSepL [(0 : Fin 5), 1, 2, 3, 4] (by decide) (by decide) (fun d => barPay (F := F) c d)).trans rfl

section
attribute [local sl_rounds] Tables.duties_bar Tables.amount_bar payload_bar_pr

/-- The entry signal to the partner of stage k: it hands over the three receive slots kept for that partner. -/
theorem signal1 (c n : Dev nD) (k : Fin 5) (hn : n = pr k.val c) (a : ℕ) (ha : a = 1)
    {sB : Sem sig} (hsB : sB = barS) {κ : ℕ} (W : Waits sig Unit)
    (f0 f1 f2 : (cc0_scratch3 : Ref sig .tc).ty.Contents (Elt F))
    {α : Type} {Q : α → sProp 𝕄} {kont : PUnit → Prog (TpuEff nD τ sig (Elt F) Λ₀ .tc) α} :
    iprop(cellInv ER (Rd m) κ (barCell (pr k.val c)) ∗ reached ER (barCell (pr k.val c)) 0
        ∗ dutyTok ER (barCell (pr k.val c)) 0 k
        ∗ owes (c : Thread nD τ) (oweSig c k.val) W
        ∗ rPts c 0 k f0 ∗ rPts c 1 k f1 ∗ rPts c 2 k f2)
      ⊢ iprop((owes (c : Thread nD τ) (oweSig c (k.val + 1)) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal ((n : Dev nD) : Thread nD τ) sB a) kont) Q) := by
  subst hn ha hsB
  rw [Ghost.oweSig_peel c k.val k.isLt]
  iintro ⟨#HI, #Hr, Htok, HO, H0, H1, H2⟩ Hk
  sl_exec
  iapply Hk
  iexact HO
end

section
attribute [local sl_rounds] Tables.duties_bar Tables.amount_bar Tables.payload_bar Tables.expect_bar

/-- The wait for the five partners' entry signals: each partner's three slots of its stage come with it. -/
theorem barwait (c : Dev nD) (a : ℕ) (ha : a = 5) {sB : Sem sig} (hsB : sB = barS) {κ : ℕ} (W : Waits sig Unit)
    {α : Type} {Q : α → sProp 𝕄} {kont : PUnit → Prog (TpuEff nD τ sig (Elt F) Λ₀ .tc) α} :
    iprop(cellInv ER (Rd m) κ (barCell c) ∗ levAts L lv ∗ cred (tallyAt (barCell c) () 5)
        ∗ owes (c : Thread nD τ) (oweFrom c 0) W ∗ atPos ER (barCell c) 0 ∅ 0)
      ⊢ iprop((((∃ W', owes (c : Thread nD τ) (oweFrom c 0) W') ∗ atPos ER (barCell c) 1 ∅ 0
              ∗ barPay (F := F) c 0 ∗ barPay (F := F) c 1 ∗ barPay (F := F) c 2 ∗ barPay (F := F) c 3 ∗ barPay (F := F) c 4) -∗ wp frame (wpE (defs₀ (F := F)) 𝒱₀ (c : Thread nD τ) none) Set.univ (kont ⟨⟩) Q)
          -∗ wp frame (wpE (defs₀ (F := F)) 𝒱₀ (c : Thread nD τ) none) Set.univ (.op (.semWait sB a) kont) Q) := by
  subst ha hsB
  iintro ⟨#HI, #Hlev, Hc, HO, Hat⟩ Hk
  have hmw := Waits.mayWait_bar (F := F) c
  sl_exec
  ihave Hp := (Entails.of_eq (univBar c)) $$ Hat_pay1
  icases Hp with ⟨P0, P1, P2, P3, P4⟩
  iapply Hk
  isplitl [HO]; · iexists _; iexact HO
  isplitl [Hat]; · iexact Hat
  isplitl [P0]; · iexact P0
  isplitl [P1]; · iexact P1
  isplitl [P2]; · iexact P2
  isplitl [P3]; · iexact P3
  iexact P4
end

#print axioms signal1
#print axioms barwait

end Cert.Kernel.BodyEntry

end
-- ==== Proof.Bits.Payloads.lean ====
import proofs.«900580_g7700000000000581_dist_mlpseq_tp1d_rep_rep_b64_d1024_h2048_v7x_i32_f32_1_alg».proof.Proof.Bits.Spec

/-!
# The body's pure values in canonical form

Each value the body computes is one of four functions of the specification, applied to the values read
before it: a layer's partial sum, its hidden activations, a rounding to the wire format, or the sum with a
received slot.  A loaded receive slot and the loaded weight blocks enter through the cast that drops their
leading unit axes; a cast to the same shape is the identity.  All equations are generic in the float instance
and read from the body's name on the left to the canonical form on the right.
-/

noncomputable section

namespace Cert.Kernel.Payloads

open Idealize.ShloMosaic Cert.Kernel Cert.Kernel.Gen Cert.Kernel.Spec

variable {F : FTy → Type} [FloatOps F]

/-- A cast to the same shape is the identity: the re-indexing of a shape onto itself fixes every index. -/
theorem shapeCast_same {s : Shape} {α : Type} (v : s.Idx → α) (h : s.ShapeCasts s) : shapeCast s v h = v := by
  funext i
  unfold shapeCast
  rw [Shape.reshapeEquiv_self]

/-- A loaded receive slot, its two leading unit axes dropped. -/
local notation "R⟨" r "⟩" => shapeCast S64x1024 r shapeCasts_S1x1x64x1024_S64x1024
/-- A loaded first weight block, its leading unit axis dropped. -/
local notation "W₁⟨" w "⟩" => shapeCast S1024x2048 w shapeCasts_S1x1024x2048_S1024x2048
/-- A loaded second weight block, its leading unit axis dropped. -/
local notation "W₂⟨" w "⟩" => shapeCast S2048x1024 w shapeCasts_S1x2048x1024_S2048x1024

/-! ## Layer 0 -/

theorem pay1_eq (x : Vec F S64x1024 .f32) (w1 : Vec F S1x1024x2048 .f32) (w2 : Vec F S1x2048x1024 .f32) :
    k0_pay1 x w1 w2 = mlp x W₁⟨w1⟩ W₂⟨w2⟩ := by
  have h : k0_pay1 x w1 w2 = mlp (shapeCast S64x1024 x shapeCasts_S64x1024_S64x1024) W₁⟨w1⟩ W₂⟨w2⟩ := rfl
  rw [h, shapeCast_same]

theorem pay2_eq (a : FVec F S64x1024 .f32) : k0_pay2 a = toWire a := by
  simp only [k0_pay2, toWire, shapeCast_same]

theorem pay3_eq (a : FVec F S64x1024 .f32) (r : Vec F S1x1x64x1024 .bf16) :
    k0_pay3 a r = addWire a R⟨r⟩ := rfl

theorem pay4_eq (a : FVec F S64x1024 .f32) (r : Vec F S1x1x64x1024 .bf16) :
    k0_pay4 a r = toWire (addWire a R⟨r⟩) := by
  simp only [k0_pay4, pay3_eq, toWire, shapeCast_same]

theorem pay5_eq (a : FVec F S64x1024 .f32) (r : Vec F S1x1x64x1024 .bf16) :
    k0_pay5 a r = addWire a R⟨r⟩ := rfl

theorem pay6_eq (a : FVec F S64x1024 .f32) (r : Vec F S1x1x64x1024 .bf16) :
    k0_pay6 a r = toWire (addWire a R⟨r⟩) := by
  simp only [k0_pay6, pay5_eq, toWire, shapeCast_same]

theorem pay7_eq (a : FVec F S64x1024 .f32) (r : Vec F S1x1x64x1024 .bf16) :
    k0_pay7 a r = addWire a R⟨r⟩ := rfl

theorem pay8_eq (a : FVec F S64x1024 .f32) (r : Vec F S1x1x64x1024 .bf16) :
    k0_pay8 a r = toWire (addWire a R⟨r⟩) := by
  simp only [k0_pay8, pay7_eq, toWire, shapeCast_same]

theorem pay9_eq (a : FVec F S64x1024 .f32) (r r' : Vec F S1x1x64x1024 .bf16) :
    k0_pay9 a r r' = addWire (addWire a R⟨r⟩) R⟨r'⟩ := rfl

theorem pay10_eq (a : FVec F S64x1024 .f32) (r r' : Vec F S1x1x64x1024 .bf16) :
    k0_pay10 a r r' = toWire (addWire (addWire a R⟨r⟩) R⟨r'⟩) := rfl

theorem pay11_eq (w : FVec F S64x1024 .bf16) : k0_pay11 w = w := by
  simp only [k0_pay11, shapeCast_same]

theorem pay12_eq (a : FVec F S64x1024 .f32) (r : Vec F S1x1x64x1024 .bf16) :
    k0_pay12 a r = addWire a R⟨r⟩ := rfl

/-! ## Layer 1 -/

theorem pay13_eq (a : FVec F S64x1024 .f32) (w1 : Vec F S1x1024x2048 .f32) (w2 : Vec F S1x2048x1024 .f32) :
    k0_pay13 a w1 w2 = mlp a W₁⟨w1⟩ W₂⟨w2⟩ := rfl

theorem pay14_eq (a : FVec F S64x1024 .f32) (w1 : Vec F S1x1024x2048 .f32) (w2 : Vec F S1x2048x1024 .f32) :
    k0_pay14 a w1 w2 = toWire (mlp a W₁⟨w1⟩ W₂⟨w2⟩) := by
  simp only [k0_pay14, pay13_eq, toWire, shapeCast_same]

theorem pay15_eq (a : FVec F S64x1024 .f32) (r : Vec F S1x1x64x1024 .bf16) :
    k0_pay15 a r = addWire a R⟨r⟩ := rfl

theorem pay16_eq (a : FVec F S64x1024 .f32) (r : Vec F S1x1x64x1024 .bf16) :
    k0_pay16 a r = toWire (addWire a R⟨r⟩) := by
  simp only [k0_pay16, pay15_eq, toWire, shapeCast_same]

theorem pay17_eq (a : FVec F S64x1024 .f32) (r : Vec F S1x1x64x1024 .bf16) :
    k0_pay17 a r = addWire a R⟨r⟩ := rfl

theorem pay18_eq (a : FVec F S64x1024 .f32) (r : Vec F S1x1x64x1024 .bf16) :
    k0_pay18 a r = toWire (addWire a R⟨r⟩) := by
  simp only [k0_pay18, pay17_eq, toWire, shapeCast_same]

theorem pay19_eq (a : FVec F S64x1024 .f32) (r : Vec F S1x1x64x1024 .bf16) :
    k0_pay19 a r = addWire a R⟨r⟩ := rfl

theorem pay20_eq (a : FVec F S64x1024 .f32) (r : Vec F S1x1x64x1024 .bf16) :
    k0_pay20 a r = toWire (addWire a R⟨r⟩) := by
  simp only [k0_pay20, pay19_eq, toWire, shapeCast_same]

theorem pay21_eq (a : FVec F S64x1024 .f32) (r : Vec F S1x1x64x1024 .bf16) :
    k0_pay21 a r = addWire a R⟨r⟩ := rfl

theorem pay22_eq (a : FVec F S64x1024 .f32) (r : Vec F S1x1x64x1024 .bf16) :
    k0_pay22 a r = toWire (addWire a R⟨r⟩) := by
  simp only [k0_pay22, pay21_eq, toWire, shapeCast_same]

/-! ## Layer 2: the last sum of layer 1 is folded into the hidden activations, and the second product is
a value of its own -/

theorem pay23_eq (a : FVec F S64x1024 .f32) (r : Vec F S1x1x64x1024 .bf16) (w1 : Vec F S1x1024x2048 .f32) :
    k0_pay23 a r w1 = hidden (addWire a R⟨r⟩) W₁⟨w1⟩ := rfl

/-- The second product over any hidden activations. -/
theorem pay24_raw (h : FVec F S64x2048 .f32) (w2 : Vec F S1x2048x1024 .f32) :
    k0_pay24 h w2 = matmul dot_S64x2048_S2048x1024_S64x1024_1_0_0_1_n_n none h W₂⟨w2⟩ (constant S64x1024 .f32 0x00000000#32) := rfl

theorem pay24_eq (a : FVec F S64x1024 .f32) (w : FVec F S1024x2048 .f32) (w2 : Vec F S1x2048x1024 .f32) :
    k0_pay24 (hidden a w) w2 = mlp a w W₂⟨w2⟩ := rfl

theorem pay25_eq (a : FVec F S64x1024 .f32) (w : FVec F S1024x2048 .f32) (w2 : Vec F S1x2048x1024 .f32) :
    k0_pay25 (hidden a w) w2 = toWire (mlp a w W₂⟨w2⟩) := by
  simp only [k0_pay25, pay24_eq, toWire, shapeCast_same]

theorem pay26_eq (a : FVec F S64x1024 .f32) (w : FVec F S1024x2048 .f32) (w2 : Vec F S1x2048x1024 .f32)
    (r : Vec F S1x1x64x1024 .bf16) :
    k0_pay26 (hidden a w) w2 r = addWire (mlp a w W₂⟨w2⟩) R⟨r⟩ := rfl

theorem pay27_eq (a : FVec F S64x1024 .f32) (w : FVec F S1024x2048 .f32) (w2 : Vec F S1x2048x1024 .f32)
    (r : Vec F S1x1x64x1024 .bf16) :
    k0_pay27 (hidden a w) w2 r = toWire (addWire (mlp a w W₂⟨w2⟩) R⟨r⟩) := rfl

/-- The four values of layer 2 built on the hidden activations, from the running sum and the slot. -/
theorem pay24_pay23 (a : FVec F S64x1024 .f32) (r : Vec F S1x1x64x1024 .bf16) (w1 : Vec F S1x1024x2048 .f32)
    (w2 : Vec F S1x2048x1024 .f32) :
    k0_pay24 (k0_pay23 a r w1) w2 = mlp (addWire a R⟨r⟩) W₁⟨w1⟩ W₂⟨w2⟩ := rfl

theorem pay25_pay23 (a : FVec F S64x1024 .f32) (r : Vec F S1x1x64x1024 .bf16) (w1 : Vec F S1x1024x2048 .f32)
    (w2 : Vec F S1x2048x1024 .f32) :
    k0_pay25 (k0_pay23 a r w1) w2 = toWire (mlp (addWire a R⟨r⟩) W₁⟨w1⟩ W₂⟨w2⟩) := by
  rw [pay23_eq, pay25_eq]

theorem pay26_pay23 (a : FVec F S64x1024 .f32) (r : Vec F S1x1x64x1024 .bf16) (w1 : Vec F S1x1024x2048 .f32)
    (w2 : Vec F S1x2048x1024 .f32) (r' : Vec F S1x1x64x1024 .bf16) :
    k0_pay26 (k0_pay23 a r w1) w2 r' = addWire (mlp (addWire a R⟨r⟩) W₁⟨w1⟩ W₂⟨w2⟩) R⟨r'⟩ := rfl

theorem pay27_pay23 (a : FVec F S64x1024 .f32) (r : Vec F S1x1x64x1024 .bf16) (w1 : Vec F S1x1024x2048 .f32)
    (w2 : Vec F S1x2048x1024 .f32) (r' : Vec F S1x1x64x1024 .bf16) :
    k0_pay27 (k0_pay23 a r w1) w2 r' = toWire (addWire (mlp (addWire a R⟨r⟩) W₁⟨w1⟩ W₂⟨w2⟩) R⟨r'⟩) := rfl

theorem pay28_eq (w : FVec F S64x1024 .bf16) : k0_pay28 w = w := by
  simp only [k0_pay28, shapeCast_same]

theorem pay29_eq (a : FVec F S64x1024 .f32) (r : Vec F S1x1x64x1024 .bf16) :
    k0_pay29 a r = addWire a R⟨r⟩ := rfl

theorem pay30_eq (a : FVec F S64x1024 .f32) (r : Vec F S1x1x64x1024 .bf16) :
    k0_pay30 a r = toWire (addWire a R⟨r⟩) := by
  simp only [k0_pay30, pay29_eq, toWire, shapeCast_same]

theorem pay31_eq (a : FVec F S64x1024 .f32) (r : Vec F S1x1x64x1024 .bf16) :
    k0_pay31 a r = addWire a R⟨r⟩ := rfl

theorem pay32_eq (a : FVec F S64x1024 .f32) (r : Vec F S1x1x64x1024 .bf16) :
    k0_pay32 a r = toWire (addWire a R⟨r⟩) := by
  simp only [k0_pay32, pay31_eq, toWire, shapeCast_same]

theorem pay33_eq (a : FVec F S64x1024 .f32) (r : Vec F S1x1x64x1024 .bf16) :
    k0_pay33 a r = addWire a R⟨r⟩ := rfl

theorem pay34_eq (a : FVec F S64x1024 .f32) (r : Vec F S1x1x64x1024 .bf16) :
    k0_pay34 a r = toWire (addWire a R⟨r⟩) := by
  simp only [k0_pay34, pay33_eq, toWire, shapeCast_same]

theorem pay35_eq (a : FVec F S64x1024 .f32) (r : Vec F S1x1x64x1024 .bf16) :
    k0_pay35 a r = addWire a R⟨r⟩ := rfl

/-- info: 'Cert.Kernel.Payloads.pay1_eq' depends on axioms: [propext, Classical.choice, Quot.sound] -/
#guard_msgs in #print axioms pay1_eq

/-- info: 'Cert.Kernel.Payloads.pay27_pay23' depends on axioms: [propext, Classical.choice, Quot.sound] -/
#guard_msgs in #print axioms pay27_pay23

end Cert.Kernel.Payloads

end
-- ==== Proof.Bits.BodySound.lean ====
import proofs.«900580_g7700000000000581_dist_mlpseq_tp1d_rep_rep_b64_d1024_h2048_v7x_i32_f32_1_alg».proof.Proof.Bits.BodyRound
import proofs.«900580_g7700000000000581_dist_mlpseq_tp1d_rep_rep_b64_d1024_h2048_v7x_i32_f32_1_alg».proof.Proof.Bits.BodyRoundOps
import proofs.«900580_g7700000000000581_dist_mlpseq_tp1d_rep_rep_b64_d1024_h2048_v7x_i32_f32_1_alg».proof.Proof.Bits.BodyWeights
import proofs.«900580_g7700000000000581_dist_mlpseq_tp1d_rep_rep_b64_d1024_h2048_v7x_i32_f32_1_alg».proof.Proof.Bits.BodyEntry
import proofs.«900580_g7700000000000581_dist_mlpseq_tp1d_rep_rep_b64_d1024_h2048_v7x_i32_f32_1_alg».proof.Proof.Bits.Ghost
import proofs.«900580_g7700000000000581_dist_mlpseq_tp1d_rep_rep_b64_d1024_h2048_v7x_i32_f32_1_alg».proof.Proof.Bits.MemLemmas
import proofs.«900580_g7700000000000581_dist_mlpseq_tp1d_rep_rep_b64_d1024_h2048_v7x_i32_f32_1_alg».proof.Proof.Bits.Tables
import proofs.«900580_g7700000000000581_dist_mlpseq_tp1d_rep_rep_b64_d1024_h2048_v7x_i32_f32_1_alg».proof.Proof.Bits.Waits
import proofs.«900580_g7700000000000581_dist_mlpseq_tp1d_rep_rep_b64_d1024_h2048_v7x_i32_f32_1_alg».proof.Proof.Bits.Payloads
import proofs.«900580_g7700000000000581_dist_mlpseq_tp1d_rep_rep_b64_d1024_h2048_v7x_i32_f32_1_alg».proof.Proof.Gen.Kernel.Skeleton

noncomputable section

open Cert.Kernel Cert.Kernel.Gen Cert.Kernel.Mesh Cert.Kernel.Spec Cert.Kernel.Cells Cert.Kernel.Schedule Cert.Kernel.Ghost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-!
# One thread's kernel body

From what a device starts from (its cells' invariants, positions, duty tokens and credits, the six weight arrays, the
four scratch buffers, what it owes) to what it ends with: the result staging buffer holding the specification's
result, the activations unchanged, the own cells closed, nothing owed.  The body is stepped operation by operation:
the weight copies of a layer, the five entry signals, the wait for the partners, then per round the rounding and
store of the running sum, the transfer to the partner, the two waits and the load of what the partner sent, the
running sum being the specification's at every step.
-/

namespace Cert.Kernel.Body

open Cert.Kernel.MemLemmas (h0_3 h1_3 h2_3 h0_5 h1_5 h2_5 h3_5 h4_5)

/-! ## Families over the cells, written out -/

theorem bigSep5 (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ

theorem bigSep6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

theorem bigSep15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [(0 : Fin 15), 1, 2, 3, 4, 5, 6, 7, 8, 9, 10, 11, 12, 13, 14] (by decide) (by decide) Φ

theorem bigSep22 (Φ : Fin 22 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21) :=
  bigSep_univ_eq_bigSepL [(0 : Fin 22), 1, 2, 3, 4, 5, 6, 7, 8, 9, 10, 11, 12, 13, 14, 15, 16, 17, 18, 19, 20, 21] (by decide) (by decide) Φ

theorem bigSep23 (Φ : Fin 23 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22) :=
  bigSep_univ_eq_bigSepL [(0 : Fin 23), 1, 2, 3, 4, 5, 6, 7, 8, 9, 10, 11, 12, 13, 14, 15, 16, 17, 18, 19, 20, 21, 22] (by decide) (by decide) Φ

theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetch_0 (t : Fin cfg0.N) : (cfg0.win (0 : Fin 2)).fetch t = true := fetch0_0 t

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What one thread's body starts from, the names of the cells' invariants fixed. -/
def bodyPre (K : Dev nD × Fin 23 → ℕ) (c : Dev nD) : sProp 𝕄 :=
  iprop((ghost m K c ∗ creds c ∗ levAts L lv ∗ hbmArgs m c ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it ends with. -/
def bodyPost (c : Dev nD) : sProp 𝕄 :=
  iprop(Φ₁ m c ∗ (dats m ρ 0 c).owesAt () t₀.succ ∗ stg c cc0_stg0_0 ((inp m).x c) ∗ stg c cc0_stg1_0 (outAt m c))

/-! ## The running sum, step by step -/

theorem acc_first (I : Inputs F) (c : Dev nD) (x : Act F) (w1 : WIn F) (w2 : WOut F)
    (hx : x = I.x c) (h1 : w1 = I.w1 0 c) (h2 : w2 = I.w2 0 c) : mlp x w1 w2 = acc I 0 0 c := by
  subst hx h1 h2; rfl
theorem acc_step (I : Inputs F) (l k : ℕ) (c : Dev nD) (a : Act F) (v : Wire F)
    (ha : a = acc I l k c) (hv : v = sent I l k (pr k c)) : addWire a v = acc I l (k + 1) c := by
  subst ha hv; rfl
theorem acc_head (I : Inputs F) (l : ℕ) (c : Dev nD) (a : Act F) (w1 : WIn F) (w2 : WOut F)
    (ha : a = acc I l 5 c) (h1 : w1 = I.w1 (l + 1) c) (h2 : w2 = I.w2 (l + 1) c) : mlp a w1 w2 = acc I (l + 1) 0 c := by
  subst ha h1 h2; rfl

omit [FloatOps F] in
theorem sendPts_eq (c : Dev nD) (f : Buf (Elt F) ((c : Thread nD τ).loc cc0_scratch2)) :
    sendPts c f = (((c : Thread nD τ).loc cc0_scratch2) ↦{fullShare} f : sProp 𝕄) := by
  unfold sendPts; rw [MemLemmas.sendM_set]

set_option maxRecDepth 65536 in
set_option maxHeartbeats 8000000 in
/-- The body, from what it starts from to what it ends with. -/
theorem sound_body (K : Dev nD × Fin 23 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6) Kt := by
  simp only [cc0_body_eq_skeleton]; unfold cc0_body_skel
  simp only [k0_part20_eq_skeleton]; unfold k0_part20_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel
  simp only [semSignalWord, semWaitWord, Prog.lift, Prog.bind_op, Prog.bind_ret, Prog.pure_eq_ret, wp_deviceId]
  simp only [Payloads.pay1_eq, Payloads.pay2_eq, Payloads.pay3_eq, Payloads.pay4_eq, Payloads.pay5_eq, Payloads.pay6_eq, Payloads.pay7_eq, Payloads.pay8_eq, Payloads.pay9_eq, Payloads.pay10_eq, Payloads.pay11_eq, Payloads.pay12_eq, Payloads.pay13_eq, Payloads.pay14_eq, Payloads.pay15_eq, Payloads.pay16_eq, Payloads.pay17_eq, Payloads.pay18_eq, Payloads.pay19_eq, Payloads.pay20_eq, Payloads.pay21_eq, Payloads.pay22_eq, Payloads.pay23_eq, Payloads.pay24_eq, Payloads.pay25_eq, Payloads.pay26_eq, Payloads.pay27_eq, Payloads.pay28_eq, Payloads.pay29_eq, Payloads.pay30_eq, Payloads.pay31_eq, Payloads.pay32_eq, Payloads.pay33_eq, Payloads.pay34_eq, Payloads.pay35_eq]
  unfold bodyPre ghost creds hbmArgs scratch
  simp only [bigSep5, bigSep6, bigSep15, bigSep23]
  iintro ⟨⟨⟨⟨⟨#HI0, #HI1, #HI2, #HI3, #HI4, #HI5, #HI6, #HI7, #HI8, #HI9, #HI10, #HI11, #HI12, #HI13, #HI14, #HI15, #HI16, #HI17, #HI18, #HI19, #HI20, #HI21, #HI22⟩, ⟨#HIb0, #HIb1, #HIb2, #HIb3, #HIb4⟩, ⟨#HIr0, #HIr1, #HIr2, #HIr3, #HIr4, #HIr5, #HIr6, #HIr7, #HIr8, #HIr9, #HIr10, #HIr11, #HIr12, #HIr13, #HIr14⟩, ⟨#Hr0, #Hr1, #Hr2, #Hr3, #Hr4, #Hr5, #Hr6, #Hr7, #Hr8, #Hr9, #Hr10, #Hr11, #Hr12, #Hr13, #Hr14, #Hr15, #Hr16, #Hr17, #Hr18, #Hr19, #Hr20, #Hr21, #Hr22⟩, ⟨#Hrb0, #Hrb1, #Hrb2, #Hrb3, #Hrb4⟩, ⟨#Hrr0, #Hrr1, #Hrr2, #Hrr3, #Hrr4, #Hrr5, #Hrr6, #Hrr7, #Hrr8, #Hrr9, #Hrr10, #Hrr11, #Hrr12, #Hrr13, #Hrr14⟩, ⟨Hat0, Hat1, Hat2, Hat3, Hat4, Hat5, Hat6, Hat7, Hat8, Hat9, Hat10, Hat11, Hat12, Hat13, Hat14, Hat15, Hat16, Hat17, Hat18, Hat19, Hat20, Hat21, Hat22⟩, ⟨Htb0, Htb1, Htb2, Htb3, Htb4⟩, ⟨Htr0, Htr1, Htr2, Htr3, Htr4, Htr5, Htr6, Htr7, Htr8, Htr9, Htr10, Htr11, Htr12, Htr13, Htr14⟩, ⟨Hts0, Hts1, Hts2, Hts3, Hts4, Hts5, Hts6, Hts7, Hts8, Hts9, Hts10, Hts11, Hts12, Hts13, Hts14⟩, ⟨Htc0, Htc1, Htc2, Htc3, Htc4, Htc5⟩⟩, ⟨HcB, ⟨Hcr0, Hcr1, Hcr2, Hcr3, Hcr4, Hcr5, Hcr6, Hcr7, Hcr8, Hcr9, Hcr10, Hcr11, Hcr12, Hcr13, Hcr14⟩⟩, #Hlev, ⟨Hh1, Hh2, Hh3, Hh4, Hh5, Hh6⟩, ⟨⟨%fw1, Hw1⟩, ⟨%fw2, Hw2⟩, ⟨%fs, Hsend⟩, ⟨%fr, Hrecv⟩⟩⟩, Ho, ⟨%d0, %g0, %hg0, Hx⟩, ⟨%d1, %g1, %hg1, Hout⟩⟩, Hk⟩
  have hx : g0 = (inp m).x c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = oweSig c 0 from rfl]
  ihave Hw1s := (MemLemmas.win_split c fw1).1 $$ Hw1
  icases Hw1s with ⟨Hw1a, Hw1b⟩
  ihave Hw2s := (MemLemmas.wout_split c fw2).1 $$ Hw2
  icases Hw2s with ⟨Hw2a, Hw2b⟩
  ihave Hrs := (Entails.of_eq (MemLemmas.recv_split_chain c fr)) $$ Hrecv
  icases Hrs with ⟨Hq00, Hq01, Hq02, Hq03, Hq04, Hq10, Hq11, Hq12, Hq13, Hq14, Hq20, Hq21, Hq22, Hq23, Hq24⟩
  ihave Hsend := (Entails.of_eq (sendPts_eq c fs).symm) $$ Hsend
  -- the weight copies of layer 0
  iapply (BodyWeights.copy2 m c (0 : Fin 3) (Cells.cpS_eq 0 0 h0_3 Nat.zero_lt_two inb_S3x2_S1x1_0_0) (Cells.cpS_eq 0 1 h0_3 Nat.one_lt_two inb_S3x2_S1x1_0_1)
      (src1 := (Memref.whole main_arg1 : Memref sig .tc .hbm S1024x2048 .f32)) (src2 := (Memref.whole main_arg2 : Memref sig .tc .hbm S2048x1024 .f32))
      (m ((c : Thread nD τ).loc main_arg1)) (m ((c : Thread nD τ).loc main_arg2)) fw1 fw2
      (BodyWeights.cpPay_w1_0 m c fw1) (BodyWeights.cpPay_w2_0 m c fw2)) $$ [Htc0 Htc1 Hh1 Hh2 Hw1a Hw2a]
  · isplitr; · iexact HI1
    isplitr; · iexact HI2
    isplitr; · iexact Hr1
    isplitr; · iexact Hr2
    isplitl [Htc0]; · iexact Htc0
    isplitl [Htc1]; · iexact Htc1
    isplitl [Hh1]; · iexact Hh1
    isplitl [Hh2]; · iexact Hh2
    isplitl [Hw1a]; · iexact Hw1a
    iexact Hw2a
  iintro ⟨Hcc0, Hcc1⟩
  -- the entry signal to the partner of stage 0
  iapply (BodyEntry.signal1 m c _ (0 : Fin 5) (Mesh.dev1_eq c) _ rfl rfl W fr fr fr) $$ [Htb0 HO Hq00 Hq10 Hq20]
  · isplitr; · iexact HIb0
    isplitr; · iexact Hrb0
    isplitl [Htb0]; · iexact Htb0
    isplitl [HO]; · iexact HO
    isplitl [Hq00]; · iexact Hq00
    isplitl [Hq10]; · iexact Hq10
    iexact Hq20
  iintro HO
  -- the entry signal to the partner of stage 1
  iapply (BodyEntry.signal1 m c _ (1 : Fin 5) (Mesh.dev2_eq c) _ rfl rfl W fr fr fr) $$ [Htb1 HO Hq01 Hq11 Hq21]
  · isplitr; · iexact HIb1
    isplitr; · iexact Hrb1
    isplitl [Htb1]; · iexact Htb1
    isplitl [HO]; · iexact HO
    isplitl [Hq01]; · iexact Hq01
    isplitl [Hq11]; · iexact Hq11
    iexact Hq21
  iintro HO
  -- the entry signal to the partner of stage 2
  iapply (BodyEntry.signal1 m c _ (2 : Fin 5) (Mesh.dev3_eq c) _ rfl rfl W fr fr fr) $$ [Htb2 HO Hq02 Hq12 Hq22]
  · isplitr; · iexact HIb2
    isplitr; · iexact Hrb2
    isplitl [Htb2]; · iexact Htb2
    isplitl [HO]; · iexact HO
    isplitl [Hq02]; · iexact Hq02
    isplitl [Hq12]; · iexact Hq12
    iexact Hq22
  iintro HO
  -- the entry signal to the partner of stage 3
  iapply (BodyEntry.signal1 m c _ (3 : Fin 5) (Mesh.dev4_eq c) _ rfl rfl W fr fr fr) $$ [Htb3 HO Hq03 Hq13 Hq23]
  · isplitr; · iexact HIb3
    isplitr; · iexact Hrb3
    isplitl [Htb3]; · iexact Htb3
    isplitl [HO]; · iexact HO
    isplitl [Hq03]; · iexact Hq03
    isplitl [Hq13]; · iexact Hq13
    iexact Hq23
  iintro HO
  -- the entry signal to the partner of stage 4
  iapply (BodyEntry.signal1 m c _ (4 : Fin 5) (Mesh.dev5_eq c) _ rfl rfl W fr fr fr) $$ [Htb4 HO Hq04 Hq14 Hq24]
  · isplitr; · iexact HIb4
    isplitr; · iexact Hrb4
    isplitl [Htb4]; · iexact Htb4
    isplitl [HO]; · iexact HO
    isplitl [Hq04]; · iexact Hq04
    isplitl [Hq14]; · iexact Hq14
    iexact Hq24
  iintro HO
  -- the activations loaded
  iapply (wp_load 𝒱₀ (c : Thread nD τ) none Set.univ (m := xM) (Finset.subset_univ _)) $$ Hx; iintro Hx
  -- layer 0's weights awaited and loaded
  iapply (BodyWeights.waitw m c (0 : Fin 3) (oweSig c 5) (j := 5) (n := 0) (Or.inl rfl) (Cells.cpS_eq 0 0 h0_3 Nat.zero_lt_two inb_S3x2_S1x1_0_0) (Cells.cpS_eq 0 1 h0_3 Nat.one_lt_two inb_S3x2_S1x1_0_1) W) $$ [Hcc0 Hcc1 HO Hat1 Hat2]
  · isplitr; · iexact HI1
    isplitr; · iexact HI2
    isplitr; · iexact Hlev
    isplitl [Hcc0]; · iexact Hcc0
    isplitl [Hcc1]; · iexact Hcc1
    isplitl [HO]; · iexact HO
    isplitl [Hat1]; · iexact Hat1
    iexact Hat2
  iintro %f1_0 %f2_0 ⟨%hf1_0, %hf2_0, Hw1v0, Hw2v0, Hha0, Hhb0, ⟨%W, HO⟩, Hat1, Hat2⟩
  generalize hVx : (xM : Memref sig .tc .vmem S64x1024 .f32).view.readAt (Elt F) _ ((inp m).x c) = vx
  have hvx : vx = (inp m).x c := hVx.symm.trans (MemLemmas.xM_readAt _)
  subst hvx
  generalize hV1_0 : (winM : Memref sig .tc .vmem S2x1024x2048 .f32).view.readAt (Elt F) _ f1_0 = v1_0
  generalize hV2_0 : (woutM : Memref sig .tc .vmem S2x2048x1024 .f32).view.readAt (Elt F) _ f2_0 = v2_0
  have hw1_0 : shapeCast S1024x2048 v1_0 shapeCasts_S1x1024x2048_S1024x2048 = (inp m).w1 0 c := by rw [← hV1_0]; exact hf1_0
  have hw2_0 : shapeCast S2048x1024 v2_0 shapeCasts_S1x2048x1024_S2048x1024 = (inp m).w2 0 c := by rw [← hV2_0]; exact hf2_0
  rw [hw1_0, hw2_0, show mlp ((inp m).x c) ((inp m).w1 0 c) ((inp m).w2 0 c) = acc (inp m) 0 0 c from rfl]
  -- the weight copies of layer 1
  iapply (BodyWeights.copy2 m c (1 : Fin 3) (Cells.cpS_eq 1 0 h1_3 Nat.zero_lt_two inb_S3x2_S1x1_1_0) (Cells.cpS_eq 1 1 h1_3 Nat.one_lt_two inb_S3x2_S1x1_1_1)
      (src1 := (Memref.whole main_arg3 : Memref sig .tc .hbm S1024x2048 .f32)) (src2 := (Memref.whole main_arg4 : Memref sig .tc .hbm S2048x1024 .f32))
      (m ((c : Thread nD τ).loc main_arg3)) (m ((c : Thread nD τ).loc main_arg4)) fw1 fw2
      (BodyWeights.cpPay_w1_1 m c fw1) (BodyWeights.cpPay_w2_1 m c fw2)) $$ [Htc2 Htc3 Hh3 Hh4 Hw1b Hw2b]
  · isplitr; · iexact HI3
    isplitr; · iexact HI4
    isplitr; · iexact Hr3
    isplitr; · iexact Hr4
    isplitl [Htc2]; · iexact Htc2
    isplitl [Htc3]; · iexact Htc3
    isplitl [Hh3]; · iexact Hh3
    isplitl [Hh4]; · iexact Hh4
    isplitl [Hw1b]; · iexact Hw1b
    iexact Hw2b
  iintro ⟨Hcc2, Hcc3⟩
  -- the wait for the five partners
  ihave HO := (Entails.of_eq (congrArg (fun O => owes (c : Thread nD τ) O W) (Ghost.oweSig_done c))) $$ HO
  iapply (BodyEntry.barwait m c _ rfl rfl W) $$ [HcB HO Hat0]
  · isplitr; · iexact HI0
    isplitr; · iexact Hlev
    isplitl [HcB]; · iexact HcB
    isplitl [HO]; · iexact HO
    iexact Hat0
  iintro ⟨⟨%W, HO⟩, Hat0, Hb0, Hb1, Hb2, Hb3, Hb4⟩
  unfold Schedule.barPay
  icases Hb0 with ⟨Hp00, Hp10, Hp20⟩
  icases Hb1 with ⟨Hp01, Hp11, Hp21⟩
  icases Hb2 with ⟨Hp02, Hp12, Hp22⟩
  icases Hb3 with ⟨Hp03, Hp13, Hp23⟩
  icases Hb4 with ⟨Hp04, Hp14, Hp24⟩
  -- round 0: layer 0, stage 0
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (0 : Fin 15) 1 rfl 0 0 h0_3 h0_5 rfl rfl (Mesh.dev6_eq c) Cells.sdS_eq (Cells.rvS_eq 0 0 h0_3 h0_5 inb_S3x5_S1x1_0_0) rfl (toWire (acc (inp m) 0 0 c)) rfl W) $$ [Hsend Hp00 HO Hts0 Htr0]
  · isplitr; · iexact HI7
    isplitr; · iexact HIr0
    isplitr; · iexact Hr7
    isplitr; · iexact Hrr0
    isplitl [Hsend]; · iexact Hsend
    isplitl [Hp00]; · iexact Hp00
    isplitl [HO]; · iexact HO
    isplitl [Hts0]; · iexact Hts0
    iexact Htr0
  iintro ⟨HcS, HO⟩
  iapply (BodyRoundOps.rwaitS m c c (0 : Fin 15) 1 rfl 0 0 h0_3 h0_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS1⟩
  iapply (BodyRoundOps.rwaitV m c c (0 : Fin 15) 1 rfl 0 0 h0_3 h0_5 rfl rfl (Cells.rvS_eq 0 0 h0_3 h0_5 inb_S3x5_S1x1_0_0) W) $$ [Hcr0 HO Hat8]
  · isplitr; · iexact HI8
    isplitr; · iexact Hlev
    isplitl [Hcr0]; · iexact Hcr0
    isplitl [HO]; · iexact HO
    iexact Hat8
  iintro ⟨⟨%fq0, Hq00, %hv0⟩, ⟨%W, HO⟩, Hat8⟩
  iapply (BodyRoundOps.rload c 0 0 h0_3 h0_5 rfl fq0) $$ Hq00
  iintro Hq00
  generalize hV0 : (recvM : Memref sig .tc .vmem S3x5x64x1024 .bf16).view.readAt (Elt F) _ fq0 = vq0
  have hvq0 : shapeCast S64x1024 vq0 shapeCasts_S1x1x64x1024_S64x1024 = sent (inp m) 0 0 (pr 0 c) := by rw [← hV0]; exact hv0
  rw [hvq0, show addWire (acc (inp m) 0 0 c) (sent (inp m) 0 0 (pr 0 c)) = acc (inp m) 0 1 c from rfl]
  -- round 1: layer 0, stage 1
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (1 : Fin 15) 2 rfl 0 1 h0_3 h1_5 rfl rfl (Mesh.dev7_eq c) Cells.sdS_eq (Cells.rvS_eq 0 1 h0_3 h1_5 inb_S3x5_S1x1_0_1) rfl (toWire (acc (inp m) 0 1 c)) rfl W) $$ [Hsend Hp01 HO Hts1 Htr1]
  · isplitr; · iexact HI7
    isplitr; · iexact HIr1
    isplitr; · iexact HrS1
    isplitr; · iexact Hrr1
    isplitl [Hsend]; · iexact Hsend
    isplitl [Hp01]; · iexact Hp01
    isplitl [HO]; · iexact HO
    isplitl [Hts1]; · iexact Hts1
    iexact Htr1
  iintro ⟨HcS, HO⟩
  iapply (BodyRoundOps.rwaitS m c c (1 : Fin 15) 2 rfl 0 1 h0_3 h1_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS2⟩
  iapply (BodyRoundOps.rwaitV m c c (1 : Fin 15) 2 rfl 0 1 h0_3 h1_5 rfl rfl (Cells.rvS_eq 0 1 h0_3 h1_5 inb_S3x5_S1x1_0_1) W) $$ [Hcr1 HO Hat9]
  · isplitr; · iexact HI9
    isplitr; · iexact Hlev
    isplitl [Hcr1]; · iexact Hcr1
    isplitl [HO]; · iexact HO
    iexact Hat9
  iintro ⟨⟨%fq1, Hq01, %hv1⟩, ⟨%W, HO⟩, Hat9⟩
  iapply (BodyRoundOps.rload c 0 1 h0_3 h1_5 rfl fq1) $$ Hq01
  iintro Hq01
  generalize hV1 : (recvM : Memref sig .tc .vmem S3x5x64x1024 .bf16).view.readAt (Elt F) _ fq1 = vq1
  have hvq1 : shapeCast S64x1024 vq1 shapeCasts_S1x1x64x1024_S64x1024 = sent (inp m) 0 1 (pr 1 c) := by rw [← hV1]; exact hv1
  rw [hvq1, show addWire (acc (inp m) 0 1 c) (sent (inp m) 0 1 (pr 1 c)) = acc (inp m) 0 2 c from rfl]
  -- round 2: layer 0, stage 2
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (2 : Fin 15) 3 rfl 0 2 h0_3 h2_5 rfl rfl (Mesh.dev8_eq c) Cells.sdS_eq (Cells.rvS_eq 0 2 h0_3 h2_5 inb_S3x5_S1x1_0_2) rfl (toWire (acc (inp m) 0 2 c)) rfl W) $$ [Hsend Hp02 HO Hts2 Htr2]
  · isplitr; · iexact HI7
    isplitr; · iexact HIr2
    isplitr; · iexact HrS2
    isplitr; · iexact Hrr2
    isplitl [Hsend]; · iexact Hsend
    isplitl [Hp02]; · iexact Hp02
    isplitl [HO]; · iexact HO
    isplitl [Hts2]; · iexact Hts2
    iexact Htr2
  iintro ⟨HcS, HO⟩
  iapply (BodyRoundOps.rwaitS m c c (2 : Fin 15) 3 rfl 0 2 h0_3 h2_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS3⟩
  iapply (BodyRoundOps.rwaitV m c c (2 : Fin 15) 3 rfl 0 2 h0_3 h2_5 rfl rfl (Cells.rvS_eq 0 2 h0_3 h2_5 inb_S3x5_S1x1_0_2) W) $$ [Hcr2 HO Hat10]
  · isplitr; · iexact HI10
    isplitr; · iexact Hlev
    isplitl [Hcr2]; · iexact Hcr2
    isplitl [HO]; · iexact HO
    iexact Hat10
  iintro ⟨⟨%fq2, Hq02, %hv2⟩, ⟨%W, HO⟩, Hat10⟩
  iapply (BodyRoundOps.rload c 0 2 h0_3 h2_5 rfl fq2) $$ Hq02
  iintro Hq02
  generalize hV2 : (recvM : Memref sig .tc .vmem S3x5x64x1024 .bf16).view.readAt (Elt F) _ fq2 = vq2
  have hvq2 : shapeCast S64x1024 vq2 shapeCasts_S1x1x64x1024_S64x1024 = sent (inp m) 0 2 (pr 2 c) := by rw [← hV2]; exact hv2
  rw [hvq2, show addWire (acc (inp m) 0 2 c) (sent (inp m) 0 2 (pr 2 c)) = acc (inp m) 0 3 c from rfl]
  -- round 3: layer 0, stage 3
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (3 : Fin 15) 4 rfl 0 3 h0_3 h3_5 rfl rfl (Mesh.dev9_eq c) Cells.sdS_eq (Cells.rvS_eq 0 3 h0_3 h3_5 inb_S3x5_S1x1_0_3) rfl (toWire (acc (inp m) 0 3 c)) rfl W) $$ [Hsend Hp03 HO Hts3 Htr3]
  · isplitr; · iexact HI7
    isplitr; · iexact HIr3
    isplitr; · iexact HrS3
    isplitr; · iexact Hrr3
    isplitl [Hsend]; · iexact Hsend
    isplitl [Hp03]; · iexact Hp03
    isplitl [HO]; · iexact HO
    isplitl [Hts3]; · iexact Hts3
    iexact Htr3
  iintro ⟨HcS, HO⟩
  iapply (BodyRoundOps.rwaitS m c c (3 : Fin 15) 4 rfl 0 3 h0_3 h3_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS4⟩
  iapply (BodyRoundOps.rwaitV m c c (3 : Fin 15) 4 rfl 0 3 h0_3 h3_5 rfl rfl (Cells.rvS_eq 0 3 h0_3 h3_5 inb_S3x5_S1x1_0_3) W) $$ [Hcr3 HO Hat11]
  · isplitr; · iexact HI11
    isplitr; · iexact Hlev
    isplitl [Hcr3]; · iexact Hcr3
    isplitl [HO]; · iexact HO
    iexact Hat11
  iintro ⟨⟨%fq3, Hq03, %hv3⟩, ⟨%W, HO⟩, Hat11⟩
  iapply (BodyRoundOps.rload c 0 3 h0_3 h3_5 rfl fq3) $$ Hq03
  iintro Hq03
  generalize hV3 : (recvM : Memref sig .tc .vmem S3x5x64x1024 .bf16).view.readAt (Elt F) _ fq3 = vq3
  have hvq3 : shapeCast S64x1024 vq3 shapeCasts_S1x1x64x1024_S64x1024 = sent (inp m) 0 3 (pr 3 c) := by rw [← hV3]; exact hv3
  rw [hvq3, show addWire (acc (inp m) 0 3 c) (sent (inp m) 0 3 (pr 3 c)) = acc (inp m) 0 4 c from rfl]
  -- round 4: layer 0, stage 4
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (4 : Fin 15) 5 rfl 0 4 h0_3 h4_5 rfl rfl (Mesh.dev10_eq c) Cells.sdS_eq (Cells.rvS_eq 0 4 h0_3 h4_5 inb_S3x5_S1x1_0_4) rfl (toWire (acc (inp m) 0 4 c)) rfl W) $$ [Hsend Hp04 HO Hts4 Htr4]
  · isplitr; · iexact HI7
    isplitr; · iexact HIr4
    isplitr; · iexact HrS4
    isplitr; · iexact Hrr4
    isplitl [Hsend]; · iexact Hsend
    isplitl [Hp04]; · iexact Hp04
    isplitl [HO]; · iexact HO
    isplitl [Hts4]; · iexact Hts4
    iexact Htr4
  iintro ⟨HcS, HO⟩
  iapply (BodyRoundOps.rwaitS m c c (4 : Fin 15) 5 rfl 0 4 h0_3 h4_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS5⟩
  iapply (BodyRoundOps.rwaitV m c c (4 : Fin 15) 5 rfl 0 4 h0_3 h4_5 rfl rfl (Cells.rvS_eq 0 4 h0_3 h4_5 inb_S3x5_S1x1_0_4) W) $$ [Hcr4 HO Hat12]
  · isplitr; · iexact HI12
    isplitr; · iexact Hlev
    isplitl [Hcr4]; · iexact Hcr4
    isplitl [HO]; · iexact HO
    iexact Hat12
  iintro ⟨⟨%fq4, Hq04, %hv4⟩, ⟨%W, HO⟩, Hat12⟩
  iapply (BodyRoundOps.rload c 0 4 h0_3 h4_5 rfl fq4) $$ Hq04
  iintro Hq04
  generalize hV4 : (recvM : Memref sig .tc .vmem S3x5x64x1024 .bf16).view.readAt (Elt F) _ fq4 = vq4
  have hvq4 : shapeCast S64x1024 vq4 shapeCasts_S1x1x64x1024_S64x1024 = sent (inp m) 0 4 (pr 4 c) := by rw [← hV4]; exact hv4
  rw [hvq4, show addWire (acc (inp m) 0 4 c) (sent (inp m) 0 4 (pr 4 c)) = acc (inp m) 0 5 c from rfl]
  -- layer 1's weights awaited and loaded
  iapply (BodyWeights.waitw m c (1 : Fin 3) (oweFrom c 5) (j := 0) (n := 5) (Or.inr (Or.inl rfl)) (Cells.cpS_eq 1 0 h1_3 Nat.zero_lt_two inb_S3x2_S1x1_1_0) (Cells.cpS_eq 1 1 h1_3 Nat.one_lt_two inb_S3x2_S1x1_1_1) W) $$ [Hcc2 Hcc3 HO Hat3 Hat4]
  · isplitr; · iexact HI3
    isplitr; · iexact HI4
    isplitr; · iexact Hlev
    isplitl [Hcc2]; · iexact Hcc2
    isplitl [Hcc3]; · iexact Hcc3
    isplitl [HO]; · iexact HO
    isplitl [Hat3]; · iexact Hat3
    iexact Hat4
  iintro %f1_1 %f2_1 ⟨%hf1_1, %hf2_1, Hw1v1, Hw2v1, Hha1, Hhb1, ⟨%W, HO⟩, Hat3, Hat4⟩
  generalize hV1_1 : (winM : Memref sig .tc .vmem S2x1024x2048 .f32).view.readAt (Elt F) _ f1_1 = v1_1
  generalize hV2_1 : (woutM : Memref sig .tc .vmem S2x2048x1024 .f32).view.readAt (Elt F) _ f2_1 = v2_1
  have hw1_1 : shapeCast S1024x2048 v1_1 shapeCasts_S1x1024x2048_S1024x2048 = (inp m).w1 1 c := by rw [← hV1_1]; exact hf1_1
  have hw2_1 : shapeCast S2048x1024 v2_1 shapeCasts_S1x2048x1024_S2048x1024 = (inp m).w2 1 c := by rw [← hV2_1]; exact hf2_1
  rw [hw1_1, hw2_1, show mlp (acc (inp m) 0 5 c) ((inp m).w1 1 c) ((inp m).w2 1 c) = acc (inp m) 1 0 c from rfl]
  -- the weight copies of layer 2
  iapply (BodyWeights.copy2 m c (2 : Fin 3) (Cells.cpS_eq 2 0 h2_3 Nat.zero_lt_two inb_S3x2_S1x1_2_0) (Cells.cpS_eq 2 1 h2_3 Nat.one_lt_two inb_S3x2_S1x1_2_1)
      (src1 := (Memref.whole main_arg5 : Memref sig .tc .hbm S1024x2048 .f32)) (src2 := (Memref.whole main_arg6 : Memref sig .tc .hbm S2048x1024 .f32))
      (m ((c : Thread nD τ).loc main_arg5)) (m ((c : Thread nD τ).loc main_arg6)) f1_0 f2_0
      (BodyWeights.cpPay_w1_2 m c f1_0) (BodyWeights.cpPay_w2_2 m c f2_0)) $$ [Htc4 Htc5 Hh5 Hh6 Hw1v0 Hw2v0]
  · isplitr; · iexact HI5
    isplitr; · iexact HI6
    isplitr; · iexact Hr5
    isplitr; · iexact Hr6
    isplitl [Htc4]; · iexact Htc4
    isplitl [Htc5]; · iexact Htc5
    isplitl [Hh5]; · iexact Hh5
    isplitl [Hh6]; · iexact Hh6
    isplitl [Hw1v0]; · iexact Hw1v0
    iexact Hw2v0
  iintro ⟨Hcc4, Hcc5⟩
  -- round 5: layer 1, stage 0
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (5 : Fin 15) 6 rfl 1 0 h1_3 h0_5 rfl rfl (Mesh.dev11_eq c) Cells.sdS_eq (Cells.rvS_eq 1 0 h1_3 h0_5 inb_S3x5_S1x1_1_0) rfl (toWire (acc (inp m) 1 0 c)) rfl W) $$ [Hsend Hp10 HO Hts5 Htr5]
  · isplitr; · iexact HI7
    isplitr; · iexact HIr5
    isplitr; · iexact HrS5
    isplitr; · iexact Hrr5
    isplitl [Hsend]; · iexact Hsend
    isplitl [Hp10]; · iexact Hp10
    isplitl [HO]; · iexact HO
    isplitl [Hts5]; · iexact Hts5
    iexact Htr5
  iintro ⟨HcS, HO⟩
  iapply (BodyRoundOps.rwaitS m c c (5 : Fin 15) 6 rfl 1 0 h1_3 h0_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS6⟩
  iapply (BodyRoundOps.rwaitV m c c (5 : Fin 15) 6 rfl 1 0 h1_3 h0_5 rfl rfl (Cells.rvS_eq 1 0 h1_3 h0_5 inb_S3x5_S1x1_1_0) W) $$ [Hcr5 HO Hat13]
  · isplitr; · iexact HI13
    isplitr; · iexact Hlev
    isplitl [Hcr5]; · iexact Hcr5
    isplitl [HO]; · iexact HO
    iexact Hat13
  iintro ⟨⟨%fq5, Hq10, %hv5⟩, ⟨%W, HO⟩, Hat13⟩
  iapply (BodyRoundOps.rload c 1 0 h1_3 h0_5 rfl fq5) $$ Hq10
  iintro Hq10
  generalize hV5 : (recvM : Memref sig .tc .vmem S3x5x64x1024 .bf16).view.readAt (Elt F) _ fq5 = vq5
  have hvq5 : shapeCast S64x1024 vq5 shapeCasts_S1x1x64x1024_S64x1024 = sent (inp m) 1 0 (pr 0 c) := by rw [← hV5]; exact hv5
  rw [hvq5, show addWire (acc (inp m) 1 0 c) (sent (inp m) 1 0 (pr 0 c)) = acc (inp m) 1 1 c from rfl]
  -- round 6: layer 1, stage 1
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (6 : Fin 15) 7 rfl 1 1 h1_3 h1_5 rfl rfl (Mesh.dev12_eq c) Cells.sdS_eq (Cells.rvS_eq 1 1 h1_3 h1_5 inb_S3x5_S1x1_1_1) rfl (toWire (acc (inp m) 1 1 c)) rfl W) $$ [Hsend Hp11 HO Hts6 Htr6]
  · isplitr; · iexact HI7
    isplitr; · iexact HIr6
    isplitr; · iexact HrS6
    isplitr; · iexact Hrr6
    isplitl [Hsend]; · iexact Hsend
    isplitl [Hp11]; · iexact Hp11
    isplitl [HO]; · iexact HO
    isplitl [Hts6]; · iexact Hts6
    iexact Htr6
  iintro ⟨HcS, HO⟩
  iapply (BodyRoundOps.rwaitS m c c (6 : Fin 15) 7 rfl 1 1 h1_3 h1_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS7⟩
  iapply (BodyRoundOps.rwaitV m c c (6 : Fin 15) 7 rfl 1 1 h1_3 h1_5 rfl rfl (Cells.rvS_eq 1 1 h1_3 h1_5 inb_S3x5_S1x1_1_1) W) $$ [Hcr6 HO Hat14]
  · isplitr; · iexact HI14
    isplitr; · iexact Hlev
    isplitl [Hcr6]; · iexact Hcr6
    isplitl [HO]; · iexact HO
    iexact Hat14
  iintro ⟨⟨%fq6, Hq11, %hv6⟩, ⟨%W, HO⟩, Hat14⟩
  iapply (BodyRoundOps.rload c 1 1 h1_3 h1_5 rfl fq6) $$ Hq11
  iintro Hq11
  generalize hV6 : (recvM : Memref sig .tc .vmem S3x5x64x1024 .bf16).view.readAt (Elt F) _ fq6 = vq6
  have hvq6 : shapeCast S64x1024 vq6 shapeCasts_S1x1x64x1024_S64x1024 = sent (inp m) 1 1 (pr 1 c) := by rw [← hV6]; exact hv6
  rw [hvq6, show addWire (acc (inp m) 1 1 c) (sent (inp m) 1 1 (pr 1 c)) = acc (inp m) 1 2 c from rfl]
  -- round 7: layer 1, stage 2
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (7 : Fin 15) 8 rfl 1 2 h1_3 h2_5 rfl rfl (Mesh.dev13_eq c) Cells.sdS_eq (Cells.rvS_eq 1 2 h1_3 h2_5 inb_S3x5_S1x1_1_2) rfl (toWire (acc (inp m) 1 2 c)) rfl W) $$ [Hsend Hp12 HO Hts7 Htr7]
  · isplitr; · iexact HI7
    isplitr; · iexact HIr7
    isplitr; · iexact HrS7
    isplitr; · iexact Hrr7
    isplitl [Hsend]; · iexact Hsend
    isplitl [Hp12]; · iexact Hp12
    isplitl [HO]; · iexact HO
    isplitl [Hts7]; · iexact Hts7
    iexact Htr7
  iintro ⟨HcS, HO⟩
  iapply (BodyRoundOps.rwaitS m c c (7 : Fin 15) 8 rfl 1 2 h1_3 h2_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS8⟩
  iapply (BodyRoundOps.rwaitV m c c (7 : Fin 15) 8 rfl 1 2 h1_3 h2_5 rfl rfl (Cells.rvS_eq 1 2 h1_3 h2_5 inb_S3x5_S1x1_1_2) W) $$ [Hcr7 HO Hat15]
  · isplitr; · iexact HI15
    isplitr; · iexact Hlev
    isplitl [Hcr7]; · iexact Hcr7
    isplitl [HO]; · iexact HO
    iexact Hat15
  iintro ⟨⟨%fq7, Hq12, %hv7⟩, ⟨%W, HO⟩, Hat15⟩
  iapply (BodyRoundOps.rload c 1 2 h1_3 h2_5 rfl fq7) $$ Hq12
  iintro Hq12
  generalize hV7 : (recvM : Memref sig .tc .vmem S3x5x64x1024 .bf16).view.readAt (Elt F) _ fq7 = vq7
  have hvq7 : shapeCast S64x1024 vq7 shapeCasts_S1x1x64x1024_S64x1024 = sent (inp m) 1 2 (pr 2 c) := by rw [← hV7]; exact hv7
  rw [hvq7, show addWire (acc (inp m) 1 2 c) (sent (inp m) 1 2 (pr 2 c)) = acc (inp m) 1 3 c from rfl]
  -- round 8: layer 1, stage 3
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (8 : Fin 15) 9 rfl 1 3 h1_3 h3_5 rfl rfl (Mesh.dev14_eq c) Cells.sdS_eq (Cells.rvS_eq 1 3 h1_3 h3_5 inb_S3x5_S1x1_1_3) rfl (toWire (acc (inp m) 1 3 c)) rfl W) $$ [Hsend Hp13 HO Hts8 Htr8]
  · isplitr; · iexact HI7
    isplitr; · iexact HIr8
    isplitr; · iexact HrS8
    isplitr; · iexact Hrr8
    isplitl [Hsend]; · iexact Hsend
    isplitl [Hp13]; · iexact Hp13
    isplitl [HO]; · iexact HO
    isplitl [Hts8]; · iexact Hts8
    iexact Htr8
  iintro ⟨HcS, HO⟩
  iapply (BodyRoundOps.rwaitS m c c (8 : Fin 15) 9 rfl 1 3 h1_3 h3_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS9⟩
  iapply (BodyRoundOps.rwaitV m c c (8 : Fin 15) 9 rfl 1 3 h1_3 h3_5 rfl rfl (Cells.rvS_eq 1 3 h1_3 h3_5 inb_S3x5_S1x1_1_3) W) $$ [Hcr8 HO Hat16]
  · isplitr; · iexact HI16
    isplitr; · iexact Hlev
    isplitl [Hcr8]; · iexact Hcr8
    isplitl [HO]; · iexact HO
    iexact Hat16
  iintro ⟨⟨%fq8, Hq13, %hv8⟩, ⟨%W, HO⟩, Hat16⟩
  iapply (BodyRoundOps.rload c 1 3 h1_3 h3_5 rfl fq8) $$ Hq13
  iintro Hq13
  generalize hV8 : (recvM : Memref sig .tc .vmem S3x5x64x1024 .bf16).view.readAt (Elt F) _ fq8 = vq8
  have hvq8 : shapeCast S64x1024 vq8 shapeCasts_S1x1x64x1024_S64x1024 = sent (inp m) 1 3 (pr 3 c) := by rw [← hV8]; exact hv8
  rw [hvq8, show addWire (acc (inp m) 1 3 c) (sent (inp m) 1 3 (pr 3 c)) = acc (inp m) 1 4 c from rfl]
  -- round 9: layer 1, stage 4
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (9 : Fin 15) 10 rfl 1 4 h1_3 h4_5 rfl rfl (Mesh.dev15_eq c) Cells.sdS_eq (Cells.rvS_eq 1 4 h1_3 h4_5 inb_S3x5_S1x1_1_4) rfl (toWire (acc (inp m) 1 4 c)) rfl W) $$ [Hsend Hp14 HO Hts9 Htr9]
  · isplitr; · iexact HI7
    isplitr; · iexact HIr9
    isplitr; · iexact HrS9
    isplitr; · iexact Hrr9
    isplitl [Hsend]; · iexact Hsend
    isplitl [Hp14]; · iexact Hp14
    isplitl [HO]; · iexact HO
    isplitl [Hts9]; · iexact Hts9
    iexact Htr9
  iintro ⟨HcS, HO⟩
  iapply (BodyRoundOps.rwaitS m c c (9 : Fin 15) 10 rfl 1 4 h1_3 h4_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS10⟩
  iapply (BodyRoundOps.rwaitV m c c (9 : Fin 15) 10 rfl 1 4 h1_3 h4_5 rfl rfl (Cells.rvS_eq 1 4 h1_3 h4_5 inb_S3x5_S1x1_1_4) W) $$ [Hcr9 HO Hat17]
  · isplitr; · iexact HI17
    isplitr; · iexact Hlev
    isplitl [Hcr9]; · iexact Hcr9
    isplitl [HO]; · iexact HO
    iexact Hat17
  iintro ⟨⟨%fq9, Hq14, %hv9⟩, ⟨%W, HO⟩, Hat17⟩
  iapply (BodyRoundOps.rload c 1 4 h1_3 h4_5 rfl fq9) $$ Hq14
  iintro Hq14
  generalize hV9 : (recvM : Memref sig .tc .vmem S3x5x64x1024 .bf16).view.readAt (Elt F) _ fq9 = vq9
  have hvq9 : shapeCast S64x1024 vq9 shapeCasts_S1x1x64x1024_S64x1024 = sent (inp m) 1 4 (pr 4 c) := by rw [← hV9]; exact hv9
  rw [hvq9, show addWire (acc (inp m) 1 4 c) (sent (inp m) 1 4 (pr 4 c)) = acc (inp m) 1 5 c from rfl]
  -- layer 2's weights awaited and loaded
  iapply (BodyWeights.waitw m c (2 : Fin 3) (oweFrom c 10) (j := 0) (n := 10) (Or.inr (Or.inl rfl)) (Cells.cpS_eq 2 0 h2_3 Nat.zero_lt_two inb_S3x2_S1x1_2_0) (Cells.cpS_eq 2 1 h2_3 Nat.one_lt_two inb_S3x2_S1x1_2_1) W) $$ [Hcc4 Hcc5 HO Hat5 Hat6]
  · isplitr; · iexact HI5
    isplitr; · iexact HI6
    isplitr; · iexact Hlev
    isplitl [Hcc4]; · iexact Hcc4
    isplitl [Hcc5]; · iexact Hcc5
    isplitl [HO]; · iexact HO
    isplitl [Hat5]; · iexact Hat5
    iexact Hat6
  iintro %f1_2 %f2_2 ⟨%hf1_2, %hf2_2, Hw1v2, Hw2v2, Hha2, Hhb2, ⟨%W, HO⟩, Hat5, Hat6⟩
  generalize hV1_2 : (winM : Memref sig .tc .vmem S2x1024x2048 .f32).view.readAt (Elt F) _ f1_2 = v1_2
  generalize hV2_2 : (woutM : Memref sig .tc .vmem S2x2048x1024 .f32).view.readAt (Elt F) _ f2_2 = v2_2
  have hw1_2 : shapeCast S1024x2048 v1_2 shapeCasts_S1x1024x2048_S1024x2048 = (inp m).w1 2 c := by rw [← hV1_2]; exact hf1_2
  have hw2_2 : shapeCast S2048x1024 v2_2 shapeCasts_S1x2048x1024_S2048x1024 = (inp m).w2 2 c := by rw [← hV2_2]; exact hf2_2
  rw [hw1_2, hw2_2, show mlp (acc (inp m) 1 5 c) ((inp m).w1 2 c) ((inp m).w2 2 c) = acc (inp m) 2 0 c from rfl]
  -- round 10: layer 2, stage 0
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (10 : Fin 15) 11 rfl 2 0 h2_3 h0_5 rfl rfl (Mesh.dev16_eq c) Cells.sdS_eq (Cells.rvS_eq 2 0 h2_3 h0_5 inb_S3x5_S1x1_2_0) rfl (toWire (acc (inp m) 2 0 c)) rfl W) $$ [Hsend Hp20 HO Hts10 Htr10]
  · isplitr; · iexact HI7
    isplitr; · iexact HIr10
    isplitr; · iexact HrS10
    isplitr; · iexact Hrr10
    isplitl [Hsend]; · iexact Hsend
    isplitl [Hp20]; · iexact Hp20
    isplitl [HO]; · iexact HO
    isplitl [Hts10]; · iexact Hts10
    iexact Htr10
  iintro ⟨HcS, HO⟩
  iapply (BodyRoundOps.rwaitS m c c (10 : Fin 15) 11 rfl 2 0 h2_3 h0_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS11⟩
  iapply (BodyRoundOps.rwaitV m c c (10 : Fin 15) 11 rfl 2 0 h2_3 h0_5 rfl rfl (Cells.rvS_eq 2 0 h2_3 h0_5 inb_S3x5_S1x1_2_0) W) $$ [Hcr10 HO Hat18]
  · isplitr; · iexact HI18
    isplitr; · iexact Hlev
    isplitl [Hcr10]; · iexact Hcr10
    isplitl [HO]; · iexact HO
    iexact Hat18
  iintro ⟨⟨%fq10, Hq20, %hv10⟩, ⟨%W, HO⟩, Hat18⟩
  iapply (BodyRoundOps.rload c 2 0 h2_3 h0_5 rfl fq10) $$ Hq20
  iintro Hq20
  generalize hV10 : (recvM : Memref sig .tc .vmem S3x5x64x1024 .bf16).view.readAt (Elt F) _ fq10 = vq10
  have hvq10 : shapeCast S64x1024 vq10 shapeCasts_S1x1x64x1024_S64x1024 = sent (inp m) 2 0 (pr 0 c) := by rw [← hV10]; exact hv10
  rw [hvq10, show addWire (acc (inp m) 2 0 c) (sent (inp m) 2 0 (pr 0 c)) = acc (inp m) 2 1 c from rfl]
  -- round 11: layer 2, stage 1
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (11 : Fin 15) 12 rfl 2 1 h2_3 h1_5 rfl rfl (Mesh.dev17_eq c) Cells.sdS_eq (Cells.rvS_eq 2 1 h2_3 h1_5 inb_S3x5_S1x1_2_1) rfl (toWire (acc (inp m) 2 1 c)) rfl W) $$ [Hsend Hp21 HO Hts11 Htr11]
  · isplitr; · iexact HI7
    isplitr; · iexact HIr11
    isplitr; · iexact HrS11
    isplitr; · iexact Hrr11
    isplitl [Hsend]; · iexact Hsend
    isplitl [Hp21]; · iexact Hp21
    isplitl [HO]; · iexact HO
    isplitl [Hts11]; · iexact Hts11
    iexact Htr11
  iintro ⟨HcS, HO⟩
  iapply (BodyRoundOps.rwaitS m c c (11 : Fin 15) 12 rfl 2 1 h2_3 h1_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS12⟩
  iapply (BodyRoundOps.rwaitV m c c (11 : Fin 15) 12 rfl 2 1 h2_3 h1_5 rfl rfl (Cells.rvS_eq 2 1 h2_3 h1_5 inb_S3x5_S1x1_2_1) W) $$ [Hcr11 HO Hat19]
  · isplitr; · iexact HI19
    isplitr; · iexact Hlev
    isplitl [Hcr11]; · iexact Hcr11
    isplitl [HO]; · iexact HO
    iexact Hat19
  iintro ⟨⟨%fq11, Hq21, %hv11⟩, ⟨%W, HO⟩, Hat19⟩
  iapply (BodyRoundOps.rload c 2 1 h2_3 h1_5 rfl fq11) $$ Hq21
  iintro Hq21
  generalize hV11 : (recvM : Memref sig .tc .vmem S3x5x64x1024 .bf16).view.readAt (Elt F) _ fq11 = vq11
  have hvq11 : shapeCast S64x1024 vq11 shapeCasts_S1x1x64x1024_S64x1024 = sent (inp m) 2 1 (pr 1 c) := by rw [← hV11]; exact hv11
  rw [hvq11, show addWire (acc (inp m) 2 1 c) (sent (inp m) 2 1 (pr 1 c)) = acc (inp m) 2 2 c from rfl]
  -- round 12: layer 2, stage 2
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (12 : Fin 15) 13 rfl 2 2 h2_3 h2_5 rfl rfl (Mesh.dev18_eq c) Cells.sdS_eq (Cells.rvS_eq 2 2 h2_3 h2_5 inb_S3x5_S1x1_2_2) rfl (toWire (acc (inp m) 2 2 c)) rfl W) $$ [Hsend Hp22 HO Hts12 Htr12]
  · isplitr; · iexact HI7
    isplitr; · iexact HIr12
    isplitr; · iexact HrS12
    isplitr; · iexact Hrr12
    isplitl [Hsend]; · iexact Hsend
    isplitl [Hp22]; · iexact Hp22
    isplitl [HO]; · iexact HO
    isplitl [Hts12]; · iexact Hts12
    iexact Htr12
  iintro ⟨HcS, HO⟩
  iapply (BodyRoundOps.rwaitS m c c (12 : Fin 15) 13 rfl 2 2 h2_3 h2_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS13⟩
  iapply (BodyRoundOps.rwaitV m c c (12 : Fin 15) 13 rfl 2 2 h2_3 h2_5 rfl rfl (Cells.rvS_eq 2 2 h2_3 h2_5 inb_S3x5_S1x1_2_2) W) $$ [Hcr12 HO Hat20]
  · isplitr; · iexact HI20
    isplitr; · iexact Hlev
    isplitl [Hcr12]; · iexact Hcr12
    isplitl [HO]; · iexact HO
    iexact Hat20
  iintro ⟨⟨%fq12, Hq22, %hv12⟩, ⟨%W, HO⟩, Hat20⟩
  iapply (BodyRoundOps.rload c 2 2 h2_3 h2_5 rfl fq12) $$ Hq22
  iintro Hq22
  generalize hV12 : (recvM : Memref sig .tc .vmem S3x5x64x1024 .bf16).view.readAt (Elt F) _ fq12 = vq12
  have hvq12 : shapeCast S64x1024 vq12 shapeCasts_S1x1x64x1024_S64x1024 = sent (inp m) 2 2 (pr 2 c) := by rw [← hV12]; exact hv12
  rw [hvq12, show addWire (acc (inp m) 2 2 c) (sent (inp m) 2 2 (pr 2 c)) = acc (inp m) 2 3 c from rfl]
  -- round 13: layer 2, stage 3
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (13 : Fin 15) 14 rfl 2 3 h2_3 h3_5 rfl rfl (Mesh.dev19_eq c) Cells.sdS_eq (Cells.rvS_eq 2 3 h2_3 h3_5 inb_S3x5_S1x1_2_3) rfl (toWire (acc (inp m) 2 3 c)) rfl W) $$ [Hsend Hp23 HO Hts13 Htr13]
  · isplitr; · iexact HI7
    isplitr; · iexact HIr13
    isplitr; · iexact HrS13
    isplitr; · iexact Hrr13
    isplitl [Hsend]; · iexact Hsend
    isplitl [Hp23]; · iexact Hp23
    isplitl [HO]; · iexact HO
    isplitl [Hts13]; · iexact Hts13
    iexact Htr13
  iintro ⟨HcS, HO⟩
  iapply (BodyRoundOps.rwaitS m c c (13 : Fin 15) 14 rfl 2 3 h2_3 h3_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS14⟩
  iapply (BodyRoundOps.rwaitV m c c (13 : Fin 15) 14 rfl 2 3 h2_3 h3_5 rfl rfl (Cells.rvS_eq 2 3 h2_3 h3_5 inb_S3x5_S1x1_2_3) W) $$ [Hcr13 HO Hat21]
  · isplitr; · iexact HI21
    isplitr; · iexact Hlev
    isplitl [Hcr13]; · iexact Hcr13
    isplitl [HO]; · iexact HO
    iexact Hat21
  iintro ⟨⟨%fq13, Hq23, %hv13⟩, ⟨%W, HO⟩, Hat21⟩
  iapply (BodyRoundOps.rload c 2 3 h2_3 h3_5 rfl fq13) $$ Hq23
  iintro Hq23
  generalize hV13 : (recvM : Memref sig .tc .vmem S3x5x64x1024 .bf16).view.readAt (Elt F) _ fq13 = vq13
  have hvq13 : shapeCast S64x1024 vq13 shapeCasts_S1x1x64x1024_S64x1024 = sent (inp m) 2 3 (pr 3 c) := by rw [← hV13]; exact hv13
  rw [hvq13, show addWire (acc (inp m) 2 3 c) (sent (inp m) 2 3 (pr 3 c)) = acc (inp m) 2 4 c from rfl]
  -- round 14: layer 2, stage 4
  iapply (wp_load 𝒱₀ (c : Thread nD τ) none Set.univ (m := sendM)
      (S := (sendM : Memref sig .tc .vmem S64x1024 .bf16).view.set) (View.setOn_subset_set _ _)) $$ Hsend
  iintro Hsend
  iapply (wp_store 𝒱₀ (c : Thread nD τ) none Set.univ (m := sendM) (r := MemLemmas.r0) (Mk := Finset.univ)
      (S := (sendM : Memref sig .tc .vmem S64x1024 .bf16).view.set)
      (by rw [MemLemmas.sendM_set]; exact Finset.subset_univ _)) $$ Hsend
  iintro Hsend
  rw [MemLemmas.sendM_store]
  iapply (BodyRoundOps.rsend m c _ (14 : Fin 15) 15 rfl 2 4 h2_3 h4_5 rfl rfl (Mesh.dev20_eq c) Cells.sdS_eq (Cells.rvS_eq 2 4 h2_3 h4_5 inb_S3x5_S1x1_2_4) rfl (toWire (acc (inp m) 2 4 c)) rfl W) $$ [Hsend Hp24 HO Hts14 Htr14]
  · isplitr; · iexact HI7
    isplitr; · iexact HIr14
    isplitr; · iexact HrS14
    isplitr; · iexact Hrr14
    isplitl [Hsend]; · iexact Hsend
    isplitl [Hp24]; · iexact Hp24
    isplitl [HO]; · iexact HO
    isplitl [Hts14]; · iexact Hts14
    iexact Htr14
  iintro ⟨HcS, HO⟩
  iapply (BodyRoundOps.rwaitS m c c (14 : Fin 15) 15 rfl 2 4 h2_3 h4_5 rfl rfl Cells.sdS_eq W) $$ [HcS HO Hat7]
  · isplitr; · iexact HI7
    isplitr; · iexact Hlev
    isplitl [HcS]; · iexact HcS
    isplitl [HO]; · iexact HO
    iexact Hat7
  iintro ⟨Hsend, ⟨%W, HO⟩, Hat7, #HrS15⟩
  iapply (BodyRoundOps.rwaitV m c c (14 : Fin 15) 15 rfl 2 4 h2_3 h4_5 rfl rfl (Cells.rvS_eq 2 4 h2_3 h4_5 inb_S3x5_S1x1_2_4) W) $$ [Hcr14 HO Hat22]
  · isplitr; · iexact HI22
    isplitr; · iexact Hlev
    isplitl [Hcr14]; · iexact Hcr14
    isplitl [HO]; · iexact HO
    iexact Hat22
  iintro ⟨⟨%fq14, Hq24, %hv14⟩, ⟨%W, HO⟩, Hat22⟩
  iapply (BodyRoundOps.rload c 2 4 h2_3 h4_5 rfl fq14) $$ Hq24
  iintro Hq24
  generalize hV14 : (recvM : Memref sig .tc .vmem S3x5x64x1024 .bf16).view.readAt (Elt F) _ fq14 = vq14
  have hvq14 : shapeCast S64x1024 vq14 shapeCasts_S1x1x64x1024_S64x1024 = sent (inp m) 2 4 (pr 4 c) := by rw [← hV14]; exact hv14
  rw [hvq14, show addWire (acc (inp m) 2 4 c) (sent (inp m) 2 4 (pr 4 c)) = acc (inp m) 2 5 c from rfl]
  -- the device owes nothing more
  ihave HO := (Entails.of_eq (congrArg (fun O => owes (c : Thread nD τ) O W) (Ghost.oweFrom_done c))) $$ HO
  -- the own cells close: their counters at zero are the device's again
  imod (Rounds.cell_close ER (Rd m) (g := cpCell c 0 0 h0_3 Nat.zero_lt_two) (Set.mem_univ (K (c, 1))) (fun h => h) (R := 1) (fun r hr => Tables.duties_cp_later m c 0 0 h0_3 Nat.zero_lt_two r hr)) $$ [Hat1] with Hz1
  · isplitr; · iexact HI1
    iexact Hat1
  imod (Rounds.cell_close ER (Rd m) (g := cpCell c 0 1 h0_3 Nat.one_lt_two) (Set.mem_univ (K (c, 2))) (fun h => h) (R := 1) (fun r hr => Tables.duties_cp_later m c 0 1 h0_3 Nat.one_lt_two r hr)) $$ [Hat2] with Hz2
  · isplitr; · iexact HI2
    iexact Hat2
  imod (Rounds.cell_close ER (Rd m) (g := cpCell c 1 0 h1_3 Nat.zero_lt_two) (Set.mem_univ (K (c, 3))) (fun h => h) (R := 1) (fun r hr => Tables.duties_cp_later m c 1 0 h1_3 Nat.zero_lt_two r hr)) $$ [Hat3] with Hz3
  · isplitr; · iexact HI3
    iexact Hat3
  imod (Rounds.cell_close ER (Rd m) (g := cpCell c 1 1 h1_3 Nat.one_lt_two) (Set.mem_univ (K (c, 4))) (fun h => h) (R := 1) (fun r hr => Tables.duties_cp_later m c 1 1 h1_3 Nat.one_lt_two r hr)) $$ [Hat4] with Hz4
  · isplitr; · iexact HI4
    iexact Hat4
  imod (Rounds.cell_close ER (Rd m) (g := cpCell c 2 0 h2_3 Nat.zero_lt_two) (Set.mem_univ (K (c, 5))) (fun h => h) (R := 1) (fun r hr => Tables.duties_cp_later m c 2 0 h2_3 Nat.zero_lt_two r hr)) $$ [Hat5] with Hz5
  · isplitr; · iexact HI5
    iexact Hat5
  imod (Rounds.cell_close ER (Rd m) (g := cpCell c 2 1 h2_3 Nat.one_lt_two) (Set.mem_univ (K (c, 6))) (fun h => h) (R := 1) (fun r hr => Tables.duties_cp_later m c 2 1 h2_3 Nat.one_lt_two r hr)) $$ [Hat6] with Hz6
  · isplitr; · iexact HI6
    iexact Hat6
  imod (Rounds.cell_close ER (Rd m) (g := sdCell c) (Set.mem_univ (K (c, 7))) (fun h => h) (R := 15) (fun r hr => Tables.duties_sd_later m c r hr)) $$ [Hat7] with Hz7
  · isplitr; · iexact HI7
    iexact Hat7
  imod (Rounds.cell_close ER (Rd m) (g := rvCell c 0 0 h0_3 h0_5) (Set.mem_univ (K (c, 8))) (fun h => h) (R := 1) (fun r hr => Tables.duties_rv_later m c 0 0 h0_3 h0_5 r hr)) $$ [Hat8] with Hz8
  · isplitr; · iexact HI8
    iexact Hat8
  imod (Rounds.cell_close ER (Rd m) (g := rvCell c 0 1 h0_3 h1_5) (Set.mem_univ (K (c, 9))) (fun h => h) (R := 1) (fun r hr => Tables.duties_rv_later m c 0 1 h0_3 h1_5 r hr)) $$ [Hat9] with Hz9
  · isplitr; · iexact HI9
    iexact Hat9
  imod (Rounds.cell_close ER (Rd m) (g := rvCell c 0 2 h0_3 h2_5) (Set.mem_univ (K (c, 10))) (fun h => h) (R := 1) (fun r hr => Tables.duties_rv_later m c 0 2 h0_3 h2_5 r hr)) $$ [Hat10] with Hz10
  · isplitr; · iexact HI10
    iexact Hat10
  imod (Rounds.cell_close ER (Rd m) (g := rvCell c 0 3 h0_3 h3_5) (Set.mem_univ (K (c, 11))) (fun h => h) (R := 1) (fun r hr => Tables.duties_rv_later m c 0 3 h0_3 h3_5 r hr)) $$ [Hat11] with Hz11
  · isplitr; · iexact HI11
    iexact Hat11
  imod (Rounds.cell_close ER (Rd m) (g := rvCell c 0 4 h0_3 h4_5) (Set.mem_univ (K (c, 12))) (fun h => h) (R := 1) (fun r hr => Tables.duties_rv_later m c 0 4 h0_3 h4_5 r hr)) $$ [Hat12] with Hz12
  · isplitr; · iexact HI12
    iexact Hat12
  imod (Rounds.cell_close ER (Rd m) (g := rvCell c 1 0 h1_3 h0_5) (Set.mem_univ (K (c, 13))) (fun h => h) (R := 1) (fun r hr => Tables.duties_rv_later m c 1 0 h1_3 h0_5 r hr)) $$ [Hat13] with Hz13
  · isplitr; · iexact HI13
    iexact Hat13
  imod (Rounds.cell_close ER (Rd m) (g := rvCell c 1 1 h1_3 h1_5) (Set.mem_univ (K (c, 14))) (fun h => h) (R := 1) (fun r hr => Tables.duties_rv_later m c 1 1 h1_3 h1_5 r hr)) $$ [Hat14] with Hz14
  · isplitr; · iexact HI14
    iexact Hat14
  imod (Rounds.cell_close ER (Rd m) (g := rvCell c 1 2 h1_3 h2_5) (Set.mem_univ (K (c, 15))) (fun h => h) (R := 1) (fun r hr => Tables.duties_rv_later m c 1 2 h1_3 h2_5 r hr)) $$ [Hat15] with Hz15
  · isplitr; · iexact HI15
    iexact Hat15
  imod (Rounds.cell_close ER (Rd m) (g := rvCell c 1 3 h1_3 h3_5) (Set.mem_univ (K (c, 16))) (fun h => h) (R := 1) (fun r hr => Tables.duties_rv_later m c 1 3 h1_3 h3_5 r hr)) $$ [Hat16] with Hz16
  · isplitr; · iexact HI16
    iexact Hat16
  imod (Rounds.cell_close ER (Rd m) (g := rvCell c 1 4 h1_3 h4_5) (Set.mem_univ (K (c, 17))) (fun h => h) (R := 1) (fun r hr => Tables.duties_rv_later m c 1 4 h1_3 h4_5 r hr)) $$ [Hat17] with Hz17
  · isplitr; · iexact HI17
    iexact Hat17
  imod (Rounds.cell_close ER (Rd m) (g := rvCell c 2 0 h2_3 h0_5) (Set.mem_univ (K (c, 18))) (fun h => h) (R := 1) (fun r hr => Tables.duties_rv_later m c 2 0 h2_3 h0_5 r hr)) $$ [Hat18] with Hz18
  · isplitr; · iexact HI18
    iexact Hat18
  imod (Rounds.cell_close ER (Rd m) (g := rvCell c 2 1 h2_3 h1_5) (Set.mem_univ (K (c, 19))) (fun h => h) (R := 1) (fun r hr => Tables.duties_rv_later m c 2 1 h2_3 h1_5 r hr)) $$ [Hat19] with Hz19
  · isplitr; · iexact HI19
    iexact Hat19
  imod (Rounds.cell_close ER (Rd m) (g := rvCell c 2 2 h2_3 h2_5) (Set.mem_univ (K (c, 20))) (fun h => h) (R := 1) (fun r hr => Tables.duties_rv_later m c 2 2 h2_3 h2_5 r hr)) $$ [Hat20] with Hz20
  · isplitr; · iexact HI20
    iexact Hat20
  imod (Rounds.cell_close ER (Rd m) (g := rvCell c 2 3 h2_3 h3_5) (Set.mem_univ (K (c, 21))) (fun h => h) (R := 1) (fun r hr => Tables.duties_rv_later m c 2 3 h2_3 h3_5 r hr)) $$ [Hat21] with Hz21
  · isplitr; · iexact HI21
    iexact Hat21
  imod (Rounds.cell_close ER (Rd m) (g := rvCell c 2 4 h2_3 h4_5) (Set.mem_univ (K (c, 22))) (fun h => h) (R := 1) (fun r hr => Tables.duties_rv_later m c 2 4 h2_3 h4_5 r hr)) $$ [Hat22] with Hz22
  · isplitr; · iexact HI22
    iexact Hat22
  -- the result stored
  iapply (wp_load 𝒱₀ (c : Thread nD τ) none Set.univ (m := oM) (Finset.subset_univ _)) $$ Hout; iintro Hout
  iapply (wp_store 𝒱₀ (c : Thread nD τ) none Set.univ (m := oM) (r := MemLemmas.r0) (Mk := Finset.univ) (Finset.subset_univ _)) $$ Hout; iintro Hout
  rw [MemLemmas.oM_store, wp_ret]; imodintro
  iapply Hk
  unfold bodyPost Φ₁ Dat.owesAt Pipeline.owesWithin scratch hbmArgs
  rw [show (dats m ρ 0 c).owed t₀.succ = 0 from rfl]
  simp only [bigSep22]
  isplitl [Hw1v2 Hw1v1 Hw2v2 Hw2v1 Hsend Hq00 Hq01 Hq02 Hq03 Hq04 Hq10 Hq11 Hq12 Hq13 Hq14 Hq20 Hq21 Hq22 Hq23 Hq24 Hz1 Hz2 Hz3 Hz4 Hz5 Hz6 Hz7 Hz8 Hz9 Hz10 Hz11 Hz12 Hz13 Hz14 Hz15 Hz16 Hz17 Hz18 Hz19 Hz20 Hz21 Hz22 Hha0 Hhb0 Hha1 Hhb1 Hha2 Hhb2]
  · isplitl [Hw1v2 Hw1v1 Hw2v2 Hw2v1 Hsend Hq00 Hq01 Hq02 Hq03 Hq04 Hq10 Hq11 Hq12 Hq13 Hq14 Hq20 Hq21 Hq22 Hq23 Hq24]
    · isplitl [Hw1v2 Hw1v1]
      · iapply (MemLemmas.win_join_ex c)
        isplitl [Hw1v2]; · iexists _; iexact Hw1v2
        iexists _; iexact Hw1v1
      isplitl [Hw2v2 Hw2v1]
      · iapply (MemLemmas.wout_join_ex c)
        isplitl [Hw2v2]; · iexists _; iexact Hw2v2
        iexists _; iexact Hw2v1
      isplitl [Hsend]
      · iexists _
        ihave Hs := (Entails.of_eq (sendPts_eq c _)) $$ Hsend
        iexact Hs
      iapply (MemLemmas.recv_join_ex_chain c fr)
      isplitl [Hq00]; · iexists _; iexact Hq00
      isplitl [Hq01]; · iexists _; iexact Hq01
      isplitl [Hq02]; · iexists _; iexact Hq02
      isplitl [Hq03]; · iexists _; iexact Hq03
      isplitl [Hq04]; · iexists _; iexact Hq04
      isplitl [Hq10]; · iexists _; iexact Hq10
      isplitl [Hq11]; · iexists _; iexact Hq11
      isplitl [Hq12]; · iexists _; iexact Hq12
      isplitl [Hq13]; · iexists _; iexact Hq13
      isplitl [Hq14]; · iexists _; iexact Hq14
      isplitl [Hq20]; · iexists _; iexact Hq20
      isplitl [Hq21]; · iexists _; iexact Hq21
      isplitl [Hq22]; · iexists _; iexact Hq22
      isplitl [Hq23]; · iexists _; iexact Hq23
      iexists _; iexact Hq24
    isplitl [Hz1 Hz2 Hz3 Hz4 Hz5 Hz6 Hz7 Hz8 Hz9 Hz10 Hz11 Hz12 Hz13 Hz14 Hz15 Hz16 Hz17 Hz18 Hz19 Hz20 Hz21 Hz22]
    · isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      isplitl [Hz9]; · iexact Hz9
      isplitl [Hz10]; · iexact Hz10
      isplitl [Hz11]; · iexact Hz11
      isplitl [Hz12]; · iexact Hz12
      isplitl [Hz13]; · iexact Hz13
      isplitl [Hz14]; · iexact Hz14
      isplitl [Hz15]; · iexact Hz15
      isplitl [Hz16]; · iexact Hz16
      isplitl [Hz17]; · iexact Hz17
      isplitl [Hz18]; · iexact Hz18
      isplitl [Hz19]; · iexact Hz19
      isplitl [Hz20]; · iexact Hz20
      isplitl [Hz21]; · iexact Hz21
      iexact Hz22
    · isplitl [Hha0]; · iexact Hha0
      isplitl [Hhb0]; · iexact Hhb0
      isplitl [Hha1]; · iexact Hha1
      isplitl [Hhb1]; · iexact Hhb1
      isplitl [Hha2]; · iexact Hha2
      iexact Hhb2
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

#print axioms sound_body

end Cert.Kernel.Body

end
-- ==== Proof.Bits.Body.lean ====
import proofs.«900580_g7700000000000581_dist_mlpseq_tp1d_rep_rep_b64_d1024_h2048_v7x_i32_f32_1_alg».proof.Proof.Bits.BodySound

/-!
# The body obligation

The library's obligation for one thread's kernel body at its one point, from the body's own statement: the
obligation's precondition is named, opened at the names of the cells' invariants, and handed to the body piece by
piece; the body's postcondition is the obligation's.
-/

noncomputable section

namespace Cert.Kernel.Body

open Cert.Kernel Cert.Kernel.Gen Cert.Kernel.Mesh Cert.Kernel.Spec Cert.Kernel.Cells Cert.Kernel.Schedule Cert.Kernel.Ghost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536 in
/-- What the body obligation hands a thread at its one point. -/
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in
/-- The library's body obligation on device c. -/
theorem body_obligation (c : Dev nD) : BodyObligation (Ghost.dats (F := F) m ρ 0 c) (defs₀ (F := F)) Ghost.𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6) (fun _ => bodyPost m ρ c)
  unfold bodyPre' Φ₀ start
  iintro ⟨⟨⟨⟨%K, Hg⟩, Hc, Hl, Hh⟩, Hscr⟩, Ho, Hx, Hout⟩
  iapply (sound_body m ρ K c fun _ => bodyPost m ρ c)
  unfold bodyPre
  isplitr []
  · isplitl [Hg Hc Hl Hh Hscr]
    · isplitl [Hg]; · iexact Hg
      isplitl [Hc]; · iexact Hc
      isplitl [Hl]; · iexact Hl
      isplitl [Hh]; · iexact Hh
      iexact Hscr
    isplitl [Ho]; · iexact Ho
    isplitl [Hx]; · iexact Hx
    iexact Hout
  · iintro H; iexact H

#print axioms body_obligation

end Cert.Kernel.Body

end
-- ==== Proof.lean ====
import proofs.«900580_g7700000000000581_dist_mlpseq_tp1d_rep_rep_b64_d1024_h2048_v7x_i32_f32_1_alg».proof.Defs
import proofs.«900580_g7700000000000581_dist_mlpseq_tp1d_rep_rep_b64_d1024_h2048_v7x_i32_f32_1_alg».proof.Proof.Gen.Kernel
import proofs.«900580_g7700000000000581_dist_mlpseq_tp1d_rep_rep_b64_d1024_h2048_v7x_i32_f32_1_alg».proof.Proof.Gen.KernelIdeal
import proofs.«900580_g7700000000000581_dist_mlpseq_tp1d_rep_rep_b64_d1024_h2048_v7x_i32_f32_1_alg».proof.Proof.Gen.ReferenceIdeal
import proofs.«900580_g7700000000000581_dist_mlpseq_tp1d_rep_rep_b64_d1024_h2048_v7x_i32_f32_1_alg».proof.Proof.Gen.Pre_finite_inputs_Kernel
import proofs.«900580_g7700000000000581_dist_mlpseq_tp1d_rep_rep_b64_d1024_h2048_v7x_i32_f32_1_alg».proof.Proof.Gen.Pre_finite_inputs_ReferenceIdeal
import proofs.«900580_g7700000000000581_dist_mlpseq_tp1d_rep_rep_b64_d1024_h2048_v7x_i32_f32_1_alg».proof.Proof.Assembly
import proofs.«900580_g7700000000000581_dist_mlpseq_tp1d_rep_rep_b64_d1024_h2048_v7x_i32_f32_1_alg».proof.Proof.AssemblyBits
import proofs.«900580_g7700000000000581_dist_mlpseq_tp1d_rep_rep_b64_d1024_h2048_v7x_i32_f32_1_alg».proof.Proof.Body
import proofs.«900580_g7700000000000581_dist_mlpseq_tp1d_rep_rep_b64_d1024_h2048_v7x_i32_f32_1_alg».proof.Proof.Bits.Body
import Idealize.ShloMosaic.Adequacy
import Idealize.ShloMosaic.Init

/-!
# A three-layer MLP, tensor-parallel over 32 devices, against the whole-array reference

Each device holds the activations and, per layer, 2048 columns of the first weight and 2048 rows of the second; it
computes its partial sum `relu (a · W₁) · W₂` of the layer, and the 32 partial sums are added by five pairwise
exchanges across the five independent masks of the device numbers, every device ending with the full sum, which is
the next layer's input.  On the wire a running sum is rounded to a narrower format and widened again; over the
extended reals both are the identity, so after five stages every device holds the sum over all 32 devices, in some
order of addition, and addition of extended reals is commutative and associative.  The 32 blocks of 2048 split the
reference's contraction over 65536 block by block, so the sum of the partial sums is the reference's layer.

The five claims: the word-level kernel and the idealized kernel each run to the end on every fair interleaving of
the 32 threads, fault nowhere and leave their arguments as they were (one launch argument, at two float
instances: a device waits only on cells of lower level than every cell it still owes, entry cells below receive
cells, receive cells in the order of the rounds); the reference runs (its straight-line run); the idealization
rewrote nothing; and the idealized kernel's result on every device is the reference's result.
-/

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Cert.Proof.AssemblyBits.frame_of_body (fun m ρ c => Cert.Kernel.Body.body_obligation m ρ c),
    Cert.Proof.Assembly.frame_of_body (fun m ρ c => Cert.KernelIdeal.Body.body_obligation m ρ c),
    Cert.Proof.RefSide.frame_ri,
    trivial,
    Cert.Proof.Assembly.algebraic_of_body (fun m ρ c => Cert.KernelIdeal.Body.body_obligation m ρ c)⟩

end Cert.Proof

end
